-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x16 : Shape := ⟨2, ![500000, 16]⟩
abbrev S128x128 : Shape := ⟨2, ![128, 128]⟩
abbrev S128 : Shape := ⟨1, ![128]⟩
abbrev S16x128 : Shape := ⟨2, ![16, 128]⟩
abbrev S2x128x128 : Shape := ⟨3, ![2, 128, 128]⟩
abbrev S2x128 : Shape := ⟨2, ![2, 128]⟩
abbrev S2x384x128 : Shape := ⟨3, ![2, 384, 128]⟩
abbrev S384x50 : Shape := ⟨2, ![384, 50]⟩
abbrev S50 : Shape := ⟨1, ![50]⟩
abbrev S50x25 : Shape := ⟨2, ![50, 25]⟩
abbrev S25 : Shape := ⟨1, ![25]⟩
abbrev S25x2 : Shape := ⟨2, ![25, 2]⟩
abbrev S2 : Shape := ⟨1, ![2]⟩
abbrev S2x500000 : Shape := ⟨2, ![2, 500000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x16 : S_.BroadcastsInDim S500000x16 (![] : Fin 0 → Fin S500000x16.rank)
  reducesTo_S500000x16_S_d0_1 : S500000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S2x384x128 : S_.BroadcastsInDim S2x384x128 (![] : Fin 0 → Fin S2x384x128.rank)
  reducesTo_S2x384x128_S_d0_1_2 : S2x384x128.ReducesTo [0, 1, 2] S_
  bcast_S_S384x50 : S_.BroadcastsInDim S384x50 (![] : Fin 0 → Fin S384x50.rank)
  reducesTo_S384x50_S_d0_1 : S384x50.ReducesTo [0, 1] S_
  bcast_S_S50 : S_.BroadcastsInDim S50 (![] : Fin 0 → Fin S50.rank)
  reducesTo_S50_S_d0 : S50.ReducesTo [0] S_
  bcast_S_S50x25 : S_.BroadcastsInDim S50x25 (![] : Fin 0 → Fin S50x25.rank)
  reducesTo_S50x25_S_d0_1 : S50x25.ReducesTo [0, 1] S_
  bcast_S_S25 : S_.BroadcastsInDim S25 (![] : Fin 0 → Fin S25.rank)
  reducesTo_S25_S_d0 : S25.ReducesTo [0] S_
  bcast_S_S25x2 : S_.BroadcastsInDim S25x2 (![] : Fin 0 → Fin S25x2.rank)
  reducesTo_S25x2_S_d0_1 : S25x2.ReducesTo [0, 1] S_
  bcast_S_S2 : S_.BroadcastsInDim S2 (![] : Fin 0 → Fin S2.rank)
  reducesTo_S2_S_d0 : S2.ReducesTo [0] S_
  bcast_S_S2x500000 : S_.BroadcastsInDim S2x500000 (![] : Fin 0 → Fin S2x500000.rank)
  reducesTo_S2x500000_S_d0_1 : S2x500000.ReducesTo [0, 1] S_

variable [Facts]

def fn_part6 {F : FTy → Type} [FloatOps F] (main_arg21 : FVec F S2 .f32) (main_arg22 : IVec S2x500000 32) (main_v98 : IVec S_ 1) (main_v101 : IVec S25x2 1) (main_c_39 : IVec S_ 1) : IVec S_ 1 :=
  let main_v102 : IVec S_ 1 := (fun x v => Host.reduce IntOp.andi x v reducesTo_S25x2_S_d0_1 h_S_) main_v101 main_c_39
  let main_v103 : IVec S_ 1 := andi main_v98 main_v102
  let main_v104 : FVec F S2 .f32 := Host.absf main_arg21
  let main_cst_40 : FVec F S_ .f32 := constant S_ .f32 0x7F800000#32
  let main_v105 : FVec F S2 .f32 := broadcastInDim S2 ![] bcast_S_S2 main_cst_40
  let main_v106 : IVec S2 1 := cmpf .olt main_v104 main_v105
  let main_c_41 : IVec S_ 1 := constantI S_ 1 1#1
  let main_v107 : IVec S_ 1 := (fun x v => Host.reduce IntOp.andi x v reducesTo_S2_S_d0 h_S_) main_v106 main_c_41
  let main_v108 : IVec S_ 1 := andi main_v103 main_v107
  let main_c_42 : IVec S_ 32 := constantI S_ 32 4294917296#32
  let main_v109 : IVec S2x500000 32 := broadcastInDim S2x500000 ![] bcast_S_S2x500000 main_c_42
  let main_v110 : IVec S2x500000 1 := cmpi .sge main_arg22 main_v109
  let main_c_43 : IVec S_ 1 := constantI S_ 1 1#1
  let main_v111 : IVec S_ 1 := (fun x v => Host.reduce IntOp.andi x v reducesTo_S2x500000_S_d0_1 h_S_) main_v110 main_c_43
  let main_v112 : IVec S_ 1 := andi main_v108 main_v111
  let main_c_44 : IVec S_ 32 := constantI S_ 32 50000#32
  let main_v113 : IVec S2x500000 32 := broadcastInDim S2x500000 ![] bcast_S_S2x500000 main_c_44
  let main_v114 : IVec S2x500000 1 := cmpi .slt main_arg22 main_v113
  let main_c_45 : IVec S_ 1 := constantI S_ 1 1#1
  let main_v115 : IVec S_ 1 := (fun x v => Host.reduce IntOp.andi x v reducesTo_S2x500000_S_d0_1 h_S_) main_v114 main_c_45
  let main_v116 : IVec S_ 1 := andi main_v112 main_v115
  main_v116

def fn_part5 {F : FTy → Type} [FloatOps F] (main_arg18 : FVec F S50x25 .f32) (main_arg19 : FVec F S25 .f32) (main_arg20 : FVec F S25x2 .f32) (main_arg21 : FVec F S2 .f32) (main_arg22 : IVec S2x500000 32) (main_v83 : IVec S_ 1) (main_v84 : FVec F S50 .f32) (main_cst_32 : FVec F S_ .f32) : IVec S_ 1 :=
  let main_v85 : FVec F S50 .f32 := broadcastInDim S50 ![] bcast_S_S50 main_cst_32
  let main_v86 : IVec S50 1 := cmpf .olt main_v84 main_v85
  let main_c_33 : IVec S_ 1 := constantI S_ 1 1#1
  let main_v87 : IVec S_ 1 := (fun x v => Host.reduce IntOp.andi x v reducesTo_S50_S_d0 h_S_) main_v86 main_c_33
  let main_v88 : IVec S_ 1 := andi main_v83 main_v87
  let main_v89 : FVec F S50x25 .f32 := Host.absf main_arg18
  let main_cst_34 : FVec F S_ .f32 := constant S_ .f32 0x7F800000#32
  let main_v90 : FVec F S50x25 .f32 := broadcastInDim S50x25 ![] bcast_S_S50x25 main_cst_34
  let main_v91 : IVec S50x25 1 := cmpf .olt main_v89 main_v90
  let main_c_35 : IVec S_ 1 := constantI S_ 1 1#1
  let main_v92 : IVec S_ 1 := (fun x v => Host.reduce IntOp.andi x v reducesTo_S50x25_S_d0_1 h_S_) main_v91 main_c_35
  let main_v93 : IVec S_ 1 := andi main_v88 main_v92
  let main_v94 : FVec F S25 .f32 := Host.absf main_arg19
  let main_cst_36 : FVec F S_ .f32 := constant S_ .f32 0x7F800000#32
  let main_v95 : FVec F S25 .f32 := broadcastInDim S25 ![] bcast_S_S25 main_cst_36
  let main_v96 : IVec S25 1 := cmpf .olt main_v94 main_v95
  let main_c_37 : IVec S_ 1 := constantI S_ 1 1#1
  let main_v97 : IVec S_ 1 := (fun x v => Host.reduce IntOp.andi x v reducesTo_S25_S_d0 h_S_) main_v96 main_c_37
  let main_v98 : IVec S_ 1 := andi main_v93 main_v97
  let main_v99 : FVec F S25x2 .f32 := Host.absf main_arg20
  let main_cst_38 : FVec F S_ .f32 := constant S_ .f32 0x7F800000#32
  let main_v100 : FVec F S25x2 .f32 := broadcastInDim S25x2 ![] bcast_S_S25x2 main_cst_38
  let main_v101 : IVec S25x2 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S2x128x128 .f32) (main_arg15 : FVec F S2x128 .f32) (main_arg16 : FVec F S384x50 .f32) (main_arg17 : FVec F S50 .f32) (main_arg18 : FVec F S50x25 .f32) (main_arg19 : FVec F S25 .f32) (main_arg20 : FVec F S25x2 .f32) (main_arg21 : FVec F S2 .f32) (main_arg22 : IVec S2x500000 32) (main_v63 : IVec S_ 1) (main_v67 : IVec S_ 1) : IVec S_ 1 :=
  let main_v68 : IVec S_ 1 := andi main_v63 main_v67
  let main_v69 : FVec F S2x128x128 .f32 := Host.absf main_arg14
  let main_cst_26 : FVec F S_ .f32 := constant S_ .f32 0x7F800000#32
  let main_v70 : FVec F S2x128x128 .f32 := broadcastInDim S2x128x128 ![] bcast_S_S2x128x128 main_cst_26
  let main_v71 : IVec S2x128x128 1 := cmpf .olt main_v69 main_v70
  let main_c_27 : IVec S_ 1 := constantI S_ 1 1#1
  let main_v72 : IVec S_ 1 := (fun x v => Host.reduce IntOp.andi x v reducesTo_S2x128x128_S_d0_1_2 h_S_) main_v71 main_c_27
  let main_v73 : IVec S_ 1 := andi main_v68 main_v72
  let main_v74 : FVec F S2x128 .f32 := Host.absf main_arg15
  let main_cst_28 : FVec F S_ .f32 := constant S_ .f32 0x7F800000#32
  let main_v75 : FVec F S2x128 .f32 := broadcastInDim S2x128 ![] bcast_S_S2x128 main_cst_28
  let main_v76 : IVec S2x128 1 := cmpf .olt main_v74 main_v75
  let main_c_29 : IVec S_ 1 := constantI S_ 1 1#1
  let main_v77 : IVec S_ 1 := (fun x v => Host.reduce IntOp.andi x v reducesTo_S2x128_S_d0_1 h_S_) main_v76 main_c_29
  let main_v78 : IVec S_ 1 := andi main_v73 main_v77
  let main_v79 : FVec F S384x50 .f32 := Host.absf main_arg16
  let main_cst_30 : FVec F S_ .f32 := constant S_ .f32 0x7F800000#32
  let main_v80 : FVec F S384x50 .f32 := broadcastInDim S384x50 ![] bcast_S_S384x50 main_cst_30
  let main_v81 : IVec S384x50 1 := cmpf .olt main_v79 main_v80
  let main_c_31 : IVec S_ 1 := constantI S_ 1 1#1
  let main_v82 : IVec S_ 1 := (fun x v => Host.reduce IntOp.andi x v reducesTo_S384x50_S_d0_1 h_S_) main_v81 main_c_31
  let main_v83 : IVec S_ 1 := andi main_v78 main_v82
  let main_v84 : FVec F S50 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S2x128 .f32) (main_arg12 : FVec F S2x384x128 .f32) (main_arg13 : FVec F S2x128 .f32) (main_arg14 : FVec F S2x128x128 .f32) (main_arg15 : FVec F S2x128 .f32) (main_arg16 : FVec F S384x50 .f32) (main_arg17 : FVec F S50 .f32) (main_arg18 : FVec F S50x25 .f32) (main_arg19 : FVec F S25 .f32) (main_arg20 : FVec F S25x2 .f32) (main_arg21 : FVec F S2 .f32) (main_arg22 : IVec S2x500000 32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128 .f32 := Host.absf main_arg11
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x384x128 .f32 := Host.absf main_arg12
  let main_cst_22 : FVec F S_ .f32 := constant S_ .f32 0x7F800000#32
  let main_v60 : FVec F S2x384x128 .f32 := broadcastInDim S2x384x128 ![] bcast_S_S2x384x128 main_cst_22
  let main_v61 : IVec S2x384x128 1 := cmpf .olt main_v59 main_v60
  let main_c_23 : IVec S_ 1 := constantI S_ 1 1#1
  let main_v62 : IVec S_ 1 := (fun x v => Host.reduce IntOp.andi x v reducesTo_S2x384x128_S_d0_1_2 h_S_) main_v61 main_c_23
  let main_v63 : IVec S_ 1 := andi main_v58 main_v62
  let main_v64 : FVec F S2x128 .f32 := Host.absf main_arg13
  let main_cst_24 : FVec F S_ .f32 := constant S_ .f32 0x7F800000#32
  let main_v65 : FVec F S2x128 .f32 := broadcastInDim S2x128 ![] bcast_S_S2x128 main_cst_24
  let main_v66 : IVec S2x128 1 := cmpf .olt main_v64 main_v65
  let main_c_25 : IVec S_ 1 := constantI S_ 1 1#1
  let main_v67 : IVec S_ 1 := (fun x v => Host.reduce IntOp.andi x v reducesTo_S2x128_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S2x128 .f32) (main_arg8 : FVec F S2x128x128 .f32) (main_arg9 : FVec F S2x128 .f32) (main_arg10 : FVec F S2x128 .f32) (main_arg11 : FVec F S2x128 .f32) (main_arg12 : FVec F S2x384x128 .f32) (main_arg13 : FVec F S2x128 .f32) (main_arg14 : FVec F S2x128x128 .f32) (main_arg15 : FVec F S2x128 .f32) (main_arg16 : FVec F S384x50 .f32) (main_arg17 : FVec F S50 .f32) (main_arg18 : FVec F S50x25 .f32) (main_arg19 : FVec F S25 .f32) (main_arg20 : FVec F S25x2 .f32) (main_arg21 : FVec F S2 .f32) (main_arg22 : IVec S2x500000 32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128x128 .f32 := Host.absf main_arg8
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg9
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg10
  let main_cst_18 : FVec F S_ .f32 := constant S_ .f32 0x7F800000#32
  let main_v50 : FVec F S2x128 .f32 := broadcastInDim S2x128 ![] bcast_S_S2x128 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S16x128 .f32) (main_arg5 : FVec F S128 .f32) (main_arg6 : FVec F S2x128x128 .f32) (main_arg7 : FVec F S2x128 .f32) (main_arg8 : FVec F S2x128x128 .f32) (main_arg9 : FVec F S2x128 .f32) (main_arg10 : FVec F S2x128 .f32) (main_arg11 : FVec F S2x128 .f32) (main_arg12 : FVec F S2x384x128 .f32) (main_arg13 : FVec F S2x128 .f32) (main_arg14 : FVec F S2x128x128 .f32) (main_arg15 : FVec F S2x128 .f32) (main_arg16 : FVec F S384x50 .f32) (main_arg17 : FVec F S50 .f32) (main_arg18 : FVec F S50x25 .f32) (main_arg19 : FVec F S25 .f32) (main_arg20 : FVec F S25x2 .f32) (main_arg21 : FVec F S2 .f32) (main_arg22 : IVec S2x500000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16x128 .f32 := Host.absf main_arg4
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x128x128 .f32 := Host.absf main_arg6
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : FVec F S500000x16 .f32) (main_arg2 : FVec F S128x128 .f32) (main_arg3 : FVec F S128 .f32) (main_arg4 : FVec F S16x128 .f32) (main_arg5 : FVec F S128 .f32) (main_arg6 : FVec F S2x128x128 .f32) (main_arg7 : FVec F S2x128 .f32) (main_arg8 : FVec F S2x128x128 .f32) (main_arg9 : FVec F S2x128 .f32) (main_arg10 : FVec F S2x128 .f32) (main_arg11 : FVec F S2x128 .f32) (main_arg12 : FVec F S2x384x128 .f32) (main_arg13 : FVec F S2x128 .f32) (main_arg14 : FVec F S2x128x128 .f32) (main_arg15 : FVec F S2x128 .f32) (main_arg16 : FVec F S384x50 .f32) (main_arg17 : FVec F S50 .f32) (main_arg18 : FVec F S50x25 .f32) (main_arg19 : FVec F S25 .f32) (main_arg20 : FVec F S25x2 .f32) (main_arg21 : FVec F S2 .f32) (main_arg22 : IVec S2x500000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x16 .f32 := Host.absf main_arg1
  let main_cst_0 : FVec F S_ .f32 := constant S_ .f32 0x7F800000#32
  let main_v5 : FVec F S500000x16 .f32 := broadcastInDim S500000x16 ![] bcast_S_S500000x16 main_cst_0
  let main_v6 : IVec S500000x16 1 := cmpf .olt main_v4 main_v5
  let main_c_1 : IVec S_ 1 := constantI S_ 1 1#1
  let main_v7 : IVec S_ 1 := (fun x v => Host.reduce IntOp.andi x v reducesTo_S500000x16_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S500000x16 : Shape := ⟨2, ![500000, 16]⟩
abbrev S128x128 : Shape := ⟨2, ![128, 128]⟩
abbrev S128 : Shape := ⟨1, ![128]⟩
abbrev S16x128 : Shape := ⟨2, ![16, 128]⟩
abbrev S2x128x128 : Shape := ⟨3, ![2, 128, 128]⟩
abbrev S2x128 : Shape := ⟨2, ![2, 128]⟩
abbrev S2x384x128 : Shape := ⟨3, ![2, 384, 128]⟩
abbrev S384x50 : Shape := ⟨2, ![384, 50]⟩
abbrev S50 : Shape := ⟨1, ![50]⟩
abbrev S50x25 : Shape := ⟨2, ![50, 25]⟩
abbrev S25 : Shape := ⟨1, ![25]⟩
abbrev S25x2 : Shape := ⟨2, ![25, 2]⟩
abbrev S2 : Shape := ⟨1, ![2]⟩
abbrev S2x500000 : Shape := ⟨2, ![2, 500000]⟩
abbrev S1x500000 : Shape := ⟨2, ![1, 500000]⟩
abbrev S500000 : Shape := ⟨1, ![500000]⟩
abbrev S1x128 : Shape := ⟨2, ![1, 128]⟩
abbrev S2000x128 : Shape := ⟨2, ![2000, 128]⟩
abbrev S500000x128 : Shape := ⟨2, ![500000, 128]⟩
abbrev S2000x16 : Shape := ⟨2, ![2000, 16]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S1x128x128 : Shape := ⟨3, ![1, 128, 128]⟩
abbrev S1x384x128 : Shape := ⟨3, ![1, 384, 128]⟩
abbrev S384x128 : Shape := ⟨2, ![384, 128]⟩
abbrev S128x50 : Shape := ⟨2, ![128, 50]⟩
abbrev S1x50 : Shape := ⟨2, ![1, 50]⟩
abbrev S1x25 : Shape := ⟨2, ![1, 25]⟩
abbrev S1x2 : Shape := ⟨2, ![1, 2]⟩
abbrev S500000x2 : Shape := ⟨2, ![500000, 2]⟩
abbrev S2000x2 : Shape := ⟨2, ![2000, 2]⟩
abbrev S2000x50 : Shape := ⟨2, ![2000, 50]⟩
abbrev S2000x25 : Shape := ⟨2, ![2000, 25]⟩

abbrev nBuf : Space → Nat
  | .hbm => 356
  | .vmem => 108
  | .smem => 0
  | _ => 0

abbrev hbmTy0_0 (i : Nat) : BufTy := match i % 128 with
  | 0 => ⟨S50000x128, .f32⟩
  | 1 => ⟨S500000x16, .f32⟩
  | 2 => ⟨S128x128, .f32⟩
  | 3 => ⟨S128, .f32⟩
  | 4 => ⟨S16x128, .f32⟩
  | 5 => ⟨S128, .f32⟩
  | 6 => ⟨S2x128x128, .f32⟩
  | 7 => ⟨S2x128, .f32⟩
  | 8 => ⟨S2x128x128, .f32⟩
  | 9 => ⟨S2x128, .f32⟩
  | 10 => ⟨S2x128, .f32⟩
  | 11 => ⟨S2x128, .f32⟩
  | 12 => ⟨S2x384x128, .f32⟩
  | 13 => ⟨S2x128, .f32⟩
  | 14 => ⟨S2x128x128, .f32⟩
  | 15 => ⟨S2x128, .f32⟩
  | 16 => ⟨S384x50, .f32⟩
  | 17 => ⟨S50, .f32⟩
  | 18 => ⟨S50x25, .f32⟩
  | 19 => ⟨S25, .f32⟩
  | 20 => ⟨S25x2, .f32⟩
  | 21 => ⟨S2, .f32⟩
  | 22 => ⟨S2x500000, .i32⟩
  | 23 => ⟨S1x500000, .i32⟩
  | 24 => ⟨S500000, .i32⟩
  | 25 => ⟨S1x500000, .i32⟩
  | 26 => ⟨S500000, .i32⟩
  | 27 => ⟨S1x128, .f32⟩
  | 28 => ⟨S50000x128, .f32⟩
  | 29 => ⟨S1x128, .f32⟩
  | 30 => ⟨S500000x128, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S1, .i32⟩
  | 40 => ⟨S_, .i32⟩
  | 41 => ⟨S500000x1, .i32⟩
  | 42 => ⟨S500000x1, .i1⟩
  | 43 => ⟨S1x1, .i32⟩
  | 44 => ⟨S500000x1, .i32⟩
  | 45 => ⟨S500000x1, .i1⟩
  | 46 => ⟨S500000x1, .i1⟩
  | 47 => ⟨S_, .i1⟩
  | 48 => ⟨S500000, .i1⟩
  | 49 => ⟨S500000x128, .f32⟩
  | 50 => ⟨S500000x128, .i1⟩
  | 51 => ⟨S_, .f32⟩
  | 52 => ⟨S500000x128, .f32⟩
  | 53 => ⟨S500000x128, .f32⟩
  | 54 => ⟨S500000x128, .f32⟩
  | 55 => ⟨S_, .f32⟩
  | 56 => ⟨S50000x128, .f32⟩
  | 57 => ⟨S500000x1, .i32⟩
  | 58 => ⟨S50000x128, .f32⟩
  | 59 => ⟨S1x128x128, .f32⟩
  | 60 => ⟨S128x128, .f32⟩
  | 61 => ⟨S1x128, .f32⟩
  | 62 => ⟨S128, .f32⟩
  | 63 => ⟨S1x128x128, .f32⟩
  | 64 => ⟨S128x128, .f32⟩
  | 65 => ⟨S1x128, .f32⟩
  | 66 => ⟨S128, .f32⟩
  | 67 => ⟨S1x128, .f32⟩
  | 68 => ⟨S1x128, .f32⟩
  | 69 => ⟨S50000x128, .f32⟩
  | 70 => ⟨S_, .f32⟩
  | 71 => ⟨S128, .f32⟩
  | 72 => ⟨S_, .f32⟩
  | 73 => ⟨S128, .f32⟩
  | 74 => ⟨S128, .f32⟩
  | 75 => ⟨S_, .i32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S50000x128, .f32⟩
  | 83 => ⟨S50000x128, .f32⟩
  | 84 => ⟨S50000x128, .f32⟩
  | 85 => ⟨S_, .f32⟩
  | 86 => ⟨S_, .f32⟩
  | 87 => ⟨S_, .f32⟩
  | 88 => ⟨S_, .f32⟩
  | 89 => ⟨S128, .f32⟩
  | 90 => ⟨S128, .f32⟩
  | 91 => ⟨S128, .f32⟩
  | 92 => ⟨S_, .f32⟩
  | 93 => ⟨S_, .i1⟩
  | 94 => ⟨S_, .f32⟩
  | 95 => ⟨S_, .f32⟩
  | 96 => ⟨S128, .f32⟩
  | 97 => ⟨S128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S1x128, .f32⟩
  | 104 => ⟨S1x128, .f32⟩
  | 105 => ⟨S1x128, .f32⟩
  | 106 => ⟨S50000x128, .f32⟩
  | 107 => ⟨S_, .i32⟩
  | 108 => ⟨S500000, .i32⟩
  | 109 => ⟨S500000, .i1⟩
  | 110 => ⟨S_, .i32⟩
  | 111 => ⟨S500000, .i32⟩
  | 112 => ⟨S500000, .i32⟩
  | 113 => ⟨S500000, .i32⟩
  | 114 => ⟨S500000x1, .i32⟩
  | 115 => ⟨S1, .i32⟩
  | 116 => ⟨S_, .i32⟩
  | 117 => ⟨S500000x1, .i32⟩
  | 118 => ⟨S500000x1, .i1⟩
  | 119 => ⟨S1x1, .i32⟩
  | 120 => ⟨S500000x1, .i32⟩
  | 121 => ⟨S500000x1, .i1⟩
  | 122 => ⟨S500000x1, .i1⟩
  | 123 => ⟨S_, .i1⟩
  | 124 => ⟨S500000, .i1⟩
  | 125 => ⟨S500000x128, .f32⟩
  | 126 => ⟨S500000x128, .i1⟩
  | 127 => ⟨S_, .f32⟩
  | _ => ⟨S50000x128, .f32⟩

abbrev hbmTy0_1 (i : Nat) : BufTy := match i % 128 with
  | 0 => ⟨S500000x128, .f32⟩
  | 1 => ⟨S500000x128, .f32⟩
  | 2 => ⟨S_, .i32⟩
  | 3 => ⟨S500000, .i32⟩
  | 4 => ⟨S500000, .i1⟩
  | 5 => ⟨S_, .i32⟩
  | 6 => ⟨S500000, .i32⟩
  | 7 => ⟨S500000, .i32⟩
  | 8 => ⟨S500000, .i32⟩
  | 9 => ⟨S500000x1, .i32⟩
  | 10 => ⟨S1, .i32⟩
  | 11 => ⟨S_, .i32⟩
  | 12 => ⟨S500000x1, .i32⟩
  | 13 => ⟨S500000x1, .i1⟩
  | 14 => ⟨S1x1, .i32⟩
  | 15 => ⟨S500000x1, .i32⟩
  | 16 => ⟨S500000x1, .i1⟩
  | 17 => ⟨S500000x1, .i1⟩
  | 18 => ⟨S_, .i1⟩
  | 19 => ⟨S500000, .i1⟩
  | 20 => ⟨S500000x128, .f32⟩
  | 21 => ⟨S500000x128, .i1⟩
  | 22 => ⟨S_, .f32⟩
  | 23 => ⟨S500000x128, .f32⟩
  | 24 => ⟨S500000x128, .f32⟩
  | 25 => ⟨S1x384x128, .f32⟩
  | 26 => ⟨S384x128, .f32⟩
  | 27 => ⟨S128x128, .f32⟩
  | 28 => ⟨S128x128, .f32⟩
  | 29 => ⟨S128x128, .f32⟩
  | 30 => ⟨S1x128, .f32⟩
  | 31 => ⟨S128, .f32⟩
  | 32 => ⟨S1x128x128, .f32⟩
  | 33 => ⟨S128x128, .f32⟩
  | 34 => ⟨S1x128, .f32⟩
  | 35 => ⟨S128, .f32⟩
  | 36 => ⟨S1x128, .f32⟩
  | 37 => ⟨S1x128, .f32⟩
  | 38 => ⟨S500000x128, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S1, .i32⟩
  | 48 => ⟨S_, .i32⟩
  | 49 => ⟨S500000x1, .i32⟩
  | 50 => ⟨S500000x1, .i1⟩
  | 51 => ⟨S1x1, .i32⟩
  | 52 => ⟨S500000x1, .i32⟩
  | 53 => ⟨S500000x1, .i1⟩
  | 54 => ⟨S500000x1, .i1⟩
  | 55 => ⟨S_, .i1⟩
  | 56 => ⟨S500000, .i1⟩
  | 57 => ⟨S500000x128, .f32⟩
  | 58 => ⟨S500000x128, .i1⟩
  | 59 => ⟨S_, .f32⟩
  | 60 => ⟨S500000x128, .f32⟩
  | 61 => ⟨S500000x128, .f32⟩
  | 62 => ⟨S500000x128, .f32⟩
  | 63 => ⟨S_, .f32⟩
  | 64 => ⟨S50000x128, .f32⟩
  | 65 => ⟨S500000x1, .i32⟩
  | 66 => ⟨S50000x128, .f32⟩
  | 67 => ⟨S1x128x128, .f32⟩
  | 68 => ⟨S128x128, .f32⟩
  | 69 => ⟨S1x128, .f32⟩
  | 70 => ⟨S128, .f32⟩
  | 71 => ⟨S1x128x128, .f32⟩
  | 72 => ⟨S128x128, .f32⟩
  | 73 => ⟨S1x128, .f32⟩
  | 74 => ⟨S128, .f32⟩
  | 75 => ⟨S1x128, .f32⟩
  | 76 => ⟨S1x128, .f32⟩
  | 77 => ⟨S50000x128, .f32⟩
  | 78 => ⟨S_, .f32⟩
  | 79 => ⟨S128, .f32⟩
  | 80 => ⟨S_, .f32⟩
  | 81 => ⟨S128, .f32⟩
  | 82 => ⟨S128, .f32⟩
  | 83 => ⟨S_, .i32⟩
  | 84 => ⟨S_, .f32⟩
  | 85 => ⟨S128, .f32⟩
  | 86 => ⟨S1x128, .f32⟩
  | 87 => ⟨S_, .f32⟩
  | 88 => ⟨S1x128, .f32⟩
  | 89 => ⟨S1x128, .f32⟩
  | 90 => ⟨S50000x128, .f32⟩
  | 91 => ⟨S50000x128, .f32⟩
  | 92 => ⟨S50000x128, .f32⟩
  | 93 => ⟨S_, .f32⟩
  | 94 => ⟨S_, .f32⟩
  | 95 => ⟨S_, .f32⟩
  | 96 => ⟨S_, .f32⟩
  | 97 => ⟨S128, .f32⟩
  | 98 => ⟨S128, .f32⟩
  | 99 => ⟨S128, .f32⟩
  | 100 => ⟨S_, .f32⟩
  | 101 => ⟨S_, .i1⟩
  | 102 => ⟨S_, .f32⟩
  | 103 => ⟨S_, .f32⟩
  | 104 => ⟨S128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S1x128, .f32⟩
  | 112 => ⟨S1x128, .f32⟩
  | 113 => ⟨S1x128, .f32⟩
  | 114 => ⟨S50000x128, .f32⟩
  | 115 => ⟨S_, .i32⟩
  | 116 => ⟨S500000, .i32⟩
  | 117 => ⟨S500000, .i1⟩
  | 118 => ⟨S_, .i32⟩
  | 119 => ⟨S500000, .i32⟩
  | 120 => ⟨S500000, .i32⟩
  | 121 => ⟨S500000, .i32⟩
  | 122 => ⟨S500000x1, .i32⟩
  | 123 => ⟨S1, .i32⟩
  | 124 => ⟨S_, .i32⟩
  | 125 => ⟨S500000x1, .i32⟩
  | 126 => ⟨S500000x1, .i1⟩
  | 127 => ⟨S1x1, .i32⟩
  | _ => ⟨S50000x128, .f32⟩

abbrev hbmTy0_2 (i : Nat) : BufTy := match i % 128 with
  | 0 => ⟨S500000x1, .i32⟩
  | 1 => ⟨S500000x1, .i1⟩
  | 2 => ⟨S500000x1, .i1⟩
  | 3 => ⟨S_, .i1⟩
  | 4 => ⟨S500000, .i1⟩
  | 5 => ⟨S500000x128, .f32⟩
  | 6 => ⟨S500000x128, .i1⟩
  | 7 => ⟨S_, .f32⟩
  | 8 => ⟨S500000x128, .f32⟩
  | 9 => ⟨S500000x128, .f32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S1, .i32⟩
  | 19 => ⟨S_, .i32⟩
  | 20 => ⟨S500000x1, .i32⟩
  | 21 => ⟨S500000x1, .i1⟩
  | 22 => ⟨S1x1, .i32⟩
  | 23 => ⟨S500000x1, .i32⟩
  | 24 => ⟨S500000x1, .i1⟩
  | 25 => ⟨S500000x1, .i1⟩
  | 26 => ⟨S_, .i1⟩
  | 27 => ⟨S500000, .i1⟩
  | 28 => ⟨S500000x128, .f32⟩
  | 29 => ⟨S500000x128, .i1⟩
  | 30 => ⟨S_, .f32⟩
  | 31 => ⟨S500000x128, .f32⟩
  | 32 => ⟨S500000x128, .f32⟩
  | 33 => ⟨S1x384x128, .f32⟩
  | 34 => ⟨S384x128, .f32⟩
  | 35 => ⟨S128x128, .f32⟩
  | 36 => ⟨S128x128, .f32⟩
  | 37 => ⟨S128x128, .f32⟩
  | 38 => ⟨S1x128, .f32⟩
  | 39 => ⟨S128, .f32⟩
  | 40 => ⟨S1x128x128, .f32⟩
  | 41 => ⟨S128x128, .f32⟩
  | 42 => ⟨S1x128, .f32⟩
  | 43 => ⟨S128, .f32⟩
  | 44 => ⟨S1x128, .f32⟩
  | 45 => ⟨S1x128, .f32⟩
  | 46 => ⟨S500000x128, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S1, .i32⟩
  | 56 => ⟨S_, .i32⟩
  | 57 => ⟨S500000x1, .i32⟩
  | 58 => ⟨S500000x1, .i1⟩
  | 59 => ⟨S1x1, .i32⟩
  | 60 => ⟨S500000x1, .i32⟩
  | 61 => ⟨S500000x1, .i1⟩
  | 62 => ⟨S500000x1, .i1⟩
  | 63 => ⟨S_, .i1⟩
  | 64 => ⟨S500000, .i1⟩
  | 65 => ⟨S500000x128, .f32⟩
  | 66 => ⟨S500000x128, .i1⟩
  | 67 => ⟨S_, .f32⟩
  | 68 => ⟨S500000x128, .f32⟩
  | 69 => ⟨S500000x128, .f32⟩
  | 70 => ⟨S_, .i32⟩
  | 71 => ⟨S500000, .i32⟩
  | 72 => ⟨S500000, .i1⟩
  | 73 => ⟨S_, .i32⟩
  | 74 => ⟨S500000, .i32⟩
  | 75 => ⟨S500000, .i32⟩
  | 76 => ⟨S500000, .i32⟩
  | 77 => ⟨S500000x1, .i32⟩
  | 78 => ⟨S1, .i32⟩
  | 79 => ⟨S_, .i32⟩
  | 80 => ⟨S500000x1, .i32⟩
  | 81 => ⟨S500000x1, .i1⟩
  | 82 => ⟨S1x1, .i32⟩
  | 83 => ⟨S500000x1, .i32⟩
  | 84 => ⟨S500000x1, .i1⟩
  | 85 => ⟨S500000x1, .i1⟩
  | 86 => ⟨S_, .i1⟩
  | 87 => ⟨S500000, .i1⟩
  | 88 => ⟨S500000x128, .f32⟩
  | 89 => ⟨S500000x128, .i1⟩
  | 90 => ⟨S_, .f32⟩
  | 91 => ⟨S500000x128, .f32⟩
  | 92 => ⟨S500000x128, .f32⟩
  | 93 => ⟨S128x50, .f32⟩
  | 94 => ⟨S128x50, .f32⟩
  | 95 => ⟨S128x50, .f32⟩
  | 96 => ⟨S1x50, .f32⟩
  | 97 => ⟨S1x25, .f32⟩
  | 98 => ⟨S1x2, .f32⟩
  | 99 => ⟨S500000x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x16, .f32⟩
  | .local _ .vmem, ⟨7, _⟩ => ⟨S2000x16, .f32⟩
  | .local _ .vmem, ⟨8, _⟩ => ⟨S16x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S128x128, .f32⟩
  | .local _ .vmem, ⟨45, _⟩ => ⟨S128x128, .f32⟩
  | .local _ .vmem, ⟨46, _⟩ => ⟨S128x128, .f32⟩
  | .local _ .vmem, ⟨47, _⟩ => ⟨S1x128, .f32⟩
  | .local _ .vmem, ⟨48, _⟩ => ⟨S128x128, .f32⟩
  | .local _ .vmem, ⟨49, _⟩ => ⟨S1x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S128x128, .f32⟩
  | .local _ .vmem, ⟨63, _⟩ => ⟨S1x128, .f32⟩
  | .local _ .vmem, ⟨64, _⟩ => ⟨S128x128, .f32⟩
  | .local _ .vmem, ⟨65, _⟩ => ⟨S1x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S2000x128, .f32⟩
  | .local _ .vmem, ⟨70, _⟩ => ⟨S2000x128, .f32⟩
  | .local _ .vmem, ⟨71, _⟩ => ⟨S2000x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S2000x128, .f32⟩
  | .local _ .vmem, ⟨77, _⟩ => ⟨S2000x128, .f32⟩
  | .local _ .vmem, ⟨78, _⟩ => ⟨S2000x128, .f32⟩
  | .local _ .vmem, ⟨79, _⟩ => ⟨S2000x128, .f32⟩
  | .local _ .vmem, ⟨80, _⟩ => ⟨S2000x128, .f32⟩
  | .local _ .vmem, ⟨81, _⟩ => ⟨S2000x128, .f32⟩
  | .local _ .vmem, ⟨82, _⟩ => ⟨S2000x128, .f32⟩
  | .local _ .vmem, ⟨83, _⟩ => ⟨S2000x128, .f32⟩
  | .local _ .vmem, ⟨84, _⟩ => ⟨S128x128, .f32⟩
  | .local _ .vmem, ⟨85, _⟩ => ⟨S128x128, .f32⟩
  | .local _ .vmem, ⟨86, _⟩ => ⟨S128x128, .f32⟩
  | .local _ .vmem, ⟨87, _⟩ => ⟨S1x128, .f32⟩
  | .local _ .vmem, ⟨88, _⟩ => ⟨S128x128, .f32⟩
  | .local _ .vmem, ⟨89, _⟩ => ⟨S1x128, .f32⟩
  | .local _ .vmem, ⟨90, _⟩ => ⟨S2000x128, .f32⟩
  | .local _ .vmem, ⟨91, _⟩ => ⟨S2000x128, .f32⟩
  | .local _ .vmem, ⟨92, _⟩ => ⟨S2000x128, .f32⟩
  | .local _ .vmem, ⟨93, _⟩ => ⟨S2000x128, .f32⟩
  | .local _ .vmem, ⟨94, _⟩ => ⟨S2000x128, .f32⟩
  | .local _ .vmem, ⟨95, _⟩ => ⟨S2000x128, .f32⟩
  | .local _ .vmem, ⟨96, _⟩ => ⟨S2000x128, .f32⟩
  | .local _ .vmem, ⟨97, _⟩ => ⟨S2000x128, .f32⟩
  | .local _ .vmem, ⟨98, _⟩ => ⟨S128x50, .f32⟩
  | .local _ .vmem, ⟨99, _⟩ => ⟨S128x50, .f32⟩
  | .local _ .vmem, ⟨100, _⟩ => ⟨S128x50, .f32⟩
  | .local _ .vmem, ⟨101, _⟩ => ⟨S1x50, .f32⟩
  | .local _ .vmem, ⟨102, _⟩ => ⟨S50x25, .f32⟩
  | .local _ .vmem, ⟨103, _⟩ => ⟨S1x25, .f32⟩
  | .local _ .vmem, ⟨104, _⟩ => ⟨S25x2, .f32⟩
  | .local _ .vmem, ⟨105, _⟩ => ⟨S1x2, .f32⟩
  | .local _ .vmem, ⟨106, _⟩ => ⟨S2000x2, .f32⟩
  | .local _ .vmem, ⟨107, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | _, _ => false

abbrev semScoped : Fin 0 → Bool
  | ⟨_, h⟩ => absurd h (Nat.not_lt_zero _)

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  ofTc nBuf bufTy 0 108 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v8 : Ref sig .tc := ⟨.hbm, 53, rfl⟩
abbrev main_v9 : Ref sig .tc := ⟨.hbm, 54, rfl⟩
abbrev main_cst : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_cst_0 : Ref sig .tc := ⟨.hbm, 70, rfl⟩
abbrev main_v24 : Ref sig .tc := ⟨.hbm, 71, rfl⟩
abbrev main_cst_1 : Ref sig .tc := ⟨.hbm, 72, rfl⟩
abbrev main_v25 : Ref sig .tc := ⟨.hbm, 73, rfl⟩
abbrev main_v26 : Ref sig .tc := ⟨.hbm, 74, rfl⟩
abbrev main_c : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_cst_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_cst_1 : Ref sig .tc := ⟨.hbm, 86, rfl⟩
abbrev main_call1_v8 : Ref sig .tc := ⟨.hbm, 87, rfl⟩
abbrev main_call1_cst_2 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_cst_3 : Ref sig .tc := ⟨.hbm, 92, rfl⟩
abbrev main_call1_v12 : Ref sig .tc := ⟨.hbm, 93, rfl⟩
abbrev main_call1_cst_4 : Ref sig .tc := ⟨.hbm, 94, rfl⟩
abbrev main_call1_call0_v0 : Ref sig .tc := ⟨.hbm, 95, rfl⟩
abbrev main_call1_call0_v1 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_call2_c : Ref sig .tc := ⟨.hbm, 107, rfl⟩
abbrev main_call2_v0 : Ref sig .tc := ⟨.hbm, 108, rfl⟩
abbrev main_call2_v1 : Ref sig .tc := ⟨.hbm, 109, rfl⟩
abbrev main_call2_c_0 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_v5 : Ref sig .tc := ⟨.hbm, 114, rfl⟩
abbrev main_call2_c_1 : Ref sig .tc := ⟨.hbm, 115, rfl⟩
abbrev main_call2_c_2 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_call2_c_3 : Ref sig .tc := ⟨.hbm, 123, rfl⟩
abbrev main_call2_v12 : Ref sig .tc := ⟨.hbm, 124, rfl⟩
abbrev main_call2_v13 : Ref sig .tc := ⟨.hbm, 125, rfl⟩
abbrev main_call2_v14 : Ref sig .tc := ⟨.hbm, 126, rfl⟩
abbrev main_call2_cst : Ref sig .tc := ⟨.hbm, 127, rfl⟩
abbrev main_call2_v15 : Ref sig .tc := ⟨.hbm, 128, rfl⟩
abbrev main_v37 : Ref sig .tc := ⟨.hbm, 129, rfl⟩
abbrev main_call3_c : Ref sig .tc := ⟨.hbm, 130, rfl⟩
abbrev main_call3_v0 : Ref sig .tc := ⟨.hbm, 131, rfl⟩
abbrev main_call3_v1 : Ref sig .tc := ⟨.hbm, 132, rfl⟩
abbrev main_call3_c_0 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_call3_v5 : Ref sig .tc := ⟨.hbm, 137, rfl⟩
abbrev main_call3_c_1 : Ref sig .tc := ⟨.hbm, 138, rfl⟩
abbrev main_call3_c_2 : Ref sig .tc := ⟨.hbm, 139, rfl⟩
abbrev main_call3_v6 : Ref sig .tc := ⟨.hbm, 140, rfl⟩
abbrev main_call3_v7 : Ref sig .tc := ⟨.hbm, 141, rfl⟩
abbrev main_call3_v8 : Ref sig .tc := ⟨.hbm, 142, rfl⟩
abbrev main_call3_v9 : Ref sig .tc := ⟨.hbm, 143, rfl⟩
abbrev main_call3_v10 : Ref sig .tc := ⟨.hbm, 144, rfl⟩
abbrev main_call3_v11 : Ref sig .tc := ⟨.hbm, 145, rfl⟩
abbrev main_call3_c_3 : Ref sig .tc := ⟨.hbm, 146, rfl⟩
abbrev main_call3_v12 : Ref sig .tc := ⟨.hbm, 147, rfl⟩
abbrev main_call3_v13 : Ref sig .tc := ⟨.hbm, 148, rfl⟩
abbrev main_call3_v14 : Ref sig .tc := ⟨.hbm, 149, rfl⟩
abbrev main_call3_cst : Ref sig .tc := ⟨.hbm, 150, rfl⟩
abbrev main_call3_v15 : Ref sig .tc := ⟨.hbm, 151, rfl⟩
abbrev main_v38 : Ref sig .tc := ⟨.hbm, 152, rfl⟩
abbrev main_v39 : Ref sig .tc := ⟨.hbm, 153, rfl⟩
abbrev main_v40 : Ref sig .tc := ⟨.hbm, 154, rfl⟩
abbrev main_v41 : Ref sig .tc := ⟨.hbm, 155, rfl⟩
abbrev main_v42 : Ref sig .tc := ⟨.hbm, 156, rfl⟩
abbrev main_v43 : Ref sig .tc := ⟨.hbm, 157, rfl⟩
abbrev main_v44 : Ref sig .tc := ⟨.hbm, 158, rfl⟩
abbrev main_v45 : Ref sig .tc := ⟨.hbm, 159, rfl⟩
abbrev main_v46 : Ref sig .tc := ⟨.hbm, 160, rfl⟩
abbrev main_v47 : Ref sig .tc := ⟨.hbm, 161, rfl⟩
abbrev main_v48 : Ref sig .tc := ⟨.hbm, 162, rfl⟩
abbrev main_v49 : Ref sig .tc := ⟨.hbm, 163, rfl⟩
abbrev main_v50 : Ref sig .tc := ⟨.hbm, 164, rfl⟩
abbrev main_v51 : Ref sig .tc := ⟨.hbm, 165, rfl⟩
abbrev main_v52 : Ref sig .tc := ⟨.hbm, 166, rfl⟩
abbrev main_call4_c : Ref sig .tc := ⟨.hbm, 167, rfl⟩
abbrev main_call4_v0 : Ref sig .tc := ⟨.hbm, 168, rfl⟩
abbrev main_call4_v1 : Ref sig .tc := ⟨.hbm, 169, rfl⟩
abbrev main_call4_c_0 : Ref sig .tc := ⟨.hbm, 170, rfl⟩
abbrev main_call4_v2 : Ref sig .tc := ⟨.hbm, 171, rfl⟩
abbrev main_call4_v3 : Ref sig .tc := ⟨.hbm, 172, rfl⟩
abbrev main_call4_v4 : Ref sig .tc := ⟨.hbm, 173, rfl⟩
abbrev main_call4_v5 : Ref sig .tc := ⟨.hbm, 174, rfl⟩
abbrev main_call4_c_1 : Ref sig .tc := ⟨.hbm, 175, rfl⟩
abbrev main_call4_c_2 : Ref sig .tc := ⟨.hbm, 176, rfl⟩
abbrev main_call4_v6 : Ref sig .tc := ⟨.hbm, 177, rfl⟩
abbrev main_call4_v7 : Ref sig .tc := ⟨.hbm, 178, rfl⟩
abbrev main_call4_v8 : Ref sig .tc := ⟨.hbm, 179, rfl⟩
abbrev main_call4_v9 : Ref sig .tc := ⟨.hbm, 180, rfl⟩
abbrev main_call4_v10 : Ref sig .tc := ⟨.hbm, 181, rfl⟩
abbrev main_call4_v11 : Ref sig .tc := ⟨.hbm, 182, rfl⟩
abbrev main_call4_c_3 : Ref sig .tc := ⟨.hbm, 183, rfl⟩
abbrev main_call4_v12 : Ref sig .tc := ⟨.hbm, 184, rfl⟩
abbrev main_call4_v13 : Ref sig .tc := ⟨.hbm, 185, rfl⟩
abbrev main_call4_v14 : Ref sig .tc := ⟨.hbm, 186, rfl⟩
abbrev main_call4_cst : Ref sig .tc := ⟨.hbm, 187, rfl⟩
abbrev main_call4_v15 : Ref sig .tc := ⟨.hbm, 188, rfl⟩
abbrev main_v53 : Ref sig .tc := ⟨.hbm, 189, rfl⟩
abbrev main_v54 : Ref sig .tc := ⟨.hbm, 190, rfl⟩
abbrev main_cst_2 : Ref sig .tc := ⟨.hbm, 191, rfl⟩
abbrev main_v55 : Ref sig .tc := ⟨.hbm, 192, rfl⟩
abbrev main_v56 : Ref sig .tc := ⟨.hbm, 193, rfl⟩
abbrev main_v57 : Ref sig .tc := ⟨.hbm, 194, rfl⟩
abbrev main_v58 : Ref sig .tc := ⟨.hbm, 195, rfl⟩
abbrev main_v59 : Ref sig .tc := ⟨.hbm, 196, rfl⟩
abbrev main_v60 : Ref sig .tc := ⟨.hbm, 197, rfl⟩
abbrev main_v61 : Ref sig .tc := ⟨.hbm, 198, rfl⟩
abbrev main_v62 : Ref sig .tc := ⟨.hbm, 199, rfl⟩
abbrev main_v63 : Ref sig .tc := ⟨.hbm, 200, rfl⟩
abbrev main_v64 : Ref sig .tc := ⟨.hbm, 201, rfl⟩
abbrev main_v65 : Ref sig .tc := ⟨.hbm, 202, rfl⟩
abbrev main_v66 : Ref sig .tc := ⟨.hbm, 203, rfl⟩
abbrev main_v67 : Ref sig .tc := ⟨.hbm, 204, rfl⟩
abbrev main_v68 : Ref sig .tc := ⟨.hbm, 205, rfl⟩
abbrev main_cst_3 : Ref sig .tc := ⟨.hbm, 206, rfl⟩
abbrev main_v69 : Ref sig .tc := ⟨.hbm, 207, rfl⟩
abbrev main_cst_4 : Ref sig .tc := ⟨.hbm, 208, rfl⟩
abbrev main_v70 : Ref sig .tc := ⟨.hbm, 209, rfl⟩
abbrev main_v71 : Ref sig .tc := ⟨.hbm, 210, rfl⟩
abbrev main_c_5 : Ref sig .tc := ⟨.hbm, 211, rfl⟩
abbrev main_call5_cst : Ref sig .tc := ⟨.hbm, 212, rfl⟩
abbrev main_call5_v0 : Ref sig .tc := ⟨.hbm, 213, rfl⟩
abbrev main_call5_v1 : Ref sig .tc := ⟨.hbm, 214, rfl⟩
abbrev main_call5_cst_0 : Ref sig .tc := ⟨.hbm, 215, rfl⟩
abbrev main_call5_v2 : Ref sig .tc := ⟨.hbm, 216, rfl⟩
abbrev main_call5_v3 : Ref sig .tc := ⟨.hbm, 217, rfl⟩
abbrev main_call5_v4 : Ref sig .tc := ⟨.hbm, 218, rfl⟩
abbrev main_call5_v5 : Ref sig .tc := ⟨.hbm, 219, rfl⟩
abbrev main_call5_v6 : Ref sig .tc := ⟨.hbm, 220, rfl⟩
abbrev main_call5_v7 : Ref sig .tc := ⟨.hbm, 221, rfl⟩
abbrev main_call5_cst_1 : Ref sig .tc := ⟨.hbm, 222, rfl⟩
abbrev main_call5_v8 : Ref sig .tc := ⟨.hbm, 223, rfl⟩
abbrev main_call5_cst_2 : Ref sig .tc := ⟨.hbm, 224, rfl⟩
abbrev main_call5_v9 : Ref sig .tc := ⟨.hbm, 225, rfl⟩
abbrev main_call5_v10 : Ref sig .tc := ⟨.hbm, 226, rfl⟩
abbrev main_call5_v11 : Ref sig .tc := ⟨.hbm, 227, rfl⟩
abbrev main_call5_cst_3 : Ref sig .tc := ⟨.hbm, 228, rfl⟩
abbrev main_call5_v12 : Ref sig .tc := ⟨.hbm, 229, rfl⟩
abbrev main_call5_cst_4 : Ref sig .tc := ⟨.hbm, 230, rfl⟩
abbrev main_call5_call0_v0 : Ref sig .tc := ⟨.hbm, 231, rfl⟩
abbrev main_call5_call0_v1 : Ref sig .tc := ⟨.hbm, 232, rfl⟩
abbrev main_v72 : Ref sig .tc := ⟨.hbm, 233, rfl⟩
abbrev main_v73 : Ref sig .tc := ⟨.hbm, 234, rfl⟩
abbrev main_v74 : Ref sig .tc := ⟨.hbm, 235, rfl⟩
abbrev main_v75 : Ref sig .tc := ⟨.hbm, 236, rfl⟩
abbrev main_v76 : Ref sig .tc := ⟨.hbm, 237, rfl⟩
abbrev main_v77 : Ref sig .tc := ⟨.hbm, 238, rfl⟩
abbrev main_v78 : Ref sig .tc := ⟨.hbm, 239, rfl⟩
abbrev main_v79 : Ref sig .tc := ⟨.hbm, 240, rfl⟩
abbrev main_v80 : Ref sig .tc := ⟨.hbm, 241, rfl⟩
abbrev main_v81 : Ref sig .tc := ⟨.hbm, 242, rfl⟩
abbrev main_call6_c : Ref sig .tc := ⟨.hbm, 243, rfl⟩
abbrev main_call6_v0 : Ref sig .tc := ⟨.hbm, 244, rfl⟩
abbrev main_call6_v1 : Ref sig .tc := ⟨.hbm, 245, rfl⟩
abbrev main_call6_c_0 : Ref sig .tc := ⟨.hbm, 246, rfl⟩
abbrev main_call6_v2 : Ref sig .tc := ⟨.hbm, 247, rfl⟩
abbrev main_call6_v3 : Ref sig .tc := ⟨.hbm, 248, rfl⟩
abbrev main_call6_v4 : Ref sig .tc := ⟨.hbm, 249, rfl⟩
abbrev main_call6_v5 : Ref sig .tc := ⟨.hbm, 250, rfl⟩
abbrev main_call6_c_1 : Ref sig .tc := ⟨.hbm, 251, rfl⟩
abbrev main_call6_c_2 : Ref sig .tc := ⟨.hbm, 252, rfl⟩
abbrev main_call6_v6 : Ref sig .tc := ⟨.hbm, 253, rfl⟩
abbrev main_call6_v7 : Ref sig .tc := ⟨.hbm, 254, rfl⟩
abbrev main_call6_v8 : Ref sig .tc := ⟨.hbm, 255, rfl⟩
abbrev main_call6_v9 : Ref sig .tc := ⟨.hbm, 256, rfl⟩
abbrev main_call6_v10 : Ref sig .tc := ⟨.hbm, 257, rfl⟩
abbrev main_call6_v11 : Ref sig .tc := ⟨.hbm, 258, rfl⟩
abbrev main_call6_c_3 : Ref sig .tc := ⟨.hbm, 259, rfl⟩
abbrev main_call6_v12 : Ref sig .tc := ⟨.hbm, 260, rfl⟩
abbrev main_call6_v13 : Ref sig .tc := ⟨.hbm, 261, rfl⟩
abbrev main_call6_v14 : Ref sig .tc := ⟨.hbm, 262, rfl⟩
abbrev main_call6_cst : Ref sig .tc := ⟨.hbm, 263, rfl⟩
abbrev main_call6_v15 : Ref sig .tc := ⟨.hbm, 264, rfl⟩
abbrev main_v82 : Ref sig .tc := ⟨.hbm, 265, rfl⟩
abbrev main_call7_c : Ref sig .tc := ⟨.hbm, 266, rfl⟩
abbrev main_call7_v0 : Ref sig .tc := ⟨.hbm, 267, rfl⟩
abbrev main_call7_v1 : Ref sig .tc := ⟨.hbm, 268, rfl⟩
abbrev main_call7_c_0 : Ref sig .tc := ⟨.hbm, 269, rfl⟩
abbrev main_call7_v2 : Ref sig .tc := ⟨.hbm, 270, rfl⟩
abbrev main_call7_v3 : Ref sig .tc := ⟨.hbm, 271, rfl⟩
abbrev main_call7_v4 : Ref sig .tc := ⟨.hbm, 272, rfl⟩
abbrev main_call7_v5 : Ref sig .tc := ⟨.hbm, 273, rfl⟩
abbrev main_call7_c_1 : Ref sig .tc := ⟨.hbm, 274, rfl⟩
abbrev main_call7_c_2 : Ref sig .tc := ⟨.hbm, 275, rfl⟩
abbrev main_call7_v6 : Ref sig .tc := ⟨.hbm, 276, rfl⟩
abbrev main_call7_v7 : Ref sig .tc := ⟨.hbm, 277, rfl⟩
abbrev main_call7_v8 : Ref sig .tc := ⟨.hbm, 278, rfl⟩
abbrev main_call7_v9 : Ref sig .tc := ⟨.hbm, 279, rfl⟩
abbrev main_call7_v10 : Ref sig .tc := ⟨.hbm, 280, rfl⟩
abbrev main_call7_v11 : Ref sig .tc := ⟨.hbm, 281, rfl⟩
abbrev main_call7_c_3 : Ref sig .tc := ⟨.hbm, 282, rfl⟩
abbrev main_call7_v12 : Ref sig .tc := ⟨.hbm, 283, rfl⟩
abbrev main_call7_v13 : Ref sig .tc := ⟨.hbm, 284, rfl⟩
abbrev main_call7_v14 : Ref sig .tc := ⟨.hbm, 285, rfl⟩
abbrev main_call7_cst : Ref sig .tc := ⟨.hbm, 286, rfl⟩
abbrev main_call7_v15 : Ref sig .tc := ⟨.hbm, 287, rfl⟩
abbrev main_v83 : Ref sig .tc := ⟨.hbm, 288, rfl⟩
abbrev main_v84 : Ref sig .tc := ⟨.hbm, 289, rfl⟩
abbrev main_v85 : Ref sig .tc := ⟨.hbm, 290, rfl⟩
abbrev main_v86 : Ref sig .tc := ⟨.hbm, 291, rfl⟩
abbrev main_v87 : Ref sig .tc := ⟨.hbm, 292, rfl⟩
abbrev main_v88 : Ref sig .tc := ⟨.hbm, 293, rfl⟩
abbrev main_v89 : Ref sig .tc := ⟨.hbm, 294, rfl⟩
abbrev main_v90 : Ref sig .tc := ⟨.hbm, 295, rfl⟩
abbrev main_v91 : Ref sig .tc := ⟨.hbm, 296, rfl⟩
abbrev main_v92 : Ref sig .tc := ⟨.hbm, 297, rfl⟩
abbrev main_v93 : Ref sig .tc := ⟨.hbm, 298, rfl⟩
abbrev main_v94 : Ref sig .tc := ⟨.hbm, 299, rfl⟩
abbrev main_v95 : Ref sig .tc := ⟨.hbm, 300, rfl⟩
abbrev main_v96 : Ref sig .tc := ⟨.hbm, 301, rfl⟩
abbrev main_v97 : Ref sig .tc := ⟨.hbm, 302, rfl⟩
abbrev main_call8_c : Ref sig .tc := ⟨.hbm, 303, rfl⟩
abbrev main_call8_v0 : Ref sig .tc := ⟨.hbm, 304, rfl⟩
abbrev main_call8_v1 : Ref sig .tc := ⟨.hbm, 305, rfl⟩
abbrev main_call8_c_0 : Ref sig .tc := ⟨.hbm, 306, rfl⟩
abbrev main_call8_v2 : Ref sig .tc := ⟨.hbm, 307, rfl⟩
abbrev main_call8_v3 : Ref sig .tc := ⟨.hbm, 308, rfl⟩
abbrev main_call8_v4 : Ref sig .tc := ⟨.hbm, 309, rfl⟩
abbrev main_call8_v5 : Ref sig .tc := ⟨.hbm, 310, rfl⟩
abbrev main_call8_c_1 : Ref sig .tc := ⟨.hbm, 311, rfl⟩
abbrev main_call8_c_2 : Ref sig .tc := ⟨.hbm, 312, rfl⟩
abbrev main_call8_v6 : Ref sig .tc := ⟨.hbm, 313, rfl⟩
abbrev main_call8_v7 : Ref sig .tc := ⟨.hbm, 314, rfl⟩
abbrev main_call8_v8 : Ref sig .tc := ⟨.hbm, 315, rfl⟩
abbrev main_call8_v9 : Ref sig .tc := ⟨.hbm, 316, rfl⟩
abbrev main_call8_v10 : Ref sig .tc := ⟨.hbm, 317, rfl⟩
abbrev main_call8_v11 : Ref sig .tc := ⟨.hbm, 318, rfl⟩
abbrev main_call8_c_3 : Ref sig .tc := ⟨.hbm, 319, rfl⟩
abbrev main_call8_v12 : Ref sig .tc := ⟨.hbm, 320, rfl⟩
abbrev main_call8_v13 : Ref sig .tc := ⟨.hbm, 321, rfl⟩
abbrev main_call8_v14 : Ref sig .tc := ⟨.hbm, 322, rfl⟩
abbrev main_call8_cst : Ref sig .tc := ⟨.hbm, 323, rfl⟩
abbrev main_call8_v15 : Ref sig .tc := ⟨.hbm, 324, rfl⟩
abbrev main_v98 : Ref sig .tc := ⟨.hbm, 325, rfl⟩
abbrev main_call9_c : Ref sig .tc := ⟨.hbm, 326, rfl⟩
abbrev main_call9_v0 : Ref sig .tc := ⟨.hbm, 327, rfl⟩
abbrev main_call9_v1 : Ref sig .tc := ⟨.hbm, 328, rfl⟩
abbrev main_call9_c_0 : Ref sig .tc := ⟨.hbm, 329, rfl⟩
abbrev main_call9_v2 : Ref sig .tc := ⟨.hbm, 330, rfl⟩
abbrev main_call9_v3 : Ref sig .tc := ⟨.hbm, 331, rfl⟩
abbrev main_call9_v4 : Ref sig .tc := ⟨.hbm, 332, rfl⟩
abbrev main_call9_v5 : Ref sig .tc := ⟨.hbm, 333, rfl⟩
abbrev main_call9_c_1 : Ref sig .tc := ⟨.hbm, 334, rfl⟩
abbrev main_call9_c_2 : Ref sig .tc := ⟨.hbm, 335, rfl⟩
abbrev main_call9_v6 : Ref sig .tc := ⟨.hbm, 336, rfl⟩
abbrev main_call9_v7 : Ref sig .tc := ⟨.hbm, 337, rfl⟩
abbrev main_call9_v8 : Ref sig .tc := ⟨.hbm, 338, rfl⟩
abbrev main_call9_v9 : Ref sig .tc := ⟨.hbm, 339, rfl⟩
abbrev main_call9_v10 : Ref sig .tc := ⟨.hbm, 340, rfl⟩
abbrev main_call9_v11 : Ref sig .tc := ⟨.hbm, 341, rfl⟩
abbrev main_call9_c_3 : Ref sig .tc := ⟨.hbm, 342, rfl⟩
abbrev main_call9_v12 : Ref sig .tc := ⟨.hbm, 343, rfl⟩
abbrev main_call9_v13 : Ref sig .tc := ⟨.hbm, 344, rfl⟩
abbrev main_call9_v14 : Ref sig .tc := ⟨.hbm, 345, rfl⟩
abbrev main_call9_cst : Ref sig .tc := ⟨.hbm, 346, rfl⟩
abbrev main_call9_v15 : Ref sig .tc := ⟨.hbm, 347, rfl⟩
abbrev main_v99 : Ref sig .tc := ⟨.hbm, 348, rfl⟩
abbrev main_v100 : Ref sig .tc := ⟨.hbm, 349, rfl⟩
abbrev main_v101 : Ref sig .tc := ⟨.hbm, 350, rfl⟩
abbrev main_v102 : Ref sig .tc := ⟨.hbm, 351, rfl⟩
abbrev main_v103 : Ref sig .tc := ⟨.hbm, 352, rfl⟩
abbrev main_v104 : Ref sig .tc := ⟨.hbm, 353, rfl⟩
abbrev main_v105 : Ref sig .tc := ⟨.hbm, 354, rfl⟩
abbrev main_v106 : Ref sig .tc := ⟨.hbm, 355, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg6_0 : Ref sig .tc := ⟨.vmem, 47, rfl⟩
abbrev cc5_stg7_0 : Ref sig .tc := ⟨.vmem, 48, rfl⟩
abbrev cc5_stg8_0 : Ref sig .tc := ⟨.vmem, 49, rfl⟩
abbrev cc5_stg9_0 : Ref sig .tc := ⟨.vmem, 50, rfl⟩
abbrev cc5_stg9_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg2_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg1_1 : Ref sig .tc := ⟨.vmem, 61, rfl⟩
abbrev cc7_stg2_0 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg5_0 : Ref sig .tc := ⟨.vmem, 65, rfl⟩
abbrev cc7_stg6_0 : Ref sig .tc := ⟨.vmem, 66, rfl⟩
abbrev cc7_stg6_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg1_1 : Ref sig .tc := ⟨.vmem, 71, rfl⟩
abbrev cc8_stg2_0 : Ref sig .tc := ⟨.vmem, 72, rfl⟩
abbrev cc8_stg3_0 : Ref sig .tc := ⟨.vmem, 73, rfl⟩
abbrev cc8_stg4_0 : Ref sig .tc := ⟨.vmem, 74, rfl⟩
abbrev cc8_stg5_0 : Ref sig .tc := ⟨.vmem, 75, rfl⟩
abbrev cc8_stg6_0 : Ref sig .tc := ⟨.vmem, 76, rfl⟩
abbrev cc8_stg6_1 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg1_1 : Ref sig .tc := ⟨.vmem, 81, rfl⟩
abbrev cc9_stg2_0 : Ref sig .tc := ⟨.vmem, 82, rfl⟩
abbrev cc9_stg2_1 : Ref sig .tc := ⟨.vmem, 83, rfl⟩
abbrev cc9_stg3_0 : Ref sig .tc := ⟨.vmem, 84, rfl⟩
abbrev cc9_stg4_0 : Ref sig .tc := ⟨.vmem, 85, rfl⟩
abbrev cc9_stg5_0 : Ref sig .tc := ⟨.vmem, 86, rfl⟩
abbrev cc9_stg6_0 : Ref sig .tc := ⟨.vmem, 87, rfl⟩
abbrev cc9_stg7_0 : Ref sig .tc := ⟨.vmem, 88, rfl⟩
abbrev cc9_stg8_0 : Ref sig .tc := ⟨.vmem, 89, rfl⟩
abbrev cc9_stg9_0 : Ref sig .tc := ⟨.vmem, 90, rfl⟩
abbrev cc9_stg9_1 : Ref sig .tc := ⟨.vmem, 91, rfl⟩
abbrev cc10_stg0_0 : Ref sig .tc := ⟨.vmem, 92, rfl⟩
abbrev cc10_stg0_1 : Ref sig .tc := ⟨.vmem, 93, rfl⟩
abbrev cc10_stg1_0 : Ref sig .tc := ⟨.vmem, 94, rfl⟩
abbrev cc10_stg1_1 : Ref sig .tc := ⟨.vmem, 95, rfl⟩
abbrev cc10_stg2_0 : Ref sig .tc := ⟨.vmem, 96, rfl⟩
abbrev cc10_stg2_1 : Ref sig .tc := ⟨.vmem, 97, rfl⟩
abbrev cc10_stg3_0 : Ref sig .tc := ⟨.vmem, 98, rfl⟩
abbrev cc10_stg4_0 : Ref sig .tc := ⟨.vmem, 99, rfl⟩
abbrev cc10_stg5_0 : Ref sig .tc := ⟨.vmem, 100, rfl⟩
abbrev cc10_stg6_0 : Ref sig .tc := ⟨.vmem, 101, rfl⟩
abbrev cc10_stg7_0 : Ref sig .tc := ⟨.vmem, 102, rfl⟩
abbrev cc10_stg8_0 : Ref sig .tc := ⟨.vmem, 103, rfl⟩
abbrev cc10_stg9_0 : Ref sig .tc := ⟨.vmem, 104, rfl⟩
abbrev cc10_stg10_0 : Ref sig .tc := ⟨.vmem, 105, rfl⟩
abbrev cc10_stg11_0 : Ref sig .tc := ⟨.vmem, 106, rfl⟩
abbrev cc10_stg11_1 : Ref sig .tc := ⟨.vmem, 107, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem6_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem4_0 : DmaSem sig := 45
abbrev cc5_sem5_0 : DmaSem sig := 46
abbrev cc5_sem6_0 : DmaSem sig := 47
abbrev cc5_sem7_0 : DmaSem sig := 48
abbrev cc5_sem8_0 : DmaSem sig := 49
abbrev cc5_sem9_0 : DmaSem sig := 50
abbrev cc5_sem9_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem2_1 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem3_0 : DmaSem sig := 63
abbrev cc7_sem4_0 : DmaSem sig := 64
abbrev cc7_sem5_0 : DmaSem sig := 65
abbrev cc7_sem6_0 : DmaSem sig := 66
abbrev cc7_sem6_1 : DmaSem sig := 67
abbrev cc8_sem0_0 : DmaSem sig := 68
abbrev cc8_sem0_1 : DmaSem sig := 69
abbrev cc8_sem1_0 : DmaSem sig := 70
abbrev cc8_sem1_1 : DmaSem sig := 71
abbrev cc8_sem2_0 : DmaSem sig := 72
abbrev cc8_sem3_0 : DmaSem sig := 73
abbrev cc8_sem4_0 : DmaSem sig := 74
abbrev cc8_sem5_0 : DmaSem sig := 75
abbrev cc8_sem6_0 : DmaSem sig := 76
abbrev cc8_sem6_1 : DmaSem sig := 77
abbrev cc9_sem0_0 : DmaSem sig := 78
abbrev cc9_sem0_1 : DmaSem sig := 79
abbrev cc9_sem1_0 : DmaSem sig := 80
abbrev cc9_sem1_1 : DmaSem sig := 81
abbrev cc9_sem2_0 : DmaSem sig := 82
abbrev cc9_sem2_1 : DmaSem sig := 83
abbrev cc9_sem3_0 : DmaSem sig := 84
abbrev cc9_sem4_0 : DmaSem sig := 85
abbrev cc9_sem5_0 : DmaSem sig := 86
abbrev cc9_sem6_0 : DmaSem sig := 87
abbrev cc9_sem7_0 : DmaSem sig := 88
abbrev cc9_sem8_0 : DmaSem sig := 89
abbrev cc9_sem9_0 : DmaSem sig := 90
abbrev cc9_sem9_1 : DmaSem sig := 91
abbrev cc10_sem0_0 : DmaSem sig := 92
abbrev cc10_sem0_1 : DmaSem sig := 93
abbrev cc10_sem1_0 : DmaSem sig := 94
abbrev cc10_sem1_1 : DmaSem sig := 95
abbrev cc10_sem2_0 : DmaSem sig := 96
abbrev cc10_sem2_1 : DmaSem sig := 97
abbrev cc10_sem3_0 : DmaSem sig := 98
abbrev cc10_sem4_0 : DmaSem sig := 99
abbrev cc10_sem5_0 : DmaSem sig := 100
abbrev cc10_sem6_0 : DmaSem sig := 101
abbrev cc10_sem7_0 : DmaSem sig := 102
abbrev cc10_sem8_0 : DmaSem sig := 103
abbrev cc10_sem9_0 : DmaSem sig := 104
abbrev cc10_sem10_0 : DmaSem sig := 105
abbrev cc10_sem11_0 : DmaSem sig := 106
abbrev cc10_sem11_1 : DmaSem sig := 107

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![250], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S2000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![250], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S2000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![250], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S128x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x128 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 2 → Memref sig .tc .vmem S2000x128 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

abbrev grid10 : Pipeline.Grid := ⟨1, ![250], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_10 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_11 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S2000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S128x50 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S128x50 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x50 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x50 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S50x25 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1x25 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S25x2 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]

abbrev stage10_10 : Fin 1 → Memref sig .tc .vmem S1x2 .f32 := fun | 0 => Memref.whole cc10_stg10_0 | ⟨_ + 1, h⟩ => absurd h (Nat.not_lt.2 (Nat.le_add_left _ _))
abbrev sem10_10 : Fin 1 → DmaSem sig := fun | 0 => cc10_sem10_0 | ⟨_ + 1, h⟩ => absurd h (Nat.not_lt.2 (Nat.le_add_left _ _))
abbrev reads10_10 : Fin grid10.rank → Bool := ![false]

abbrev stage10_11 : Fin 2 → Memref sig .tc .vmem S2000x2 .f32 := fun | 0 => Memref.whole cc10_stg11_0 | 1 => Memref.whole cc10_stg11_1 | ⟨_ + 2, h⟩ => absurd h (Nat.not_lt.2 (Nat.le_add_left _ _))
abbrev sem10_11 : Fin 2 → DmaSem sig := fun | 0 => cc10_sem11_0 | 1 => cc10_sem11_1 | ⟨_ + 2, h⟩ => absurd h (Nat.not_lt.2 (Nat.le_add_left _ _))
abbrev reads10_11 : Fin grid10.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x16_S2000x16_0_0 : ∀ a, (![0, 0] : Fin 2 → Nat) a + S2000x16.size a ≤ S2000x16.size a
  h_S2000x16 : 0 < S2000x16.numel
  inb_S16x128_S16x128_0_0 : ∀ a, (![0, 0] : Fin 2 → Nat) a + S16x128.size a ≤ S16x128.size a
  h_S16x128 : 0 < S16x128.numel
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  shapeCasts_S2000x128_S2000x128 : S2000x128.ShapeCasts S2000x128
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128x128_S128x128 : S128x128.ShapeCasts S128x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S2x384x128_S1x384x128_0_0_0 : S2x384x128.Slices ![0, 0, 0] S1x384x128
  shapeCasts_S1x384x128_S384x128 : S1x384x128.ShapeCasts S384x128
  slices_S384x128_S128x128_0_0 : S384x128.Slices ![0, 0] S128x128
  slices_S384x128_S128x128_128_0 : S384x128.Slices ![128, 0] S128x128
  slices_S384x128_S128x128_256_0 : S384x128.Slices ![256, 0] S128x128
  slices_S2x128x128_S1x128x128_1_0_0 : S2x128x128.Slices ![1, 0, 0] S1x128x128
  slices_S2x128_S1x128_1_0 : S2x128.Slices ![1, 0] S1x128
  slices_S2x384x128_S1x384x128_1_0_0 : S2x384x128.Slices ![1, 0, 0] S1x384x128
  slices_S384x50_S128x50_0_0 : S384x50.Slices ![0, 0] S128x50
  slices_S384x50_S128x50_128_0 : S384x50.Slices ![128, 0] S128x50
  slices_S384x50_S128x50_256_0 : S384x50.Slices ![256, 0] S128x50
  shapeCasts_S50_S1x50 : S50.ShapeCasts S1x50
  shapeCasts_S25_S1x25 : S25.ShapeCasts S1x25
  shapeCasts_S2_S1x2 : S2.ShapeCasts S1x2
  inb_S128x50_S128x50_0_0 : ∀ a, (![0, 0] : Fin 2 → Nat) a + S128x50.size a ≤ S128x50.size a
  h_S128x50 : 0 < S128x50.numel
  shapeCasts_S128x50_S128x50 : S128x50.ShapeCasts S128x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S2000x50 : S1x50.Broadcasts S2000x50
  inb_S50x25_S50x25_0_0 : ∀ a, (![0, 0] : Fin 2 → Nat) a + S50x25.size a ≤ S50x25.size a
  h_S50x25 : 0 < S50x25.numel
  inb_S1x25_S1x25_0_0 : ∀ a, (![0, 0] : Fin 2 → Nat) a + S1x25.size a ≤ S1x25.size a
  h_S1x25 : 0 < S1x25.numel
  shapeCasts_S1x25_S1x25 : S1x25.ShapeCasts S1x25
  broadcasts_S1x25_S2000x25 : S1x25.Broadcasts S2000x25
  inb_S25x2_S25x2_0_0 : ∀ a, (![0, 0] : Fin 2 → Nat) a + S25x2.size a ≤ S25x2.size a
  h_S25x2 : 0 < S25x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  dot_S2000x128_S128x128_S2000x128_1_0_0_1_n_n_wf : DotDims.WF S2000x128 S128x128 S2000x128 [1] [0] [0] [1] [] []
  dot_S2000x16_S16x128_S2000x128_1_0_0_1_n_n_wf : DotDims.WF S2000x16 S16x128 S2000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S2000x128_S128x50_S2000x50_1_0_0_1_n_n_wf : DotDims.WF S2000x128 S128x50 S2000x50 [1] [0] [0] [1] [] []
  dot_S2000x50_S50x25_S2000x25_1_0_0_1_n_n_wf : DotDims.WF S2000x50 S50x25 S2000x25 [1] [0] [0] [1] [] []
  dot_S2000x25_S25x2_S2000x2_1_0_0_1_n_n_wf : DotDims.WF S2000x25 S25x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S500000x16.size a
  hwx1_0 : ∀ i : grid1.Coords, EltTy.bits .f32 = 32 ∨ (Rect.block (s := S500000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S500000x128.size a
  hwx1_3 : ∀ i : grid1.Coords, EltTy.bits .f32 = 32 ∨ (Rect.block (s := S500000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S500000x128.size a
  hwx2_0 : ∀ i : grid2.Coords, EltTy.bits .f32 = 32 ∨ (Rect.block (s := S500000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S500000x128.size a
  hwx2_1 : ∀ i : grid2.Coords, EltTy.bits .f32 = 32 ∨ (Rect.block (s := S500000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S500000x128.size a
  hwx2_2 : ∀ i : grid2.Coords, EltTy.bits .f32 = 32 ∨ (Rect.block (s := S500000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S500000x128.size a
  hwx5_0 : ∀ i : grid5.Coords, EltTy.bits .f32 = 32 ∨ (Rect.block (s := S500000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S500000x128.size a
  hwx5_1 : ∀ i : grid5.Coords, EltTy.bits .f32 = 32 ∨ (Rect.block (s := S500000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S500000x128.size a
  hwx5_2 : ∀ i : grid5.Coords, EltTy.bits .f32 = 32 ∨ (Rect.block (s := S500000x128) S2000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128x128.size a ≤ S128x128.size a
  hwx5_7 : ∀ i : grid5.Coords, EltTy.bits .f32 = 32 ∨ (Rect.block (s := S128x128) S128x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S2000x128.size a ≤ S500000x128.size a
  hwx5_9 : ∀ i : grid5.Coords, EltTy.bits .f32 = 32 ∨ (Rect.block (s := S500000x128) S2000x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S500000x128.size a
  hwx6_0 : ∀ i : grid6.Coords, EltTy.bits .f32 = 32 ∨ (Rect.block (s := S500000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S500000x128.size a
  hwx6_1 : ∀ i : grid6.Coords, EltTy.bits .f32 = 32 ∨ (Rect.block (s := S500000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S500000x128.size a
  hwx6_2 : ∀ i : grid6.Coords, EltTy.bits .f32 = 32 ∨ (Rect.block (s := S500000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .f32 = 32 ∨ (Rect.block (s := S50000x128) S2000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x128.size a ≤ S50000x128.size a
  hwx7_6 : ∀ i : grid7.Coords, EltTy.bits .f32 = 32 ∨ (Rect.block (s := S50000x128) S2000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S50000x128.size a
  hwx8_1 : ∀ i : grid8.Coords, EltTy.bits .f32 = 32 ∨ (Rect.block (s := S50000x128) S2000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S2000x128.size a ≤ S50000x128.size a
  hwx8_6 : ∀ i : grid8.Coords, EltTy.bits .f32 = 32 ∨ (Rect.block (s := S50000x128) S2000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S500000x128.size a
  hwx9_0 : ∀ i : grid9.Coords, EltTy.bits .f32 = 32 ∨ (Rect.block (s := S500000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S500000x128.size a
  hwx9_1 : ∀ i : grid9.Coords, EltTy.bits .f32 = 32 ∨ (Rect.block (s := S500000x128) S2000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x128.size a ≤ S500000x128.size a
  hwx9_2 : ∀ i : grid9.Coords, EltTy.bits .f32 = 32 ∨ (Rect.block (s := S500000x128) S2000x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128x128.size a ≤ S128x128.size a
  hwx9_4 : ∀ i : grid9.Coords, EltTy.bits .f32 = 32 ∨ (Rect.block (s := S128x128) S128x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x128.size a ≤ S128x128.size a
  hwx9_5 : ∀ i : grid9.Coords, EltTy.bits .f32 = 32 ∨ (Rect.block (s := S128x128) S128x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S128x128.size a ≤ S128x128.size a
  hwx9_7 : ∀ i : grid9.Coords, EltTy.bits .f32 = 32 ∨ (Rect.block (s := S128x128) S128x128.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x128.size a ≤ S1x128.size a
  hwx9_8 : ∀ i : grid9.Coords, EltTy.bits .f32 = 32 ∨ (Rect.block (s := S1x128) S1x128.size (cc9_transform_8 i) (hinb9_8 i)).WholeWords (EltTy.packing .f32)
  hstage9_9 : ∀ j, (stage9_9 j).IsWhole
  nbuf9_9 : grid9.bufCount reads9_9 false = 2
  hreads9_9 : ∀ i i' : grid9.Coords, (∀ a, reads9_9 a = true → i a = i' a) → cc9_transform_9 i = cc9_transform_9 i'
  hinb9_9 : ∀ (i : grid9.Coords) a, (cc9_transform_9 i a + 1) * S2000x128.size a ≤ S500000x128.size a
  hwx9_9 : ∀ i : grid9.Coords, EltTy.bits .f32 = 32 ∨ (Rect.block (s := S500000x128) S2000x128.size (cc9_transform_9 i) (hinb9_9 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S500000x128.size a
  hwx10_0 : ∀ i : grid10.Coords, EltTy.bits .f32 = 32 ∨ (Rect.block (s := S500000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x128.size a ≤ S500000x128.size a
  hwx10_1 : ∀ i : grid10.Coords, EltTy.bits .f32 = 32 ∨ (Rect.block (s := S500000x128) S2000x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x128.size a ≤ S500000x128.size a
  hwx10_2 : ∀ i : grid10.Coords, EltTy.bits .f32 = 32 ∨ (Rect.block (s := S500000x128) S2000x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x50.size a ≤ S128x50.size a
  hwx10_3 : ∀ i : grid10.Coords, EltTy.bits .f32 = 32 ∨ (Rect.block (s := S128x50) S128x50.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S128x50.size a ≤ S128x50.size a
  hwx10_4 : ∀ i : grid10.Coords, EltTy.bits .f32 = 32 ∨ (Rect.block (s := S128x50) S128x50.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x50.size a ≤ S128x50.size a
  hwx10_5 : ∀ i : grid10.Coords, EltTy.bits .f32 = 32 ∨ (Rect.block (s := S128x50) S128x50.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x50.size a ≤ S1x50.size a
  hwx10_6 : ∀ i : grid10.Coords, EltTy.bits .f32 = 32 ∨ (Rect.block (s := S1x50) S1x50.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S50x25.size a ≤ S50x25.size a
  hwx10_7 : ∀ i : grid10.Coords, EltTy.bits .f32 = 32 ∨ (Rect.block (s := S50x25) S50x25.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x25.size a ≤ S1x25.size a
  hwx10_8 : ∀ i : grid10.Coords, EltTy.bits .f32 = 32 ∨ (Rect.block (s := S1x25) S1x25.size (cc10_transform_8 i) (hinb10_8 i)).WholeWords (EltTy.packing .f32)
  hstage10_9 : ∀ j, (stage10_9 j).IsWhole
  nbuf10_9 : grid10.bufCount reads10_9 true = 1
  hreads10_9 : ∀ i i' : grid10.Coords, (∀ a, reads10_9 a = true → i a = i' a) → cc10_transform_9 i = cc10_transform_9 i'
  hinb10_9 : ∀ (i : grid10.Coords) a, (cc10_transform_9 i a + 1) * S25x2.size a ≤ S25x2.size a
  hwx10_9 : ∀ i : grid10.Coords, EltTy.bits .f32 = 32 ∨ (Rect.block (s := S25x2) S25x2.size (cc10_transform_9 i) (hinb10_9 i)).WholeWords (EltTy.packing .f32)
  hstage10_10 : ∀ j, (stage10_10 j).IsWhole
  nbuf10_10 : grid10.bufCount reads10_10 true = 1
  hreads10_10 : ∀ i i' : grid10.Coords, (∀ a, reads10_10 a = true → i a = i' a) → cc10_transform_10 i = cc10_transform_10 i'
  hinb10_10 : ∀ (i : grid10.Coords) a, (cc10_transform_10 i a + 1) * S1x2.size a ≤ S1x2.size a
  hwx10_10 : ∀ i : grid10.Coords, EltTy.bits .f32 = 32 ∨ (Rect.block (s := S1x2) S1x2.size (cc10_transform_10 i) (hinb10_10 i)).WholeWords (EltTy.packing .f32)
  hstage10_11 : ∀ j, (stage10_11 j).IsWhole
  nbuf10_11 : grid10.bufCount reads10_11 false = 2
  hreads10_11 : ∀ i i' : grid10.Coords, (∀ a, reads10_11 a = true → i a = i' a) → cc10_transform_11 i = cc10_transform_11 i'
  hinb10_11 : ∀ (i : grid10.Coords) a, (cc10_transform_11 i a + 1) * S2000x2.size a ≤ S500000x2.size a
  hwx10_11 : ∀ i : grid10.Coords, EltTy.bits .f32 = 32 ∨ (Rect.block (s := S500000x2) S2000x2.size (cc10_transform_11 i) (hinb10_11 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x16_S16x128_S2000x128_1_0_0_1_n_n : DotDims S2000x16 S16x128 S2000x128 where
  lhsContracting := [1]
  rhsContracting := [0]
  lhsNonContracting := [0]
  rhsNonContracting := [1]
  lhsBatch := []
  rhsBatch := []
  wf := dot_S2000x16_S16x128_S2000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x128_S128x50_S2000x50_1_0_0_1_n_n : DotDims S2000x128 S128x50 S2000x50 where
  lhsContracting := [1]
  rhsContracting := [0]
  lhsNonContracting := [0]
  rhsNonContracting := [1]
  lhsBatch := []
  rhsBatch := []
  wf := dot_S2000x128_S128x50_S2000x50_1_0_0_1_n_n_wf
def dot_S2000x50_S50x25_S2000x25_1_0_0_1_n_n : DotDims S2000x50 S50x25 S2000x25 where
  lhsContracting := [1]
  rhsContracting := [0]
  lhsNonContracting := [0]
  rhsNonContracting := [1]
  lhsBatch := []
  rhsBatch := []
  wf := dot_S2000x50_S50x25_S2000x25_1_0_0_1_n_n_wf
def dot_S2000x25_S25x2_S2000x2_1_0_0_1_n_n : DotDims S2000x25 S25x2 S2000x2 where
  lhsContracting := [1]
  rhsContracting := [0]
  lhsNonContracting := [0]
  rhsNonContracting := [1]
  lhsBatch := []
  rhsBatch := []
  wf := dot_S2000x25_S25x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v5) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v18) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v22) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v23) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v5) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v32) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v33) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v34) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v35) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v36) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v37) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v7) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v41) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v42) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v43) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v50) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v47) S128x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v51) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v52) S2000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v53) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v52) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v54) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v36) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v57) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v59) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v66) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v63) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v67) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v68) S2000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v36) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v68) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v77) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v78) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v79) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v80) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v81) S2000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v82) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v83) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v52) S2000x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v86) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v87) S128x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v88) S128x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v95) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v92) S128x128.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v96) S1x128.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v97) S2000x128.size cc9_transform_9 reads9_9 true false 2 stage9_9 sem9_9
    hrank9 hreads9_9 hinb9_9 nbuf9_9 (Memref.isWhole_whole _) hwx9_9 hstage9_9

abbrev win9 : Fin 10 → Pipeline.Window sig grid9 := fun | 0 => win9_0 | 1 => win9_1 | 2 => win9_2 | 3 => win9_3 | 4 => win9_4 | 5 => win9_5 | 6 => win9_6 | 7 => win9_7 | 8 => win9_8 | 9 => win9_9 | ⟨_ + 10, h⟩ => absurd h (Nat.not_lt.2 (Nat.le_add_left _ _))
abbrev spec9 : Fin 10 → Pipeline.WinSpec sig grid9.rank := fun w => (win9 w).toWinSpec

abbrev win10_0 : Pipeline.Window sig grid10 :=
  Pipeline.Window.ofSpec (Memref.whole main_v98) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v99) S2000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v97) S2000x128.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v100) S128x50.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v101) S128x50.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v102) S128x50.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v103) S1x50.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_arg18) S50x25.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v104) S1x25.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_arg20) S25x2.size cc10_transform_9 reads10_9 false true 1 stage10_9 sem10_9
    hrank10 hreads10_9 hinb10_9 nbuf10_9 (Memref.isWhole_whole _) hwx10_9 hstage10_9

abbrev win10_10 : Pipeline.Window sig grid10 :=
  Pipeline.Window.ofSpec (Memref.whole main_v105) S1x2.size cc10_transform_10 reads10_10 false true 1 stage10_10 sem10_10
    hrank10 hreads10_10 hinb10_10 nbuf10_10 (Memref.isWhole_whole _) hwx10_10 hstage10_10

abbrev win10_11 : Pipeline.Window sig grid10 :=
  Pipeline.Window.ofSpec (Memref.whole main_v106) S2000x2.size cc10_transform_11 reads10_11 true false 2 stage10_11 sem10_11
    hrank10 hreads10_11 hinb10_11 nbuf10_11 (Memref.isWhole_whole _) hwx10_11 hstage10_11

abbrev win10 : Fin 12 → Pipeline.Window sig grid10 := fun | 0 => win10_0 | 1 => win10_1 | 2 => win10_2 | 3 => win10_3 | 4 => win10_4 | 5 => win10_5 | 6 => win10_6 | 7 => win10_7 | 8 => win10_8 | 9 => win10_9 | 10 => win10_10 | 11 => win10_11 | ⟨_ + 12, h⟩ => absurd h (Nat.not_lt.2 (Nat.le_add_left _ _))
abbrev spec10 : Fin 12 → Pipeline.WinSpec sig grid10.rank := fun w => (win10 w).toWinSpec

class Facts : Prop extends Facts₀ where

variable [Facts]
-- ==== ReferenceIdeal.lean ====
abbrev S50000x128 : Shape := ⟨2, ![50000, 128]⟩
abbrev S500000x16 : Shape := ⟨2, ![500000, 16]⟩
abbrev S128x128 : Shape := ⟨2, ![128, 128]⟩
abbrev S128 : Shape := ⟨1, ![128]⟩
abbrev S16x128 : Shape := ⟨2, ![16, 128]⟩
abbrev S2x128x128 : Shape := ⟨3, ![2, 128, 128]⟩
abbrev S2x128 : Shape := ⟨2, ![2, 128]⟩
abbrev S2x384x128 : Shape := ⟨3, ![2, 384, 128]⟩
abbrev S384x50 : Shape := ⟨2, ![384, 50]⟩
abbrev S50 : Shape := ⟨1, ![50]⟩
abbrev S50x25 : Shape := ⟨2, ![50, 25]⟩
abbrev S25 : Shape := ⟨1, ![25]⟩
abbrev S25x2 : Shape := ⟨2, ![25, 2]⟩
abbrev S2 : Shape := ⟨1, ![2]⟩
abbrev S2x500000 : Shape := ⟨2, ![2, 500000]⟩
abbrev S1x500000 : Shape := ⟨2, ![1, 500000]⟩
abbrev S500000 : Shape := ⟨1, ![500000]⟩
abbrev S1x128 : Shape := ⟨2, ![1, 128]⟩
abbrev S500000x128 : Shape := ⟨2, ![500000, 128]⟩
abbrev S_ : Shape := ⟨0, ![]⟩
abbrev S500000x1 : Shape := ⟨2, ![500000, 1]⟩
abbrev S1x128x128 : Shape := ⟨3, ![1, 128, 128]⟩
abbrev S500000x384 : Shape := ⟨2, ![500000, 384]⟩
abbrev S1x384x128 : Shape := ⟨3, ![1, 384, 128]⟩
abbrev S384x128 : Shape := ⟨2, ![384, 128]⟩
abbrev S500000x50 : Shape := ⟨2, ![500000, 50]⟩
abbrev S1x50 : Shape := ⟨2, ![1, 50]⟩
abbrev S500000x25 : Shape := ⟨2, ![500000, 25]⟩
abbrev S1x25 : Shape := ⟨2, ![1, 25]⟩
abbrev S500000x2 : Shape := ⟨2, ![500000, 2]⟩
abbrev S1x2 : Shape := ⟨2, ![1, 2]⟩

abbrev nBuf : Space → Nat
  | .hbm => 340
  | .vmem => 0
  | .smem => 0
  | _ => 0

abbrev hbmTy0_0 (i : Nat) : BufTy := match i % 128 with
  | 0 => ⟨S50000x128, .f32⟩
  | 1 => ⟨S500000x16, .f32⟩
  | 2 => ⟨S128x128, .f32⟩
  | 3 => ⟨S128, .f32⟩
  | 4 => ⟨S16x128, .f32⟩
  | 5 => ⟨S128, .f32⟩
  | 6 => ⟨S2x128x128, .f32⟩
  | 7 => ⟨S2x128, .f32⟩
  | 8 => ⟨S2x128x128, .f32⟩
  | 9 => ⟨S2x128, .f32⟩
  | 10 => ⟨S2x128, .f32⟩
  | 11 => ⟨S2x128, .f32⟩
  | 12 => ⟨S2x384x128, .f32⟩
  | 13 => ⟨S2x128, .f32⟩
  | 14 => ⟨S2x128x128, .f32⟩
  | 15 => ⟨S2x128, .f32⟩
  | 16 => ⟨S384x50, .f32⟩
  | 17 => ⟨S50, .f32⟩
  | 18 => ⟨S50x25, .f32⟩
  | 19 => ⟨S25, .f32⟩
  | 20 => ⟨S25x2, .f32⟩
  | 21 => ⟨S2, .f32⟩
  | 22 => ⟨S2x500000, .i32⟩
  | 23 => ⟨S1x500000, .i32⟩
  | 24 => ⟨S500000, .i32⟩
  | 25 => ⟨S1x500000, .i32⟩
  | 26 => ⟨S500000, .i32⟩
  | 27 => ⟨S50000x128, .f32⟩
  | 28 => ⟨S1x128, .f32⟩
  | 29 => ⟨S50000x128, .f32⟩
  | 30 => ⟨S50000x128, .f32⟩
  | 31 => ⟨S500000x128, .f32⟩
  | 32 => ⟨S1x128, .f32⟩
  | 33 => ⟨S500000x128, .f32⟩
  | 34 => ⟨S500000x128, .f32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S500000x128, .f32⟩
  | 44 => ⟨S500000x128, .f32⟩
  | 45 => ⟨S_, .f32⟩
  | 46 => ⟨S500000x128, .f32⟩
  | 47 => ⟨S500000x128, .f32⟩
  | 48 => ⟨S_, .f32⟩
  | 49 => ⟨S50000x128, .f32⟩
  | 50 => ⟨S500000x1, .i32⟩
  | 51 => ⟨S50000x128, .f32⟩
  | 52 => ⟨S50000x128, .f32⟩
  | 53 => ⟨S1x128x128, .f32⟩
  | 54 => ⟨S128x128, .f32⟩
  | 55 => ⟨S50000x128, .f32⟩
  | 56 => ⟨S1x128, .f32⟩
  | 57 => ⟨S128, .f32⟩
  | 58 => ⟨S1x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S1x128x128, .f32⟩
  | 65 => ⟨S128x128, .f32⟩
  | 66 => ⟨S50000x128, .f32⟩
  | 67 => ⟨S1x128, .f32⟩
  | 68 => ⟨S128, .f32⟩
  | 69 => ⟨S1x128, .f32⟩
  | 70 => ⟨S50000x128, .f32⟩
  | 71 => ⟨S50000x128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S50000x128, .f32⟩
  | 85 => ⟨S50000x128, .f32⟩
  | 86 => ⟨S50000x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S128, .f32⟩
  | 102 => ⟨S1x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S128, .f32⟩
  | 110 => ⟨S128, .f32⟩
  | 111 => ⟨S128, .f32⟩
  | 112 => ⟨S1x128, .f32⟩
  | 113 => ⟨S50000x128, .f32⟩
  | 114 => ⟨S50000x128, .f32⟩
  | 115 => ⟨S1x128, .f32⟩
  | 116 => ⟨S128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S_, .i32⟩
  | _ => ⟨S50000x128, .f32⟩

abbrev hbmTy0_1 (i : Nat) : BufTy := match i % 128 with
  | 0 => ⟨S500000, .i32⟩
  | 1 => ⟨S500000, .i1⟩
  | 2 => ⟨S_, .i32⟩
  | 3 => ⟨S500000, .i32⟩
  | 4 => ⟨S500000, .i32⟩
  | 5 => ⟨S500000, .i32⟩
  | 6 => ⟨S500000x1, .i32⟩
  | 7 => ⟨S500000x128, .f32⟩
  | 8 => ⟨S_, .i32⟩
  | 9 => ⟨S500000, .i32⟩
  | 10 => ⟨S500000, .i1⟩
  | 11 => ⟨S_, .i32⟩
  | 12 => ⟨S500000, .i32⟩
  | 13 => ⟨S500000, .i32⟩
  | 14 => ⟨S500000, .i32⟩
  | 15 => ⟨S500000x1, .i32⟩
  | 16 => ⟨S500000x128, .f32⟩
  | 17 => ⟨S500000x384, .f32⟩
  | 18 => ⟨S1x384x128, .f32⟩
  | 19 => ⟨S384x128, .f32⟩
  | 20 => ⟨S500000x128, .f32⟩
  | 21 => ⟨S1x128, .f32⟩
  | 22 => ⟨S128, .f32⟩
  | 23 => ⟨S1x128, .f32⟩
  | 24 => ⟨S500000x128, .f32⟩
  | 25 => ⟨S500000x128, .f32⟩
  | 26 => ⟨S_, .f32⟩
  | 27 => ⟨S500000x128, .f32⟩
  | 28 => ⟨S500000x128, .f32⟩
  | 29 => ⟨S1x128x128, .f32⟩
  | 30 => ⟨S128x128, .f32⟩
  | 31 => ⟨S500000x128, .f32⟩
  | 32 => ⟨S1x128, .f32⟩
  | 33 => ⟨S128, .f32⟩
  | 34 => ⟨S1x128, .f32⟩
  | 35 => ⟨S500000x128, .f32⟩
  | 36 => ⟨S500000x128, .f32⟩
  | 37 => ⟨S_, .f32⟩
  | 38 => ⟨S500000x128, .f32⟩
  | 39 => ⟨S500000x128, .f32⟩
  | 40 => ⟨S500000x128, .f32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000x128, .f32⟩
  | 50 => ⟨S500000x128, .f32⟩
  | 51 => ⟨S_, .f32⟩
  | 52 => ⟨S500000x128, .f32⟩
  | 53 => ⟨S500000x128, .f32⟩
  | 54 => ⟨S_, .f32⟩
  | 55 => ⟨S50000x128, .f32⟩
  | 56 => ⟨S500000x1, .i32⟩
  | 57 => ⟨S50000x128, .f32⟩
  | 58 => ⟨S50000x128, .f32⟩
  | 59 => ⟨S1x128x128, .f32⟩
  | 60 => ⟨S128x128, .f32⟩
  | 61 => ⟨S50000x128, .f32⟩
  | 62 => ⟨S1x128, .f32⟩
  | 63 => ⟨S128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S1x128x128, .f32⟩
  | 71 => ⟨S128x128, .f32⟩
  | 72 => ⟨S50000x128, .f32⟩
  | 73 => ⟨S1x128, .f32⟩
  | 74 => ⟨S128, .f32⟩
  | 75 => ⟨S1x128, .f32⟩
  | 76 => ⟨S50000x128, .f32⟩
  | 77 => ⟨S50000x128, .f32⟩
  | 78 => ⟨S_, .f32⟩
  | 79 => ⟨S128, .f32⟩
  | 80 => ⟨S_, .f32⟩
  | 81 => ⟨S128, .f32⟩
  | 82 => ⟨S128, .f32⟩
  | 83 => ⟨S_, .i32⟩
  | 84 => ⟨S_, .f32⟩
  | 85 => ⟨S128, .f32⟩
  | 86 => ⟨S1x128, .f32⟩
  | 87 => ⟨S_, .f32⟩
  | 88 => ⟨S1x128, .f32⟩
  | 89 => ⟨S1x128, .f32⟩
  | 90 => ⟨S50000x128, .f32⟩
  | 91 => ⟨S50000x128, .f32⟩
  | 92 => ⟨S50000x128, .f32⟩
  | 93 => ⟨S_, .f32⟩
  | 94 => ⟨S_, .f32⟩
  | 95 => ⟨S_, .f32⟩
  | 96 => ⟨S_, .f32⟩
  | 97 => ⟨S128, .f32⟩
  | 98 => ⟨S128, .f32⟩
  | 99 => ⟨S128, .f32⟩
  | 100 => ⟨S_, .f32⟩
  | 101 => ⟨S_, .i1⟩
  | 102 => ⟨S_, .f32⟩
  | 103 => ⟨S_, .f32⟩
  | 104 => ⟨S128, .f32⟩
  | 105 => ⟨S128, .f32⟩
  | 106 => ⟨S1x128, .f32⟩
  | 107 => ⟨S128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S128, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S1x128, .f32⟩
  | 122 => ⟨S128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_2 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S_, .i32⟩
  | 6 => ⟨S500000, .i32⟩
  | 7 => ⟨S500000, .i1⟩
  | 8 => ⟨S_, .i32⟩
  | 9 => ⟨S500000, .i32⟩
  | 10 => ⟨S500000, .i32⟩
  | 11 => ⟨S500000, .i32⟩
  | 12 => ⟨S500000x1, .i32⟩
  | 13 => ⟨S500000x128, .f32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S500000x128, .f32⟩
  | 23 => ⟨S500000x384, .f32⟩
  | 24 => ⟨S1x384x128, .f32⟩
  | 25 => ⟨S384x128, .f32⟩
  | 26 => ⟨S500000x128, .f32⟩
  | 27 => ⟨S1x128, .f32⟩
  | 28 => ⟨S128, .f32⟩
  | 29 => ⟨S1x128, .f32⟩
  | 30 => ⟨S500000x128, .f32⟩
  | 31 => ⟨S500000x128, .f32⟩
  | 32 => ⟨S_, .f32⟩
  | 33 => ⟨S500000x128, .f32⟩
  | 34 => ⟨S500000x128, .f32⟩
  | 35 => ⟨S1x128x128, .f32⟩
  | 36 => ⟨S128x128, .f32⟩
  | 37 => ⟨S500000x128, .f32⟩
  | 38 => ⟨S1x128, .f32⟩
  | 39 => ⟨S128, .f32⟩
  | 40 => ⟨S1x128, .f32⟩
  | 41 => ⟨S500000x128, .f32⟩
  | 42 => ⟨S500000x128, .f32⟩
  | 43 => ⟨S_, .f32⟩
  | 44 => ⟨S500000x128, .f32⟩
  | 45 => ⟨S500000x128, .f32⟩
  | 46 => ⟨S500000x128, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x128, .f32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x128, .f32⟩
  | 65 => ⟨S500000x384, .f32⟩
  | 66 => ⟨S500000x50, .f32⟩
  | 67 => ⟨S1x50, .f32⟩
  | 68 => ⟨S500000x50, .f32⟩
  | 69 => ⟨S500000x50, .f32⟩
  | 70 => ⟨S_, .f32⟩
  | 71 => ⟨S500000x50, .f32⟩
  | 72 => ⟨S500000x50, .f32⟩
  | 73 => ⟨S500000x25, .f32⟩
  | 74 => ⟨S1x25, .f32⟩
  | 75 => ⟨S500000x25, .f32⟩
  | 76 => ⟨S500000x25, .f32⟩
  | 77 => ⟨S_, .f32⟩
  | 78 => ⟨S500000x25, .f32⟩
  | 79 => ⟨S500000x25, .f32⟩
  | 80 => ⟨S500000x2, .f32⟩
  | 81 => ⟨S1x2, .f32⟩
  | 82 => ⟨S500000x2, .f32⟩
  | 83 => ⟨S500000x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call0_cst : Ref sig .tc := ⟨.hbm, 45, rfl⟩
abbrev main_call0_v0 : Ref sig .tc := ⟨.hbm, 46, rfl⟩
abbrev main_v20 : Ref sig .tc := ⟨.hbm, 47, rfl⟩
abbrev main_cst : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call1_cst : Ref sig .tc := ⟨.hbm, 61, rfl⟩
abbrev main_call1_v0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_1 : Ref sig .tc := ⟨.hbm, 72, rfl⟩
abbrev main_v42 : Ref sig .tc := ⟨.hbm, 73, rfl⟩
abbrev main_cst_2 : Ref sig .tc := ⟨.hbm, 74, rfl⟩
abbrev main_v43 : Ref sig .tc := ⟨.hbm, 75, rfl⟩
abbrev main_v44 : Ref sig .tc := ⟨.hbm, 76, rfl⟩
abbrev main_c_3 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_cst_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_cst_1 : Ref sig .tc := ⟨.hbm, 88, rfl⟩
abbrev main_call2_v8 : Ref sig .tc := ⟨.hbm, 89, rfl⟩
abbrev main_call2_cst_2 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_cst_3 : Ref sig .tc := ⟨.hbm, 94, rfl⟩
abbrev main_call2_v12 : Ref sig .tc := ⟨.hbm, 95, rfl⟩
abbrev main_call2_cst_4 : Ref sig .tc := ⟨.hbm, 96, rfl⟩
abbrev main_call2_call0_v0 : Ref sig .tc := ⟨.hbm, 97, rfl⟩
abbrev main_call2_call0_v1 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_4 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_call3_cst : Ref sig .tc := ⟨.hbm, 120, rfl⟩
abbrev main_call3_v0 : Ref sig .tc := ⟨.hbm, 121, rfl⟩
abbrev main_v65 : Ref sig .tc := ⟨.hbm, 122, rfl⟩
abbrev main_v66 : Ref sig .tc := ⟨.hbm, 123, rfl⟩
abbrev main_cst_5 : Ref sig .tc := ⟨.hbm, 124, rfl⟩
abbrev main_v67 : Ref sig .tc := ⟨.hbm, 125, rfl⟩
abbrev main_v68 : Ref sig .tc := ⟨.hbm, 126, rfl⟩
abbrev main_c_6 : Ref sig .tc := ⟨.hbm, 127, rfl⟩
abbrev main_v69 : Ref sig .tc := ⟨.hbm, 128, rfl⟩
abbrev main_v70 : Ref sig .tc := ⟨.hbm, 129, rfl⟩
abbrev main_c_7 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_c_8 : Ref sig .tc := ⟨.hbm, 136, rfl⟩
abbrev main_v76 : Ref sig .tc := ⟨.hbm, 137, rfl⟩
abbrev main_v77 : Ref sig .tc := ⟨.hbm, 138, rfl⟩
abbrev main_c_9 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_call4_cst : Ref sig .tc := ⟨.hbm, 154, rfl⟩
abbrev main_call4_v0 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_cst_10 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_c_11 : Ref sig .tc := ⟨.hbm, 169, rfl⟩
abbrev main_v104 : Ref sig .tc := ⟨.hbm, 170, rfl⟩
abbrev main_v105 : Ref sig .tc := ⟨.hbm, 171, rfl⟩
abbrev main_c_12 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_call5_cst : Ref sig .tc := ⟨.hbm, 179, rfl⟩
abbrev main_call5_v0 : Ref sig .tc := ⟨.hbm, 180, rfl⟩
abbrev main_v112 : Ref sig .tc := ⟨.hbm, 181, rfl⟩
abbrev main_cst_13 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_call6_cst : Ref sig .tc := ⟨.hbm, 195, rfl⟩
abbrev main_call6_v0 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_cst_14 : Ref sig .tc := ⟨.hbm, 206, rfl⟩
abbrev main_v134 : Ref sig .tc := ⟨.hbm, 207, rfl⟩
abbrev main_cst_15 : Ref sig .tc := ⟨.hbm, 208, rfl⟩
abbrev main_v135 : Ref sig .tc := ⟨.hbm, 209, rfl⟩
abbrev main_v136 : Ref sig .tc := ⟨.hbm, 210, rfl⟩
abbrev main_c_16 : Ref sig .tc := ⟨.hbm, 211, rfl⟩
abbrev main_call7_cst : Ref sig .tc := ⟨.hbm, 212, rfl⟩
abbrev main_call7_v0 : Ref sig .tc := ⟨.hbm, 213, rfl⟩
abbrev main_call7_v1 : Ref sig .tc := ⟨.hbm, 214, rfl⟩
abbrev main_call7_cst_0 : Ref sig .tc := ⟨.hbm, 215, rfl⟩
abbrev main_call7_v2 : Ref sig .tc := ⟨.hbm, 216, rfl⟩
abbrev main_call7_v3 : Ref sig .tc := ⟨.hbm, 217, rfl⟩
abbrev main_call7_v4 : Ref sig .tc := ⟨.hbm, 218, rfl⟩
abbrev main_call7_v5 : Ref sig .tc := ⟨.hbm, 219, rfl⟩
abbrev main_call7_v6 : Ref sig .tc := ⟨.hbm, 220, rfl⟩
abbrev main_call7_v7 : Ref sig .tc := ⟨.hbm, 221, rfl⟩
abbrev main_call7_cst_1 : Ref sig .tc := ⟨.hbm, 222, rfl⟩
abbrev main_call7_v8 : Ref sig .tc := ⟨.hbm, 223, rfl⟩
abbrev main_call7_cst_2 : Ref sig .tc := ⟨.hbm, 224, rfl⟩
abbrev main_call7_v9 : Ref sig .tc := ⟨.hbm, 225, rfl⟩
abbrev main_call7_v10 : Ref sig .tc := ⟨.hbm, 226, rfl⟩
abbrev main_call7_v11 : Ref sig .tc := ⟨.hbm, 227, rfl⟩
abbrev main_call7_cst_3 : Ref sig .tc := ⟨.hbm, 228, rfl⟩
abbrev main_call7_v12 : Ref sig .tc := ⟨.hbm, 229, rfl⟩
abbrev main_call7_cst_4 : Ref sig .tc := ⟨.hbm, 230, rfl⟩
abbrev main_call7_call0_v0 : Ref sig .tc := ⟨.hbm, 231, rfl⟩
abbrev main_call7_call0_v1 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_cst_17 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_call8_cst : Ref sig .tc := ⟨.hbm, 254, rfl⟩
abbrev main_call8_v0 : Ref sig .tc := ⟨.hbm, 255, rfl⟩
abbrev main_v157 : Ref sig .tc := ⟨.hbm, 256, rfl⟩
abbrev main_v158 : Ref sig .tc := ⟨.hbm, 257, rfl⟩
abbrev main_cst_18 : Ref sig .tc := ⟨.hbm, 258, rfl⟩
abbrev main_v159 : Ref sig .tc := ⟨.hbm, 259, rfl⟩
abbrev main_v160 : Ref sig .tc := ⟨.hbm, 260, rfl⟩
abbrev main_c_19 : Ref sig .tc := ⟨.hbm, 261, rfl⟩
abbrev main_v161 : Ref sig .tc := ⟨.hbm, 262, rfl⟩
abbrev main_v162 : Ref sig .tc := ⟨.hbm, 263, rfl⟩
abbrev main_c_20 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_v167 : Ref sig .tc := ⟨.hbm, 269, rfl⟩
abbrev main_c_21 : Ref sig .tc := ⟨.hbm, 270, rfl⟩
abbrev main_v168 : Ref sig .tc := ⟨.hbm, 271, rfl⟩
abbrev main_v169 : Ref sig .tc := ⟨.hbm, 272, rfl⟩
abbrev main_c_22 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_call9_cst : Ref sig .tc := ⟨.hbm, 288, rfl⟩
abbrev main_call9_v0 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_cst_23 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_c_24 : Ref sig .tc := ⟨.hbm, 303, rfl⟩
abbrev main_v196 : Ref sig .tc := ⟨.hbm, 304, rfl⟩
abbrev main_v197 : Ref sig .tc := ⟨.hbm, 305, rfl⟩
abbrev main_c_25 : Ref sig .tc := ⟨.hbm, 306, rfl⟩
abbrev main_v198 : Ref sig .tc := ⟨.hbm, 307, rfl⟩
abbrev main_v199 : Ref sig .tc := ⟨.hbm, 308, rfl⟩
abbrev main_v200 : Ref sig .tc := ⟨.hbm, 309, rfl⟩
abbrev main_v201 : Ref sig .tc := ⟨.hbm, 310, rfl⟩
abbrev main_v202 : Ref sig .tc := ⟨.hbm, 311, rfl⟩
abbrev main_c_26 : Ref sig .tc := ⟨.hbm, 312, rfl⟩
abbrev main_v203 : Ref sig .tc := ⟨.hbm, 313, rfl⟩
abbrev main_v204 : Ref sig .tc := ⟨.hbm, 314, rfl⟩
abbrev main_c_27 : Ref sig .tc := ⟨.hbm, 315, rfl⟩
abbrev main_v205 : Ref sig .tc := ⟨.hbm, 316, rfl⟩
abbrev main_v206 : Ref sig .tc := ⟨.hbm, 317, rfl⟩
abbrev main_v207 : Ref sig .tc := ⟨.hbm, 318, rfl⟩
abbrev main_v208 : Ref sig .tc := ⟨.hbm, 319, rfl⟩
abbrev main_v209 : Ref sig .tc := ⟨.hbm, 320, rfl⟩
abbrev main_v210 : Ref sig .tc := ⟨.hbm, 321, rfl⟩
abbrev main_v211 : Ref sig .tc := ⟨.hbm, 322, rfl⟩
abbrev main_v212 : Ref sig .tc := ⟨.hbm, 323, rfl⟩
abbrev main_v213 : Ref sig .tc := ⟨.hbm, 324, rfl⟩
abbrev main_v214 : Ref sig .tc := ⟨.hbm, 325, rfl⟩
abbrev main_call10_cst : Ref sig .tc := ⟨.hbm, 326, rfl⟩
abbrev main_call10_v0 : Ref sig .tc := ⟨.hbm, 327, rfl⟩
abbrev main_v215 : Ref sig .tc := ⟨.hbm, 328, rfl⟩
abbrev main_v216 : Ref sig .tc := ⟨.hbm, 329, rfl⟩
abbrev main_v217 : Ref sig .tc := ⟨.hbm, 330, rfl⟩
abbrev main_v218 : Ref sig .tc := ⟨.hbm, 331, rfl⟩
abbrev main_v219 : Ref sig .tc := ⟨.hbm, 332, rfl⟩
abbrev main_call11_cst : Ref sig .tc := ⟨.hbm, 333, rfl⟩
abbrev main_call11_v0 : Ref sig .tc := ⟨.hbm, 334, rfl⟩
abbrev main_v220 : Ref sig .tc := ⟨.hbm, 335, rfl⟩
abbrev main_v221 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S500000x128_0_1 : S1x128.BroadcastsInDim S500000x128 (![0, 1] : Fin 2 → Fin S500000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x128 : S_.BroadcastsInDim S500000x128 (![] : Fin 0 → Fin S500000x128.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  concatenates_S500000x128_S500000x128_S500000x128_S500000x384_d1 : Shape.Concatenates [S500000x128, S500000x128, S500000x128] S500000x384 1
  slices_S2x384x128_S1x384x128_0_0_0 : S2x384x128.Slices ![0, 0, 0] S1x384x128
  shapeCasts_S1x384x128_S384x128 : S1x384x128.ShapeCasts S384x128
  slices_S2x128x128_S1x128x128_1_0_0 : S2x128x128.Slices ![1, 0, 0] S1x128x128
  slices_S2x128_S1x128_1_0 : S2x128.Slices ![1, 0] S1x128
  slices_S2x384x128_S1x384x128_1_0_0 : S2x384x128.Slices ![1, 0, 0] S1x384x128
  bcast_S50_S1x50_1 : S50.BroadcastsInDim S1x50 (![1] : Fin 1 → Fin S1x50.rank)
  bcast_S1x50_S500000x50_0_1 : S1x50.BroadcastsInDim S500000x50 (![0, 1] : Fin 2 → Fin S500000x50.rank)
  bcast_S_S500000x50 : S_.BroadcastsInDim S500000x50 (![] : Fin 0 → Fin S500000x50.rank)
  bcast_S25_S1x25_1 : S25.BroadcastsInDim S1x25 (![1] : Fin 1 → Fin S1x25.rank)
  bcast_S1x25_S500000x25_0_1 : S1x25.BroadcastsInDim S500000x25 (![0, 1] : Fin 2 → Fin S500000x25.rank)
  bcast_S_S500000x25 : S_.BroadcastsInDim S500000x25 (![] : Fin 0 → Fin S500000x25.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  dot_S50000x128_S128x128_S50000x128_1_0_0_1_n_n_wf : DotDims.WF S50000x128 S128x128 S50000x128 [1] [0] [0] [1] [] []
  dot_S500000x16_S16x128_S500000x128_1_0_0_1_n_n_wf : DotDims.WF S500000x16 S16x128 S500000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S500000x384_S384x128_S500000x128_1_0_0_1_n_n_wf : DotDims.WF S500000x384 S384x128 S500000x128 [1] [0] [0] [1] [] []
  dot_S500000x128_S128x128_S500000x128_1_0_0_1_n_n_wf : DotDims.WF S500000x128 S128x128 S500000x128 [1] [0] [0] [1] [] []
  dot_S500000x384_S384x50_S500000x50_1_0_0_1_n_n_wf : DotDims.WF S500000x384 S384x50 S500000x50 [1] [0] [0] [1] [] []
  dot_S500000x50_S50x25_S500000x25_1_0_0_1_n_n_wf : DotDims.WF S500000x50 S50x25 S500000x25 [1] [0] [0] [1] [] []
  dot_S500000x25_S25x2_S500000x2_1_0_0_1_n_n_wf : DotDims.WF S500000x25 S25x2 S500000x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S500000x16_S16x128_S500000x128_1_0_0_1_n_n : DotDims S500000x16 S16x128 S500000x128 where
  lhsContracting := [1]
  rhsContracting := [0]
  lhsNonContracting := [0]
  rhsNonContracting := [1]
  lhsBatch := []
  rhsBatch := []
  wf := dot_S500000x16_S16x128_S500000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x384_S384x50_S500000x50_1_0_0_1_n_n : DotDims S500000x384 S384x50 S500000x50 where
  lhsContracting := [1]
  rhsContracting := [0]
  lhsNonContracting := [0]
  rhsNonContracting := [1]
  lhsBatch := []
  rhsBatch := []
  wf := dot_S500000x384_S384x50_S500000x50_1_0_0_1_n_n_wf
def dot_S500000x50_S50x25_S500000x25_1_0_0_1_n_n : DotDims S500000x50 S50x25 S500000x25 where
  lhsContracting := [1]
  rhsContracting := [0]
  lhsNonContracting := [0]
  rhsNonContracting := [1]
  lhsBatch := []
  rhsBatch := []
  wf := dot_S500000x50_S50x25_S500000x25_1_0_0_1_n_n_wf
def dot_S500000x25_S25x2_S500000x2_1_0_0_1_n_n : DotDims S500000x25 S25x2 S500000x2 where
  lhsContracting := [1]
  rhsContracting := [0]
  lhsNonContracting := [0]
  rhsNonContracting := [1]
  lhsBatch := []
  rhsBatch := []
  wf := dot_S500000x25_S25x2_S500000x2_1_0_0_1_n_n_wf

class Facts : Prop extends Facts₀ where

variable [Facts]
-- ==== Proof.KKeep.lean ====
/- The kernel program's buffer contents at the boundaries of @main's segments (the fold W0 … W32): a segment leaves every
   buffer it does not write as it found it. For a stretch of host operations the buffers written are its operations'
   results; a region writes its output array only (it reads its input arrays and bypasses the rest). -/
import proofs.«410123_j23235773072029_1_alg».proof.Proof.Gen.KernelIdeal.Frame

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The buffers the stretch hostOps0 writes. -/
abbrev writes_hostOps0 : List (Ref sig .tc) := [main_v0, main_v1, main_v2, main_v3, main_v4]
theorem hostOps0_writes : (hostOps0 : List (HloOp τ sig (Elt F))).Forall fun op => op.writes ⊆ ((writes_hostOps0).map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep1 (c : Dev nD) (r : Ref sig .tc) (hr : r ∉ writes_hostOps0) : W1 m ρ c (no_index (Proc.devRef .tc r)) = W0 m ρ c (Proc.devRef .tc r) :=
  StableHlo.after_of_writes_sub hostOps0 _ (hostOps0_writes (F := F)) hr

/-- The buffers the stretch hostOps1 writes. -/
abbrev writes_hostOps1 : List (Ref sig .tc) := [main_v6]
theorem hostOps1_writes : (hostOps1 : List (HloOp τ sig (Elt F))).Forall fun op => op.writes ⊆ ((writes_hostOps1).map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep3 (c : Dev nD) (r : Ref sig .tc) (hr : r ∉ writes_hostOps1) : W3 m ρ c (no_index (Proc.devRef .tc r)) = W2 m ρ c (Proc.devRef .tc r) :=
  StableHlo.after_of_writes_sub hostOps1 _ (hostOps1_writes (F := F)) hr

/-- The buffers the stretch hostOps2 writes. -/
abbrev writes_hostOps2 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v8]
theorem hostOps2_writes : (hostOps2 : List (HloOp τ sig (Elt F))).Forall fun op => op.writes ⊆ ((writes_hostOps2).map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep5 (c : Dev nD) (r : Ref sig .tc) (hr : r ∉ writes_hostOps2) : W5 m ρ c (no_index (Proc.devRef .tc r)) = W4 m ρ c (Proc.devRef .tc r) :=
  StableHlo.after_of_writes_sub hostOps2 _ (hostOps2_writes (F := F)) hr

/-- The buffers the stretch hostOps3 writes. -/
abbrev writes_hostOps3 : List (Ref sig .tc) := [main_cst, main_v10, main_v11, main_v12, main_v13, main_v14, main_v15, main_v16, main_v17, main_v18, main_v19, main_v20, main_v21, main_v22]
theorem hostOps3_writes : (hostOps3 : List (HloOp τ sig (Elt F))).Forall fun op => op.writes ⊆ ((writes_hostOps3).map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep7 (c : Dev nD) (r : Ref sig .tc) (hr : r ∉ writes_hostOps3) : W7 m ρ c (no_index (Proc.devRef .tc r)) = W6 m ρ c (Proc.devRef .tc r) :=
  StableHlo.after_of_writes_sub hostOps3 _ (hostOps3_writes (F := F)) hr

/-- The buffers the stretch hostOps4 writes. -/
abbrev writes_hostOps4 : List (Ref sig .tc) := [main_cst_0, main_v24, main_cst_1, main_v25, main_v26, main_c]
theorem hostOps4_writes : (hostOps4 : List (HloOp τ sig (Elt F))).Forall fun op => op.writes ⊆ ((writes_hostOps4).map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep9 (c : Dev nD) (r : Ref sig .tc) (hr : r ∉ writes_hostOps4) : W9 m ρ c (no_index (Proc.devRef .tc r)) = W8 m ρ c (Proc.devRef .tc r) :=
  StableHlo.after_of_writes_sub hostOps4 _ (hostOps4_writes (F := F)) hr

/-- The buffers the stretch hostOps4_1 writes. -/
abbrev writes_hostOps4_1 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v27]
theorem hostOps4_1_writes : (hostOps4_1 : List (HloOp τ sig (Elt F))).Forall fun op => op.writes ⊆ ((writes_hostOps4_1).map (Proc.devRef (τ := τ) .tc)).toFinset := by
  simp only [hostOps4_1, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep10 (c : Dev nD) (r : Ref sig .tc) (hr : r ∉ writes_hostOps4_1) : W10 m ρ c (no_index (Proc.devRef .tc r)) = W9 m ρ c (Proc.devRef .tc r) :=
  StableHlo.after_of_writes_sub hostOps4_1 _ (hostOps4_1_writes (F := F)) hr

/-- The buffers the stretch hostOps4_2 writes. -/
abbrev writes_hostOps4_2 : List (Ref sig .tc) := [main_v28, main_v29, main_v30, main_v31, main_v32, main_v33, main_v34, main_v35]
theorem hostOps4_2_writes : (hostOps4_2 : List (HloOp τ sig (Elt F))).Forall fun op => op.writes ⊆ ((writes_hostOps4_2).map (Proc.devRef (τ := τ) .tc)).toFinset := by
  simp only [hostOps4_2, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep11 (c : Dev nD) (r : Ref sig .tc) (hr : r ∉ writes_hostOps4_2) : W11 m ρ c (no_index (Proc.devRef .tc r)) = W10 m ρ c (Proc.devRef .tc r) :=
  StableHlo.after_of_writes_sub hostOps4_2 _ (hostOps4_2_writes (F := F)) hr

/-- The buffers the stretch hostOps5 writes. -/
abbrev writes_hostOps5 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v37]
theorem hostOps5_writes : (hostOps5 : List (HloOp τ sig (Elt F))).Forall fun op => op.writes ⊆ ((writes_hostOps5).map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep13 (c : Dev nD) (r : Ref sig .tc) (hr : r ∉ writes_hostOps5) : W13 m ρ c (no_index (Proc.devRef .tc r)) = W12 m ρ c (Proc.devRef .tc r) :=
  StableHlo.after_of_writes_sub hostOps5 _ (hostOps5_writes (F := F)) hr

/-- The buffers the stretch hostOps5_1 writes. -/
abbrev writes_hostOps5_1 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v38]
theorem hostOps5_1_writes : (hostOps5_1 : List (HloOp τ sig (Elt F))).Forall fun op => op.writes ⊆ ((writes_hostOps5_1).map (Proc.devRef (τ := τ) .tc)).toFinset := by
  simp only [hostOps5_1, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep14 (c : Dev nD) (r : Ref sig .tc) (hr : r ∉ writes_hostOps5_1) : W14 m ρ c (no_index (Proc.devRef .tc r)) = W13 m ρ c (Proc.devRef .tc r) :=
  StableHlo.after_of_writes_sub hostOps5_1 _ (hostOps5_1_writes (F := F)) hr

/-- The buffers the stretch hostOps5_2 writes. -/
abbrev writes_hostOps5_2 : List (Ref sig .tc) := [main_v39, main_v40, main_v41, main_v42, main_v43, main_v44, main_v45, main_v46, main_v47, main_v48, main_v49, main_v50, main_v51]
theorem hostOps5_2_writes : (hostOps5_2 : List (HloOp τ sig (Elt F))).Forall fun op => op.writes ⊆ ((writes_hostOps5_2).map (Proc.devRef (τ := τ) .tc)).toFinset := by
  simp only [hostOps5_2, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep15 (c : Dev nD) (r : Ref sig .tc) (hr : r ∉ writes_hostOps5_2) : W15 m ρ c (no_index (Proc.devRef .tc r)) = W14 m ρ c (Proc.devRef .tc r) :=
  StableHlo.after_of_writes_sub hostOps5_2 _ (hostOps5_2_writes (F := F)) hr

/-- The buffers the stretch hostOps6 writes. -/
abbrev writes_hostOps6 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v53]
theorem hostOps6_writes : (hostOps6 : List (HloOp τ sig (Elt F))).Forall fun op => op.writes ⊆ ((writes_hostOps6).map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep17 (c : Dev nD) (r : Ref sig .tc) (hr : r ∉ writes_hostOps6) : W17 m ρ c (no_index (Proc.devRef .tc r)) = W16 m ρ c (Proc.devRef .tc r) :=
  StableHlo.after_of_writes_sub hostOps6 _ (hostOps6_writes (F := F)) hr

/-- The buffers the stretch hostOps7 writes. -/
abbrev writes_hostOps7 : List (Ref sig .tc) := [main_cst_2, main_v55, main_v56, main_v57, main_v58, main_v59, main_v60, main_v61, main_v62, main_v63, main_v64, main_v65, main_v66, main_v67]
theorem hostOps7_writes : (hostOps7 : List (HloOp τ sig (Elt F))).Forall fun op => op.writes ⊆ ((writes_hostOps7).map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep19 (c : Dev nD) (r : Ref sig .tc) (hr : r ∉ writes_hostOps7) : W19 m ρ c (no_index (Proc.devRef .tc r)) = W18 m ρ c (Proc.devRef .tc r) :=
  StableHlo.after_of_writes_sub hostOps7 _ (hostOps7_writes (F := F)) hr

/-- The buffers the stretch hostOps8 writes. -/
abbrev writes_hostOps8 : List (Ref sig .tc) := [main_cst_3, main_v69, main_cst_4, main_v70, main_v71, main_c_5]
theorem hostOps8_writes : (hostOps8 : List (HloOp τ sig (Elt F))).Forall fun op => op.writes ⊆ ((writes_hostOps8).map (Proc.devRef (τ := τ) .tc)).toFinset := by
  simp only [hostOps8, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep21 (c : Dev nD) (r : Ref sig .tc) (hr : r ∉ writes_hostOps8) : W21 m ρ c (no_index (Proc.devRef .tc r)) = W20 m ρ c (Proc.devRef .tc r) :=
  StableHlo.after_of_writes_sub hostOps8 _ (hostOps8_writes (F := F)) hr

/-- The buffers the stretch hostOps8_1 writes. -/
abbrev writes_hostOps8_1 : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v72]
theorem hostOps8_1_writes : (hostOps8_1 : List (HloOp τ sig (Elt F))).Forall fun op => op.writes ⊆ ((writes_hostOps8_1).map (Proc.devRef (τ := τ) .tc)).toFinset := by
  simp only [hostOps8_1, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep22 (c : Dev nD) (r : Ref sig .tc) (hr : r ∉ writes_hostOps8_1) : W22 m ρ c (no_index (Proc.devRef .tc r)) = W21 m ρ c (Proc.devRef .tc r) :=
  StableHlo.after_of_writes_sub hostOps8_1 _ (hostOps8_1_writes (F := F)) hr

/-- The buffers the stretch hostOps8_2 writes. -/
abbrev writes_hostOps8_2 : List (Ref sig .tc) := [main_v73, main_v74, main_v75, main_v76, main_v77, main_v78, main_v79, main_v80]
theorem hostOps8_2_writes : (hostOps8_2 : List (HloOp τ sig (Elt F))).Forall fun op => op.writes ⊆ ((writes_hostOps8_2).map (Proc.devRef (τ := τ) .tc)).toFinset := by
  simp only [hostOps8_2, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep23 (c : Dev nD) (r : Ref sig .tc) (hr : r ∉ writes_hostOps8_2) : W23 m ρ c (no_index (Proc.devRef .tc r)) = W22 m ρ c (Proc.devRef .tc r) :=
  StableHlo.after_of_writes_sub hostOps8_2 _ (hostOps8_2_writes (F := F)) hr

/-- The buffers the stretch hostOps9 writes. -/
abbrev writes_hostOps9 : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v82]
theorem hostOps9_writes : (hostOps9 : List (HloOp τ sig (Elt F))).Forall fun op => op.writes ⊆ ((writes_hostOps9).map (Proc.devRef (τ := τ) .tc)).toFinset := by
  simp only [hostOps9, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep25 (c : Dev nD) (r : Ref sig .tc) (hr : r ∉ writes_hostOps9) : W25 m ρ c (no_index (Proc.devRef .tc r)) = W24 m ρ c (Proc.devRef .tc r) :=
  StableHlo.after_of_writes_sub hostOps9 _ (hostOps9_writes (F := F)) hr

/-- The buffers the stretch hostOps9_1 writes. -/
abbrev writes_hostOps9_1 : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v83]
theorem hostOps9_1_writes : (hostOps9_1 : List (HloOp τ sig (Elt F))).Forall fun op => op.writes ⊆ ((writes_hostOps9_1).map (Proc.devRef (τ := τ) .tc)).toFinset := by
  simp only [hostOps9_1, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep26 (c : Dev nD) (r : Ref sig .tc) (hr : r ∉ writes_hostOps9_1) : W26 m ρ c (no_index (Proc.devRef .tc r)) = W25 m ρ c (Proc.devRef .tc r) :=
  StableHlo.after_of_writes_sub hostOps9_1 _ (hostOps9_1_writes (F := F)) hr

/-- The buffers the stretch hostOps9_2 writes. -/
abbrev writes_hostOps9_2 : List (Ref sig .tc) := [main_v84, main_v85, main_v86, main_v87, main_v88, main_v89, main_v90, main_v91, main_v92, main_v93, main_v94, main_v95, main_v96]
theorem hostOps9_2_writes : (hostOps9_2 : List (HloOp τ sig (Elt F))).Forall fun op => op.writes ⊆ ((writes_hostOps9_2).map (Proc.devRef (τ := τ) .tc)).toFinset := by
  simp only [hostOps9_2, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep27 (c : Dev nD) (r : Ref sig .tc) (hr : r ∉ writes_hostOps9_2) : W27 m ρ c (no_index (Proc.devRef .tc r)) = W26 m ρ c (Proc.devRef .tc r) :=
  StableHlo.after_of_writes_sub hostOps9_2 _ (hostOps9_2_writes (F := F)) hr

/-- The buffers the stretch hostOps10 writes. -/
abbrev writes_hostOps10 : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v98]
theorem hostOps10_writes : (hostOps10 : List (HloOp τ sig (Elt F))).Forall fun op => op.writes ⊆ ((writes_hostOps10).map (Proc.devRef (τ := τ) .tc)).toFinset := by
  simp only [hostOps10, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep29 (c : Dev nD) (r : Ref sig .tc) (hr : r ∉ writes_hostOps10) : W29 m ρ c (no_index (Proc.devRef .tc r)) = W28 m ρ c (Proc.devRef .tc r) :=
  StableHlo.after_of_writes_sub hostOps10 _ (hostOps10_writes (F := F)) hr

/-- The buffers the stretch hostOps10_1 writes. -/
abbrev writes_hostOps10_1 : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v99]
theorem hostOps10_1_writes : (hostOps10_1 : List (HloOp τ sig (Elt F))).Forall fun op => op.writes ⊆ ((writes_hostOps10_1).map (Proc.devRef (τ := τ) .tc)).toFinset := by
  simp only [hostOps10_1, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep30 (c : Dev nD) (r : Ref sig .tc) (hr : r ∉ writes_hostOps10_1) : W30 m ρ c (no_index (Proc.devRef .tc r)) = W29 m ρ c (Proc.devRef .tc r) :=
  StableHlo.after_of_writes_sub hostOps10_1 _ (hostOps10_1_writes (F := F)) hr

/-- The buffers the stretch hostOps10_2 writes. -/
abbrev writes_hostOps10_2 : List (Ref sig .tc) := [main_v100, main_v101, main_v102, main_v103, main_v104, main_v105]
theorem hostOps10_2_writes : (hostOps10_2 : List (HloOp τ sig (Elt F))).Forall fun op => op.writes ⊆ ((writes_hostOps10_2).map (Proc.devRef (τ := τ) .tc)).toFinset := by
  simp only [hostOps10_2, List.Forall, StableHlo.nullary_writes, StableHlo.unary_writes, StableHlo.binary_writes, StableHlo.ternary_writes, StableHlo.quaternary_writes, StableHlo.reshape_writes, StableHlo.nary_writes, Finset.singleton_subset_iff, List.mem_toFinset, List.mem_map]
  repeat' apply And.intro
  all_goals exact ⟨_, by decide, rfl⟩
theorem keep31 (c : Dev nD) (r : Ref sig .tc) (hr : r ∉ writes_hostOps10_2) : W31 m ρ c (no_index (Proc.devRef .tc r)) = W30 m ρ c (Proc.devRef .tc r) :=
  StableHlo.after_of_writes_sub hostOps10_2 _ (hostOps10_2_writes (F := F)) hr

set_option maxHeartbeats 8000000 in
/-- Region 0 writes its output array main_v5 only. -/
theorem keep2 (c : Dev nD) (r : Ref sig .tc) (hr : r ≠ main_v5) : W2 m ρ c (no_index (Proc.devRef .tc r)) = W1 m ρ c (Proc.devRef .tc r) := by
  by_cases h : ∀ w, Pipeline.arrRef spec0 w ≠ r
  · exact W2_of_ne m ρ c r h
  · obtain ⟨w, hw⟩ := not_forall.mp h
    have hw' : Pipeline.arrRef spec0 w = r := not_not.mp hw
    subst hw'
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact absurd rfl hr

set_option maxHeartbeats 8000000 in
/-- Region 1 writes its output array main_v7 only. -/
theorem keep4 (c : Dev nD) (r : Ref sig .tc) (hr : r ≠ main_v7) : W4 m ρ c (no_index (Proc.devRef .tc r)) = W3 m ρ c (Proc.devRef .tc r) := by
  by_cases h : ∀ w, Pipeline.arrRef spec1 w ≠ r
  · exact W4_of_ne m ρ c r h
  · obtain ⟨w, hw⟩ := not_forall.mp h
    have hw' : Pipeline.arrRef spec1 w = r := not_not.mp hw
    subst hw'
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact absurd rfl hr

set_option maxHeartbeats 8000000 in
/-- Region 2 writes its output array main_v9 only. -/
theorem keep6 (c : Dev nD) (r : Ref sig .tc) (hr : r ≠ main_v9) : W6 m ρ c (no_index (Proc.devRef .tc r)) = W5 m ρ c (Proc.devRef .tc r) := by
  by_cases h : ∀ w, Pipeline.arrRef spec2 w ≠ r
  · exact W6_of_ne m ρ c r h
  · obtain ⟨w, hw⟩ := not_forall.mp h
    have hw' : Pipeline.arrRef spec2 w = r := not_not.mp hw
    subst hw'
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact absurd rfl hr

set_option maxHeartbeats 8000000 in
/-- Region 3 writes its output array main_v23 only. -/
theorem keep8 (c : Dev nD) (r : Ref sig .tc) (hr : r ≠ main_v23) : W8 m ρ c (no_index (Proc.devRef .tc r)) = W7 m ρ c (Proc.devRef .tc r) := by
  by_cases h : ∀ w, Pipeline.arrRef spec3 w ≠ r
  · exact W8_of_ne m ρ c r h
  · obtain ⟨w, hw⟩ := not_forall.mp h
    have hw' : Pipeline.arrRef spec3 w = r := not_not.mp hw
    subst hw'
    match w with
    | ⟨0, _⟩ => exact (W8_arr m ρ c 0).trans (((dat3 (V7 m ρ) c).arrAt_in 0 rfl _).trans (A_eq3 (V7 m ρ) c 0))
    | ⟨1, _⟩ => exact (W8_arr m ρ c 1).trans (((dat3 (V7 m ρ) c).arrAt_in 1 rfl _).trans (A_eq3 (V7 m ρ) c 1))
    | ⟨2, _⟩ => exact (W8_arr m ρ c 2).trans (((dat3 (V7 m ρ) c).arrAt_in 2 rfl _).trans (A_eq3 (V7 m ρ) c 2))
    | ⟨3, _⟩ => exact (W8_arr m ρ c 3).trans (((dat3 (V7 m ρ) c).arrAt_in 3 rfl _).trans (A_eq3 (V7 m ρ) c 3))
    | ⟨4, _⟩ => exact (W8_arr m ρ c 4).trans (((dat3 (V7 m ρ) c).arrAt_in 4 rfl _).trans (A_eq3 (V7 m ρ) c 4))
    | ⟨5, _⟩ => exact (W8_arr m ρ c 5).trans (((dat3 (V7 m ρ) c).arrAt_in 5 rfl _).trans (A_eq3 (V7 m ρ) c 5))
    | ⟨6, _⟩ => exact absurd rfl hr

set_option maxHeartbeats 8000000 in
/-- Region 4 writes its output array main_v36 only. -/
theorem keep12 (c : Dev nD) (r : Ref sig .tc) (hr : r ≠ main_v36) : W12 m ρ c (no_index (Proc.devRef .tc r)) = W11 m ρ c (Proc.devRef .tc r) := by
  by_cases h : ∀ w, Pipeline.arrRef spec4 w ≠ r
  · exact W12_of_ne m ρ c r h
  · obtain ⟨w, hw⟩ := not_forall.mp h
    have hw' : Pipeline.arrRef spec4 w = r := not_not.mp hw
    subst hw'
    match w with
    | ⟨0, _⟩ => exact (W12_arr m ρ c 0).trans (((dat4 (V11 m ρ) c).arrAt_in 0 rfl _).trans (A_eq4 (V11 m ρ) c 0))
    | ⟨1, _⟩ => exact (W12_arr m ρ c 1).trans (((dat4 (V11 m ρ) c).arrAt_in 1 rfl _).trans (A_eq4 (V11 m ρ) c 1))
    | ⟨2, _⟩ => exact (W12_arr m ρ c 2).trans (((dat4 (V11 m ρ) c).arrAt_in 2 rfl _).trans (A_eq4 (V11 m ρ) c 2))
    | ⟨3, _⟩ => exact (W12_arr m ρ c 3).trans (((dat4 (V11 m ρ) c).arrAt_in 3 rfl _).trans (A_eq4 (V11 m ρ) c 3))
    | ⟨4, _⟩ => exact (W12_arr m ρ c 4).trans (((dat4 (V11 m ρ) c).arrAt_in 4 rfl _).trans (A_eq4 (V11 m ρ) c 4))
    | ⟨5, _⟩ => exact (W12_arr m ρ c 5).trans (((dat4 (V11 m ρ) c).arrAt_in 5 rfl _).trans (A_eq4 (V11 m ρ) c 5))
    | ⟨6, _⟩ => exact absurd rfl hr

set_option maxHeartbeats 8000000 in
/-- Region 5 writes its output array main_v52 only. -/
theorem keep16 (c : Dev nD) (r : Ref sig .tc) (hr : r ≠ main_v52) : W16 m ρ c (no_index (Proc.devRef .tc r)) = W15 m ρ c (Proc.devRef .tc r) := by
  by_cases h : ∀ w, Pipeline.arrRef spec5 w ≠ r
  · exact W16_of_ne m ρ c r h
  · obtain ⟨w, hw⟩ := not_forall.mp h
    have hw' : Pipeline.arrRef spec5 w = r := not_not.mp hw
    subst hw'
    match w with
    | ⟨0, _⟩ => exact (W16_arr m ρ c 0).trans (((dat5 (V15 m ρ) c).arrAt_in 0 rfl _).trans (A_eq5 (V15 m ρ) c 0))
    | ⟨1, _⟩ => exact (W16_arr m ρ c 1).trans (((dat5 (V15 m ρ) c).arrAt_in 1 rfl _).trans (A_eq5 (V15 m ρ) c 1))
    | ⟨2, _⟩ => exact (W16_arr m ρ c 2).trans (((dat5 (V15 m ρ) c).arrAt_in 2 rfl _).trans (A_eq5 (V15 m ρ) c 2))
    | ⟨3, _⟩ => exact (W16_arr m ρ c 3).trans (((dat5 (V15 m ρ) c).arrAt_in 3 rfl _).trans (A_eq5 (V15 m ρ) c 3))
    | ⟨4, _⟩ => exact (W16_arr m ρ c 4).trans (((dat5 (V15 m ρ) c).arrAt_in 4 rfl _).trans (A_eq5 (V15 m ρ) c 4))
    | ⟨5, _⟩ => exact (W16_arr m ρ c 5).trans (((dat5 (V15 m ρ) c).arrAt_in 5 rfl _).trans (A_eq5 (V15 m ρ) c 5))
    | ⟨6, _⟩ => exact (W16_arr m ρ c 6).trans (((dat5 (V15 m ρ) c).arrAt_in 6 rfl _).trans (A_eq5 (V15 m ρ) c 6))
    | ⟨7, _⟩ => exact (W16_arr m ρ c 7).trans (((dat5 (V15 m ρ) c).arrAt_in 7 rfl _).trans (A_eq5 (V15 m ρ) c 7))
    | ⟨8, _⟩ => exact (W16_arr m ρ c 8).trans (((dat5 (V15 m ρ) c).arrAt_in 8 rfl _).trans (A_eq5 (V15 m ρ) c 8))
    | ⟨9, _⟩ => exact absurd rfl hr

set_option maxHeartbeats 8000000 in
/-- Region 6 writes its output array main_v54 only. -/
theorem keep18 (c : Dev nD) (r : Ref sig .tc) (hr : r ≠ main_v54) : W18 m ρ c (no_index (Proc.devRef .tc r)) = W17 m ρ c (Proc.devRef .tc r) := by
  by_cases h : ∀ w, Pipeline.arrRef spec6 w ≠ r
  · exact W18_of_ne m ρ c r h
  · obtain ⟨w, hw⟩ := not_forall.mp h
    have hw' : Pipeline.arrRef spec6 w = r := not_not.mp hw
    subst hw'
    match w with
    | ⟨0, _⟩ => exact (W18_arr m ρ c 0).trans (((dat6 (V17 m ρ) c).arrAt_in 0 rfl _).trans (A_eq6 (V17 m ρ) c 0))
    | ⟨1, _⟩ => exact (W18_arr m ρ c 1).trans (((dat6 (V17 m ρ) c).arrAt_in 1 rfl _).trans (A_eq6 (V17 m ρ) c 1))
    | ⟨2, _⟩ => exact absurd rfl hr

set_option maxHeartbeats 8000000 in
/-- Region 7 writes its output array main_v68 only. -/
theorem keep20 (c : Dev nD) (r : Ref sig .tc) (hr : r ≠ main_v68) : W20 m ρ c (no_index (Proc.devRef .tc r)) = W19 m ρ c (Proc.devRef .tc r) := by
  by_cases h : ∀ w, Pipeline.arrRef spec7 w ≠ r
  · exact W20_of_ne m ρ c r h
  · obtain ⟨w, hw⟩ := not_forall.mp h
    have hw' : Pipeline.arrRef spec7 w = r := not_not.mp hw
    subst hw'
    match w with
    | ⟨0, _⟩ => exact (W20_arr m ρ c 0).trans (((dat7 (V19 m ρ) c).arrAt_in 0 rfl _).trans (A_eq7 (V19 m ρ) c 0))
    | ⟨1, _⟩ => exact (W20_arr m ρ c 1).trans (((dat7 (V19 m ρ) c).arrAt_in 1 rfl _).trans (A_eq7 (V19 m ρ) c 1))
    | ⟨2, _⟩ => exact (W20_arr m ρ c 2).trans (((dat7 (V19 m ρ) c).arrAt_in 2 rfl _).trans (A_eq7 (V19 m ρ) c 2))
    | ⟨3, _⟩ => exact (W20_arr m ρ c 3).trans (((dat7 (V19 m ρ) c).arrAt_in 3 rfl _).trans (A_eq7 (V19 m ρ) c 3))
    | ⟨4, _⟩ => exact (W20_arr m ρ c 4).trans (((dat7 (V19 m ρ) c).arrAt_in 4 rfl _).trans (A_eq7 (V19 m ρ) c 4))
    | ⟨5, _⟩ => exact (W20_arr m ρ c 5).trans (((dat7 (V19 m ρ) c).arrAt_in 5 rfl _).trans (A_eq7 (V19 m ρ) c 5))
    | ⟨6, _⟩ => exact absurd rfl hr

set_option maxHeartbeats 8000000 in
/-- Region 8 writes its output array main_v81 only. -/
theorem keep24 (c : Dev nD) (r : Ref sig .tc) (hr : r ≠ main_v81) : W24 m ρ c (no_index (Proc.devRef .tc r)) = W23 m ρ c (Proc.devRef .tc r) := by
  by_cases h : ∀ w, Pipeline.arrRef spec8 w ≠ r
  · exact W24_of_ne m ρ c r h
  · obtain ⟨w, hw⟩ := not_forall.mp h
    have hw' : Pipeline.arrRef spec8 w = r := not_not.mp hw
    subst hw'
    match w with
    | ⟨0, _⟩ => exact (W24_arr m ρ c 0).trans (((dat8 (V23 m ρ) c).arrAt_in 0 rfl _).trans (A_eq8 (V23 m ρ) c 0))
    | ⟨1, _⟩ => exact (W24_arr m ρ c 1).trans (((dat8 (V23 m ρ) c).arrAt_in 1 rfl _).trans (A_eq8 (V23 m ρ) c 1))
    | ⟨2, _⟩ => exact (W24_arr m ρ c 2).trans (((dat8 (V23 m ρ) c).arrAt_in 2 rfl _).trans (A_eq8 (V23 m ρ) c 2))
    | ⟨3, _⟩ => exact (W24_arr m ρ c 3).trans (((dat8 (V23 m ρ) c).arrAt_in 3 rfl _).trans (A_eq8 (V23 m ρ) c 3))
    | ⟨4, _⟩ => exact (W24_arr m ρ c 4).trans (((dat8 (V23 m ρ) c).arrAt_in 4 rfl _).trans (A_eq8 (V23 m ρ) c 4))
    | ⟨5, _⟩ => exact (W24_arr m ρ c 5).trans (((dat8 (V23 m ρ) c).arrAt_in 5 rfl _).trans (A_eq8 (V23 m ρ) c 5))
    | ⟨6, _⟩ => exact absurd rfl hr

set_option maxHeartbeats 8000000 in
/-- Region 9 writes its output array main_v97 only. -/
theorem keep28 (c : Dev nD) (r : Ref sig .tc) (hr : r ≠ main_v97) : W28 m ρ c (no_index (Proc.devRef .tc r)) = W27 m ρ c (Proc.devRef .tc r) := by
  by_cases h : ∀ w, Pipeline.arrRef spec9 w ≠ r
  · exact W28_of_ne m ρ c r h
  · obtain ⟨w, hw⟩ := not_forall.mp h
    have hw' : Pipeline.arrRef spec9 w = r := not_not.mp hw
    subst hw'
    match w with
    | ⟨0, _⟩ => exact (W28_arr m ρ c 0).trans (((dat9 (V27 m ρ) c).arrAt_in 0 rfl _).trans (A_eq9 (V27 m ρ) c 0))
    | ⟨1, _⟩ => exact (W28_arr m ρ c 1).trans (((dat9 (V27 m ρ) c).arrAt_in 1 rfl _).trans (A_eq9 (V27 m ρ) c 1))
    | ⟨2, _⟩ => exact (W28_arr m ρ c 2).trans (((dat9 (V27 m ρ) c).arrAt_in 2 rfl _).trans (A_eq9 (V27 m ρ) c 2))
    | ⟨3, _⟩ => exact (W28_arr m ρ c 3).trans (((dat9 (V27 m ρ) c).arrAt_in 3 rfl _).trans (A_eq9 (V27 m ρ) c 3))
    | ⟨4, _⟩ => exact (W28_arr m ρ c 4).trans (((dat9 (V27 m ρ) c).arrAt_in 4 rfl _).trans (A_eq9 (V27 m ρ) c 4))
    | ⟨5, _⟩ => exact (W28_arr m ρ c 5).trans (((dat9 (V27 m ρ) c).arrAt_in 5 rfl _).trans (A_eq9 (V27 m ρ) c 5))
    | ⟨6, _⟩ => exact (W28_arr m ρ c 6).trans (((dat9 (V27 m ρ) c).arrAt_in 6 rfl _).trans (A_eq9 (V27 m ρ) c 6))
    | ⟨7, _⟩ => exact (W28_arr m ρ c 7).trans (((dat9 (V27 m ρ) c).arrAt_in 7 rfl _).trans (A_eq9 (V27 m ρ) c 7))
    | ⟨8, _⟩ => exact (W28_arr m ρ c 8).trans (((dat9 (V27 m ρ) c).arrAt_in 8 rfl _).trans (A_eq9 (V27 m ρ) c 8))
    | ⟨9, _⟩ => exact absurd rfl hr

set_option maxHeartbeats 8000000 in
/-- Region 10 writes its output array main_v106 only. -/
theorem keep32 (c : Dev nD) (r : Ref sig .tc) (hr : r ≠ main_v106) : W32 m ρ c (no_index (Proc.devRef .tc r)) = W31 m ρ c (Proc.devRef .tc r) := by
  by_cases h : ∀ w, Pipeline.arrRef spec10 w ≠ r
  · exact W32_of_ne m ρ c r h
  · obtain ⟨w, hw⟩ := not_forall.mp h
    have hw' : Pipeline.arrRef spec10 w = r := not_not.mp hw
    subst hw'
    match w with
    | ⟨0, _⟩ => exact (W32_arr m ρ c 0).trans (((dat10 (V31 m ρ) c).arrAt_in 0 rfl _).trans (A_eq10 (V31 m ρ) c 0))
    | ⟨1, _⟩ => exact (W32_arr m ρ c 1).trans (((dat10 (V31 m ρ) c).arrAt_in 1 rfl _).trans (A_eq10 (V31 m ρ) c 1))
    | ⟨2, _⟩ => exact (W32_arr m ρ c 2).trans (((dat10 (V31 m ρ) c).arrAt_in 2 rfl _).trans (A_eq10 (V31 m ρ) c 2))
    | ⟨3, _⟩ => exact (W32_arr m ρ c 3).trans (((dat10 (V31 m ρ) c).arrAt_in 3 rfl _).trans (A_eq10 (V31 m ρ) c 3))
    | ⟨4, _⟩ => exact (W32_arr m ρ c 4).trans (((dat10 (V31 m ρ) c).arrAt_in 4 rfl _).trans (A_eq10 (V31 m ρ) c 4))
    | ⟨5, _⟩ => exact (W32_arr m ρ c 5).trans (((dat10 (V31 m ρ) c).arrAt_in 5 rfl _).trans (A_eq10 (V31 m ρ) c 5))
    | ⟨6, _⟩ => exact (W32_arr m ρ c 6).trans (((dat10 (V31 m ρ) c).arrAt_in 6 rfl _).trans (A_eq10 (V31 m ρ) c 6))
    | ⟨7, _⟩ => exact (W32_arr m ρ c 7).trans (((dat10 (V31 m ρ) c).arrAt_in 7 rfl _).trans (A_eq10 (V31 m ρ) c 7))
    | ⟨8, _⟩ => exact (W32_arr m ρ c 8).trans (((dat10 (V31 m ρ) c).arrAt_in 8 rfl _).trans (A_eq10 (V31 m ρ) c 8))
    | ⟨9, _⟩ => exact (W32_arr m ρ c 9).trans (((dat10 (V31 m ρ) c).arrAt_in 9 rfl _).trans (A_eq10 (V31 m ρ) c 9))
    | ⟨10, _⟩ => exact (W32_arr m ρ c 10).trans (((dat10 (V31 m ρ) c).arrAt_in 10 rfl _).trans (A_eq10 (V31 m ρ) c 10))
    | ⟨11, _⟩ => exact absurd rfl hr

end Cert.KernelIdeal.Val

end
-- ==== Proof.Spec.lean ====
/-
  The network both programs compute, as mathematics over the extended reals.

  A matrix is a function of a rank-2 index; a vector (a bias, a per-column statistic) a function of the column.
  * `lin x w b` is the affine map `x · w + b`: entry (r, c) is `(∑ k, x (r, k) · w (k, c)) + b c`.
  * `lin3` is an affine map of three row-blocks against three weight blocks, `((hs · wa + hd · wb) + ea · wc) + b`:
    the product of the row-wise concatenation `[hs | hd | ea]` with the stacked weight `[wa ; wb ; wc]`, summed
    block by block.
  * `msg` is the GINE message `max (h_src + e) 0`; `conv` the node update's two-layer perceptron of `h + agg`;
    `bn` the batch-normalised residual `(h + max (γ · (z − μ) · rsqrt (σ² + ε) + β) 0) · ½`;
    `emlp` the edge update `e + (perceptron of [h_src | h_dst | e]) · ½`; `readout` the three-layer head.
  * The index-dependent host operations (the row gather at the source / destination indices, the segment sum over
    destinations, the column mean and variance) are PARAMETERS of `layer` and `net`: each program supplies its own
    spelling, and the two spellings are compared once, as functions.
-/
import Idealize.ShloMosaic.Lib.ValueIdx
import Idealize.ShloMosaic.PureOps.Ideal

noncomputable section

open scoped BigOperators

namespace Cert.Spec

open Idealize.ShloMosaic Idealize.ShloMosaic.ValueIdx

/-- A matrix of extended reals, indexed by a rank-2 index. -/
abbrev Mat (M N : Nat) := (⟨2, ![M, N]⟩ : Shape).Idx → EReal

/-- A rank-3 array of extended reals. -/
abbrev Cube (L M N : Nat) := (⟨3, ![L, M, N]⟩ : Shape).Idx → EReal

/-- The affine map `x · w + b`. -/
def lin {M K N : Nat} (x : Mat M K) (w : Mat K N) (b : Fin N → EReal) : Mat M N :=
  fun i => (∑ k : Fin K, x (ix2 (i 0) k) * w (ix2 k (i 1))) + b (i 1)

theorem lin_apply {M K N : Nat} (x : Mat M K) (w : Mat K N) (b : Fin N → EReal) (r : Fin M) (c : Fin N) :
    lin x w b (ix2 r c) = (∑ k : Fin K, x (ix2 r k) * w (ix2 k c)) + b c := rfl

/-- Three row-blocks against three weight blocks, summed block by block, plus the bias. -/
def lin3 {M K N : Nat} (hs hd ea : Mat M K) (wa wb wc : Mat K N) (b : Fin N → EReal) : Mat M N :=
  fun i => (((∑ k : Fin K, hs (ix2 (i 0) k) * wa (ix2 k (i 1))) + (∑ k : Fin K, hd (ix2 (i 0) k) * wb (ix2 k (i 1))))
    + (∑ k : Fin K, ea (ix2 (i 0) k) * wc (ix2 k (i 1)))) + b (i 1)

theorem lin3_apply {M K N : Nat} (hs hd ea : Mat M K) (wa wb wc : Mat K N) (b : Fin N → EReal) (r : Fin M) (c : Fin N) :
    lin3 hs hd ea wa wb wc b (ix2 r c) = (((∑ k : Fin K, hs (ix2 r k) * wa (ix2 k c)) + (∑ k : Fin K, hd (ix2 r k) * wb (ix2 k c)))
      + (∑ k : Fin K, ea (ix2 r k) * wc (ix2 k c))) + b c := rfl

/-- The positive part, entry by entry. -/
def relu {M N : Nat} (x : Mat M N) : Mat M N := fun i => max (x i) 0

theorem relu_apply {M N : Nat} (x : Mat M N) (i : (⟨2, ![M, N]⟩ : Shape).Idx) : relu x i = max (x i) 0 := rfl

/-- The GINE message: the positive part of source feature plus edge feature. -/
def msg {M N : Nat} (hs ea : Mat M N) : Mat M N := fun i => max (hs i + ea i) 0

theorem msg_apply {M N : Nat} (hs ea : Mat M N) (i : (⟨2, ![M, N]⟩ : Shape).Idx) : msg hs ea i = max (hs i + ea i) 0 := rfl

/-- The node update: a two-layer perceptron of `h + agg`. -/
def conv {M : Nat} (h agg : Mat M 128) (w1 : Mat 128 128) (b1 : Fin 128 → EReal) (w2 : Mat 128 128) (b2 : Fin 128 → EReal) :
    Mat M 128 :=
  lin (relu (lin (fun i => h i + agg i) w1 b1)) w2 b2

/-- The batch-norm epsilon and the residual's one half, as the two programs' shared 32-bit words. -/
def eps : EReal := Ideal.ofBits .f32 0x3727C5AC#32
def half : EReal := Ideal.ofBits .f32 0x3F000000#32

/-- The batch-normalised residual. -/
def bn {M N : Nat} (h z : Mat M N) (mu var gamma beta : Fin N → EReal) : Mat M N :=
  fun i => (h i + max (gamma (i 1) * (z i - mu (i 1)) * Ideal.rsqrt (var (i 1) + eps) + beta (i 1)) 0) * half

theorem bn_apply {M N : Nat} (h z : Mat M N) (mu var gamma beta : Fin N → EReal) (i : (⟨2, ![M, N]⟩ : Shape).Idx) :
    bn h z mu var gamma beta i
      = (h i + max (gamma (i 1) * (z i - mu (i 1)) * Ideal.rsqrt (var (i 1) + eps) + beta (i 1)) 0) * half := rfl

/-- The edge update. -/
def emlp {M : Nat} (hs hd ea : Mat M 128) (wa wb wc : Mat 128 128) (b1 : Fin 128 → EReal) (w2 : Mat 128 128)
    (b2 : Fin 128 → EReal) : Mat M 128 :=
  fun i => ea i + lin (relu (lin3 hs hd ea wa wb wc b1)) w2 b2 i * half

theorem emlp_apply {M : Nat} (hs hd ea : Mat M 128) (wa wb wc : Mat 128 128) (b1 : Fin 128 → EReal) (w2 : Mat 128 128)
    (b2 : Fin 128 → EReal) (i : (⟨2, ![M, 128]⟩ : Shape).Idx) :
    emlp hs hd ea wa wb wc b1 w2 b2 i = ea i + lin (relu (lin3 hs hd ea wa wb wc b1)) w2 b2 i * half := rfl

/-- The readout head: three affine layers with positive parts between. -/
def readout {M : Nat} (hs hd ea : Mat M 128) (wa wb wc : Mat 128 50) (b1 : Fin 50 → EReal) (w2 : Mat 50 25) (b2 : Fin 25 → EReal)
    (w3 : Mat 25 2) (b3 : Fin 2 → EReal) : Mat M 2 :=
  lin (relu (lin (relu (lin3 hs hd ea wa wb wc b1)) w2 b2)) w3 b3

/-- Layer `l` of a stack of matrices. -/
def slab {L K N : Nat} (l : Fin L) (w : Cube L K N) : Mat K N := fun i => w (ix3 l (i 0) (i 1))

/-- Row `l` of a matrix, as a vector. -/
def rowOf {L N : Nat} (l : Fin L) (b : Mat L N) : Fin N → EReal := fun j => b (ix2 l j)

/-- A rank-1 array as a vector. -/
def vecOf {N : Nat} (b : (⟨1, ![N]⟩ : Shape).Idx → EReal) : Fin N → EReal := fun j => b (ix1 j)

/-- Row-block `p` (128 rows) of a matrix of 384 rows. -/
def third {N : Nat} (p : Fin 3) (w : Mat 384 N) : Mat 128 N :=
  fun i => w (ix2 (⟨128 * p.val + (i 0).val, by
    have h0 : (i 0).val < 128 := (i 0).isLt
    have hp : p.val < 3 := p.isLt
    omega⟩ : Fin 384) (i 1))

/-- The index-dependent host operations, supplied by each program in its own spelling: the rows of a node matrix at the
    edges' sources and destinations, the sum of edge rows over their destinations, and the column mean and variance. -/
structure HostOps where
  takeSrc : Mat 50000 128 → Mat 500000 128
  takeDst : Mat 50000 128 → Mat 500000 128
  segsum : Mat 500000 128 → Mat 50000 128
  mean : Mat 50000 128 → Fin 128 → EReal
  var : Mat 50000 128 → Fin 128 → EReal

/-- The node half of one message-passing layer. -/
def nodeStep (H : HostOps) (h : Mat 50000 128) (ea : Mat 500000 128) (cw1 : Mat 128 128) (cb1 : Fin 128 → EReal)
    (cw2 : Mat 128 128) (cb2 : Fin 128 → EReal) (gamma beta : Fin 128 → EReal) : Mat 50000 128 :=
  let z := conv h (H.segsum (msg (H.takeSrc h) ea)) cw1 cb1 cw2 cb2
  bn h z (H.mean z) (H.var z) gamma beta

/-- The edge half of one message-passing layer, from the updated node features. -/
def edgeStep (H : HostOps) (h : Mat 50000 128) (ea : Mat 500000 128) (ew1 : Mat 384 128) (eb1 : Fin 128 → EReal)
    (ew2 : Mat 128 128) (eb2 : Fin 128 → EReal) : Mat 500000 128 :=
  emlp (H.takeSrc h) (H.takeDst h) ea (third 0 ew1) (third 1 ew1) (third 2 ew1) eb1 ew2 eb2

/-- The whole network. -/
def net (H : HostOps) (x : Mat 50000 128) (eattr : Mat 500000 16) (nw : Mat 128 128) (nb : (⟨1, ![128]⟩ : Shape).Idx → EReal)
    (ew : Mat 16 128) (eb : (⟨1, ![128]⟩ : Shape).Idx → EReal)
    (cw1 : Cube 2 128 128) (cb1 : Mat 2 128) (cw2 : Cube 2 128 128) (cb2 : Mat 2 128) (gam bet : Mat 2 128)
    (mw1 : Cube 2 384 128) (mb1 : Mat 2 128) (mw2 : Cube 2 128 128) (mb2 : Mat 2 128)
    (rw1 : Mat 384 50) (rb1 : (⟨1, ![50]⟩ : Shape).Idx → EReal) (rw2 : Mat 50 25) (rb2 : (⟨1, ![25]⟩ : Shape).Idx → EReal)
    (rw3 : Mat 25 2) (rb3 : (⟨1, ![2]⟩ : Shape).Idx → EReal) : Mat 500000 2 :=
  let h0 := lin x nw (vecOf nb)
  let e0 := lin eattr ew (vecOf eb)
  let h1 := nodeStep H h0 e0 (slab 0 cw1) (rowOf 0 cb1) (slab 0 cw2) (rowOf 0 cb2) (rowOf 0 gam) (rowOf 0 bet)
  let e1 := edgeStep H h1 e0 (slab 0 mw1) (rowOf 0 mb1) (slab 0 mw2) (rowOf 0 mb2)
  let h2 := nodeStep H h1 e1 (slab 1 cw1) (rowOf 1 cb1) (slab 1 cw2) (rowOf 1 cb2) (rowOf 1 gam) (rowOf 1 bet)
  let e2 := edgeStep H h2 e1 (slab 1 mw1) (rowOf 1 mb1) (slab 1 mw2) (rowOf 1 mb2)
  readout (H.takeSrc h2) (H.takeDst h2) e2 (third 0 rw1) (third 1 rw1) (third 2 rw1) (vecOf rb1) rw2 (vecOf rb2) rw3 (vecOf rb3)

end Cert.Spec

end
-- ==== Proof.RHost.lean ====
/-
  The index-dependent host operations of the network, as the reference program spells them: the source and
  destination index vectors (the two rows of the edge-index array), the gather of node rows at an index vector
  (a negative index first moved up by the number of nodes, as array indexing does), the sum of edge rows over
  their destination nodes, and the per-column mean and variance of a node matrix. Together they are the
  `Cert.Spec.HostOps` both programs are read against.
-/
import proofs.«410123_j23235773072029_1_alg».proof.Proof.Gen.ReferenceIdeal
import proofs.«410123_j23235773072029_1_alg».proof.Proof.Spec

noncomputable section

namespace Cert.ReferenceIdeal.RVal

open Cert.ReferenceIdeal Cert.ReferenceIdeal.Gen Idealize.ShloMosaic

/-- Row 0 of the edge-index array: the edges' source nodes. -/
def srcOf (ei : IVec S2x500000 32) : IVec S500000 32 :=
  shapeCast S500000 (extractStridedSlice S1x500000 ![0, 0] ei slices_S2x500000_S1x500000_0_0) shapeCasts_S1x500000_S500000

/-- Row 1 of the edge-index array: the edges' destination nodes. -/
def dstOf (ei : IVec S2x500000 32) : IVec S500000 32 :=
  shapeCast S500000 (extractStridedSlice S1x500000 ![1, 0] ei slices_S2x500000_S1x500000_1_0) shapeCasts_S1x500000_S500000

/-- An index vector as the column of gather start indices: a negative index is moved up by the number of nodes. -/
def wrapCol (idx : IVec S500000 32) : IVec S500000x1 32 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 50000#32))) idx)

/-- The rows of a node matrix at an index vector. -/
def take (idx : IVec S500000 32) (h : FVec Ideal S50000x128 .f32) : FVec Ideal S500000x128 .f32 :=
  Host.gather gather_S50000x128_S500000x1_S500000x128_1_0_n_n_0_1_1128 h (wrapCol idx)

/-- The sum of edge rows over their destination nodes, from the zero matrix. -/
def segsum (dst : IVec S500000 32) (u : FVec Ideal S500000x128 .f32) : FVec Ideal S50000x128 .f32 :=
  Host.scatterAdd scatter_S50000x128_S500000x1_S500000x128_1_0_0_1
    (broadcastInDim S50000x128 ![] bcast_S_S50000x128 (constant S_ .f32 0x00000000#32))
    (broadcastInDim S500000x1 ![0] bcast_S500000_S500000x1_0 dst) u

/-- The column sums of a node matrix divided by the number of nodes. -/
def mean (z : FVec Ideal S50000x128 .f32) : FVec Ideal S128 .f32 :=
  Host.divf (Host.reduceAdd z (constant S_ .f32 0x00000000#32) reducesTo_S50000x128_S128_d0 h_S_)
    (broadcastInDim S128 ![] bcast_S_S128 (constant S_ .f32 0x47435000#32))

/-- The column variance of a node matrix (the mean of squared deviations from the column mean; the count minus the
    zero correction is positive, so the guarded quotient is the quotient). -/
def var (z : FVec Ideal S50000x128 .f32) : FVec Ideal S128 .f32 :=
  let colMean : FVec Ideal S1x128 .f32 :=
    Host.divf (broadcastInDim S1x128 ![1] bcast_S128_S1x128_1
        (Host.reduceAdd z (constant S_ .f32 0x00000000#32) reducesTo_S50000x128_S128_d0 h_S_))
      (broadcastInDim S1x128 ![] bcast_S_S1x128 (constant S_ .f32 0x47435000#32))
  let dev : FVec Ideal S50000x128 .f32 := subf z (broadcastInDim S50000x128 ![0, 1] bcast_S1x128_S50000x128_0_1 colMean)
  let cnt : FVec Ideal S_ .f32 := subf (constant S_ .f32 0x47435000#32) (sitofp .f32 (constantI S_ 32 0#32))
  select (broadcastInDim S128 ![] bcast_S_S128 (cmpf .ogt cnt (constant S_ .f32 0x00000000#32)))
    (Host.divf (Host.reduceAdd (mulf dev dev) (constant S_ .f32 0x00000000#32) reducesTo_S50000x128_S128_d0 h_S_)
      (broadcastInDim S128 ![] bcast_S_S128 cnt))
    (broadcastInDim S128 ![] bcast_S_S128 (id (constant S_ .f32 0x7FC00000#32)))

/-- The host operations at an edge-index array. -/
def HR (ei : IVec S2x500000 32) : Cert.Spec.HostOps where
  takeSrc := take (srcOf ei)
  takeDst := take (dstOf ei)
  segsum := segsum (dstOf ei)
  mean := fun z => Cert.Spec.vecOf (mean z)
  var := fun z => Cert.Spec.vecOf (var z)

end Cert.ReferenceIdeal.RVal

end
-- ==== Proof.KHostA.lean ====
/-
  What the host stretches between the kernel program's launches leave in the buffers the launches read, for the
  stretches that only cut and reshape: the two index vectors (the rows of the edge-index array), each layer's weight
  matrices (a slab of a stack, the edge perceptron's first weight further cut into three row-blocks), each layer's bias,
  scale and shift vectors (a row of a matrix, stood up as a one-row matrix), the column statistics stood up as rows, and
  the readout's weight blocks and bias rows. Each is stated for an arbitrary valuation of the buffers, in the
  vocabulary of the specification (`slab`, `rowOf`, `vecOf`, `third`); a one-row matrix is read through `row1`.

  Four layout patterns are proved once, over arbitrary sizes and arbitrary evidence for the shape relations, and every
  stretch's statement is one of them (or two composed) applied to the stretch's composed term.
-/
import proofs.«410123_j23235773072029_1_alg».proof.Proof.Gen.KernelIdeal.Launch
import proofs.«410123_j23235773072029_1_alg».proof.Proof.Gen.KernelIdeal
import proofs.«410123_j23235773072029_1_alg».proof.Proof.Spec
import proofs.«410123_j23235773072029_1_alg».proof.Proof.RHost
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.StableHlo (after)

/-- A one-row matrix read as the vector of its row. -/
def row1 {N : Nat} (x : (⟨2, ![1, N]⟩ : Shape).Idx → EReal) : Fin N → EReal := fun j => x (ix2 (0 : Fin 1) j)

/-! ## The layout patterns, once each -/

/-- Layer `l` of a stack, cut out along the leading axis and flattened to a matrix, is the stack's slab `l`. -/
theorem slab_read {L K N : Nat} (l : Fin L) (x : (⟨3, ![L, K, N]⟩ : Shape).Idx → EReal)
    (off : Fin 3 → Nat) (h0 : off 0 = l.val) (h1 : off 1 = 0) (h2 : off 2 = 0)
    (hs : (⟨3, ![L, K, N]⟩ : Shape).Slices off ⟨3, ![1, K, N]⟩)
    (hc : (⟨3, ![1, K, N]⟩ : Shape).ShapeCasts ⟨2, ![K, N]⟩) :
    shapeCast ⟨2, ![K, N]⟩ (extractStridedSlice ⟨3, ![1, K, N]⟩ off x hs) hc = Cert.Spec.slab l x := by
  funext i
  obtain ⟨r, c, rfl⟩ : ∃ r c, i = ix2 r c := ⟨i 0, i 1, eq_ix2 i⟩
  rw [shapeCast_1ab_ab_apply]
  refine extractStridedSlice_apply off x hs _ (ix3 l r c) (fun a => ?_)
  match a with
  | ⟨0, _⟩ => show l.val = off 0 + 0; omega
  | ⟨1, _⟩ => show r.val = off 1 + r.val; omega
  | ⟨2, _⟩ => show c.val = off 2 + c.val; omega

/-- Row `l` of a matrix, cut out, flattened to a vector and stood up again as a one-row matrix, reads as row `l`. -/
theorem rowOf_read {L N : Nat} (l : Fin L) (x : (⟨2, ![L, N]⟩ : Shape).Idx → EReal)
    (off : Fin 2 → Nat) (h0 : off 0 = l.val) (h1 : off 1 = 0)
    (hs : (⟨2, ![L, N]⟩ : Shape).Slices off ⟨2, ![1, N]⟩)
    (hc : (⟨2, ![1, N]⟩ : Shape).ShapeCasts ⟨1, ![N]⟩) (hc' : (⟨1, ![N]⟩ : Shape).ShapeCasts ⟨2, ![1, N]⟩) :
    row1 (shapeCast ⟨2, ![1, N]⟩ (shapeCast ⟨1, ![N]⟩ (extractStridedSlice ⟨2, ![1, N]⟩ off x hs) hc) hc')
      = Cert.Spec.rowOf l x := by
  funext j
  show shapeCast ⟨2, ![1, N]⟩ (shapeCast ⟨1, ![N]⟩ (extractStridedSlice ⟨2, ![1, N]⟩ off x hs) hc) hc' (ix2 (0 : Fin 1) j) = x (ix2 l j)
  rw [shapeCast_a_1a_apply, shapeCast_1a_a_apply]
  refine extractStridedSlice_apply off x hs _ (ix2 l j) (fun a => ?_)
  match a with
  | ⟨0, _⟩ => show l.val = off 0 + 0; omega
  | ⟨1, _⟩ => show j.val = off 1 + j.val; omega

/-- A vector stood up as a one-row matrix reads as the vector. -/
theorem vecOf_read {N : Nat} (x : (⟨1, ![N]⟩ : Shape).Idx → EReal) (hc' : (⟨1, ![N]⟩ : Shape).ShapeCasts ⟨2, ![1, N]⟩) :
    row1 (shapeCast ⟨2, ![1, N]⟩ x hc') = Cert.Spec.vecOf x := by
  funext j
  show shapeCast ⟨2, ![1, N]⟩ x hc' (ix2 (0 : Fin 1) j) = x (ix1 j)
  rw [shapeCast_a_1a_apply]

/-- Rows `128·p … 128·p + 127` of a 384-row matrix are its row-block `p`. -/
theorem third_read {N : Nat} (p : Fin 3) (x : (⟨2, ![384, N]⟩ : Shape).Idx → EReal)
    (off : Fin 2 → Nat) (h0 : off 0 = 128 * p.val) (h1 : off 1 = 0)
    (hs : (⟨2, ![384, N]⟩ : Shape).Slices off ⟨2, ![128, N]⟩) :
    extractStridedSlice ⟨2, ![128, N]⟩ off x hs = Cert.Spec.third p x := by
  funext i
  obtain ⟨r, c, rfl⟩ : ∃ r c, i = ix2 r c := ⟨i 0, i 1, eq_ix2 i⟩
  refine extractStridedSlice_apply off x hs _ _ (fun a => ?_)
  match a with
  | ⟨0, _⟩ => show 128 * p.val + r.val = off 0 + r.val; omega
  | ⟨1, _⟩ => show c.val = off 1 + c.val; omega

/-! ## The first stretch: the two index vectors and the node bias row -/

theorem h0_v1 (W : Valuation τ sig (Elt Ideal)) :
    after hostOps0 W (Proc.devRef .tc main_v1) = Cert.ReferenceIdeal.RVal.srcOf (W (Proc.devRef .tc main_arg22)) := by
  show StableHlo.after hostOps0 W (Proc.devRef .tc main_v1) = _
  after_results
  rfl

theorem h0_v3 (W : Valuation τ sig (Elt Ideal)) :
    after hostOps0 W (Proc.devRef .tc main_v3) = Cert.ReferenceIdeal.RVal.dstOf (W (Proc.devRef .tc main_arg22)) := by
  show StableHlo.after hostOps0 W (Proc.devRef .tc main_v3) = _
  after_results
  rfl

theorem h0_v4 (W : Valuation τ sig (Elt Ideal)) :
    row1 (after hostOps0 W (Proc.devRef .tc main_v4)) = Cert.Spec.vecOf (W (Proc.devRef .tc main_arg3)) := by
  show row1 (StableHlo.after hostOps0 W (Proc.devRef .tc main_v4)) = _
  after_results
  exact vecOf_read _ _

/-! ## The second stretch: the edge bias row -/

theorem h1_v6 (W : Valuation τ sig (Elt Ideal)) :
    row1 (after hostOps1 W (Proc.devRef .tc main_v6)) = Cert.Spec.vecOf (W (Proc.devRef .tc main_arg5)) := by
  show row1 (StableHlo.after hostOps1 W (Proc.devRef .tc main_v6)) = _
  after_results
  exact vecOf_read _ _

/-! ## Layer 0: the node update's weights and biases -/

attribute [local irreducible] Host.scatterAdd Host.gather Host.reduceAdd

theorem h3_v14 (W : Valuation τ sig (Elt Ideal)) :
    after hostOps3 W (Proc.devRef .tc main_v14) = Cert.Spec.slab (0 : Fin 2) (W (Proc.devRef .tc main_arg6)) := by
  show StableHlo.after hostOps3 W (Proc.devRef .tc main_v14) = _
  after_results
  exact slab_read (0 : Fin 2) _ _ rfl rfl rfl _ _

theorem h3_v18 (W : Valuation τ sig (Elt Ideal)) :
    after hostOps3 W (Proc.devRef .tc main_v18) = Cert.Spec.slab (0 : Fin 2) (W (Proc.devRef .tc main_arg8)) := by
  show StableHlo.after hostOps3 W (Proc.devRef .tc main_v18) = _
  after_results
  exact slab_read (0 : Fin 2) _ _ rfl rfl rfl _ _

theorem h3_v21 (W : Valuation τ sig (Elt Ideal)) :
    row1 (after hostOps3 W (Proc.devRef .tc main_v21)) = Cert.Spec.rowOf (0 : Fin 2) (W (Proc.devRef .tc main_arg7)) := by
  show row1 (StableHlo.after hostOps3 W (Proc.devRef .tc main_v21)) = _
  after_results
  exact rowOf_read (0 : Fin 2) _ ![0, 0] rfl rfl _ _ _

theorem h3_v22 (W : Valuation τ sig (Elt Ideal)) :
    row1 (after hostOps3 W (Proc.devRef .tc main_v22)) = Cert.Spec.rowOf (0 : Fin 2) (W (Proc.devRef .tc main_arg9)) := by
  show row1 (StableHlo.after hostOps3 W (Proc.devRef .tc main_v22)) = _
  after_results
  exact rowOf_read (0 : Fin 2) _ ![0, 0] rfl rfl _ _ _

/-! ## Layer 0: the column statistics and the normalisation's scale and shift, as rows -/

theorem h4_2_v32 (W : Valuation τ sig (Elt Ideal)) :
    row1 (after hostOps4_2 W (Proc.devRef .tc main_v32)) = Cert.Spec.vecOf (W (Proc.devRef .tc main_v26)) := by
  show row1 (StableHlo.after hostOps4_2 W (Proc.devRef .tc main_v32)) = _
  after_results
  exact vecOf_read _ _

theorem h4_2_v33 (W : Valuation τ sig (Elt Ideal)) :
    row1 (after hostOps4_2 W (Proc.devRef .tc main_v33)) = Cert.Spec.vecOf (W (Proc.devRef .tc main_v27)) := by
  show row1 (StableHlo.after hostOps4_2 W (Proc.devRef .tc main_v33)) = _
  after_results
  exact vecOf_read _ _

theorem h4_2_v34 (W : Valuation τ sig (Elt Ideal)) :
    row1 (after hostOps4_2 W (Proc.devRef .tc main_v34)) = Cert.Spec.rowOf (0 : Fin 2) (W (Proc.devRef .tc main_arg10)) := by
  show row1 (StableHlo.after hostOps4_2 W (Proc.devRef .tc main_v34)) = _
  after_results
  exact rowOf_read (0 : Fin 2) _ ![0, 0] rfl rfl _ _ _

theorem h4_2_v35 (W : Valuation τ sig (Elt Ideal)) :
    row1 (after hostOps4_2 W (Proc.devRef .tc main_v35)) = Cert.Spec.rowOf (0 : Fin 2) (W (Proc.devRef .tc main_arg11)) := by
  show row1 (StableHlo.after hostOps4_2 W (Proc.devRef .tc main_v35)) = _
  after_results
  exact rowOf_read (0 : Fin 2) _ ![0, 0] rfl rfl _ _ _

/-! ## Layer 0: the edge update's weights (the first in three row-blocks) and biases -/

theorem h5_2_v41 (W : Valuation τ sig (Elt Ideal)) :
    after hostOps5_2 W (Proc.devRef .tc main_v41)
      = Cert.Spec.third 0 (Cert.Spec.slab (0 : Fin 2) (W (Proc.devRef .tc main_arg12))) := by
  show StableHlo.after hostOps5_2 W (Proc.devRef .tc main_v41) = _
  after_results
  exact (third_read (0 : Fin 3) _ _ rfl rfl _).trans
    (congrArg (Cert.Spec.third 0) (slab_read (0 : Fin 2) _ _ rfl rfl rfl _ _))

theorem h5_2_v42 (W : Valuation τ sig (Elt Ideal)) :
    after hostOps5_2 W (Proc.devRef .tc main_v42)
      = Cert.Spec.third 1 (Cert.Spec.slab (0 : Fin 2) (W (Proc.devRef .tc main_arg12))) := by
  show StableHlo.after hostOps5_2 W (Proc.devRef .tc main_v42) = _
  after_results
  exact (third_read (1 : Fin 3) _ _ rfl rfl _).trans
    (congrArg (Cert.Spec.third 1) (slab_read (0 : Fin 2) _ _ rfl rfl rfl _ _))

theorem h5_2_v43 (W : Valuation τ sig (Elt Ideal)) :
    after hostOps5_2 W (Proc.devRef .tc main_v43)
      = Cert.Spec.third 2 (Cert.Spec.slab (0 : Fin 2) (W (Proc.devRef .tc main_arg12))) := by
  show StableHlo.after hostOps5_2 W (Proc.devRef .tc main_v43) = _
  after_results
  exact (third_read (2 : Fin 3) _ _ rfl rfl _).trans
    (congrArg (Cert.Spec.third 2) (slab_read (0 : Fin 2) _ _ rfl rfl rfl _ _))

theorem h5_2_v47 (W : Valuation τ sig (Elt Ideal)) :
    after hostOps5_2 W (Proc.devRef .tc main_v47) = Cert.Spec.slab (0 : Fin 2) (W (Proc.devRef .tc main_arg14)) := by
  show StableHlo.after hostOps5_2 W (Proc.devRef .tc main_v47) = _
  after_results
  exact slab_read (0 : Fin 2) _ _ rfl rfl rfl _ _

theorem h5_2_v50 (W : Valuation τ sig (Elt Ideal)) :
    row1 (after hostOps5_2 W (Proc.devRef .tc main_v50)) = Cert.Spec.rowOf (0 : Fin 2) (W (Proc.devRef .tc main_arg13)) := by
  show row1 (StableHlo.after hostOps5_2 W (Proc.devRef .tc main_v50)) = _
  after_results
  exact rowOf_read (0 : Fin 2) _ ![0, 0] rfl rfl _ _ _

theorem h5_2_v51 (W : Valuation τ sig (Elt Ideal)) :
    row1 (after hostOps5_2 W (Proc.devRef .tc main_v51)) = Cert.Spec.rowOf (0 : Fin 2) (W (Proc.devRef .tc main_arg15)) := by
  show row1 (StableHlo.after hostOps5_2 W (Proc.devRef .tc main_v51)) = _
  after_results
  exact rowOf_read (0 : Fin 2) _ ![0, 0] rfl rfl _ _ _

/-! ## Layer 1: the same three stretches at the stacks' second layer -/

theorem h7_v59 (W : Valuation τ sig (Elt Ideal)) :
    after hostOps7 W (Proc.devRef .tc main_v59) = Cert.Spec.slab (1 : Fin 2) (W (Proc.devRef .tc main_arg6)) := by
  show StableHlo.after hostOps7 W (Proc.devRef .tc main_v59) = _
  after_results
  exact slab_read (1 : Fin 2) _ _ rfl rfl rfl _ _

theorem h7_v63 (W : Valuation τ sig (Elt Ideal)) :
    after hostOps7 W (Proc.devRef .tc main_v63) = Cert.Spec.slab (1 : Fin 2) (W (Proc.devRef .tc main_arg8)) := by
  show StableHlo.after hostOps7 W (Proc.devRef .tc main_v63) = _
  after_results
  exact slab_read (1 : Fin 2) _ _ rfl rfl rfl _ _

theorem h7_v66 (W : Valuation τ sig (Elt Ideal)) :
    row1 (after hostOps7 W (Proc.devRef .tc main_v66)) = Cert.Spec.rowOf (1 : Fin 2) (W (Proc.devRef .tc main_arg7)) := by
  show row1 (StableHlo.after hostOps7 W (Proc.devRef .tc main_v66)) = _
  after_results
  exact rowOf_read (1 : Fin 2) _ ![1, 0] rfl rfl _ _ _

theorem h7_v67 (W : Valuation τ sig (Elt Ideal)) :
    row1 (after hostOps7 W (Proc.devRef .tc main_v67)) = Cert.Spec.rowOf (1 : Fin 2) (W (Proc.devRef .tc main_arg9)) := by
  show row1 (StableHlo.after hostOps7 W (Proc.devRef .tc main_v67)) = _
  after_results
  exact rowOf_read (1 : Fin 2) _ ![1, 0] rfl rfl _ _ _

theorem h8_2_v77 (W : Valuation τ sig (Elt Ideal)) :
    row1 (after hostOps8_2 W (Proc.devRef .tc main_v77)) = Cert.Spec.vecOf (W (Proc.devRef .tc main_v71)) := by
  show row1 (StableHlo.after hostOps8_2 W (Proc.devRef .tc main_v77)) = _
  after_results
  exact vecOf_read _ _

theorem h8_2_v78 (W : Valuation τ sig (Elt Ideal)) :
    row1 (after hostOps8_2 W (Proc.devRef .tc main_v78)) = Cert.Spec.vecOf (W (Proc.devRef .tc main_v72)) := by
  show row1 (StableHlo.after hostOps8_2 W (Proc.devRef .tc main_v78)) = _
  after_results
  exact vecOf_read _ _

theorem h8_2_v79 (W : Valuation τ sig (Elt Ideal)) :
    row1 (after hostOps8_2 W (Proc.devRef .tc main_v79)) = Cert.Spec.rowOf (1 : Fin 2) (W (Proc.devRef .tc main_arg10)) := by
  show row1 (StableHlo.after hostOps8_2 W (Proc.devRef .tc main_v79)) = _
  after_results
  exact rowOf_read (1 : Fin 2) _ ![1, 0] rfl rfl _ _ _

theorem h8_2_v80 (W : Valuation τ sig (Elt Ideal)) :
    row1 (after hostOps8_2 W (Proc.devRef .tc main_v80)) = Cert.Spec.rowOf (1 : Fin 2) (W (Proc.devRef .tc main_arg11)) := by
  show row1 (StableHlo.after hostOps8_2 W (Proc.devRef .tc main_v80)) = _
  after_results
  exact rowOf_read (1 : Fin 2) _ ![1, 0] rfl rfl _ _ _

theorem h9_2_v86 (W : Valuation τ sig (Elt Ideal)) :
    after hostOps9_2 W (Proc.devRef .tc main_v86)
      = Cert.Spec.third 0 (Cert.Spec.slab (1 : Fin 2) (W (Proc.devRef .tc main_arg12))) := by
  show StableHlo.after hostOps9_2 W (Proc.devRef .tc main_v86) = _
  after_results
  exact (third_read (0 : Fin 3) _ _ rfl rfl _).trans
    (congrArg (Cert.Spec.third 0) (slab_read (1 : Fin 2) _ _ rfl rfl rfl _ _))

theorem h9_2_v87 (W : Valuation τ sig (Elt Ideal)) :
    after hostOps9_2 W (Proc.devRef .tc main_v87)
      = Cert.Spec.third 1 (Cert.Spec.slab (1 : Fin 2) (W (Proc.devRef .tc main_arg12))) := by
  show StableHlo.after hostOps9_2 W (Proc.devRef .tc main_v87) = _
  after_results
  exact (third_read (1 : Fin 3) _ _ rfl rfl _).trans
    (congrArg (Cert.Spec.third 1) (slab_read (1 : Fin 2) _ _ rfl rfl rfl _ _))

theorem h9_2_v88 (W : Valuation τ sig (Elt Ideal)) :
    after hostOps9_2 W (Proc.devRef .tc main_v88)
      = Cert.Spec.third 2 (Cert.Spec.slab (1 : Fin 2) (W (Proc.devRef .tc main_arg12))) := by
  show StableHlo.after hostOps9_2 W (Proc.devRef .tc main_v88) = _
  after_results
  exact (third_read (2 : Fin 3) _ _ rfl rfl _).trans
    (congrArg (Cert.Spec.third 2) (slab_read (1 : Fin 2) _ _ rfl rfl rfl _ _))

theorem h9_2_v92 (W : Valuation τ sig (Elt Ideal)) :
    after hostOps9_2 W (Proc.devRef .tc main_v92) = Cert.Spec.slab (1 : Fin 2) (W (Proc.devRef .tc main_arg14)) := by
  show StableHlo.after hostOps9_2 W (Proc.devRef .tc main_v92) = _
  after_results
  exact slab_read (1 : Fin 2) _ _ rfl rfl rfl _ _

theorem h9_2_v95 (W : Valuation τ sig (Elt Ideal)) :
    row1 (after hostOps9_2 W (Proc.devRef .tc main_v95)) = Cert.Spec.rowOf (1 : Fin 2) (W (Proc.devRef .tc main_arg13)) := by
  show row1 (StableHlo.after hostOps9_2 W (Proc.devRef .tc main_v95)) = _
  after_results
  exact rowOf_read (1 : Fin 2) _ ![1, 0] rfl rfl _ _ _

theorem h9_2_v96 (W : Valuation τ sig (Elt Ideal)) :
    row1 (after hostOps9_2 W (Proc.devRef .tc main_v96)) = Cert.Spec.rowOf (1 : Fin 2) (W (Proc.devRef .tc main_arg15)) := by
  show row1 (StableHlo.after hostOps9_2 W (Proc.devRef .tc main_v96)) = _
  after_results
  exact rowOf_read (1 : Fin 2) _ ![1, 0] rfl rfl _ _ _

/-! ## The readout: the first weight in three row-blocks, and the three bias rows -/

theorem h10_2_v100 (W : Valuation τ sig (Elt Ideal)) :
    after hostOps10_2 W (Proc.devRef .tc main_v100) = Cert.Spec.third 0 (W (Proc.devRef .tc main_arg16)) := by
  show StableHlo.after hostOps10_2 W (Proc.devRef .tc main_v100) = _
  after_results
  exact third_read (0 : Fin 3) _ _ rfl rfl _

theorem h10_2_v101 (W : Valuation τ sig (Elt Ideal)) :
    after hostOps10_2 W (Proc.devRef .tc main_v101) = Cert.Spec.third 1 (W (Proc.devRef .tc main_arg16)) := by
  show StableHlo.after hostOps10_2 W (Proc.devRef .tc main_v101) = _
  after_results
  exact third_read (1 : Fin 3) _ _ rfl rfl _

theorem h10_2_v102 (W : Valuation τ sig (Elt Ideal)) :
    after hostOps10_2 W (Proc.devRef .tc main_v102) = Cert.Spec.third 2 (W (Proc.devRef .tc main_arg16)) := by
  show StableHlo.after hostOps10_2 W (Proc.devRef .tc main_v102) = _
  after_results
  exact third_read (2 : Fin 3) _ _ rfl rfl _

theorem h10_2_v103 (W : Valuation τ sig (Elt Ideal)) :
    row1 (after hostOps10_2 W (Proc.devRef .tc main_v103)) = Cert.Spec.vecOf (W (Proc.devRef .tc main_arg17)) := by
  show row1 (StableHlo.after hostOps10_2 W (Proc.devRef .tc main_v103)) = _
  after_results
  exact vecOf_read _ _

theorem h10_2_v104 (W : Valuation τ sig (Elt Ideal)) :
    row1 (after hostOps10_2 W (Proc.devRef .tc main_v104)) = Cert.Spec.vecOf (W (Proc.devRef .tc main_arg19)) := by
  show row1 (StableHlo.after hostOps10_2 W (Proc.devRef .tc main_v104)) = _
  after_results
  exact vecOf_read _ _

theorem h10_2_v105 (W : Valuation τ sig (Elt Ideal)) :
    row1 (after hostOps10_2 W (Proc.devRef .tc main_v105)) = Cert.Spec.vecOf (W (Proc.devRef .tc main_arg21)) := by
  show row1 (StableHlo.after hostOps10_2 W (Proc.devRef .tc main_v105)) = _
  after_results
  exact vecOf_read _ _

end Cert.KernelIdeal.Val

end
-- ==== Proof.LibTakeFill.lean ====
/-
  `jnp.take` in its default mode ("fill") against plain indexing `x[idx]`, on the host.

  Both spellings first wrap a negative index word `v` to `v + N` (`N` the indexed axis's extent). Plain indexing then
  gathers. `jnp.take` also gathers, but it keeps the gathered value only where the wrapped word `w` passes the range
  test `0 ≤ w ∧ w ≤ N - 1` (an `and`-reduction of the test over the start-index vector's one component) and puts a fill
  value elsewhere. When every index word lies in `[-N, N)` — NumPy's own domain for the axis — every wrapped word is
  in `[0, N)`, the test passes everywhere, and the select is its first branch: the two spellings are one term.

  Stated over the library only: the wrap of one word (`wrapWord_range`), an `and`-reduction of all-ones
  (`reduce_andi_of_all`), a select under an all-ones mask (`select_of_all_one`), the range test's mask
  (`rangeMask_all_one`), and the two spellings as they print (`take_fill_eq_gather`).
-/
import Idealize.ShloMosaic.Lib.Affine
import Idealize.ShloMosaic.Lib.ReduceAll
import Idealize.ShloMosaic.Lib.ValueIdx
import Idealize.ShloMosaic.PureOps

namespace Idealize.ShloMosaic.TakeFill

open Idealize.ShloMosaic

/-- NumPy's wrap of one index word on an axis of extent `N`: `v + N` when `v` is negative, else `v`. -/
def wrapWord (N v : BitVec 32) : BitVec 32 := Scalar.select (IntOp.cmpi .slt v 0#32) (IntOp.addi v N) v

/-- A word in `[-N, N)` wraps into `[0, N)` (no 32-bit overflow for an extent below 2³⁰). -/
theorem wrapWord_range (N : Nat) (hN : N < 2 ^ 30) (v : BitVec 32) (h1 : -(N : Int) ≤ v.toInt) (h2 : v.toInt < N) :
    0 ≤ (wrapWord (BitVec.ofNat 32 N) v).toInt ∧ (wrapWord (BitVec.ofNat 32 N) v).toInt < N := by
  have hNi : (BitVec.ofNat 32 N).toInt = N := by
    rw [BitVec.toInt_ofNat']; unfold Int.bmod; dsimp only; split <;> omega
  unfold wrapWord
  by_cases hv : v.toInt < 0
  · have hc : IntOp.cmpi .slt v 0#32 = 1#1 := IntOp.cmpi_slt.2 (by simpa using hv)
    rw [hc, ValueIdx.select_one]
    have : (IntOp.addi v (BitVec.ofNat 32 N)).toInt = v.toInt + N := by
      unfold IntOp.addi; rw [BitVec.toInt_add, hNi]; unfold Int.bmod; dsimp only; split <;> omega
    omega
  · have hc : IntOp.cmpi .slt v 0#32 = 0#1 :=
      ValueIdx.eq_zero_of_ne_one fun h => hv (by simpa using IntOp.cmpi_slt.1 h)
    rw [hc, ValueIdx.select_zero]
    omega

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_of_all f l _ (IntOp.andi_eq_one.2 ⟨h, hl a (List.mem_cons_self ..)⟩)
      fun n hn => hl n (List.mem_cons_of_mem _ hn)

/-- `jnp.all` along any axes of an all-ones mask, from the initial value 1, is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_of_all x _ _ (hinit _) fun n _ => hx n

/-- A select whose mask is 1 everywhere is its first branch. -/
theorem select_of_all_one {α : Type} {s : Shape} (c : IVec s 1) (a b : s.Idx → α) (hc : ∀ i, c i = 1#1) : select c a b = a := by
  funext i
  rw [ValueIdx.select_apply, hc i, ValueIdx.select_one]

/-- The range test `lo ≤ w ∧ w ≤ hi` (signed), `and`-reduced along any axes and broadcast along any axes, is 1 everywhere
    when every word of `w` passes it. -/
theorem rangeMask_all_one {s t u r : Shape} {axes : List (Fin s.rank)} (w lo hi : IVec s 32) (init : u.Idx → BitVec 1)
    (h : s.ReducesTo axes t) (hu : 0 < u.numel) (dims : Fin t.rank → Fin r.rank) (hb : t.BroadcastsInDim r dims)
    (hinit : ∀ k, init k = 1#1) (hlo : ∀ i, (lo i).toInt ≤ (w i).toInt) (hhi : ∀ i, (w i).toInt ≤ (hi i).toInt) (j : r.Idx) :
    broadcastInDim r dims hb (Host.reduce IntOp.andi (andi (cmpi .sge w lo) (cmpi .sle w hi)) init h hu) j = 1#1 := by
  unfold broadcastInDim
  exact reduce_andi_of_all _ _ h hu hinit
    (fun i => IntOp.andi_eq_one.2 ⟨IntOp.cmpi_sge.2 (hlo i), IntOp.cmpi_sle.2 (hhi i)⟩) _

/-- The start-index column both spellings gather with: the index words wrapped, laid out along `dims₁`. -/
def wrapped {s₁ s₂ : Shape} (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (idx : IVec s₁ 32) : IVec s₂ 32 :=
  broadcastInDim s₂ dims₁ b₁ (select (cmpi .slt idx (broadcastInDim s₁ dims₀ b₀ (constantI ⟨0, ![]⟩ 32 0#32)))
    (addi idx (broadcastInDim s₁ dims₀ b₀' (constantI ⟨0, ![]⟩ 32 (BitVec.ofNat 32 N)))) idx)

/-- Every word of the start-index column is the wrap of an index word. -/
theorem wrapped_apply {s₁ s₂ : Shape} (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (idx : IVec s₁ 32) (i : s₂.Idx) : ∃ k : s₁.Idx, wrapped N dims₀ b₀ b₀' dims₁ b₁ idx i = wrapWord (BitVec.ofNat 32 N) (idx k) :=
  ⟨_, rfl⟩

/-- `jnp.take(x, idx, axis = 0)` in fill mode as it prints: the rows gathered at the wrapped start indices where the range
    test `lo ≤ w ∧ w ≤ hi` holds of the wrapped word (reduced by `and` along `axes` from `init`, broadcast along `dims₅`),
    the fill value elsewhere. -/
def takeFill {α : Type} {sx s₁ s₂ s₃ so u : Shape} {axes : List (Fin s₂.rank)} (d : GatherDims sx s₂ so)
    (N : Nat) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (lo hi : IVec s₂ 32) (init : u.Idx → BitVec 1) (hred : s₂.ReducesTo axes s₃) (hu : 0 < u.numel)
    (dims₅ : Fin s₃.rank → Fin so.rank) (b₅ : s₃.BroadcastsInDim so dims₅)
    (x : sx.Idx → α) (fill : so.Idx → α) (idx : IVec s₁ 32) : so.Idx → α :=
  select (broadcastInDim so dims₅ b₅ (Host.reduce IntOp.andi
      (andi (cmpi .sge (wrapped N dims₀ b₀ b₀' dims₁ b₁ idx) lo) (cmpi .sle (wrapped N dims₀ b₀ b₀' dims₁ b₁ idx) hi)) init hred hu))
    (Host.gather d x (wrapped N dims₀ b₀ b₀' dims₁ b₁ idx)) fill

/-- **`jnp.take` in fill mode is the plain gather on in-range indices.** With every index word in `[-N, N)` the range
    test `0 ≤ w ≤ N − 1` of the wrapped start indices passes everywhere, so the select between the gathered rows and the
    fill value is the gathered rows. (`lo` and `hi` are the two bounds as they are broadcast; `init` the reduction's 1.) -/
theorem take_fill_eq_gather {α : Type} {sx s₁ s₂ s₃ so u : Shape} {axes : List (Fin s₂.rank)} (d : GatherDims sx s₂ so)
    (N : Nat) (hN : N < 2 ^ 30) (dims₀ : Fin (⟨0, ![]⟩ : Shape).rank → Fin s₁.rank)
    (b₀ b₀' : (⟨0, ![]⟩ : Shape).BroadcastsInDim s₁ dims₀) (dims₁ : Fin s₁.rank → Fin s₂.rank) (b₁ : s₁.BroadcastsInDim s₂ dims₁)
    (lo hi : IVec s₂ 32) (hlo : ∀ i, (lo i).toInt = 0) (hhi : ∀ i, (hi i).toInt = (N : Int) - 1)
    (init : u.Idx → BitVec 1) (hinit : ∀ k, init k = 1#1) (hred : s₂.ReducesTo axes s₃) (hu : 0 < u.numel)
    (dims₅ : Fin s₃.rank → Fin so.rank) (b₅ : s₃.BroadcastsInDim so dims₅)
    (x : sx.Idx → α) (fill : so.Idx → α) (idx : IVec s₁ 32)
    (hr : ∀ k, -(N : Int) ≤ (idx k).toInt ∧ (idx k).toInt < N) :
    takeFill d N dims₀ b₀ b₀' dims₁ b₁ lo hi init hred hu dims₅ b₅ x fill idx
      = Host.gather d x (wrapped N dims₀ b₀ b₀' dims₁ b₁ idx) := by
  unfold takeFill
  refine select_of_all_one _ _ _ fun j => rangeMask_all_one _ lo hi init hred hu dims₅ b₅ hinit (fun i => ?_) (fun i => ?_) j
  · obtain ⟨k, hk⟩ := wrapped_apply N dims₀ b₀ b₀' dims₁ b₁ idx i
    rw [hk, hlo i]; exact (wrapWord_range N hN _ (hr k).1 (hr k).2).1
  · obtain ⟨k, hk⟩ := wrapped_apply N dims₀ b₀ b₀' dims₁ b₁ idx i
    rw [hk, hhi i]; have := (wrapWord_range N hN _ (hr k).1 (hr k).2).2; omega

end Idealize.ShloMosaic.TakeFill
-- ==== Proof.KHostB.lean ====
/-
  The kernel program's index-dependent host stretches in the reference program's vocabulary.

  Between its device regions the kernel program gathers node rows at the edges' source and destination indices,
  sums edge rows over their destination nodes, and takes the per-column mean and variance of a node matrix. Each is
  one stretch of host operations; read at the buffer the stretch leaves for the regions after it, each is the
  reference program's operation of the same name (`take`, `segsum`, `mean`, `var` of `Cert.ReferenceIdeal.RVal`)
  applied to the contents the stretch found. The sums, means and variances are spelled with the same operations in
  both programs. The gathers differ: the kernel program's is the "fill"-mode gather, which tests the wrapped index against
  the node range and substitutes a fill value outside it; under the precondition that every index word lies in
  `[-50000, 50000)` the test passes at every edge and the fill-mode gather is the plain one.
-/
import proofs.«410123_j23235773072029_1_alg».proof.Proof.Gen.KernelIdeal.Launch
import proofs.«410123_j23235773072029_1_alg».proof.Proof.Gen.KernelIdeal
import proofs.«410123_j23235773072029_1_alg».proof.Proof.Spec
import proofs.«410123_j23235773072029_1_alg».proof.Proof.RHost
import proofs.«410123_j23235773072029_1_alg».proof.Proof.LibTakeFill
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.StableHlo (after)

attribute [local irreducible] Host.gather Host.scatterAdd Host.reduceAdd Host.reduce

/-- A value moved to an equal type and back is the value. -/
theorem cast_roundtrip {A B : Type} (h₁ : B = A) (h₂ : A = B) (v : A) : cast h₁ (cast h₂ v) = v := by
  subst h₂; rfl

/-! ## The gather of node rows at an index vector

The kernel program gathers in "fill" mode: the index words are wrapped (a negative word moved up by the number of
nodes, 50000), the rows are gathered at the wrapped words, and a row is kept only where its wrapped word passes the
range test `0 ≤ w ≤ 49999`; elsewhere the row is the fill value. With every index word in `[-50000, 50000)` every
wrapped word is in `[0, 50000)`, the test passes at every edge, and what is left is the plain gather at the wrapped
words: the reference program's `take`. -/

/-- The column of gather start indices as the kernel program spells it: a negative word moved up by 50000. -/
def wcol (idx : IVec S500000 32) : IVec S500000x1 32 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 50000#32))) idx)

/-- The fill-mode gather of the rows of `x` at `idx`, every index word in `[-50000, 50000)`, is the plain gather at
    the wrapped words. -/
theorem take_fill (idx : IVec S500000 32) (x : FVec Ideal S50000x128 .f32)
    (hr : ∀ k, -(50000 : Int) ≤ (idx k).toInt ∧ (idx k).toInt < 50000) :
    select (broadcastInDim S500000x128 ![0] bcast_S500000_S500000x128_0
        (Host.reduce IntOp.andi
          (andi
            (cmpi .sge (wcol idx) (broadcastInDim S500000x1 ![] bcast_S_S500000x1 (constantI S_ 32 0#32)))
            (cmpi .sle (wcol idx) (broadcastInDim S500000x1 ![0, 1] bcast_S1x1_S500000x1_0_1
              (broadcastInDim S1x1 ![1] bcast_S1_S1x1_1 (constantI S1 32 49999#32)))))
          (constantI S_ 1 1#1) reducesTo_S500000x1_S500000_d1 h_S_))
      (Host.gather gather_S50000x128_S500000x1_S500000x128_1_0_n_n_0_1_1128 x (wcol idx))
      (broadcastInDim S500000x128 ![] bcast_S_S500000x128 (constant (F := Ideal) S_ .f32 0x7FC00000#32))
    = Cert.ReferenceIdeal.RVal.take idx x := by
  have hN : (50000 : Nat) < 2 ^ 30 := by norm_num
  exact TakeFill.take_fill_eq_gather gather_S50000x128_S500000x1_S500000x128_1_0_n_n_0_1_1128 50000 hN
    ![] bcast_S_S500000 bcast_S_S500000 ![0] bcast_S500000_S500000x1_0
    (broadcastInDim S500000x1 ![] bcast_S_S500000x1 (constantI S_ 32 0#32))
    (broadcastInDim S500000x1 ![0, 1] bcast_S1x1_S500000x1_0_1
      (broadcastInDim S1x1 ![1] bcast_S1_S1x1_1 (constantI S1 32 49999#32)))
    (fun _ => by show (0#32 : BitVec 32).toInt = 0; decide)
    (fun _ => by show (49999#32 : BitVec 32).toInt = ((50000 : Nat) : Int) - 1; decide) (constantI S_ 1 1#1) (fun _ => rfl)
    reducesTo_S500000x1_S500000_d1 h_S_ ![0] bcast_S500000_S500000x128_0 x
    (broadcastInDim S500000x128 ![] bcast_S_S500000x128 (constant (F := Ideal) S_ .f32 0x7FC00000#32)) idx
    (fun k => by have := hr k; omega)

theorem t2_v8 (W : Valuation τ sig (Elt Ideal))
    (hr : ∀ k, -(50000 : Int) ≤ ((W (Proc.devRef .tc main_v1)) k).toInt ∧ ((W (Proc.devRef .tc main_v1)) k).toInt < 50000) :
    after hostOps2 W (Proc.devRef .tc main_v8)
      = Cert.ReferenceIdeal.RVal.take (W (Proc.devRef .tc main_v1)) (W (Proc.devRef .tc main_v5)) := by
  refine Eq.trans ?_ (take_fill (W (Proc.devRef .tc main_v1)) (W (Proc.devRef .tc main_v5)) hr)
  after_results_simp
  simp only [cast_roundtrip]
  rfl

theorem t5_v37 (W : Valuation τ sig (Elt Ideal))
    (hr : ∀ k, -(50000 : Int) ≤ ((W (Proc.devRef .tc main_v1)) k).toInt ∧ ((W (Proc.devRef .tc main_v1)) k).toInt < 50000) :
    after hostOps5 W (Proc.devRef .tc main_v37)
      = Cert.ReferenceIdeal.RVal.take (W (Proc.devRef .tc main_v1)) (W (Proc.devRef .tc main_v36)) := by
  refine Eq.trans ?_ (take_fill (W (Proc.devRef .tc main_v1)) (W (Proc.devRef .tc main_v36)) hr)
  after_results_simp
  simp only [cast_roundtrip]
  rfl

theorem t5_1_v38 (W : Valuation τ sig (Elt Ideal))
    (hr : ∀ k, -(50000 : Int) ≤ ((W (Proc.devRef .tc main_v3)) k).toInt ∧ ((W (Proc.devRef .tc main_v3)) k).toInt < 50000) :
    after hostOps5_1 W (Proc.devRef .tc main_v38)
      = Cert.ReferenceIdeal.RVal.take (W (Proc.devRef .tc main_v3)) (W (Proc.devRef .tc main_v36)) := by
  refine Eq.trans ?_ (take_fill (W (Proc.devRef .tc main_v3)) (W (Proc.devRef .tc main_v36)) hr)
  after_results_simp
  simp only [cast_roundtrip]
  rfl

theorem t6_v53 (W : Valuation τ sig (Elt Ideal))
    (hr : ∀ k, -(50000 : Int) ≤ ((W (Proc.devRef .tc main_v1)) k).toInt ∧ ((W (Proc.devRef .tc main_v1)) k).toInt < 50000) :
    after hostOps6 W (Proc.devRef .tc main_v53)
      = Cert.ReferenceIdeal.RVal.take (W (Proc.devRef .tc main_v1)) (W (Proc.devRef .tc main_v36)) := by
  refine Eq.trans ?_ (take_fill (W (Proc.devRef .tc main_v1)) (W (Proc.devRef .tc main_v36)) hr)
  after_results_simp
  simp only [cast_roundtrip]
  rfl

theorem t9_v82 (W : Valuation τ sig (Elt Ideal))
    (hr : ∀ k, -(50000 : Int) ≤ ((W (Proc.devRef .tc main_v1)) k).toInt ∧ ((W (Proc.devRef .tc main_v1)) k).toInt < 50000) :
    after hostOps9 W (Proc.devRef .tc main_v82)
      = Cert.ReferenceIdeal.RVal.take (W (Proc.devRef .tc main_v1)) (W (Proc.devRef .tc main_v81)) := by
  refine Eq.trans ?_ (take_fill (W (Proc.devRef .tc main_v1)) (W (Proc.devRef .tc main_v81)) hr)
  after_results_simp
  simp only [cast_roundtrip]
  rfl

theorem t9_1_v83 (W : Valuation τ sig (Elt Ideal))
    (hr : ∀ k, -(50000 : Int) ≤ ((W (Proc.devRef .tc main_v3)) k).toInt ∧ ((W (Proc.devRef .tc main_v3)) k).toInt < 50000) :
    after hostOps9_1 W (Proc.devRef .tc main_v83)
      = Cert.ReferenceIdeal.RVal.take (W (Proc.devRef .tc main_v3)) (W (Proc.devRef .tc main_v81)) := by
  refine Eq.trans ?_ (take_fill (W (Proc.devRef .tc main_v3)) (W (Proc.devRef .tc main_v81)) hr)
  after_results_simp
  simp only [cast_roundtrip]
  rfl

theorem t10_v98 (W : Valuation τ sig (Elt Ideal))
    (hr : ∀ k, -(50000 : Int) ≤ ((W (Proc.devRef .tc main_v1)) k).toInt ∧ ((W (Proc.devRef .tc main_v1)) k).toInt < 50000) :
    after hostOps10 W (Proc.devRef .tc main_v98)
      = Cert.ReferenceIdeal.RVal.take (W (Proc.devRef .tc main_v1)) (W (Proc.devRef .tc main_v81)) := by
  refine Eq.trans ?_ (take_fill (W (Proc.devRef .tc main_v1)) (W (Proc.devRef .tc main_v81)) hr)
  after_results_simp
  simp only [cast_roundtrip]
  rfl

theorem t10_1_v99 (W : Valuation τ sig (Elt Ideal))
    (hr : ∀ k, -(50000 : Int) ≤ ((W (Proc.devRef .tc main_v3)) k).toInt ∧ ((W (Proc.devRef .tc main_v3)) k).toInt < 50000) :
    after hostOps10_1 W (Proc.devRef .tc main_v99)
      = Cert.ReferenceIdeal.RVal.take (W (Proc.devRef .tc main_v3)) (W (Proc.devRef .tc main_v81)) := by
  refine Eq.trans ?_ (take_fill (W (Proc.devRef .tc main_v3)) (W (Proc.devRef .tc main_v81)) hr)
  after_results_simp
  simp only [cast_roundtrip]
  rfl

/-! ## The sum over destination nodes, the column mean and the column variance

Both programs spell these with the same operations. -/

theorem s3_v12 (W : Valuation τ sig (Elt Ideal)) :
    after hostOps3 W (Proc.devRef .tc main_v12)
      = Cert.ReferenceIdeal.RVal.segsum (W (Proc.devRef .tc main_v3)) (W (Proc.devRef .tc main_v9)) := by
  after_results
  rfl

theorem s7_v57 (W : Valuation τ sig (Elt Ideal)) :
    after hostOps7 W (Proc.devRef .tc main_v57)
      = Cert.ReferenceIdeal.RVal.segsum (W (Proc.devRef .tc main_v3)) (W (Proc.devRef .tc main_v54)) := by
  after_results
  rfl

theorem m4_v26 (W : Valuation τ sig (Elt Ideal)) :
    after hostOps4 W (Proc.devRef .tc main_v26) = Cert.ReferenceIdeal.RVal.mean (W (Proc.devRef .tc main_v23)) := by
  after_results
  rfl

theorem m8_v71 (W : Valuation τ sig (Elt Ideal)) :
    after hostOps8 W (Proc.devRef .tc main_v71) = Cert.ReferenceIdeal.RVal.mean (W (Proc.devRef .tc main_v68)) := by
  after_results
  rfl

/-- The zero count correction the variance reads is written by the stretch before it. -/
theorem c4_c (W : Valuation τ sig (Elt Ideal)) :
    after hostOps4 W (Proc.devRef .tc main_c) = constantI S_ 32 0#32 := by
  after_results <;> rfl

theorem c8_c5 (W : Valuation τ sig (Elt Ideal)) :
    after hostOps8 W (Proc.devRef .tc main_c_5) = constantI S_ 32 0#32 := by
  after_results <;> rfl

theorem v4_1_v27 (W : Valuation τ sig (Elt Ideal)) (hc : W (Proc.devRef .tc main_c) = constantI S_ 32 0#32) :
    after hostOps4_1 W (Proc.devRef .tc main_v27) = Cert.ReferenceIdeal.RVal.var (W (Proc.devRef .tc main_v23)) := by
  after_results_simp
  simp only [cast_roundtrip]
  rw [hc]
  rfl

theorem v8_1_v72 (W : Valuation τ sig (Elt Ideal)) (hc : W (Proc.devRef .tc main_c_5) = constantI S_ 32 0#32) :
    after hostOps8_1 W (Proc.devRef .tc main_v72) = Cert.ReferenceIdeal.RVal.var (W (Proc.devRef .tc main_v68)) := by
  after_results_simp
  simp only [cast_roundtrip]
  rw [hc]
  rfl

end Cert.KernelIdeal.Val

end
-- ==== Proof.LibMeanAggregate.lean ====
/-
  One mean-aggregate layer of a graph network at the ideal values: for a diffusion matrix `D` [M × S], gathered source
  rows `src` [S × 128], gathered destination rows `dst` [M × 128] and weights `w` [256 × 128],

      layer D src dst w (r, c) = max (∑ j < 256, cat (r, j) · w (j, c)) 0,
      cat (r, j) = ∑ k < S, D (r, k) · src (k, j)   for j < 128,      cat (r, j) = dst (r, j − 128)   for j ≥ 128.

  Both spellings of it are read here at an index, for any sizes M and S: the host's (two `dot_general`s around a
  `concatenate`, then a maximum against a broadcast zero) and a TensorCore body's (two `tpu.matmul`s into zero
  accumulators around a `tpu.concatenate`, format changes and shape casts that are the identity at the ideal values,
  then `arith.maximumf` against a splat zero). Row `r` of the layer reads only row `r` of `D` and of `dst`
  (`layer_row_congr`), so a block of rows of the result is the layer of the blocks of rows.
-/
import Idealize.ShloMosaic.Lib.ValueIdx
import Idealize.ShloMosaic.Lib.Pipeline.Value
import Idealize.ShloMosaic.PureOps.Ideal.Laws

noncomputable section

open scoped BigOperators

namespace Idealize.ShloMosaic.MeanAggregate

open Idealize.ShloMosaic Idealize.ShloMosaic.ValueIdx

private theorem plain_lhs_0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
private theorem plain_lhs_1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
private theorem plain_rhs_0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
private theorem plain_rhs_1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain dot at (r, c), re-indexed by the one contracted coordinate. -/
private theorem plain_contr_sum {φ₁ φ₂ : FTy} (M K N : Nat)
    (lhs : FVec Ideal ⟨2, ![M, K]⟩ φ₁) (rhs : FVec Ideal ⟨2, ![K, N]⟩ φ₂) (r : Fin M) (c : Fin N) :
    ∑ k : (DotDims.plain M K N).contr.Idx,
        lhs ((DotDims.plain M K N).lhsIdx (ix2 r c) k) * rhs ((DotDims.plain M K N).rhsIdx (ix2 r c) k)
      = ∑ k : Fin K, lhs (ix2 r k) * rhs (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_0 M K N _ _
      | ⟨1, _⟩ => exact (plain_lhs_1 M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_0 M K N _ _).trans hk
      | ⟨1, _⟩ => exact plain_rhs_1 M K N _ _)
  rw [el, er]

/-- A plain [M × K] by [K × N] `tpu.matmul` into the zero accumulator, at the ideal values, read at (r, c). -/
theorem plain_matmul_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant ⟨2, ![M, N]⟩ .f32 0x00000000#32) (ix2 r c)
      = ∑ k : Fin K, lhs (ix2 r k) * rhs (ix2 k c) := by
  simp only [matmul]
  rw [Ideal.matmul_constant_zero_apply]
  exact plain_contr_sum M K N lhs rhs r c

/-- The host's plain [M × K] by [K × N] `dot_general`, at the ideal values, read at (r, c). -/
theorem plain_dotGeneral_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  simp only [Host.dotGeneral]
  rw [Ideal.dotGeneral_apply]
  exact plain_contr_sum M K N lhs rhs r c

/-- Two pieces [M × A] and [M × B] joined along the columns into [M × C], C = A + B, read at (r, j). -/
theorem concat_cols_apply {α : Type} (M A B C : Nat) (hC : C = A + B) (x : (⟨2, ![M, A]⟩ : Shape).Idx → α)
    (y : (⟨2, ![M, B]⟩ : Shape).Idx → α)
    (h : Shape.Concatenates (([⟨⟨2, ![M, A]⟩, x⟩, ⟨⟨2, ![M, B]⟩, y⟩] : List ((s : Shape) × (s.Idx → α))).map (·.1)) ⟨2, ![M, C]⟩ 1)
    (r : Fin M) (j : Fin C) :
    concatenate ⟨2, ![M, C]⟩ 1 [⟨⟨2, ![M, A]⟩, x⟩, ⟨⟨2, ![M, B]⟩, y⟩] h (ix2 r j)
      = if hj : j.val < A then x (ix2 r ⟨j.val, hj⟩) else y (ix2 r ⟨j.val - A, by omega⟩) := by
  by_cases hj : j.val < A
  · rw [dif_pos hj]
    exact concatenate_apply_piece (t := ⟨2, ![M, C]⟩) 1 _ h (ix2 r j) 0 (by simp) ⟨2, ![M, A]⟩ x rfl rfl 0 rfl
      (ix2 r ⟨j.val, hj⟩)
      (fun b hb => by
        match b with
        | ⟨0, _⟩ => rfl
        | ⟨1, _⟩ => exact absurd rfl hb)
      (by show 0 + j.val = j.val; omega)
  · rw [dif_neg hj]
    exact concatenate_apply_piece (t := ⟨2, ![M, C]⟩) 1 _ h (ix2 r j) 1 (by simp) ⟨2, ![M, B]⟩ y rfl rfl A rfl
      (ix2 r ⟨j.val - A, by omega⟩)
      (fun b hb => by
        match b with
        | ⟨0, _⟩ => rfl
        | ⟨1, _⟩ => exact absurd rfl hb)
      (by show A + (j.val - A) = j.val; omega)

/-- The layer at row `r`, column `c`. -/
def layerAt (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) (r : Fin M) (c : Fin 128) : EReal :=
  max (∑ j : Fin 256, (if hj : j.val < 128 then ∑ k : Fin S, D (ix2 r k) * src (ix2 k (⟨j.val, hj⟩ : Fin 128))
      else dst (ix2 r (⟨j.val - 128, by omega⟩ : Fin 128))) * w (ix2 j c)) 0

/-- The layer as an array. -/
def layer (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) :
    (⟨2, ![M, 128]⟩ : Shape).Idx → EReal :=
  fun i => layerAt M S D src dst w (i 0) (i 1)

theorem layer_apply (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) (r : Fin M) (c : Fin 128) :
    layer M S D src dst w (ix2 r c) = layerAt M S D src dst w r c := rfl

/-- Row `r` of the layer reads only row `r` of `D` and of `dst`. -/
theorem layer_row_congr (M M' S : Nat) (D : (⟨2, ![M, S]⟩ : Shape).Idx → EReal) (D' : (⟨2, ![M', S]⟩ : Shape).Idx → EReal)
    (src : (⟨2, ![S, 128]⟩ : Shape).Idx → EReal) (dst : (⟨2, ![M, 128]⟩ : Shape).Idx → EReal)
    (dst' : (⟨2, ![M', 128]⟩ : Shape).Idx → EReal) (w : (⟨2, ![256, 128]⟩ : Shape).Idx → EReal) (r : Fin M) (r' : Fin M') (c : Fin 128)
    (hD : ∀ k : Fin S, D (ix2 r k) = D' (ix2 r' k)) (hdst : ∀ q : Fin 128, dst (ix2 r q) = dst' (ix2 r' q)) :
    layer M S D src dst w (ix2 r c) = layer M' S D' src dst' w (ix2 r' c) := by
  show layerAt M S D src dst w r c = layerAt M' S D' src dst' w r' c
  unfold layerAt
  congr 1
  refine Finset.sum_congr rfl fun j _ => ?_
  congr 1
  by_cases hj : j.val < 128
  · rw [dif_pos hj, dif_pos hj]
    exact Finset.sum_congr rfl fun k _ => by rw [hD k]
  · rw [dif_neg hj, dif_neg hj]
    exact hdst _

/-- The host's spelling is the layer. -/
theorem host_layer_eq (M S : Nat) (D : FVec Ideal ⟨2, ![M, S]⟩ .f32) (src : FVec Ideal ⟨2, ![S, 128]⟩ .f32)
    (dst : FVec Ideal ⟨2, ![M, 128]⟩ .f32) (w : FVec Ideal ⟨2, ![256, 128]⟩ .f32)
    (hcat : Shape.Concatenates (([⟨⟨2, ![M, 128]⟩, Host.dotGeneral (DotDims.plain M S 128) none D src⟩, ⟨⟨2, ![M, 128]⟩, dst⟩] :
      List ((s : Shape) × (s.Idx → EReal))).map (·.1)) ⟨2, ![M, 256]⟩ 1)
    (hb : (⟨0, ![]⟩ : Shape).BroadcastsInDim ⟨2, ![M, 128]⟩ (![] : Fin 0 → Fin 2)) :
    maximumf (Host.dotGeneral (DotDims.plain M 256 128) none
        (concatenate ⟨2, ![M, 256]⟩ 1 [⟨⟨2, ![M, 128]⟩, Host.dotGeneral (DotDims.plain M S 128) none D src⟩, ⟨⟨2, ![M, 128]⟩, dst⟩] hcat) w)
      (broadcastInDim ⟨2, ![M, 128]⟩ ![] hb (constant (F := Ideal) ⟨0, ![]⟩ .f32 0x00000000#32))
      = layer M S D src dst w := by
  funext i
  obtain ⟨r, c, rfl⟩ : ∃ (r : Fin M) (c : Fin 128), i = ix2 r c := ⟨i 0, i 1, eq_ix2 i⟩
  rw [maximumf_apply, plain_dotGeneral_apply, layer_apply]
  unfold layerAt
  congr 1
  · refine Finset.sum_congr rfl fun j _ => ?_
    congr 1
    rw [concat_cols_apply M 128 128 256 rfl]
    by_cases hj : j.val < 128
    · rw [dif_pos hj, dif_pos hj, plain_dotGeneral_apply]
    · rw [dif_neg hj, dif_neg hj]
  · rw [broadcastInDim_apply ![] hb _ (ix2 r c) ix0 (fun a => a.elim0), constant_apply, Ideal.ofBits_zero_f32]

/-- A TensorCore body's spelling is the layer (the bf16 narrowing and the two shape casts to the same shape are the identity
    at the ideal values). -/
theorem kernel_layer_eq (M S : Nat) (x0 : FVec Ideal ⟨2, ![M, S]⟩ .f32) (x1 : FVec Ideal ⟨2, ![S, 128]⟩ .bf16)
    (x2 : FVec Ideal ⟨2, ![M, 128]⟩ .f32) (x3 : FVec Ideal ⟨2, ![256, 128]⟩ .f32) (hlt : FTy.bf16.bits < FTy.f32.bits)
    (hc1 : (⟨2, ![S, 128]⟩ : Shape).ShapeCasts ⟨2, ![S, 128]⟩) (hc2 : (⟨2, ![M, 128]⟩ : Shape).ShapeCasts ⟨2, ![M, 128]⟩)
    (hcat : Shape.Concatenates (([⟨⟨2, ![M, 128]⟩, matmul (DotDims.plain M S 128) none (truncf .bf16 x0 hlt) (shapeCast ⟨2, ![S, 128]⟩ x1 hc1)
        (constant ⟨2, ![M, 128]⟩ .f32 0x00000000#32)⟩, ⟨⟨2, ![M, 128]⟩, shapeCast ⟨2, ![M, 128]⟩ x2 hc2⟩] :
      List ((s : Shape) × (s.Idx → EReal))).map (·.1)) ⟨2, ![M, 256]⟩ 1) :
    maximumf (matmul (DotDims.plain M 256 128) (some .fp32)
        (concatenate ⟨2, ![M, 256]⟩ 1 [⟨⟨2, ![M, 128]⟩, matmul (DotDims.plain M S 128) none (truncf .bf16 x0 hlt) (shapeCast ⟨2, ![S, 128]⟩ x1 hc1)
          (constant ⟨2, ![M, 128]⟩ .f32 0x00000000#32)⟩, ⟨⟨2, ![M, 128]⟩, shapeCast ⟨2, ![M, 128]⟩ x2 hc2⟩] hcat)
        x3 (constant ⟨2, ![M, 128]⟩ .f32 0x00000000#32))
      (broadcast ⟨2, ![M, 128]⟩ (Scalar.ofBits (F := Ideal) .f32 0x00000000#32))
      = layer M S x0 x1 x2 x3 := by
  funext i
  obtain ⟨r, c, rfl⟩ : ∃ (r : Fin M) (c : Fin 128), i = ix2 r c := ⟨i 0, i 1, eq_ix2 i⟩
  rw [maximumf_apply, plain_matmul_zero_apply, layer_apply, broadcast_apply]
  unfold layerAt
  congr 1
  · refine Finset.sum_congr rfl fun j _ => ?_
    congr 1
    rw [concat_cols_apply M 128 128 256 rfl]
    by_cases hj : j.val < 128
    · rw [dif_pos hj, dif_pos hj, plain_matmul_zero_apply]
      refine Finset.sum_congr rfl fun k _ => ?_
      rw [truncf_apply, shapeCast_self]
    · rw [dif_neg hj, dif_neg hj, shapeCast_self]
  · exact Ideal.ofBits_zero_f32

end Idealize.ShloMosaic.MeanAggregate

end
-- ==== Proof.KAffine.lean ====
/-
  The two affine regions of the network, `x · w + b` on row blocks: what each leaves in its output array.

  The body of either region loads a block of 2000 rows of `x`, the whole weight `w` and the one-row bias `b`, and stores
  `matmul (x, w, 0) + broadcast b`. At the ideal values the narrowing of the operands is the identity, so entry (p, q) of what
  the body stores is `(∑ k, x (p, k) · w (k, q)) + b (0, q)` of its blocks (`affine_apply`). Block `t` of `x` is rows
  `2000 · t … 2000 · t + 1999` of the array, the weight's and the bias's one block is the array, and the output's block `t` is
  the same rows of the output array; so what point `t` writes back is block `t` of `Cert.Spec.lin` of the whole arrays, the
  blocks cover the output array (row `r` lies in block `r / 2000`), and the array ends holding `Cert.Spec.lin`.
-/
import proofs.«410123_j23235773072029_1_alg».proof.Proof.Gen.KernelIdeal.Frame
import proofs.«410123_j23235773072029_1_alg».proof.Proof.Spec
import proofs.«410123_j23235773072029_1_alg».proof.Proof.LibMeanAggregate
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.SL.Sem Cert.KernelIdeal Cert.KernelIdeal.Gen
open Idealize.ShloMosaic.Pipeline (Dat)

/-- The zero offsets of a whole-buffer access, as a constant function. -/
theorem hz : (![0, 0] : Fin 2 → Nat) = fun _ => 0 :=
  funext fun a => by
    match a with
    | ⟨0, _⟩ => rfl
    | ⟨1, _⟩ => rfl

/-! ## The body's arithmetic at an entry -/

/-- The affine body at the ideal values, read at row p, column q: the two narrowings and the cast to the same shape are
    the identity, the product into the zero accumulator is the sum over the contracted axis, and the broadcast row is
    read at column q. -/
theorem affine_apply (M K N : Nat) (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hlt : FTy.bf16.bits < FTy.f32.bits) (hc : (⟨2, ![1, N]⟩ : Shape).ShapeCasts ⟨2, ![1, N]⟩)
    (hb : (⟨2, ![1, N]⟩ : Shape).Broadcasts ⟨2, ![M, N]⟩) (p : Fin M) (q : Fin N) :
    addf (matmul d none (truncf .bf16 x0 hlt) (truncf .bf16 x1 hlt) (constant ⟨2, ![M, N]⟩ .f32 0x00000000#32))
        (broadcastTo ⟨2, ![M, N]⟩ (shapeCast ⟨2, ![1, N]⟩ x2 hc) hb) (ix2 p q)
      = (∑ k : Fin K, x0 (ix2 p k) * x1 (ix2 k q)) + x2 (ix2 (0 : Fin 1) q) := by
  subst hd
  rw [addf_apply, MeanAggregate.plain_matmul_zero_apply, shapeCast_self,
    broadcastTo_apply x2 hb (ix2 p q) (ix2 (0 : Fin 1) q) (fun a => by
      match a with
      | ⟨0, _⟩ => rfl
      | ⟨1, _⟩ =>
        show q.val = if N = 1 then 0 else q.val
        split
        · have := q.isLt; omega
        · rfl)]
  refine congrArg (· + _) (Finset.sum_congr rfl fun k _ => ?_)
  rw [truncf_apply, truncf_apply]

theorem pay0_apply (x0 : Vec Ideal S2000x128 .f32) (x1 : Vec Ideal S128x128 .f32) (x2 : Vec Ideal S1x128 .f32)
    (p : Fin 2000) (q : Fin 128) :
    k0_pay1 x0 x1 x2 (ix2 p q) = (∑ k : Fin 128, x0 (ix2 p k) * x1 (ix2 k q)) + x2 (ix2 (0 : Fin 1) q) := by
  unfold k0_pay1
  exact affine_apply 2000 128 128 _ rfl x0 x1 x2 _ _ _ p q

theorem pay1_apply (x0 : Vec Ideal S2000x16 .f32) (x1 : Vec Ideal S16x128 .f32) (x2 : Vec Ideal S1x128 .f32)
    (p : Fin 2000) (q : Fin 128) :
    k1_pay1 x0 x1 x2 (ix2 p q) = (∑ k : Fin 16, x0 (ix2 p k) * x1 (ix2 k q)) + x2 (ix2 (0 : Fin 1) q) := by
  unfold k1_pay1
  exact affine_apply 2000 16 128 _ rfl x0 x1 x2 _ _ _ p q

variable (V : (c : Dev nD) → (b : Ref sig .tc) → Buf (Elt Ideal) ((c : Thread nD τ).loc b))

/-! ## Region 0: `main_arg0 · main_arg2 + main_v4`, 25 blocks of 2000 rows -/

/-- The index maps over the grid: the row-blocked windows (the input rows and the output) are at block `t` on the rows and
    block 0 on the columns, the weight's and the bias's at block 0 on both axes. -/
theorem rows0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt0 (t : Fin cfg0.N) : t.val < 25 :=
  lt_of_lt_of_eq t.isLt (N_0 : cfg0.N = 25)

/-- Block `t` of the input rows is rows `2000 · t … 2000 · t + 1999` of the array. -/
theorem xblk0_apply (c : Dev nD) (t : Fin cfg0.N) (p : Fin 2000) (k : Fin 128) (hr : 2000 * t.val + p.val < 50000) :
    (iblk0 (F := Ideal) V c 0 t : Vec Ideal S2000x128 .f32) (ix2 p k)
      = (V c main_arg0 : Cert.Spec.Mat 50000 128) (ix2 (⟨2000 * t.val + p.val, hr⟩ : Fin 50000) k) := by
  obtain ⟨e0, e1, -⟩ := rows0 t
  unfold iblk0
  show V c main_arg0 (((cfg0.win 0).blk t).view.emb (ix2 p k)) = V c main_arg0 _
  congr 1
  funext a
  apply Fin.ext
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- The weight's one block is the array. -/
theorem wblk0_apply (c : Dev nD) (t : Fin cfg0.N) (k : Fin 128) (q : Fin 128) :
    (iblk0 (F := Ideal) V c 1 t : Vec Ideal S128x128 .f32) (ix2 k q) = (V c main_arg2 : Cert.Spec.Mat 128 128) (ix2 k q) := by
  obtain ⟨-, -, e2, e3, -⟩ := rows0 t
  unfold iblk0
  show V c main_arg2 (((cfg0.win 1).blk t).view.emb (ix2 k q)) = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The bias's one block is the array. -/
theorem bblk0_apply (c : Dev nD) (t : Fin cfg0.N) (q : Fin 128) :
    (iblk0 (F := Ideal) V c 2 t : Vec Ideal S1x128 .f32) (ix2 (0 : Fin 1) q) = (V c main_v4 : Cert.Spec.Mat 1 128) (ix2 (0 : Fin 1) q) := by
  obtain ⟨-, -, -, -, e4, e5, -⟩ := rows0 t
  unfold iblk0
  show V c main_v4 (((cfg0.win 2).blk t).view.emb (ix2 (0 : Fin 1) q)) = V c main_v4 _
  congr 1
  funext a
  apply Fin.ext
  match a with
  | ⟨0, _⟩ => show win0_2.index t (0 : Fin 2) * 1 + 1 * 0 = 0; omega
  | ⟨1, _⟩ => show win0_2.index t (1 : Fin 2) * 128 + 1 * q.val = q.val; rw [e5]; omega

/-- Entry (p, q) of the output's block `t` is entry (2000 · t + p, q) of the output array. -/
theorem oblk0_emb (t : Fin cfg0.N) (p : Fin 2000) (q : Fin 128) (hr : 2000 * t.val + p.val < 50000) :
    ((cfg0.win 3).blk t).view.emb (ix2 p q) = (ix2 (⟨2000 * t.val + p.val, hr⟩ : Fin 50000) q : S50000x128.Idx) := by
  obtain ⟨-, -, -, -, -, -, e6, e7⟩ := rows0 t
  funext a
  apply Fin.ext
  match a with
  | ⟨0, _⟩ => show win0_3.index t (0 : Fin 2) * 2000 + 1 * p.val = 2000 * t.val + p.val; rw [e6]; omega
  | ⟨1, _⟩ => show win0_3.index t (1 : Fin 2) * 128 + 1 * q.val = q.val; rw [e7]; omega

/-- What point `t` writes back is block `t` of the affine map of the whole arrays. -/
theorem flushed0_eq (c : Dev nD) (t : Fin cfg0.N) :
    (dat0 (F := Ideal) V c).flushed 3 t = ((cfg0.win 3).blk t).view.read (Elt Ideal)
      (Cert.Spec.lin (V c main_arg0) (V c main_arg2) (fun j : Fin 128 => V c main_v4 (ix2 (0 : Fin 1) j))) := by
  show (cfg0.win 3).cut (grid0.coords t) ((dat0 (F := Ideal) V c).after 3 t) = _
  rw [after0_3]
  unfold out0_3
  rw [View.canon_unit_zero hz]
  simp only [View.ld_unit_zero (S := S2000x128) hz, View.ld_unit_zero (S := S128x128) hz, View.ld_unit_zero (S := S1x128) hz]
  refine funext fun (j : S2000x128.Idx) => ?_
  obtain ⟨p, q, rfl⟩ : ∃ (p : Fin 2000) (q : Fin 128), j = ix2 p q := ⟨j 0, j 1, eq_ix2 (n0 := 2000) (n1 := 128) j⟩
  have ht : t.val < 25 := point_lt0 t
  have hr : 2000 * t.val + p.val < 50000 := by have := p.isLt; omega
  show k0_pay1 (iblk0 (F := Ideal) V c 0 t) (iblk0 (F := Ideal) V c 1 t) (iblk0 (F := Ideal) V c 2 t) (ix2 p q)
      = Cert.Spec.lin (V c main_arg0) (V c main_arg2) (fun j : Fin 128 => V c main_v4 (ix2 (0 : Fin 1) j))
          (((cfg0.win 3).blk t).view.emb (ix2 p q))
  refine (pay0_apply (iblk0 (F := Ideal) V c 0 t) (iblk0 (F := Ideal) V c 1 t) (iblk0 (F := Ideal) V c 2 t) p q).trans ?_
  refine Eq.trans ?_ (congrArg (Cert.Spec.lin (V c main_arg0) (V c main_arg2) (fun j : Fin 128 => V c main_v4 (ix2 (0 : Fin 1) j)))
    (oblk0_emb t p q hr)).symm
  rw [Cert.Spec.lin_apply]
  exact congrArg₂ (· + ·)
    (Finset.sum_congr rfl fun k _ => congrArg₂ (· * ·) (xblk0_apply V c t p k hr) (wblk0_apply V c t k q))
    (bblk0_apply V c t q)

/-- An index of the output array is in point `t`'s block iff each coordinate is in the block's range on its axis. -/
theorem mem_oblk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v5).slice (win0_3.rect t)).set ↔ _
  rw [View.set_slice_whole, Rect.mem_set_unit]
  exact Iff.rfl

/-- The blocks cover the output array: row `r` lies in the block of point `r / 2000`, which writes back. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, -, -, e6, e7⟩ := rows0 t
  refine ⟨t, flush0_3 t, ?_⟩
  rw [mem_oblk0]
  intro a
  match a with
  | ⟨0, _⟩ =>
    show win0_3.index t (0 : Fin 2) * 2000 ≤ (i 0).val ∧ (i 0).val < win0_3.index t (0 : Fin 2) * 2000 + 2000
    rw [e6]; omega
  | ⟨1, _⟩ =>
    show win0_3.index t (1 : Fin 2) * 128 ≤ (i 1).val ∧ (i 1).val < win0_3.index t (1 : Fin 2) * 128 + 128
    rw [e7]; omega

/-- The output array after the region: the affine map of the input arrays as the region finds them. -/
theorem final0 (c : Dev nD) : (dat0 (F := Ideal) V c).arrAt 3 cfg0.N
    = Cert.Spec.lin (V c main_arg0) (V c main_arg2) (fun j : Fin 128 => V c main_v4 (ix2 (0 : Fin 1) j)) :=
  (dat0 (F := Ideal) V c).arrAt_eq_of_cover 3 _ (fun t _ => flushed0_eq V c t) cover0

/-! ## Region 1: `main_arg1 · main_arg4 + main_v6`, 250 blocks of 2000 rows -/

/-- The index maps over the grid: the row-blocked windows (the input rows and the output) are at block `t` on the rows and
    block 0 on the columns, the weight's and the bias's at block 0 on both axes. -/
theorem rows1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt1 (t : Fin cfg1.N) : t.val < 250 :=
  lt_of_lt_of_eq t.isLt (N_1 : cfg1.N = 250)

/-- Block `t` of the input rows is rows `2000 · t … 2000 · t + 1999` of the array. -/
theorem xblk1_apply (c : Dev nD) (t : Fin cfg1.N) (p : Fin 2000) (k : Fin 16) (hr : 2000 * t.val + p.val < 500000) :
    (iblk1 (F := Ideal) V c 0 t : Vec Ideal S2000x16 .f32) (ix2 p k)
      = (V c main_arg1 : Cert.Spec.Mat 500000 16) (ix2 (⟨2000 * t.val + p.val, hr⟩ : Fin 500000) k) := by
  obtain ⟨e0, e1, -⟩ := rows1 t
  unfold iblk1
  show V c main_arg1 (((cfg1.win 0).blk t).view.emb (ix2 p k)) = V c main_arg1 _
  congr 1
  funext a
  apply Fin.ext
  match a with
  | ⟨0, _⟩ => show win1_0.index t (0 : Fin 2) * 2000 + 1 * p.val = 2000 * t.val + p.val; rw [e0]; omega
  | ⟨1, _⟩ => show win1_0.index t (1 : Fin 2) * 16 + 1 * k.val = k.val; rw [e1]; omega

/-- The weight's one block is the array. -/
theorem wblk1_apply (c : Dev nD) (t : Fin cfg1.N) (k : Fin 16) (q : Fin 128) :
    (iblk1 (F := Ideal) V c 1 t : Vec Ideal S16x128 .f32) (ix2 k q) = (V c main_arg4 : Cert.Spec.Mat 16 128) (ix2 k q) := by
  obtain ⟨-, -, e2, e3, -⟩ := rows1 t
  unfold iblk1
  show V c main_arg4 (((cfg1.win 1).blk t).view.emb (ix2 k q)) = V c main_arg4 _
  congr 1
  funext a
  apply Fin.ext
  match a with
  | ⟨0, _⟩ => show win1_1.index t (0 : Fin 2) * 16 + 1 * k.val = k.val; rw [e2]; omega
  | ⟨1, _⟩ => show win1_1.index t (1 : Fin 2) * 128 + 1 * q.val = q.val; rw [e3]; omega

/-- The bias's one block is the array. -/
theorem bblk1_apply (c : Dev nD) (t : Fin cfg1.N) (q : Fin 128) :
    (iblk1 (F := Ideal) V c 2 t : Vec Ideal S1x128 .f32) (ix2 (0 : Fin 1) q) = (V c main_v6 : Cert.Spec.Mat 1 128) (ix2 (0 : Fin 1) q) := by
  obtain ⟨-, -, -, -, e4, e5, -⟩ := rows1 t
  unfold iblk1
  show V c main_v6 (((cfg1.win 2).blk t).view.emb (ix2 (0 : Fin 1) q)) = V c main_v6 _
  congr 1
  funext a
  apply Fin.ext
  match a with
  | ⟨0, _⟩ => show win1_2.index t (0 : Fin 2) * 1 + 1 * 0 = 0; omega
  | ⟨1, _⟩ => show win1_2.index t (1 : Fin 2) * 128 + 1 * q.val = q.val; rw [e5]; omega

/-- Entry (p, q) of the output's block `t` is entry (2000 · t + p, q) of the output array. -/
theorem oblk1_emb (t : Fin cfg1.N) (p : Fin 2000) (q : Fin 128) (hr : 2000 * t.val + p.val < 500000) :
    ((cfg1.win 3).blk t).view.emb (ix2 p q) = (ix2 (⟨2000 * t.val + p.val, hr⟩ : Fin 500000) q : S500000x128.Idx) := by
  obtain ⟨-, -, -, -, -, -, e6, e7⟩ := rows1 t
  funext a
  apply Fin.ext
  match a with
  | ⟨0, _⟩ => show win1_3.index t (0 : Fin 2) * 2000 + 1 * p.val = 2000 * t.val + p.val; rw [e6]; omega
  | ⟨1, _⟩ => show win1_3.index t (1 : Fin 2) * 128 + 1 * q.val = q.val; rw [e7]; omega

/-- What point `t` writes back is block `t` of the affine map of the whole arrays. -/
theorem flushed1_eq (c : Dev nD) (t : Fin cfg1.N) :
    (dat1 (F := Ideal) V c).flushed 3 t = ((cfg1.win 3).blk t).view.read (Elt Ideal)
      (Cert.Spec.lin (V c main_arg1) (V c main_arg4) (fun j : Fin 128 => V c main_v6 (ix2 (0 : Fin 1) j))) := by
  show (cfg1.win 3).cut (grid1.coords t) ((dat1 (F := Ideal) V c).after 3 t) = _
  rw [after1_3]
  unfold out1_3
  rw [View.canon_unit_zero hz]
  simp only [View.ld_unit_zero (S := S2000x16) hz, View.ld_unit_zero (S := S16x128) hz, View.ld_unit_zero (S := S1x128) hz]
  refine funext fun (j : S2000x128.Idx) => ?_
  obtain ⟨p, q, rfl⟩ : ∃ (p : Fin 2000) (q : Fin 128), j = ix2 p q := ⟨j 0, j 1, eq_ix2 (n0 := 2000) (n1 := 128) j⟩
  have ht : t.val < 250 := point_lt1 t
  have hr : 2000 * t.val + p.val < 500000 := by have := p.isLt; omega
  show k1_pay1 (iblk1 (F := Ideal) V c 0 t) (iblk1 (F := Ideal) V c 1 t) (iblk1 (F := Ideal) V c 2 t) (ix2 p q)
      = Cert.Spec.lin (V c main_arg1) (V c main_arg4) (fun j : Fin 128 => V c main_v6 (ix2 (0 : Fin 1) j))
          (((cfg1.win 3).blk t).view.emb (ix2 p q))
  refine (pay1_apply (iblk1 (F := Ideal) V c 0 t) (iblk1 (F := Ideal) V c 1 t) (iblk1 (F := Ideal) V c 2 t) p q).trans ?_
  refine Eq.trans ?_ (congrArg (Cert.Spec.lin (V c main_arg1) (V c main_arg4) (fun j : Fin 128 => V c main_v6 (ix2 (0 : Fin 1) j)))
    (oblk1_emb t p q hr)).symm
  rw [Cert.Spec.lin_apply]
  exact congrArg₂ (· + ·)
    (Finset.sum_congr rfl fun k _ => congrArg₂ (· * ·) (xblk1_apply V c t p k hr) (wblk1_apply V c t k q))
    (bblk1_apply V c t q)

/-- An index of the output array is in point `t`'s block iff each coordinate is in the block's range on its axis. -/
theorem mem_oblk1 (t : Fin cfg1.N) (i : S500000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v7).slice (win1_3.rect t)).set ↔ _
  rw [View.set_slice_whole, Rect.mem_set_unit]
  exact Iff.rfl

/-- The blocks cover the output array: row `r` lies in the block of point `r / 2000`, which writes back. -/
theorem cover1 (i : S500000x128.Idx) :
    ∃ t : Fin cfg1.N, (cfg1.win 3).flush t = true ∧ i ∈ ((cfg1.win 3).blk t).view.set := by
  have hi0 : (i 0).val < 500000 := (i 0).isLt
  have hi1 : (i 1).val < 128 := (i 1).isLt
  obtain ⟨t, ht⟩ : ∃ t : Fin cfg1.N, t.val = (i 0).val / 2000 :=
    ⟨⟨(i 0).val / 2000, by rw [show cfg1.N = 250 from N_1]; omega⟩, rfl⟩
  obtain ⟨-, -, -, -, -, -, e6, e7⟩ := rows1 t
  refine ⟨t, flush1_3 t, ?_⟩
  rw [mem_oblk1]
  intro a
  match a with
  | ⟨0, _⟩ =>
    show win1_3.index t (0 : Fin 2) * 2000 ≤ (i 0).val ∧ (i 0).val < win1_3.index t (0 : Fin 2) * 2000 + 2000
    rw [e6]; omega
  | ⟨1, _⟩ =>
    show win1_3.index t (1 : Fin 2) * 128 ≤ (i 1).val ∧ (i 1).val < win1_3.index t (1 : Fin 2) * 128 + 128
    rw [e7]; omega

/-- The output array after the region: the affine map of the input arrays as the region finds them. -/
theorem final1 (c : Dev nD) : (dat1 (F := Ideal) V c).arrAt 3 cfg1.N
    = Cert.Spec.lin (V c main_arg1) (V c main_arg4) (fun j : Fin 128 => V c main_v6 (ix2 (0 : Fin 1) j)) :=
  (dat1 (F := Ideal) V c).arrAt_eq_of_cover 3 _ (fun t _ => flushed1_eq V c t) cover1

end Cert.KernelIdeal.Val

end
-- ==== Proof.KMsg.lean ====
/-
  The message regions of the kernel program, in closed form.

  Each of the two message regions reads two [500000, 128] arrays (the source-node features gathered per edge, and
  the edge features) in row blocks of 2000 and writes, block by block, the positive part of their sum.  Here the
  output ARRAY after the region is shown to be `Cert.Spec.msg` of the two input arrays as the region finds them:
  * the body's arithmetic at one index is `max (x + y) 0`;
  * grid point `t` moves all three windows to the same block (rows `2000 t … 2000 t + 1999`), so what point `t`
    writes back is block `t` of the whole-array function;
  * row `r` lies in the block of point `r / 2000`, so the blocks cover the array.
-/
import proofs.«410123_j23235773072029_1_alg».proof.Proof.Gen.KernelIdeal.Frame
import proofs.«410123_j23235773072029_1_alg».proof.Proof.Spec
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The zero offset of a whole-buffer access. -/
theorem msg_hz : (![0, 0] : Fin 2 → Nat) = fun _ => 0 := funext fun a => by fin_cases a <;> rfl

/-! ## Region 2 -/

/-- The two input arrays as the region finds them, at their literal type. -/
abbrev msg_hs2 (c : Dev nD) : S500000x128.Idx → EReal := V c main_v8
abbrev msg_ea2 (c : Dev nD) : S500000x128.Idx → EReal := V c main_v7

/-- The body's arithmetic at one index: the positive part of the sum. -/
theorem msg_pay2 (x y : Vec Ideal S2000x128 .f32) (j : S2000x128.Idx) :
    k2_pay1 (F := Ideal) x y j = max (x j + y j) 0 := by
  unfold k2_pay1
  show max ((shapeCast S2000x128 x _ j : EReal) + shapeCast S2000x128 y _ j) (Ideal.ofBits .f32 0x00000000#32) = _
  rw [shapeCast_self, shapeCast_self, Ideal.ofBits_zero_f32]

/-- The three index maps, decided over the grid: every window sits at block `(t, 0)`. -/
theorem msg_idx2 : ∀ t : Fin cfg2.N,
    win2_0.index t (0 : Fin 2) = win2_2.index t (0 : Fin 2) ∧ win2_0.index t (1 : Fin 2) = win2_2.index t (1 : Fin 2)
    ∧ win2_1.index t (0 : Fin 2) = win2_2.index t (0 : Fin 2) ∧ win2_1.index t (1 : Fin 2) = win2_2.index t (1 : Fin 2)
    ∧ win2_2.index t (0 : Fin 2) = t.val ∧ win2_2.index t (1 : Fin 2) = 0 :=
  (by decide +kernel : ∀ t : Fin grid2.N, _)

/-- What point `t` writes back is block `t` of the message of the two whole arrays. -/
theorem msg_flushed2 (c : Dev nD) (t : Fin cfg2.N) :
    (dat2 (F := Ideal) V c).flushed 2 t
      = ((cfg2.win 2).blk t).view.read (Elt Ideal) (Cert.Spec.msg (msg_hs2 V c) (msg_ea2 V c)) := by
  show (cfg2.win 2).cut (grid2.coords t) ((dat2 (F := Ideal) V c).after 2 t) = _
  rw [after2_2]
  unfold out2_2
  rw [View.canon_unit_zero msg_hz]
  simp only [View.ld_unit_zero (S := S2000x128) msg_hz]
  obtain ⟨e0, e1, e2, e3, -, -⟩ := msg_idx2 t
  funext j
  show k2_pay1 (F := Ideal) (iblk2 V c 0 t) (iblk2 V c 1 t) j
    = Cert.Spec.msg (msg_hs2 V c) (msg_ea2 V c) (((cfg2.win 2).blk t).view.emb j)
  rw [msg_pay2, Cert.Spec.msg_apply]
  show max (msg_hs2 V c (((cfg2.win 0).blk t).view.emb j) + msg_ea2 V c (((cfg2.win 1).blk t).view.emb j)) 0
    = max (msg_hs2 V c (((cfg2.win 2).blk t).view.emb j) + msg_ea2 V c (((cfg2.win 2).blk t).view.emb j)) 0
  have h0 : ((cfg2.win 0).blk t).view.emb j = ((cfg2.win 2).blk t).view.emb j := by
    funext a; apply Fin.ext
    match a with
    | ⟨0, _⟩ => show win2_0.index t (0 : Fin 2) * 2000 + 1 * (j 0).val = win2_2.index t (0 : Fin 2) * 2000 + 1 * (j 0).val; rw [e0]
    | ⟨1, _⟩ => show win2_0.index t (1 : Fin 2) * 128 + 1 * (j 1).val = win2_2.index t (1 : Fin 2) * 128 + 1 * (j 1).val; rw [e1]
  have h1 : ((cfg2.win 1).blk t).view.emb j = ((cfg2.win 2).blk t).view.emb j := by
    funext a; apply Fin.ext
    match a with
    | ⟨0, _⟩ => show win2_1.index t (0 : Fin 2) * 2000 + 1 * (j 0).val = win2_2.index t (0 : Fin 2) * 2000 + 1 * (j 0).val; rw [e2]
    | ⟨1, _⟩ => show win2_1.index t (1 : Fin 2) * 128 + 1 * (j 1).val = win2_2.index t (1 : Fin 2) * 128 + 1 * (j 1).val; rw [e3]
  rw [h0, h1]

/-- An index of the output array is in point `t`'s block iff each coordinate is in the block's range. -/
theorem msg_mem2 (t : Fin cfg2.N) (i : S500000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v9).slice (win2_2.rect t)).set ↔ _
  rw [View.set_slice_whole, Rect.mem_set_unit]
  exact Iff.rfl

/-- Row `r` of the output lies in the block of point `r / 2000`. -/
theorem msg_cover2 (i : S500000x128.Idx) :
    ∃ t : Fin cfg2.N, (cfg2.win 2).flush t = true ∧ i ∈ ((cfg2.win 2).blk t).view.set := by
  have hi0 : (i 0).val < 500000 := idx2_lt0 i
  have hi1 : (i 1).val < 128 := idx2_lt1 i
  have hN : cfg2.N = 250 := N_2
  have ht : (i 0).val / 2000 < cfg2.N := by rw [hN]; omega
  obtain ⟨-, -, -, -, e4, e5⟩ := msg_idx2 ⟨(i 0).val / 2000, ht⟩
  refine ⟨⟨(i 0).val / 2000, ht⟩, flush2_2 _, ?_⟩
  rw [msg_mem2]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win2_2.index ⟨(i 0).val / 2000, ht⟩ (1 : Fin 2) * 128 ≤ (i 1).val
      ∧ (i 1).val < win2_2.index ⟨(i 0).val / 2000, ht⟩ (1 : Fin 2) * 128 + 128
    rw [e5]
    omega

/-- The output array after the region is the message of the two input arrays. -/
theorem final2 (c : Dev nD) : (dat2 (F := Ideal) V c).arrAt 2 cfg2.N = Cert.Spec.msg (V c main_v8) (V c main_v7) :=
  (dat2 (F := Ideal) V c).arrAt_eq_of_cover 2 (Cert.Spec.msg (msg_hs2 V c) (msg_ea2 V c))
    (fun t _ => msg_flushed2 V c t) msg_cover2

/-! ## Region 6 -/

/-- The two input arrays as the region finds them, at their literal type. -/
abbrev msg_hs6 (c : Dev nD) : S500000x128.Idx → EReal := V c main_v53
abbrev msg_ea6 (c : Dev nD) : S500000x128.Idx → EReal := V c main_v52

/-- The body's arithmetic at one index: the positive part of the sum. -/
theorem msg_pay6 (x y : Vec Ideal S2000x128 .f32) (j : S2000x128.Idx) :
    k6_pay1 (F := Ideal) x y j = max (x j + y j) 0 := by
  unfold k6_pay1
  show max ((shapeCast S2000x128 x _ j : EReal) + shapeCast S2000x128 y _ j) (Ideal.ofBits .f32 0x00000000#32) = _
  rw [shapeCast_self, shapeCast_self, Ideal.ofBits_zero_f32]

/-- The three index maps, decided over the grid: every window sits at block `(t, 0)`. -/
theorem msg_idx6 : ∀ t : Fin cfg6.N,
    win6_0.index t (0 : Fin 2) = win6_2.index t (0 : Fin 2) ∧ win6_0.index t (1 : Fin 2) = win6_2.index t (1 : Fin 2)
    ∧ win6_1.index t (0 : Fin 2) = win6_2.index t (0 : Fin 2) ∧ win6_1.index t (1 : Fin 2) = win6_2.index t (1 : Fin 2)
    ∧ win6_2.index t (0 : Fin 2) = t.val ∧ win6_2.index t (1 : Fin 2) = 0 :=
  (by decide +kernel : ∀ t : Fin grid6.N, _)

/-- What point `t` writes back is block `t` of the message of the two whole arrays. -/
theorem msg_flushed6 (c : Dev nD) (t : Fin cfg6.N) :
    (dat6 (F := Ideal) V c).flushed 2 t
      = ((cfg6.win 2).blk t).view.read (Elt Ideal) (Cert.Spec.msg (msg_hs6 V c) (msg_ea6 V c)) := by
  show (cfg6.win 2).cut (grid6.coords t) ((dat6 (F := Ideal) V c).after 2 t) = _
  rw [after6_2]
  unfold out6_2
  rw [View.canon_unit_zero msg_hz]
  simp only [View.ld_unit_zero (S := S2000x128) msg_hz]
  obtain ⟨e0, e1, e2, e3, -, -⟩ := msg_idx6 t
  funext j
  show k6_pay1 (F := Ideal) (iblk6 V c 0 t) (iblk6 V c 1 t) j
    = Cert.Spec.msg (msg_hs6 V c) (msg_ea6 V c) (((cfg6.win 2).blk t).view.emb j)
  rw [msg_pay6, Cert.Spec.msg_apply]
  show max (msg_hs6 V c (((cfg6.win 0).blk t).view.emb j) + msg_ea6 V c (((cfg6.win 1).blk t).view.emb j)) 0
    = max (msg_hs6 V c (((cfg6.win 2).blk t).view.emb j) + msg_ea6 V c (((cfg6.win 2).blk t).view.emb j)) 0
  have h0 : ((cfg6.win 0).blk t).view.emb j = ((cfg6.win 2).blk t).view.emb j := by
    funext a; apply Fin.ext
    match a with
    | ⟨0, _⟩ => show win6_0.index t (0 : Fin 2) * 2000 + 1 * (j 0).val = win6_2.index t (0 : Fin 2) * 2000 + 1 * (j 0).val; rw [e0]
    | ⟨1, _⟩ => show win6_0.index t (1 : Fin 2) * 128 + 1 * (j 1).val = win6_2.index t (1 : Fin 2) * 128 + 1 * (j 1).val; rw [e1]
  have h1 : ((cfg6.win 1).blk t).view.emb j = ((cfg6.win 2).blk t).view.emb j := by
    funext a; apply Fin.ext
    match a with
    | ⟨0, _⟩ => show win6_1.index t (0 : Fin 2) * 2000 + 1 * (j 0).val = win6_2.index t (0 : Fin 2) * 2000 + 1 * (j 0).val; rw [e2]
    | ⟨1, _⟩ => show win6_1.index t (1 : Fin 2) * 128 + 1 * (j 1).val = win6_2.index t (1 : Fin 2) * 128 + 1 * (j 1).val; rw [e3]
  rw [h0, h1]

/-- An index of the output array is in point `t`'s block iff each coordinate is in the block's range. -/
theorem msg_mem6 (t : Fin cfg6.N) (i : S500000x128.Idx) :
    i ∈ ((cfg6.win 2).blk t).view.set ↔ ∀ a : Fin 2, win6_2.index t a * S2000x128.size a ≤ (i a).val
      ∧ (i a).val < win6_2.index t a * S2000x128.size a + S2000x128.size a := by
  show i ∈ ((View.whole main_v54).slice (win6_2.rect t)).set ↔ _
  rw [View.set_slice_whole, Rect.mem_set_unit]
  exact Iff.rfl

/-- Row `r` of the output lies in the block of point `r / 2000`. -/
theorem msg_cover6 (i : S500000x128.Idx) :
    ∃ t : Fin cfg6.N, (cfg6.win 2).flush t = true ∧ i ∈ ((cfg6.win 2).blk t).view.set := by
  have hi0 : (i 0).val < 500000 := idx2_lt0 i
  have hi1 : (i 1).val < 128 := idx2_lt1 i
  have hN : cfg6.N = 250 := N_6
  have ht : (i 0).val / 2000 < cfg6.N := by rw [hN]; omega
  obtain ⟨-, -, -, -, e4, e5⟩ := msg_idx6 ⟨(i 0).val / 2000, ht⟩
  refine ⟨⟨(i 0).val / 2000, ht⟩, flush6_2 _, ?_⟩
  rw [msg_mem6]
  intro a
  match a with
  | ⟨0, _⟩ =>
    show win6_2.index ⟨(i 0).val / 2000, ht⟩ (0 : Fin 2) * 2000 ≤ (i 0).val
      ∧ (i 0).val < win6_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win6_2.index ⟨(i 0).val / 2000, ht⟩ (1 : Fin 2) * 128 ≤ (i 1).val
      ∧ (i 1).val < win6_2.index ⟨(i 0).val / 2000, ht⟩ (1 : Fin 2) * 128 + 128
    rw [e5]
    omega

/-- The output array after the region is the message of the two input arrays. -/
theorem final6 (c : Dev nD) : (dat6 (F := Ideal) V c).arrAt 2 cfg6.N = Cert.Spec.msg (V c main_v53) (V c main_v52) :=
  (dat6 (F := Ideal) V c).arrAt_eq_of_cover 2 (Cert.Spec.msg (msg_hs6 V c) (msg_ea6 V c))
    (fun t _ => msg_flushed6 V c t) msg_cover6

end Cert.KernelIdeal.Val

end
-- ==== Proof.KBn.lean ====
/-
  The batch-normalisation regions of the kernel program, in closed form.

  Each of the two regions reads the node features `h` and the node update `z` ([50000, 128], in row blocks of 2000)
  and four [1, 128] rows (the column mean, the column variance, the scale and the shift, each whole at every grid
  point) and writes, block by block, `(h + max (γ · (z − μ) · rsqrt (σ² + ε) + β) 0) · ½`.  Here the output ARRAY after
  the region is shown to be `Cert.Spec.bn` of the input arrays as the region finds them:
  * the body's arithmetic at index (p, q) reads the two blocks at (p, q) and the four rows at (0, q);
  * grid point `t` moves the two blocked inputs and the output to the same block (rows `2000 t … 2000 t + 1999`)
    and keeps each row window at block (0, 0), so what point `t` writes back is block `t` of the whole-array function;
  * row `r` lies in the block of point `r / 2000`, so the blocks cover the array.
-/
import proofs.«410123_j23235773072029_1_alg».proof.Proof.Gen.KernelIdeal.Frame
import proofs.«410123_j23235773072029_1_alg».proof.Proof.Spec
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The zero offset of a whole-buffer access. -/
theorem bn_hz : (![0, 0] : Fin 2 → Nat) = fun _ => 0 := funext fun a => by fin_cases a <;> rfl

/-- A [1, 128] row broadcast to [2000, 128] reads, at (p, q), the row at (0, q). -/
theorem bn_row (x : Vec Ideal S1x128 .f32) (h : S1x128.Broadcasts S2000x128) (p : Fin 2000) (q : Fin 128) :
    broadcastTo S2000x128 x h (ix2 p q) = x (ix2 (0 : Fin 1) q) :=
  broadcastTo_apply x h (ix2 p q) (ix2 (0 : Fin 1) q) (fun a => by
    match a with
    | ⟨0, _⟩ => rfl
    | ⟨1, _⟩ => rfl)

/-! ## Region 4 -/

/-- The six input arrays as the region finds them, at their literal types. -/
abbrev bn_h4 (c : Dev nD) : S50000x128.Idx → EReal := V c main_v5
abbrev bn_z4 (c : Dev nD) : S50000x128.Idx → EReal := V c main_v23
abbrev bn_mu4 (c : Dev nD) : S1x128.Idx → EReal := V c main_v32
abbrev bn_var4 (c : Dev nD) : S1x128.Idx → EReal := V c main_v33
abbrev bn_ga4 (c : Dev nD) : S1x128.Idx → EReal := V c main_v34
abbrev bn_be4 (c : Dev nD) : S1x128.Idx → EReal := V c main_v35

/-- The body's arithmetic at one index. -/
theorem bn_pay4 (var gamma : Vec Ideal S1x128 .f32) (z : Vec Ideal S2000x128 .f32) (mu beta : Vec Ideal S1x128 .f32)
    (h : Vec Ideal S2000x128 .f32) (p : Fin 2000) (q : Fin 128) :
    k4_pay1 (F := Ideal) var gamma z mu beta h (ix2 p q)
      = (h (ix2 p q) + max (gamma (ix2 (0 : Fin 1) q) * (z (ix2 p q) - mu (ix2 (0 : Fin 1) q))
          * Ideal.rsqrt (var (ix2 (0 : Fin 1) q) + Cert.Spec.eps) + beta (ix2 (0 : Fin 1) q)) 0) * Cert.Spec.half := by
  unfold k4_pay1
  simp only [shapeCast_self]
  show (h (ix2 p q) + max (broadcastTo S2000x128 gamma _ (ix2 p q) * (z (ix2 p q) - broadcastTo S2000x128 mu _ (ix2 p q))
      * broadcastTo S2000x128 (rsqrt (F := Ideal) (addf (F := Ideal) var (broadcast S1x128 (Ideal.ofBits .f32 0x3727C5AC#32))) : FVec Ideal S1x128 .f32) _ (ix2 p q)
      + broadcastTo S2000x128 beta _ (ix2 p q)) (Ideal.ofBits .f32 0x00000000#32)) * Ideal.ofBits .f32 0x3F000000#32 = _
  rw [bn_row, bn_row, bn_row, bn_row, Ideal.ofBits_zero_f32]
  rfl

/-- The seven index maps, decided over the grid: the blocked windows sit at block `(t, 0)`, the row windows at `(0, 0)`. -/
theorem bn_idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- The whole-array function the region computes. -/
abbrev bn_G4 (c : Dev nD) : S50000x128.Idx → EReal :=
  Cert.Spec.bn (bn_h4 V c) (bn_z4 V c) (fun j : Fin 128 => bn_mu4 V c (ix2 (0 : Fin 1) j)) (fun j : Fin 128 => bn_var4 V c (ix2 (0 : Fin 1) j))
    (fun j : Fin 128 => bn_ga4 V c (ix2 (0 : Fin 1) j)) (fun j : Fin 128 => bn_be4 V c (ix2 (0 : Fin 1) j))

set_option maxHeartbeats 1600000 in
/-- What point `t` writes back is block `t` of the whole-array function. -/
theorem bn_flushed4 (c : Dev nD) (t : Fin cfg4.N) :
    (dat4 (F := Ideal) V c).flushed 6 t = ((cfg4.win 6).blk t).view.read (Elt Ideal) (bn_G4 V c) := by
  show (cfg4.win 6).cut (grid4.coords t) ((dat4 (F := Ideal) V c).after 6 t) = _
  rw [after4_6]
  unfold out4_6
  rw [View.canon_unit_zero bn_hz]
  simp only [View.ld_unit_zero (S := S2000x128) bn_hz, View.ld_unit_zero (S := S1x128) bn_hz]
  obtain ⟨a0, a1, b0, b1, m0, m1, v0, v1, g0, g1, s0, s1, o0, o1⟩ := bn_idx4 t
  funext j
  obtain ⟨p, q, rfl⟩ : ∃ (p : Fin 2000) (q : Fin 128), j = ix2 p q := ⟨j 0, j 1, eq_ix2 (n0 := 2000) (n1 := 128) j⟩
  show k4_pay1 (F := Ideal) (iblk4 V c 3 t) (iblk4 V c 4 t) (iblk4 V c 1 t) (iblk4 V c 2 t) (iblk4 V c 5 t) (iblk4 V c 0 t) (ix2 p q) = _
  rw [bn_pay4]
  show (bn_h4 V c (((cfg4.win 0).blk t).view.emb (ix2 p q))
        + max (bn_ga4 V c (((cfg4.win 4).blk t).view.emb (ix2 (0 : Fin 1) q))
            * (bn_z4 V c (((cfg4.win 1).blk t).view.emb (ix2 p q)) - bn_mu4 V c (((cfg4.win 2).blk t).view.emb (ix2 (0 : Fin 1) q)))
            * Ideal.rsqrt (bn_var4 V c (((cfg4.win 3).blk t).view.emb (ix2 (0 : Fin 1) q)) + Cert.Spec.eps)
            + bn_be4 V c (((cfg4.win 5).blk t).view.emb (ix2 (0 : Fin 1) q))) 0) * Cert.Spec.half
      = bn_G4 V c (((cfg4.win 6).blk t).view.emb (ix2 p q))
  have hq : (((cfg4.win 6).blk t).view.emb (ix2 p q) 1 : Fin 128) = q := by
    apply Fin.ext
    show win4_6.index t (1 : Fin 2) * 128 + 1 * q.val = q.val
    rw [o1]; omega
  have h0 : ((cfg4.win 0).blk t).view.emb (ix2 p q) = ((cfg4.win 6).blk t).view.emb (ix2 p q) := by
    funext a; apply Fin.ext
    match a with
    | ⟨0, _⟩ => show win4_0.index t (0 : Fin 2) * 2000 + 1 * p.val = win4_6.index t (0 : Fin 2) * 2000 + 1 * p.val; rw [a0, o0]
    | ⟨1, _⟩ => show win4_0.index t (1 : Fin 2) * 128 + 1 * q.val = win4_6.index t (1 : Fin 2) * 128 + 1 * q.val; rw [a1, o1]
  have h1 : ((cfg4.win 1).blk t).view.emb (ix2 p q) = ((cfg4.win 6).blk t).view.emb (ix2 p q) := by
    funext a; apply Fin.ext
    match a with
    | ⟨0, _⟩ => show win4_1.index t (0 : Fin 2) * 2000 + 1 * p.val = win4_6.index t (0 : Fin 2) * 2000 + 1 * p.val; rw [b0, o0]
    | ⟨1, _⟩ => show win4_1.index t (1 : Fin 2) * 128 + 1 * q.val = win4_6.index t (1 : Fin 2) * 128 + 1 * q.val; rw [b1, o1]
  have h2 : ((cfg4.win 2).blk t).view.emb (ix2 (0 : Fin 1) q) = ix2 (0 : Fin 1) q := by
    funext a; apply Fin.ext
    match a with
    | ⟨0, _⟩ => show win4_2.index t (0 : Fin 2) * 1 + 1 * 0 = 0; rw [m0]
    | ⟨1, _⟩ => show win4_2.index t (1 : Fin 2) * 128 + 1 * q.val = q.val; rw [m1]; omega
  have h3 : ((cfg4.win 3).blk t).view.emb (ix2 (0 : Fin 1) q) = ix2 (0 : Fin 1) q := by
    funext a; apply Fin.ext
    match a with
    | ⟨0, _⟩ => show win4_3.index t (0 : Fin 2) * 1 + 1 * 0 = 0; rw [v0]
    | ⟨1, _⟩ => show win4_3.index t (1 : Fin 2) * 128 + 1 * q.val = q.val; rw [v1]; omega
  have h4 : ((cfg4.win 4).blk t).view.emb (ix2 (0 : Fin 1) q) = ix2 (0 : Fin 1) q := by
    funext a; apply Fin.ext
    match a with
    | ⟨0, _⟩ => show win4_4.index t (0 : Fin 2) * 1 + 1 * 0 = 0; rw [g0]
    | ⟨1, _⟩ => show win4_4.index t (1 : Fin 2) * 128 + 1 * q.val = q.val; rw [g1]; omega
  have h5 : ((cfg4.win 5).blk t).view.emb (ix2 (0 : Fin 1) q) = ix2 (0 : Fin 1) q := by
    funext a; apply Fin.ext
    match a with
    | ⟨0, _⟩ => show win4_5.index t (0 : Fin 2) * 1 + 1 * 0 = 0; rw [s0]
    | ⟨1, _⟩ => show win4_5.index t (1 : Fin 2) * 128 + 1 * q.val = q.val; rw [s1]; omega
  rw [h0, h1, h2, h3, h4, h5]
  unfold bn_G4
  rw [Cert.Spec.bn_apply, hq]

/-- An index of the output array is in point `t`'s block iff each coordinate is in the block's range. -/
theorem bn_mem4 (t : Fin cfg4.N) (i : S50000x128.Idx) :
    i ∈ ((cfg4.win 6).blk t).view.set ↔ ∀ a : Fin 2, win4_6.index t a * S2000x128.size a ≤ (i a).val
      ∧ (i a).val < win4_6.index t a * S2000x128.size a + S2000x128.size a := by
  show i ∈ ((View.whole main_v36).slice (win4_6.rect t)).set ↔ _
  rw [View.set_slice_whole, Rect.mem_set_unit]
  exact Iff.rfl

/-- Row `r` of the output lies in the block of point `r / 2000`. -/
theorem bn_cover4 (i : S50000x128.Idx) :
    ∃ t : Fin cfg4.N, (cfg4.win 6).flush t = true ∧ i ∈ ((cfg4.win 6).blk t).view.set := by
  have hi0 : (i 0).val < 50000 := idx2_lt0 i
  have hi1 : (i 1).val < 128 := idx2_lt1 i
  have hN : cfg4.N = 25 := N_4
  have ht : (i 0).val / 2000 < cfg4.N := by rw [hN]; omega
  obtain ⟨-, -, -, -, -, -, -, -, -, -, -, -, o0, o1⟩ := bn_idx4 ⟨(i 0).val / 2000, ht⟩
  refine ⟨⟨(i 0).val / 2000, ht⟩, flush4_6 _, ?_⟩
  rw [bn_mem4]
  intro a
  match a with
  | ⟨0, _⟩ =>
    show win4_6.index ⟨(i 0).val / 2000, ht⟩ (0 : Fin 2) * 2000 ≤ (i 0).val
      ∧ (i 0).val < win4_6.index ⟨(i 0).val / 2000, ht⟩ (0 : Fin 2) * 2000 + 2000
    rw [o0]
    show (i 0).val / 2000 * 2000 ≤ (i 0).val ∧ (i 0).val < (i 0).val / 2000 * 2000 + 2000
    omega
  | ⟨1, _⟩ =>
    show win4_6.index ⟨(i 0).val / 2000, ht⟩ (1 : Fin 2) * 128 ≤ (i 1).val
      ∧ (i 1).val < win4_6.index ⟨(i 0).val / 2000, ht⟩ (1 : Fin 2) * 128 + 128
    rw [o1]
    omega

/-- The output array after the region is the batch-normalised residual of the input arrays. -/
theorem final4 (c : Dev nD) : (dat4 (F := Ideal) V c).arrAt 6 cfg4.N
    = Cert.Spec.bn (V c main_v5) (V c main_v23) (fun j : Fin 128 => V c main_v32 (ix2 (0 : Fin 1) j)) (fun j : Fin 128 => V c main_v33 (ix2 (0 : Fin 1) j))
        (fun j : Fin 128 => V c main_v34 (ix2 (0 : Fin 1) j)) (fun j : Fin 128 => V c main_v35 (ix2 (0 : Fin 1) j)) :=
  (dat4 (F := Ideal) V c).arrAt_eq_of_cover 6 (bn_G4 V c) (fun t _ => bn_flushed4 V c t) bn_cover4

/-! ## Region 8 -/

/-- The six input arrays as the region finds them, at their literal types. -/
abbrev bn_h8 (c : Dev nD) : S50000x128.Idx → EReal := V c main_v36
abbrev bn_z8 (c : Dev nD) : S50000x128.Idx → EReal := V c main_v68
abbrev bn_mu8 (c : Dev nD) : S1x128.Idx → EReal := V c main_v77
abbrev bn_var8 (c : Dev nD) : S1x128.Idx → EReal := V c main_v78
abbrev bn_ga8 (c : Dev nD) : S1x128.Idx → EReal := V c main_v79
abbrev bn_be8 (c : Dev nD) : S1x128.Idx → EReal := V c main_v80

/-- The body's arithmetic at one index. -/
theorem bn_pay8 (var gamma : Vec Ideal S1x128 .f32) (z : Vec Ideal S2000x128 .f32) (mu beta : Vec Ideal S1x128 .f32)
    (h : Vec Ideal S2000x128 .f32) (p : Fin 2000) (q : Fin 128) :
    k8_pay1 (F := Ideal) var gamma z mu beta h (ix2 p q)
      = (h (ix2 p q) + max (gamma (ix2 (0 : Fin 1) q) * (z (ix2 p q) - mu (ix2 (0 : Fin 1) q))
          * Ideal.rsqrt (var (ix2 (0 : Fin 1) q) + Cert.Spec.eps) + beta (ix2 (0 : Fin 1) q)) 0) * Cert.Spec.half := by
  unfold k8_pay1
  simp only [shapeCast_self]
  show (h (ix2 p q) + max (broadcastTo S2000x128 gamma _ (ix2 p q) * (z (ix2 p q) - broadcastTo S2000x128 mu _ (ix2 p q))
      * broadcastTo S2000x128 (rsqrt (F := Ideal) (addf (F := Ideal) var (broadcast S1x128 (Ideal.ofBits .f32 0x3727C5AC#32))) : FVec Ideal S1x128 .f32) _ (ix2 p q)
      + broadcastTo S2000x128 beta _ (ix2 p q)) (Ideal.ofBits .f32 0x00000000#32)) * Ideal.ofBits .f32 0x3F000000#32 = _
  rw [bn_row, bn_row, bn_row, bn_row, Ideal.ofBits_zero_f32]
  rfl

/-- The seven index maps, decided over the grid: the blocked windows sit at block `(t, 0)`, the row windows at `(0, 0)`. -/
theorem bn_idx8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

/-- The whole-array function the region computes. -/
abbrev bn_G8 (c : Dev nD) : S50000x128.Idx → EReal :=
  Cert.Spec.bn (bn_h8 V c) (bn_z8 V c) (fun j : Fin 128 => bn_mu8 V c (ix2 (0 : Fin 1) j)) (fun j : Fin 128 => bn_var8 V c (ix2 (0 : Fin 1) j))
    (fun j : Fin 128 => bn_ga8 V c (ix2 (0 : Fin 1) j)) (fun j : Fin 128 => bn_be8 V c (ix2 (0 : Fin 1) j))

set_option maxHeartbeats 1600000 in
/-- What point `t` writes back is block `t` of the whole-array function. -/
theorem bn_flushed8 (c : Dev nD) (t : Fin cfg8.N) :
    (dat8 (F := Ideal) V c).flushed 6 t = ((cfg8.win 6).blk t).view.read (Elt Ideal) (bn_G8 V c) := by
  show (cfg8.win 6).cut (grid8.coords t) ((dat8 (F := Ideal) V c).after 6 t) = _
  rw [after8_6]
  unfold out8_6
  rw [View.canon_unit_zero bn_hz]
  simp only [View.ld_unit_zero (S := S2000x128) bn_hz, View.ld_unit_zero (S := S1x128) bn_hz]
  obtain ⟨a0, a1, b0, b1, m0, m1, v0, v1, g0, g1, s0, s1, o0, o1⟩ := bn_idx8 t
  funext j
  obtain ⟨p, q, rfl⟩ : ∃ (p : Fin 2000) (q : Fin 128), j = ix2 p q := ⟨j 0, j 1, eq_ix2 (n0 := 2000) (n1 := 128) j⟩
  show k8_pay1 (F := Ideal) (iblk8 V c 3 t) (iblk8 V c 4 t) (iblk8 V c 1 t) (iblk8 V c 2 t) (iblk8 V c 5 t) (iblk8 V c 0 t) (ix2 p q) = _
  rw [bn_pay8]
  show (bn_h8 V c (((cfg8.win 0).blk t).view.emb (ix2 p q))
        + max (bn_ga8 V c (((cfg8.win 4).blk t).view.emb (ix2 (0 : Fin 1) q))
            * (bn_z8 V c (((cfg8.win 1).blk t).view.emb (ix2 p q)) - bn_mu8 V c (((cfg8.win 2).blk t).view.emb (ix2 (0 : Fin 1) q)))
            * Ideal.rsqrt (bn_var8 V c (((cfg8.win 3).blk t).view.emb (ix2 (0 : Fin 1) q)) + Cert.Spec.eps)
            + bn_be8 V c (((cfg8.win 5).blk t).view.emb (ix2 (0 : Fin 1) q))) 0) * Cert.Spec.half
      = bn_G8 V c (((cfg8.win 6).blk t).view.emb (ix2 p q))
  have hq : (((cfg8.win 6).blk t).view.emb (ix2 p q) 1 : Fin 128) = q := by
    apply Fin.ext
    show win8_6.index t (1 : Fin 2) * 128 + 1 * q.val = q.val
    rw [o1]; omega
  have h0 : ((cfg8.win 0).blk t).view.emb (ix2 p q) = ((cfg8.win 6).blk t).view.emb (ix2 p q) := by
    funext a; apply Fin.ext
    match a with
    | ⟨0, _⟩ => show win8_0.index t (0 : Fin 2) * 2000 + 1 * p.val = win8_6.index t (0 : Fin 2) * 2000 + 1 * p.val; rw [a0, o0]
    | ⟨1, _⟩ => show win8_0.index t (1 : Fin 2) * 128 + 1 * q.val = win8_6.index t (1 : Fin 2) * 128 + 1 * q.val; rw [a1, o1]
  have h1 : ((cfg8.win 1).blk t).view.emb (ix2 p q) = ((cfg8.win 6).blk t).view.emb (ix2 p q) := by
    funext a; apply Fin.ext
    match a with
    | ⟨0, _⟩ => show win8_1.index t (0 : Fin 2) * 2000 + 1 * p.val = win8_6.index t (0 : Fin 2) * 2000 + 1 * p.val; rw [b0, o0]
    | ⟨1, _⟩ => show win8_1.index t (1 : Fin 2) * 128 + 1 * q.val = win8_6.index t (1 : Fin 2) * 128 + 1 * q.val; rw [b1, o1]
  have h2 : ((cfg8.win 2).blk t).view.emb (ix2 (0 : Fin 1) q) = ix2 (0 : Fin 1) q := by
    funext a; apply Fin.ext
    match a with
    | ⟨0, _⟩ => show win8_2.index t (0 : Fin 2) * 1 + 1 * 0 = 0; rw [m0]
    | ⟨1, _⟩ => show win8_2.index t (1 : Fin 2) * 128 + 1 * q.val = q.val; rw [m1]; omega
  have h3 : ((cfg8.win 3).blk t).view.emb (ix2 (0 : Fin 1) q) = ix2 (0 : Fin 1) q := by
    funext a; apply Fin.ext
    match a with
    | ⟨0, _⟩ => show win8_3.index t (0 : Fin 2) * 1 + 1 * 0 = 0; rw [v0]
    | ⟨1, _⟩ => show win8_3.index t (1 : Fin 2) * 128 + 1 * q.val = q.val; rw [v1]; omega
  have h4 : ((cfg8.win 4).blk t).view.emb (ix2 (0 : Fin 1) q) = ix2 (0 : Fin 1) q := by
    funext a; apply Fin.ext
    match a with
    | ⟨0, _⟩ => show win8_4.index t (0 : Fin 2) * 1 + 1 * 0 = 0; rw [g0]
    | ⟨1, _⟩ => show win8_4.index t (1 : Fin 2) * 128 + 1 * q.val = q.val; rw [g1]; omega
  have h5 : ((cfg8.win 5).blk t).view.emb (ix2 (0 : Fin 1) q) = ix2 (0 : Fin 1) q := by
    funext a; apply Fin.ext
    match a with
    | ⟨0, _⟩ => show win8_5.index t (0 : Fin 2) * 1 + 1 * 0 = 0; rw [s0]
    | ⟨1, _⟩ => show win8_5.index t (1 : Fin 2) * 128 + 1 * q.val = q.val; rw [s1]; omega
  rw [h0, h1, h2, h3, h4, h5]
  unfold bn_G8
  rw [Cert.Spec.bn_apply, hq]

/-- An index of the output array is in point `t`'s block iff each coordinate is in the block's range. -/
theorem bn_mem8 (t : Fin cfg8.N) (i : S50000x128.Idx) :
    i ∈ ((cfg8.win 6).blk t).view.set ↔ ∀ a : Fin 2, win8_6.index t a * S2000x128.size a ≤ (i a).val
      ∧ (i a).val < win8_6.index t a * S2000x128.size a + S2000x128.size a := by
  show i ∈ ((View.whole main_v81).slice (win8_6.rect t)).set ↔ _
  rw [View.set_slice_whole, Rect.mem_set_unit]
  exact Iff.rfl

/-- Row `r` of the output lies in the block of point `r / 2000`. -/
theorem bn_cover8 (i : S50000x128.Idx) :
    ∃ t : Fin cfg8.N, (cfg8.win 6).flush t = true ∧ i ∈ ((cfg8.win 6).blk t).view.set := by
  have hi0 : (i 0).val < 50000 := idx2_lt0 i
  have hi1 : (i 1).val < 128 := idx2_lt1 i
  have hN : cfg8.N = 25 := N_8
  have ht : (i 0).val / 2000 < cfg8.N := by rw [hN]; omega
  obtain ⟨-, -, -, -, -, -, -, -, -, -, -, -, o0, o1⟩ := bn_idx8 ⟨(i 0).val / 2000, ht⟩
  refine ⟨⟨(i 0).val / 2000, ht⟩, flush8_6 _, ?_⟩
  rw [bn_mem8]
  intro a
  match a with
  | ⟨0, _⟩ =>
    show win8_6.index ⟨(i 0).val / 2000, ht⟩ (0 : Fin 2) * 2000 ≤ (i 0).val
      ∧ (i 0).val < win8_6.index ⟨(i 0).val / 2000, ht⟩ (0 : Fin 2) * 2000 + 2000
    rw [o0]
    show (i 0).val / 2000 * 2000 ≤ (i 0).val ∧ (i 0).val < (i 0).val / 2000 * 2000 + 2000
    omega
  | ⟨1, _⟩ =>
    show win8_6.index ⟨(i 0).val / 2000, ht⟩ (1 : Fin 2) * 128 ≤ (i 1).val
      ∧ (i 1).val < win8_6.index ⟨(i 0).val / 2000, ht⟩ (1 : Fin 2) * 128 + 128
    rw [o1]
    omega

/-- The output array after the region is the batch-normalised residual of the input arrays. -/
theorem final8 (c : Dev nD) : (dat8 (F := Ideal) V c).arrAt 6 cfg8.N
    = Cert.Spec.bn (V c main_v36) (V c main_v68) (fun j : Fin 128 => V c main_v77 (ix2 (0 : Fin 1) j)) (fun j : Fin 128 => V c main_v78 (ix2 (0 : Fin 1) j))
        (fun j : Fin 128 => V c main_v79 (ix2 (0 : Fin 1) j)) (fun j : Fin 128 => V c main_v80 (ix2 (0 : Fin 1) j)) :=
  (dat8 (F := Ideal) V c).arrAt_eq_of_cover 6 (bn_G8 V c) (fun t _ => bn_flushed8 V c t) bn_cover8

end Cert.KernelIdeal.Val

end
-- ==== Proof.KConv.lean ====
/-
  The node update of a GINE layer, as the two regions of the program that compute it leave it in their output arrays.

  Each region walks the 50000 rows of the node features `h` and of the aggregated messages `agg` in 25 blocks of 2000
  rows; at a block it forms `h + agg`, multiplies by the first weight matrix, adds the first bias row, takes the positive
  part, multiplies by the second weight matrix and adds the second bias row. At the ideal values the narrowing to bf16 in
  front of each product and the shape casts to the same shape are the identity, a product into the zero accumulator is the
  sum over the contracted coordinate, and a [1 × 128] row broadcast down the rows reads the row at the column. So entry
  (p, q) of a block is `conv` of the blocks there; `conv` at row `r` reads only row `r` of `h` and of `agg`
  (`conv_row_congr`), row `p` of block `t` is row `2000 t + p` of the arrays, and the weights' and biases' one block is
  the whole array; hence what point `t` writes back is block `t` of `conv` of the arrays, and since the 25 blocks cover the
  rows the output array ends as `conv` of the input arrays (`final3`, `final7`), whatever the buffers held at the
  region's entry.
-/
import proofs.«410123_j23235773072029_1_alg».proof.Proof.Gen.KernelIdeal.Frame
import proofs.«410123_j23235773072029_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Val

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ## The body's matrix product, read at an index -/

private theorem dot_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch from List.not_mem_nil),
    dif_pos (show (0 : Fin S2000x128.rank) ∈ dot_S2000x128_S128x128_S2000x128_1_0_0_1_n_n.lhsNonContracting from List.mem_singleton.mpr rfl)]
  rfl
private theorem dot_lhs_1 (i : S2000x128.Idx) (q : dot_S2000x128_S128x128_S2000x128_1_0_0_1_n_n.contr.Idx) :
    (dot_S2000x128_S128x128_S2000x128_1_0_0_1_n_n.lhsIdx i q 1).val = (q ⟨0, Nat.one_pos⟩).val :=
  dot_S2000x128_S128x128_S2000x128_1_0_0_1_n_n.lhsIdx_val_of_single rfl i q
private theorem dot_rhs_0 (i : S2000x128.Idx) (q : dot_S2000x128_S128x128_S2000x128_1_0_0_1_n_n.contr.Idx) :
    (dot_S2000x128_S128x128_S2000x128_1_0_0_1_n_n.rhsIdx i q 0).val = (q ⟨0, Nat.one_pos⟩).val :=
  dot_S2000x128_S128x128_S2000x128_1_0_0_1_n_n.rhsIdx_val_of_single rfl i q
private theorem dot_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch from List.not_mem_nil),
    dif_pos (show (1 : Fin S128x128.rank) ∈ dot_S2000x128_S128x128_S2000x128_1_0_0_1_n_n.rhsNonContracting from List.mem_singleton.mpr rfl)]
  rfl

/-- The contraction sum of the [2000 × 128] by [128 × 128] product at (r, c), re-indexed by the one contracted coordinate. -/
private theorem dot_contr_sum {φ₁ φ₂ : FTy} (lhs : FVec Ideal S2000x128 φ₁) (rhs : FVec Ideal S128x128 φ₂) (r : Fin 2000) (c : Fin 128) :
    ∑ k : dot_S2000x128_S128x128_S2000x128_1_0_0_1_n_n.contr.Idx,
        lhs (dot_S2000x128_S128x128_S2000x128_1_0_0_1_n_n.lhsIdx (ix2 r c) k) * rhs (dot_S2000x128_S128x128_S2000x128_1_0_0_1_n_n.rhsIdx (ix2 r c) k)
      = ∑ k : Fin 128, lhs (ix2 r k) * rhs (ix2 k c) := by
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r c) ((contrEquiv1 dot_S2000x128_S128x128_S2000x128_1_0_0_1_n_n 128 rfl rfl).symm k) = ix2 r k :=
    funext fun a => Fin.ext (by
      match a with
      | ⟨0, _⟩ => exact dot_lhs_0 _ _
      | ⟨1, _⟩ => exact (dot_lhs_1 _ _).trans hk)
  have er : dot_S2000x128_S128x128_S2000x128_1_0_0_1_n_n.rhsIdx (ix2 r c) ((contrEquiv1 dot_S2000x128_S128x128_S2000x128_1_0_0_1_n_n 128 rfl rfl).symm k) = ix2 k c :=
    funext fun a => Fin.ext (by
      match a with
      | ⟨0, _⟩ => exact (dot_rhs_0 _ _).trans hk
      | ⟨1, _⟩ => exact dot_rhs_1 _ _)
  rw [el, er]

/-- The product into the zero accumulator, at the ideal values, read at (r, c). -/
private theorem conv_dot_apply {φ₁ φ₂ : FTy} (prec : Option ContractPrecision) (lhs : FVec Ideal S2000x128 φ₁) (rhs : FVec Ideal S128x128 φ₂)
    (r : Fin 2000) (c : Fin 128) :
    matmul dot_S2000x128_S128x128_S2000x128_1_0_0_1_n_n prec lhs rhs (constant (F := Ideal) S2000x128 .f32 0x00000000#32) (ix2 r c)
      = ∑ k : Fin 128, lhs (ix2 r k) * rhs (ix2 k c) := by
  simp only [matmul]
  rw [Ideal.matmul_constant_zero_apply]
  exact dot_contr_sum lhs rhs r c

/-- One layer of the body: the product of the (narrowed) rows with the (narrowed) weights into the zero accumulator, plus
    the bias row broadcast down the rows, read at (p, q), is the affine map `x · w + b` there (the narrowing and the shape
    casts to the same shape are the identity at the ideal values). -/
private theorem conv_layer_apply (x : FVec Ideal S2000x128 .f32) (w : FVec Ideal S128x128 .f32) (b : FVec Ideal S1x128 .f32)
    (hlt : FTy.bf16.bits < FTy.f32.bits) (hw : S128x128.ShapeCasts S128x128) (hb : S1x128.ShapeCasts S1x128)
    (hbc : S1x128.Broadcasts S2000x128) (p : Fin 2000) (q : Fin 128) :
    addf (matmul dot_S2000x128_S128x128_S2000x128_1_0_0_1_n_n none (truncf .bf16 x hlt) (truncf .bf16 (shapeCast S128x128 w hw) hlt)
        (constant (F := Ideal) S2000x128 .f32 0x00000000#32))
      (broadcastTo S2000x128 (shapeCast S1x128 b hb) hbc) (ix2 p q)
      = (∑ k : Fin 128, x (ix2 p k) * w (ix2 k q)) + b (ix2 (0 : Fin 1) q) := by
  rw [addf_apply, conv_dot_apply, shapeCast_self, shapeCast_self]
  congr 1
  exact broadcastTo_apply _ _ (ix2 p q) (ix2 (0 : Fin 1) q) (fun a => by
    match a with
    | ⟨0, _⟩ => rfl
    | ⟨1, _⟩ => rfl)

/-- Row `r` of the node update reads only row `r` of `h` and of `agg`: two pairs of matrices that agree on a row (of one
    at `r`, of the other at the row of `i`) give the same entry there, the weights and biases being the same. -/
private theorem conv_row_congr {M M' : Nat} (h agg : Cert.Spec.Mat M 128) (h' agg' : Cert.Spec.Mat M' 128) (w1 w1' : Cert.Spec.Mat 128 128)
    (b1 b1' : Fin 128 → EReal) (w2 w2' : Cert.Spec.Mat 128 128) (b2 b2' : Fin 128 → EReal) (r : Fin M) (q : Fin 128) (r' : Fin M')
    (hh : ∀ k : Fin 128, h (ix2 r k) = h' (ix2 r' k)) (ha : ∀ k : Fin 128, agg (ix2 r k) = agg' (ix2 r' k))
    (hw1 : w1 = w1') (hb1 : ∀ k : Fin 128, b1 k = b1' k) (hw2 : w2 = w2') (hb2 : ∀ k : Fin 128, b2 k = b2' k) :
    Cert.Spec.conv h agg w1 b1 w2 b2 (ix2 r q) = Cert.Spec.conv h' agg' w1' b1' w2' b2' (ix2 r' q) := by
  subst hw1 hw2
  unfold Cert.Spec.conv
  rw [Cert.Spec.lin_apply, Cert.Spec.lin_apply, hb2 q]
  congr 1
  refine Finset.sum_congr rfl fun k _ => ?_
  congr 1
  rw [Cert.Spec.relu_apply, Cert.Spec.relu_apply, Cert.Spec.lin_apply, Cert.Spec.lin_apply, hb1 k]
  congr 2
  refine Finset.sum_congr rfl fun j _ => ?_
  show (h (ix2 r j) + agg (ix2 r j)) * _ = (h' (ix2 r' j) + agg' (ix2 r' j)) * _
  rw [hh j, ha j]

/-! # Region 3: the node update `cc3__conv_kernel`, 25 blocks of 2000 rows -/

/-- THE BODY'S PAYLOAD AT AN INDEX: two affine layers with a positive part between, of the sum of the two row blocks — the
    node update of the blocks. -/
theorem conv_pay3_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k3_pay1 (F := Ideal) x0 x1 x2 x3 x4 x5 (ix2 p q)
      = Cert.Spec.conv (M := 2000) x0 x1 x2 (fun j : Fin 128 => x3 (ix2 (0 : Fin 1) j)) x4 (fun j : Fin 128 => x5 (ix2 (0 : Fin 1) j))
          (ix2 p q) := by
  unfold k3_pay1
  refine (conv_layer_apply _ _ _ _ _ _ _ p q).trans ?_
  unfold Cert.Spec.conv
  rw [Cert.Spec.lin_apply]
  congr 1
  refine Finset.sum_congr rfl fun k _ => ?_
  congr 1
  rw [maximumf_apply, broadcast_apply, Cert.Spec.relu_apply, Cert.Spec.lin_apply]
  congr 1
  · refine (conv_layer_apply _ _ _ _ _ _ _ p k).trans ?_
    rw [shapeCast_self, shapeCast_self]
    rfl
  · exact Ideal.ofBits_zero_f32

/-- The printed index maps, decided over the grid: the two row-blocked inputs and the output sit at block `t` of the rows,
    the weights and biases at block 0 on both axes. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- An index of the output array is in point `t`'s block iff each coordinate is in the block's range on its axis. -/
theorem mem_blk3 (t : Fin cfg3.N) (i : S50000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v23).slice (win3_6.rect t)).set ↔ _
  rw [View.set_slice_whole, Rect.mem_set_unit]
  exact Iff.rfl

/-- Every index of the output array lies in the block some point writes back: row `r` in the block of point `r / 2000`. -/
theorem cover3 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, ht⟩ : ∃ t : Fin cfg3.N, t.val = (i 0).val / 2000 :=
    ⟨⟨(i 0).val / 2000, by rw [show cfg3.N = 25 from N_3]; omega⟩, rfl⟩
  obtain ⟨-, -, -, -, -, -, -, -, -, -, -, -, e0, e1⟩ := idx_facts3 t
  refine ⟨t, flush3_6 t, ?_⟩
  rw [mem_blk3]
  intro a
  match a with
  | ⟨0, _⟩ =>
    show win3_6.index t (0 : Fin 2) * 2000 ≤ (i 0).val ∧ (i 0).val < win3_6.index t (0 : Fin 2) * 2000 + 2000
    omega
  | ⟨1, _⟩ =>
    show win3_6.index t (1 : Fin 2) * 128 ≤ (i 1).val ∧ (i 1).val < win3_6.index t (1 : Fin 2) * 128 + 128
    omega

/-! ## From the blocks to the array -/

theorem hz3 : (![0, 0] : Fin 2 → Nat) = fun _ => 0 := funext fun a => by fin_cases a <;> rfl

/-- What the output array ends holding: the node update of the region's input arrays as the region finds them. -/
abbrev G3 (c : Dev nD) : S50000x128.Idx → EReal :=
  Cert.Spec.conv (M := 50000) (V c main_v5) (V c main_v12) (V c main_v14) (fun j : Fin 128 => V c main_v21 (ix2 (0 : Fin 1) j)) (V c main_v18)
    (fun j : Fin 128 => V c main_v22 (ix2 (0 : Fin 1) j))

/-- Window 0's block at point `t` is rows `2000 t … 2000 t + 1999` of its array. -/
theorem iblk3_0_apply (c : Dev nD) (t : Fin cfg3.N) (p : Fin 2000) (k : Fin 128) (r : Fin 50000)
    (hr : r.val = 2000 * t.val + p.val) :
    (iblk3 (F := Ideal) V c 0 t : Vec Ideal S2000x128 .f32) (ix2 p k) = (V c main_v5 : S50000x128.Idx → EReal) (ix2 r k) := by
  obtain ⟨e0, e1, -⟩ := idx_facts3 t
  show (V c main_v5 : S50000x128.Idx → EReal) (((cfg3.win 0).blk t).view.emb (ix2 p k)) = (V c main_v5 : S50000x128.Idx → EReal) (ix2 r k)
  refine congrArg (V c main_v5 : S50000x128.Idx → EReal) ?_
  funext a
  apply Fin.ext
  match a with
  | ⟨0, _⟩ => show win3_0.index t (0 : Fin 2) * 2000 + 1 * p.val = r.val; omega
  | ⟨1, _⟩ => show win3_0.index t (1 : Fin 2) * 128 + 1 * k.val = k.val; omega

/-- Window 1's block at point `t` is rows `2000 t … 2000 t + 1999` of its array. -/
theorem iblk3_1_apply (c : Dev nD) (t : Fin cfg3.N) (p : Fin 2000) (k : Fin 128) (r : Fin 50000)
    (hr : r.val = 2000 * t.val + p.val) :
    (iblk3 (F := Ideal) V c 1 t : Vec Ideal S2000x128 .f32) (ix2 p k) = (V c main_v12 : S50000x128.Idx → EReal) (ix2 r k) := by
  obtain ⟨-, -, e0, e1, -⟩ := idx_facts3 t
  show (V c main_v12 : S50000x128.Idx → EReal) (((cfg3.win 1).blk t).view.emb (ix2 p k)) = (V c main_v12 : S50000x128.Idx → EReal) (ix2 r k)
  refine congrArg (V c main_v12 : S50000x128.Idx → EReal) ?_
  funext a
  apply Fin.ext
  match a with
  | ⟨0, _⟩ => show win3_1.index t (0 : Fin 2) * 2000 + 1 * p.val = r.val; omega
  | ⟨1, _⟩ => show win3_1.index t (1 : Fin 2) * 128 + 1 * k.val = k.val; omega

/-- Window 2's block is its whole array at every point (block index 0 on both axes). -/
theorem iblk3_2_eq (c : Dev nD) (t : Fin cfg3.N) :
    (iblk3 (F := Ideal) V c 2 t : Vec Ideal S128x128 .f32) = (V c main_v14 : S128x128.Idx → EReal) := by
  obtain ⟨-, -, -, -, e0, e1, -⟩ := idx_facts3 t
  funext j
  show (V c main_v14 : S128x128.Idx → EReal) (((cfg3.win 2).blk t).view.emb j) = (V c main_v14 : S128x128.Idx → EReal) j
  refine congrArg (V c main_v14 : S128x128.Idx → EReal) ?_
  funext a
  apply Fin.ext
  match a with
  | ⟨0, _⟩ => show win3_2.index t (0 : Fin 2) * 128 + 1 * (j 0).val = (j 0).val; omega
  | ⟨1, _⟩ => show win3_2.index t (1 : Fin 2) * 128 + 1 * (j 1).val = (j 1).val; omega

/-- Window 3's block is its whole array at every point (block index 0 on both axes). -/
theorem iblk3_3_eq (c : Dev nD) (t : Fin cfg3.N) :
    (iblk3 (F := Ideal) V c 3 t : Vec Ideal S1x128 .f32) = (V c main_v21 : S1x128.Idx → EReal) := by
  obtain ⟨-, -, -, -, -, -, e0, e1, -⟩ := idx_facts3 t
  funext j
  show (V c main_v21 : S1x128.Idx → EReal) (((cfg3.win 3).blk t).view.emb j) = (V c main_v21 : S1x128.Idx → EReal) j
  refine congrArg (V c main_v21 : S1x128.Idx → EReal) ?_
  funext a
  apply Fin.ext
  match a with
  | ⟨0, _⟩ => show win3_3.index t (0 : Fin 2) * 1 + 1 * (j 0).val = (j 0).val; omega
  | ⟨1, _⟩ => show win3_3.index t (1 : Fin 2) * 128 + 1 * (j 1).val = (j 1).val; omega

/-- Window 4's block is its whole array at every point (block index 0 on both axes). -/
theorem iblk3_4_eq (c : Dev nD) (t : Fin cfg3.N) :
    (iblk3 (F := Ideal) V c 4 t : Vec Ideal S128x128 .f32) = (V c main_v18 : S128x128.Idx → EReal) := by
  obtain ⟨-, -, -, -, -, -, -, -, e0, e1, -⟩ := idx_facts3 t
  funext j
  show (V c main_v18 : S128x128.Idx → EReal) (((cfg3.win 4).blk t).view.emb j) = (V c main_v18 : S128x128.Idx → EReal) j
  refine congrArg (V c main_v18 : S128x128.Idx → EReal) ?_
  funext a
  apply Fin.ext
  match a with
  | ⟨0, _⟩ => show win3_4.index t (0 : Fin 2) * 128 + 1 * (j 0).val = (j 0).val; omega
  | ⟨1, _⟩ => show win3_4.index t (1 : Fin 2) * 128 + 1 * (j 1).val = (j 1).val; omega

/-- Window 5's block is its whole array at every point (block index 0 on both axes). -/
theorem iblk3_5_eq (c : Dev nD) (t : Fin cfg3.N) :
    (iblk3 (F := Ideal) V c 5 t : Vec Ideal S1x128 .f32) = (V c main_v22 : S1x128.Idx → EReal) := by
  obtain ⟨-, -, -, -, -, -, -, -, -, -, e0, e1, -⟩ := idx_facts3 t
  funext j
  show (V c main_v22 : S1x128.Idx → EReal) (((cfg3.win 5).blk t).view.emb j) = (V c main_v22 : S1x128.Idx → EReal) j
  refine congrArg (V c main_v22 : S1x128.Idx → EReal) ?_
  funext a
  apply Fin.ext
  match a with
  | ⟨0, _⟩ => show win3_5.index t (0 : Fin 2) * 1 + 1 * (j 0).val = (j 0).val; omega
  | ⟨1, _⟩ => show win3_5.index t (1 : Fin 2) * 128 + 1 * (j 1).val = (j 1).val; omega

/-- WHAT POINT `t` WRITES BACK is block `t` of the node update of the input arrays: row `p` of the block is row
    `2000 t + p` of the array, which reads only that row of the two row-blocked inputs. -/
theorem flushed3_eq (c : Dev nD) (t : Fin cfg3.N) :
    (dat3 (F := Ideal) V c).flushed 6 t = ((cfg3.win 6).blk t).view.read (Elt Ideal) (G3 V c) := by
  show (cfg3.win 6).cut (grid3.coords t) ((dat3 (F := Ideal) V c).after 6 t) = _
  rw [after3_6]
  unfold out3_6
  rw [View.canon_unit_zero hz3]
  simp only [View.ld_unit_zero (S := S2000x128) hz3, View.ld_unit_zero (S := S128x128) hz3, View.ld_unit_zero (S := S1x128) hz3]
  obtain ⟨-, -, -, -, -, -, -, -, -, -, -, -, e0, e1⟩ := idx_facts3 t
  funext j
  obtain ⟨p, q, rfl⟩ : ∃ (p : Fin 2000) (q : Fin 128), j = ix2 p q := ⟨j 0, j 1, eq_ix2 (n0 := 2000) (n1 := 128) j⟩
  have hr : 2000 * t.val + p.val < 50000 := by
    have ht : t.val < 25 := lt_of_lt_of_eq t.isLt N_3
    omega
  show k3_pay1 (F := Ideal) (iblk3 (F := Ideal) V c 0 t) (iblk3 (F := Ideal) V c 1 t) (iblk3 (F := Ideal) V c 2 t) (iblk3 (F := Ideal) V c 3 t) (iblk3 (F := Ideal) V c 4 t) (iblk3 (F := Ideal) V c 5 t) (ix2 p q)
    = G3 V c (((cfg3.win 6).blk t).view.emb (ix2 p q))
  have hi : ((cfg3.win 6).blk t).view.emb (ix2 p q) = (ix2 (⟨2000 * t.val + p.val, hr⟩ : Fin 50000) q : S50000x128.Idx) := by
    funext a
    apply Fin.ext
    match a with
    | ⟨0, _⟩ => show win3_6.index t (0 : Fin 2) * 2000 + 1 * p.val = 2000 * t.val + p.val; omega
    | ⟨1, _⟩ => show win3_6.index t (1 : Fin 2) * 128 + 1 * q.val = q.val; omega
  rw [hi, conv_pay3_apply]
  exact conv_row_congr _ _ _ _ _ _ _ _ _ _ _ _ p q ⟨2000 * t.val + p.val, hr⟩
    (fun k => iblk3_0_apply V c t p k _ rfl) (fun k => iblk3_1_apply V c t p k _ rfl)
    (iblk3_2_eq V c t) (fun k => congrFun (iblk3_3_eq V c t) (ix2 (0 : Fin 1) k))
    (iblk3_4_eq V c t) (fun k => congrFun (iblk3_5_eq V c t) (ix2 (0 : Fin 1) k))

/-- THE ARRAY after region 3: the node update of the input arrays, every row written by the point of its block. -/
theorem final3 (c : Dev nD) : (dat3 (F := Ideal) V c).arrAt 6 cfg3.N
    = Cert.Spec.conv (V c main_v5) (V c main_v12) (V c main_v14) (fun j : Fin 128 => V c main_v21 (ix2 (0 : Fin 1) j)) (V c main_v18) (fun j : Fin 128 => V c main_v22 (ix2 (0 : Fin 1) j)) :=
  (dat3 (F := Ideal) V c).arrAt_eq_of_cover 6 (G3 V c) (fun t _ => flushed3_eq V c t) cover3

/-! # Region 7: the node update `cc7__conv_kernel`, 25 blocks of 2000 rows -/

/-- THE BODY'S PAYLOAD AT AN INDEX: two affine layers with a positive part between, of the sum of the two row blocks — the
    node update of the blocks. -/
theorem conv_pay7_apply (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k7_pay1 (F := Ideal) x0 x1 x2 x3 x4 x5 (ix2 p q)
      = Cert.Spec.conv (M := 2000) x0 x1 x2 (fun j : Fin 128 => x3 (ix2 (0 : Fin 1) j)) x4 (fun j : Fin 128 => x5 (ix2 (0 : Fin 1) j))
          (ix2 p q) := by
  unfold k7_pay1
  refine (conv_layer_apply _ _ _ _ _ _ _ p q).trans ?_
  unfold Cert.Spec.conv
  rw [Cert.Spec.lin_apply]
  congr 1
  refine Finset.sum_congr rfl fun k _ => ?_
  congr 1
  rw [maximumf_apply, broadcast_apply, Cert.Spec.relu_apply, Cert.Spec.lin_apply]
  congr 1
  · refine (conv_layer_apply _ _ _ _ _ _ _ p k).trans ?_
    rw [shapeCast_self, shapeCast_self]
    rfl
  · exact Ideal.ofBits_zero_f32

/-- The printed index maps, decided over the grid: the two row-blocked inputs and the output sit at block `t` of the rows,
    the weights and biases at block 0 on both axes. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- An index of the output array is in point `t`'s block iff each coordinate is in the block's range on its axis. -/
theorem mem_blk7 (t : Fin cfg7.N) (i : S50000x128.Idx) :
    i ∈ ((cfg7.win 6).blk t).view.set ↔ ∀ a : Fin 2, win7_6.index t a * S2000x128.size a ≤ (i a).val
      ∧ (i a).val < win7_6.index t a * S2000x128.size a + S2000x128.size a := by
  show i ∈ ((View.whole main_v68).slice (win7_6.rect t)).set ↔ _
  rw [View.set_slice_whole, Rect.mem_set_unit]
  exact Iff.rfl

/-- Every index of the output array lies in the block some point writes back: row `r` in the block of point `r / 2000`. -/
theorem cover7 (i : S50000x128.Idx) :
    ∃ t : Fin cfg7.N, (cfg7.win 6).flush t = true ∧ i ∈ ((cfg7.win 6).blk t).view.set := by
  have hi0 : (i 0).val < 50000 := (i 0).isLt
  have hi1 : (i 1).val < 128 := (i 1).isLt
  obtain ⟨t, ht⟩ : ∃ t : Fin cfg7.N, t.val = (i 0).val / 2000 :=
    ⟨⟨(i 0).val / 2000, by rw [show cfg7.N = 25 from N_7]; omega⟩, rfl⟩
  obtain ⟨-, -, -, -, -, -, -, -, -, -, -, -, e0, e1⟩ := idx_facts7 t
  refine ⟨t, flush7_6 t, ?_⟩
  rw [mem_blk7]
  intro a
  match a with
  | ⟨0, _⟩ =>
    show win7_6.index t (0 : Fin 2) * 2000 ≤ (i 0).val ∧ (i 0).val < win7_6.index t (0 : Fin 2) * 2000 + 2000
    omega
  | ⟨1, _⟩ =>
    show win7_6.index t (1 : Fin 2) * 128 ≤ (i 1).val ∧ (i 1).val < win7_6.index t (1 : Fin 2) * 128 + 128
    omega

/-! ## From the blocks to the array -/

theorem hz7 : (![0, 0] : Fin 2 → Nat) = fun _ => 0 := funext fun a => by fin_cases a <;> rfl

/-- What the output array ends holding: the node update of the region's input arrays as the region finds them. -/
abbrev G7 (c : Dev nD) : S50000x128.Idx → EReal :=
  Cert.Spec.conv (M := 50000) (V c main_v36) (V c main_v57) (V c main_v59) (fun j : Fin 128 => V c main_v66 (ix2 (0 : Fin 1) j)) (V c main_v63)
    (fun j : Fin 128 => V c main_v67 (ix2 (0 : Fin 1) j))

/-- Window 0's block at point `t` is rows `2000 t … 2000 t + 1999` of its array. -/
theorem iblk7_0_apply (c : Dev nD) (t : Fin cfg7.N) (p : Fin 2000) (k : Fin 128) (r : Fin 50000)
    (hr : r.val = 2000 * t.val + p.val) :
    (iblk7 (F := Ideal) V c 0 t : Vec Ideal S2000x128 .f32) (ix2 p k) = (V c main_v36 : S50000x128.Idx → EReal) (ix2 r k) := by
  obtain ⟨e0, e1, -⟩ := idx_facts7 t
  show (V c main_v36 : S50000x128.Idx → EReal) (((cfg7.win 0).blk t).view.emb (ix2 p k)) = (V c main_v36 : S50000x128.Idx → EReal) (ix2 r k)
  refine congrArg (V c main_v36 : S50000x128.Idx → EReal) ?_
  funext a
  apply Fin.ext
  match a with
  | ⟨0, _⟩ => show win7_0.index t (0 : Fin 2) * 2000 + 1 * p.val = r.val; omega
  | ⟨1, _⟩ => show win7_0.index t (1 : Fin 2) * 128 + 1 * k.val = k.val; omega

/-- Window 1's block at point `t` is rows `2000 t … 2000 t + 1999` of its array. -/
theorem iblk7_1_apply (c : Dev nD) (t : Fin cfg7.N) (p : Fin 2000) (k : Fin 128) (r : Fin 50000)
    (hr : r.val = 2000 * t.val + p.val) :
    (iblk7 (F := Ideal) V c 1 t : Vec Ideal S2000x128 .f32) (ix2 p k) = (V c main_v57 : S50000x128.Idx → EReal) (ix2 r k) := by
  obtain ⟨-, -, e0, e1, -⟩ := idx_facts7 t
  show (V c main_v57 : S50000x128.Idx → EReal) (((cfg7.win 1).blk t).view.emb (ix2 p k)) = (V c main_v57 : S50000x128.Idx → EReal) (ix2 r k)
  refine congrArg (V c main_v57 : S50000x128.Idx → EReal) ?_
  funext a
  apply Fin.ext
  match a with
  | ⟨0, _⟩ => show win7_1.index t (0 : Fin 2) * 2000 + 1 * p.val = r.val; omega
  | ⟨1, _⟩ => show win7_1.index t (1 : Fin 2) * 128 + 1 * k.val = k.val; omega

/-- Window 2's block is its whole array at every point (block index 0 on both axes). -/
theorem iblk7_2_eq (c : Dev nD) (t : Fin cfg7.N) :
    (iblk7 (F := Ideal) V c 2 t : Vec Ideal S128x128 .f32) = (V c main_v59 : S128x128.Idx → EReal) := by
  obtain ⟨-, -, -, -, e0, e1, -⟩ := idx_facts7 t
  funext j
  show (V c main_v59 : S128x128.Idx → EReal) (((cfg7.win 2).blk t).view.emb j) = (V c main_v59 : S128x128.Idx → EReal) j
  refine congrArg (V c main_v59 : S128x128.Idx → EReal) ?_
  funext a
  apply Fin.ext
  match a with
  | ⟨0, _⟩ => show win7_2.index t (0 : Fin 2) * 128 + 1 * (j 0).val = (j 0).val; omega
  | ⟨1, _⟩ => show win7_2.index t (1 : Fin 2) * 128 + 1 * (j 1).val = (j 1).val; omega

/-- Window 3's block is its whole array at every point (block index 0 on both axes). -/
theorem iblk7_3_eq (c : Dev nD) (t : Fin cfg7.N) :
    (iblk7 (F := Ideal) V c 3 t : Vec Ideal S1x128 .f32) = (V c main_v66 : S1x128.Idx → EReal) := by
  obtain ⟨-, -, -, -, -, -, e0, e1, -⟩ := idx_facts7 t
  funext j
  show (V c main_v66 : S1x128.Idx → EReal) (((cfg7.win 3).blk t).view.emb j) = (V c main_v66 : S1x128.Idx → EReal) j
  refine congrArg (V c main_v66 : S1x128.Idx → EReal) ?_
  funext a
  apply Fin.ext
  match a with
  | ⟨0, _⟩ => show win7_3.index t (0 : Fin 2) * 1 + 1 * (j 0).val = (j 0).val; omega
  | ⟨1, _⟩ => show win7_3.index t (1 : Fin 2) * 128 + 1 * (j 1).val = (j 1).val; omega

/-- Window 4's block is its whole array at every point (block index 0 on both axes). -/
theorem iblk7_4_eq (c : Dev nD) (t : Fin cfg7.N) :
    (iblk7 (F := Ideal) V c 4 t : Vec Ideal S128x128 .f32) = (V c main_v63 : S128x128.Idx → EReal) := by
  obtain ⟨-, -, -, -, -, -, -, -, e0, e1, -⟩ := idx_facts7 t
  funext j
  show (V c main_v63 : S128x128.Idx → EReal) (((cfg7.win 4).blk t).view.emb j) = (V c main_v63 : S128x128.Idx → EReal) j
  refine congrArg (V c main_v63 : S128x128.Idx → EReal) ?_
  funext a
  apply Fin.ext
  match a with
  | ⟨0, _⟩ => show win7_4.index t (0 : Fin 2) * 128 + 1 * (j 0).val = (j 0).val; omega
  | ⟨1, _⟩ => show win7_4.index t (1 : Fin 2) * 128 + 1 * (j 1).val = (j 1).val; omega

/-- Window 5's block is its whole array at every point (block index 0 on both axes). -/
theorem iblk7_5_eq (c : Dev nD) (t : Fin cfg7.N) :
    (iblk7 (F := Ideal) V c 5 t : Vec Ideal S1x128 .f32) = (V c main_v67 : S1x128.Idx → EReal) := by
  obtain ⟨-, -, -, -, -, -, -, -, -, -, e0, e1, -⟩ := idx_facts7 t
  funext j
  show (V c main_v67 : S1x128.Idx → EReal) (((cfg7.win 5).blk t).view.emb j) = (V c main_v67 : S1x128.Idx → EReal) j
  refine congrArg (V c main_v67 : S1x128.Idx → EReal) ?_
  funext a
  apply Fin.ext
  match a with
  | ⟨0, _⟩ => show win7_5.index t (0 : Fin 2) * 1 + 1 * (j 0).val = (j 0).val; omega
  | ⟨1, _⟩ => show win7_5.index t (1 : Fin 2) * 128 + 1 * (j 1).val = (j 1).val; omega

/-- WHAT POINT `t` WRITES BACK is block `t` of the node update of the input arrays: row `p` of the block is row
    `2000 t + p` of the array, which reads only that row of the two row-blocked inputs. -/
theorem flushed7_eq (c : Dev nD) (t : Fin cfg7.N) :
    (dat7 (F := Ideal) V c).flushed 6 t = ((cfg7.win 6).blk t).view.read (Elt Ideal) (G7 V c) := by
  show (cfg7.win 6).cut (grid7.coords t) ((dat7 (F := Ideal) V c).after 6 t) = _
  rw [after7_6]
  unfold out7_6
  rw [View.canon_unit_zero hz7]
  simp only [View.ld_unit_zero (S := S2000x128) hz7, View.ld_unit_zero (S := S128x128) hz7, View.ld_unit_zero (S := S1x128) hz7]
  obtain ⟨-, -, -, -, -, -, -, -, -, -, -, -, e0, e1⟩ := idx_facts7 t
  funext j
  obtain ⟨p, q, rfl⟩ : ∃ (p : Fin 2000) (q : Fin 128), j = ix2 p q := ⟨j 0, j 1, eq_ix2 (n0 := 2000) (n1 := 128) j⟩
  have hr : 2000 * t.val + p.val < 50000 := by
    have ht : t.val < 25 := lt_of_lt_of_eq t.isLt N_7
    omega
  show k7_pay1 (F := Ideal) (iblk7 (F := Ideal) V c 0 t) (iblk7 (F := Ideal) V c 1 t) (iblk7 (F := Ideal) V c 2 t) (iblk7 (F := Ideal) V c 3 t) (iblk7 (F := Ideal) V c 4 t) (iblk7 (F := Ideal) V c 5 t) (ix2 p q)
    = G7 V c (((cfg7.win 6).blk t).view.emb (ix2 p q))
  have hi : ((cfg7.win 6).blk t).view.emb (ix2 p q) = (ix2 (⟨2000 * t.val + p.val, hr⟩ : Fin 50000) q : S50000x128.Idx) := by
    funext a
    apply Fin.ext
    match a with
    | ⟨0, _⟩ => show win7_6.index t (0 : Fin 2) * 2000 + 1 * p.val = 2000 * t.val + p.val; omega
    | ⟨1, _⟩ => show win7_6.index t (1 : Fin 2) * 128 + 1 * q.val = q.val; omega
  rw [hi, conv_pay7_apply]
  exact conv_row_congr _ _ _ _ _ _ _ _ _ _ _ _ p q ⟨2000 * t.val + p.val, hr⟩
    (fun k => iblk7_0_apply V c t p k _ rfl) (fun k => iblk7_1_apply V c t p k _ rfl)
    (iblk7_2_eq V c t) (fun k => congrFun (iblk7_3_eq V c t) (ix2 (0 : Fin 1) k))
    (iblk7_4_eq V c t) (fun k => congrFun (iblk7_5_eq V c t) (ix2 (0 : Fin 1) k))

/-- THE ARRAY after region 7: the node update of the input arrays, every row written by the point of its block. -/
theorem final7 (c : Dev nD) : (dat7 (F := Ideal) V c).arrAt 6 cfg7.N
    = Cert.Spec.conv (V c main_v36) (V c main_v57) (V c main_v59) (fun j : Fin 128 => V c main_v66 (ix2 (0 : Fin 1) j)) (V c main_v63) (fun j : Fin 128 => V c main_v67 (ix2 (0 : Fin 1) j)) :=
  (dat7 (F := Ideal) V c).arrAt_eq_of_cover 6 (G7 V c) (fun t _ => flushed7_eq V c t) cover7

end Cert.KernelIdeal.Val

end
-- ==== Proof.KEmlp.lean ====
/-
  The edge update of the two message-passing layers, as the two TensorCore regions that compute it leave it in their
  result arrays.

  Each region walks the 500000 edge rows in 250 blocks of 2000 rows. At a block it reads the block's rows of the source
  features, the destination features and the edge features, and the whole of three [128 × 128] first-layer weights, a
  first-layer bias row, a second-layer weight and a second-layer bias row, and writes

      out = ea + (max (((hs · w1a + hd · w1b) + ea · w1c) + b1) 0 · w2 + b2) · ½

  for the block's rows. Row r of that expression reads only row r of hs, hd and ea, so the block of rows it leaves is
  the block of rows of the same expression of the whole arrays (Cert.Spec.emlp), and the 250 blocks tile the result.
  At the ideal values the narrowing to bf16 before each product and the shape casts to the same shape are the identity,
  and a product into the zero accumulator is the plain sum over the contracted axis.
-/
import proofs.«410123_j23235773072029_1_alg».proof.Proof.Gen.KernelIdeal.Frame
import proofs.«410123_j23235773072029_1_alg».proof.Proof.Spec
import proofs.«410123_j23235773072029_1_alg».proof.Proof.LibMeanAggregate
import Idealize.ShloMosaic.Lib.ValueIdx
import Idealize.ShloMosaic.Lib.Pipeline.Value
import Idealize.ShloMosaic.PureOps.Ideal.Laws

noncomputable section

open scoped BigOperators

namespace Cert.KernelIdeal.Val

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ## The operations both regions share, read at an index -/

/-- The zero offsets of a whole-buffer access, as the constant function. -/
theorem emlp_hz : (![0, 0] : Fin 2 → Nat) = fun _ => 0 :=
  funext fun a => by
    match a with
    | ⟨0, _⟩ => rfl
    | ⟨1, _⟩ => rfl

/-- The printed dimension numbers of the [2000 × 128] by [128 × 128] product are the plain ones:
    contract the left operand's columns with the right operand's rows. -/
theorem emlp_dot_eq_plain : dot_S2000x128_S128x128_S2000x128_1_0_0_1_n_n = DotDims.plain 2000 128 128 := rfl

/-- A [2000 × 128] by [128 × 128] product into the zero accumulator, read at (p, q): the sum over the contracted axis. -/
theorem emlp_mm_apply {φ₁ φ₂ : FTy} (lhs : FVec Ideal S2000x128 φ₁) (rhs : FVec Ideal S128x128 φ₂) (p : Fin 2000) (q : Fin 128) :
    matmul dot_S2000x128_S128x128_S2000x128_1_0_0_1_n_n none lhs rhs (constant S2000x128 .f32 0x00000000#32) (ix2 p q)
      = ∑ k : Fin 128, lhs (ix2 p k) * rhs (ix2 k q) := by
  rw [emlp_dot_eq_plain]
  exact MeanAggregate.plain_matmul_zero_apply 2000 128 128 none lhs rhs p q

/-- A [1 × 128] row broadcast down 2000 rows, read at (p, q): the row's entry q. -/
theorem emlp_row_apply (b : FVec Ideal S1x128 .f32) (p : Fin 2000) (q : Fin 128) :
    broadcastTo S2000x128 b broadcasts_S1x128_S2000x128 (ix2 p q) = b (ix2 (0 : Fin 1) q) :=
  broadcastTo_apply b broadcasts_S1x128_S2000x128 (ix2 p q) (ix2 (0 : Fin 1) q) (fun a => by
    match a with
    | ⟨0, _⟩ => rfl
    | ⟨1, _⟩ => rfl)

/-! ## Region 5 -/

/-- The perceptron's second product at (p, q): the positive part of the three first-layer products, summed left to
    right, plus the first bias row, against the second weight. -/
theorem pay2_5_apply (x0 x1 x2 : Vec Ideal S2000x128 .f32) (x3 x4 x5 : Vec Ideal S128x128 .f32) (x6 : Vec Ideal S1x128 .f32)
    (x7 : Vec Ideal S128x128 .f32) (p : Fin 2000) (q : Fin 128) :
    k5_pay2 x0 x1 x2 x3 x4 x5 x6 x7 (ix2 p q)
      = ∑ k : Fin 128, max ((((∑ j : Fin 128, x0 (ix2 p j) * x3 (ix2 j k)) + (∑ j : Fin 128, x1 (ix2 p j) * x4 (ix2 j k)))
          + (∑ j : Fin 128, x2 (ix2 p j) * x5 (ix2 j k))) + x6 (ix2 (0 : Fin 1) k)) 0 * x7 (ix2 k q) := by
  unfold k5_pay2
  refine (emlp_mm_apply _ _ p q).trans ?_
  refine Finset.sum_congr rfl fun k _ => ?_
  rw [truncf_apply, truncf_apply, shapeCast_self, maximumf_apply, addf_apply, addf_apply, addf_apply, emlp_mm_apply, emlp_mm_apply,
    emlp_mm_apply, emlp_row_apply, shapeCast_self, broadcast_apply]
  simp only [truncf_apply, shapeCast_self]
  show max _ (Ideal.ofBits .f32 0x00000000#32) * _ = _
  rw [Ideal.ofBits_zero_f32]

/-- The second bias row passes through its shape cast unchanged. -/
theorem pay3_5_eq (x8 : Vec Ideal S1x128 .f32) : k5_pay3 x8 = x8 := by
  unfold k5_pay3
  exact shapeCast_self _ _

/-- The stored value at (p, q): the edge feature plus half of (the second product plus the second bias row). -/
theorem pay1_5_apply (a : FVec Ideal S2000x128 .f32) (b : FVec Ideal S1x128 .f32) (x2 : Vec Ideal S2000x128 .f32) (p : Fin 2000)
    (q : Fin 128) :
    k5_pay1 a b x2 (ix2 p q) = x2 (ix2 p q) + (a (ix2 p q) + b (ix2 (0 : Fin 1) q)) * Ideal.ofBits .f32 0x3F000000#32 := by
  unfold k5_pay1
  rw [addf_apply, shapeCast_self, mulf_apply, addf_apply, emlp_row_apply, broadcast_apply]
  rfl

/-- Row p of what the body stores is row r of the edge update of any arrays whose rows r are the blocks' rows p and whose
    weights and bias rows are the blocks'. -/
theorem body_5_apply (hs hd ea : S500000x128.Idx → EReal) (wa wb wc w2 : S128x128.Idx → EReal) (b1 b2 : S1x128.Idx → EReal)
    (x0 x1 x2 : Vec Ideal S2000x128 .f32) (x3 x4 x5 : Vec Ideal S128x128 .f32) (x6 : Vec Ideal S1x128 .f32)
    (x7 : Vec Ideal S128x128 .f32) (x8 : Vec Ideal S1x128 .f32) (p : Fin 2000) (q : Fin 128) (r : Fin 500000)
    (h0 : ∀ k : Fin 128, x0 (ix2 p k) = hs (ix2 r k)) (h1 : ∀ k : Fin 128, x1 (ix2 p k) = hd (ix2 r k))
    (h2 : ∀ k : Fin 128, x2 (ix2 p k) = ea (ix2 r k)) (h3 : x3 = wa) (h4 : x4 = wb) (h5 : x5 = wc) (h6 : x6 = b1) (h7 : x7 = w2)
    (h8 : x8 = b2) :
    k5_pay1 (k5_pay2 x0 x1 x2 x3 x4 x5 x6 x7) (k5_pay3 x8) x2 (ix2 p q)
      = Cert.Spec.emlp hs hd ea wa wb wc (fun j : Fin 128 => b1 (ix2 (0 : Fin 1) j)) w2 (fun j : Fin 128 => b2 (ix2 (0 : Fin 1) j))
          (ix2 r q) := by
  subst h3 h4 h5 h6 h7 h8
  rw [pay1_5_apply, pay3_5_eq, pay2_5_apply, Cert.Spec.emlp_apply, Cert.Spec.lin_apply, h2 q]
  refine congrArg (fun z => ea (ix2 r q) + (z + x8 (ix2 (0 : Fin 1) q)) * Ideal.ofBits .f32 0x3F000000#32) ?_
  refine Finset.sum_congr rfl fun k _ => ?_
  rw [Cert.Spec.relu_apply, Cert.Spec.lin3_apply]
  simp only [h0, h1, h2]

/-- The printed index maps, decided over the grid: the three row-blocked inputs and the result move with the grid point
    on the rows and stay at block 0 on the columns; every weight and bias window stays at block 0 on both axes. -/
theorem idx_facts_5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = t.val ∧ win5_9.index t (1 : Fin 2) = 0 :=
  (by decide +kernel : ∀ t : Fin grid5.N, _)

/-- Window 0's block at point t is rows 2000·t … 2000·t + 1999 of its array. -/
theorem rows_5_0 (c : Dev nD) (t : Fin cfg5.N) (y : S2000x128.Idx) (i : S500000x128.Idx)
    (h0 : (i 0).val = 2000 * t.val + (y 0).val) (h1 : (i 1).val = (y 1).val) :
    (iblk5 (F := Ideal) V c 0 t : Vec Ideal S2000x128 .f32) y = (V c main_v37 : S500000x128.Idx → EReal) i := by
  obtain ⟨e00, e01, e10, e11, e20, e21, -⟩ := idx_facts_5 t
  unfold iblk5
  rw [View.read_apply]
  show V c main_v37 _ = V c main_v37 _
  congr 1
  funext a
  apply Fin.ext
  match a with
  | ⟨0, _⟩ => show win5_0.index t (0 : Fin 2) * 2000 + 1 * (y 0).val = (i 0).val; rw [e00, h0]; omega
  | ⟨1, _⟩ => show win5_0.index t (1 : Fin 2) * 128 + 1 * (y 1).val = (i 1).val; rw [e01, h1]; omega

/-- Window 1's block at point t is rows 2000·t … 2000·t + 1999 of its array. -/
theorem rows_5_1 (c : Dev nD) (t : Fin cfg5.N) (y : S2000x128.Idx) (i : S500000x128.Idx)
    (h0 : (i 0).val = 2000 * t.val + (y 0).val) (h1 : (i 1).val = (y 1).val) :
    (iblk5 (F := Ideal) V c 1 t : Vec Ideal S2000x128 .f32) y = (V c main_v38 : S500000x128.Idx → EReal) i := by
  obtain ⟨e00, e01, e10, e11, e20, e21, -⟩ := idx_facts_5 t
  unfold iblk5
  rw [View.read_apply]
  show V c main_v38 _ = V c main_v38 _
  congr 1
  funext a
  apply Fin.ext
  match a with
  | ⟨0, _⟩ => show win5_1.index t (0 : Fin 2) * 2000 + 1 * (y 0).val = (i 0).val; rw [e10, h0]; omega
  | ⟨1, _⟩ => show win5_1.index t (1 : Fin 2) * 128 + 1 * (y 1).val = (i 1).val; rw [e11, h1]; omega

/-- Window 2's block at point t is rows 2000·t … 2000·t + 1999 of its array. -/
theorem rows_5_2 (c : Dev nD) (t : Fin cfg5.N) (y : S2000x128.Idx) (i : S500000x128.Idx)
    (h0 : (i 0).val = 2000 * t.val + (y 0).val) (h1 : (i 1).val = (y 1).val) :
    (iblk5 (F := Ideal) V c 2 t : Vec Ideal S2000x128 .f32) y = (V c main_v7 : S500000x128.Idx → EReal) i := by
  obtain ⟨e00, e01, e10, e11, e20, e21, -⟩ := idx_facts_5 t
  unfold iblk5
  rw [View.read_apply]
  show V c main_v7 _ = V c main_v7 _
  congr 1
  funext a
  apply Fin.ext
  match a with
  | ⟨0, _⟩ => show win5_2.index t (0 : Fin 2) * 2000 + 1 * (y 0).val = (i 0).val; rw [e20, h0]; omega
  | ⟨1, _⟩ => show win5_2.index t (1 : Fin 2) * 128 + 1 * (y 1).val = (i 1).val; rw [e21, h1]; omega

/-- Window 3's block at every point is its whole [128 × 128] array. -/
theorem whole_5_3 (c : Dev nD) (t : Fin cfg5.N) :
    (iblk5 (F := Ideal) V c 3 t : Vec Ideal S128x128 .f32) = (V c main_v41 : S128x128.Idx → EReal) := by
  obtain ⟨-, -, -, -, -, -, e30, e31, e40, e41, e50, e51, -, -, e70, e71, -⟩ := idx_facts_5 t
  funext y
  unfold iblk5
  rw [View.read_apply]
  show V c main_v41 _ = V c main_v41 _
  congr 1
  funext a
  apply Fin.ext
  match a with
  | ⟨0, _⟩ => show win5_3.index t (0 : Fin 2) * 128 + 1 * (y 0).val = (y 0).val; rw [e30]; omega
  | ⟨1, _⟩ => show win5_3.index t (1 : Fin 2) * 128 + 1 * (y 1).val = (y 1).val; rw [e31]; omega

/-- Window 4's block at every point is its whole [128 × 128] array. -/
theorem whole_5_4 (c : Dev nD) (t : Fin cfg5.N) :
    (iblk5 (F := Ideal) V c 4 t : Vec Ideal S128x128 .f32) = (V c main_v42 : S128x128.Idx → EReal) := by
  obtain ⟨-, -, -, -, -, -, e30, e31, e40, e41, e50, e51, -, -, e70, e71, -⟩ := idx_facts_5 t
  funext y
  unfold iblk5
  rw [View.read_apply]
  show V c main_v42 _ = V c main_v42 _
  congr 1
  funext a
  apply Fin.ext
  match a with
  | ⟨0, _⟩ => show win5_4.index t (0 : Fin 2) * 128 + 1 * (y 0).val = (y 0).val; rw [e40]; omega
  | ⟨1, _⟩ => show win5_4.index t (1 : Fin 2) * 128 + 1 * (y 1).val = (y 1).val; rw [e41]; omega

/-- Window 5's block at every point is its whole [128 × 128] array. -/
theorem whole_5_5 (c : Dev nD) (t : Fin cfg5.N) :
    (iblk5 (F := Ideal) V c 5 t : Vec Ideal S128x128 .f32) = (V c main_v43 : S128x128.Idx → EReal) := by
  obtain ⟨-, -, -, -, -, -, e30, e31, e40, e41, e50, e51, -, -, e70, e71, -⟩ := idx_facts_5 t
  funext y
  unfold iblk5
  rw [View.read_apply]
  show V c main_v43 _ = V c main_v43 _
  congr 1
  funext a
  apply Fin.ext
  match a with
  | ⟨0, _⟩ => show win5_5.index t (0 : Fin 2) * 128 + 1 * (y 0).val = (y 0).val; rw [e50]; omega
  | ⟨1, _⟩ => show win5_5.index t (1 : Fin 2) * 128 + 1 * (y 1).val = (y 1).val; rw [e51]; omega

/-- Window 7's block at every point is its whole [128 × 128] array. -/
theorem whole_5_7 (c : Dev nD) (t : Fin cfg5.N) :
    (iblk5 (F := Ideal) V c 7 t : Vec Ideal S128x128 .f32) = (V c main_v47 : S128x128.Idx → EReal) := by
  obtain ⟨-, -, -, -, -, -, e30, e31, e40, e41, e50, e51, -, -, e70, e71, -⟩ := idx_facts_5 t
  funext y
  unfold iblk5
  rw [View.read_apply]
  show V c main_v47 _ = V c main_v47 _
  congr 1
  funext a
  apply Fin.ext
  match a with
  | ⟨0, _⟩ => show win5_7.index t (0 : Fin 2) * 128 + 1 * (y 0).val = (y 0).val; rw [e70]; omega
  | ⟨1, _⟩ => show win5_7.index t (1 : Fin 2) * 128 + 1 * (y 1).val = (y 1).val; rw [e71]; omega

/-- Window 6's block at every point is its whole [1 × 128] row. -/
theorem whole_5_6 (c : Dev nD) (t : Fin cfg5.N) :
    (iblk5 (F := Ideal) V c 6 t : Vec Ideal S1x128 .f32) = (V c main_v50 : S1x128.Idx → EReal) := by
  obtain ⟨-, -, -, -, -, -, -, -, -, -, -, -, e60, e61, -, -, e80, e81, -⟩ := idx_facts_5 t
  funext y
  unfold iblk5
  rw [View.read_apply]
  show V c main_v50 _ = V c main_v50 _
  congr 1
  funext a
  apply Fin.ext
  match a with
  | ⟨0, _⟩ => show win5_6.index t (0 : Fin 2) * 1 + 1 * (y 0).val = (y 0).val; rw [e60]; omega
  | ⟨1, _⟩ => show win5_6.index t (1 : Fin 2) * 128 + 1 * (y 1).val = (y 1).val; rw [e61]; omega

/-- Window 8's block at every point is its whole [1 × 128] row. -/
theorem whole_5_8 (c : Dev nD) (t : Fin cfg5.N) :
    (iblk5 (F := Ideal) V c 8 t : Vec Ideal S1x128 .f32) = (V c main_v51 : S1x128.Idx → EReal) := by
  obtain ⟨-, -, -, -, -, -, -, -, -, -, -, -, e60, e61, -, -, e80, e81, -⟩ := idx_facts_5 t
  funext y
  unfold iblk5
  rw [View.read_apply]
  show V c main_v51 _ = V c main_v51 _
  congr 1
  funext a
  apply Fin.ext
  match a with
  | ⟨0, _⟩ => show win5_8.index t (0 : Fin 2) * 1 + 1 * (y 0).val = (y 0).val; rw [e80]; omega
  | ⟨1, _⟩ => show win5_8.index t (1 : Fin 2) * 128 + 1 * (y 1).val = (y 1).val; rw [e81]; omega

/-- What the region's result array ends holding: the edge update of the arrays the region reads, as it finds them. -/
abbrev G_5 (c : Dev nD) : S500000x128.Idx → EReal :=
  Cert.Spec.emlp (V c main_v37) (V c main_v38) (V c main_v7) (V c main_v41) (V c main_v42) (V c main_v43)
    (fun j : Fin 128 => V c main_v50 (ix2 (0 : Fin 1) j)) (V c main_v47) (fun j : Fin 128 => V c main_v51 (ix2 (0 : Fin 1) j))

/-- The body's result for the blocks at point t, at local index y, is the edge update at the array index i that y sits at. -/
theorem blk_5_apply (c : Dev nD) (t : Fin cfg5.N) (y : S2000x128.Idx) (i : S500000x128.Idx)
    (h0 : (i 0).val = 2000 * t.val + (y 0).val) (h1 : (i 1).val = (y 1).val) :
    k5_pay1 (k5_pay2 (iblk5 (F := Ideal) V c 0 t) (iblk5 V c 1 t) (iblk5 V c 2 t) (iblk5 V c 3 t) (iblk5 V c 4 t) (iblk5 V c 5 t)
        (iblk5 V c 6 t) (iblk5 V c 7 t)) (k5_pay3 (iblk5 V c 8 t)) (iblk5 V c 2 t) y = G_5 V c i := by
  obtain ⟨p, q, rfl⟩ : ∃ (p : Fin 2000) (q : Fin 128), y = ix2 p q := ⟨y 0, y 1, eq_ix2 y⟩
  obtain ⟨r, q', rfl⟩ : ∃ (r : Fin 500000) (q' : Fin 128), i = ix2 r q' := ⟨i 0, i 1, eq_ix2 i⟩
  obtain rfl : q' = q := Fin.ext h1
  exact body_5_apply (V c main_v37) (V c main_v38) (V c main_v7) (V c main_v41) (V c main_v42) (V c main_v43) (V c main_v47) (V c main_v50) (V c main_v51)
    (iblk5 V c 0 t) (iblk5 V c 1 t) (iblk5 V c 2 t) (iblk5 V c 3 t) (iblk5 V c 4 t) (iblk5 V c 5 t) (iblk5 V c 6 t)
    (iblk5 V c 7 t) (iblk5 V c 8 t) p q' r
    (fun k => rows_5_0 V c t (ix2 p k) (ix2 r k) h0 rfl) (fun k => rows_5_1 V c t (ix2 p k) (ix2 r k) h0 rfl)
    (fun k => rows_5_2 V c t (ix2 p k) (ix2 r k) h0 rfl) (whole_5_3 V c t) (whole_5_4 V c t) (whole_5_5 V c t) (whole_5_6 V c t)
    (whole_5_7 V c t) (whole_5_8 V c t)

/-- What point t writes back is block t of the edge update of the whole arrays. -/
theorem flushed_5_eq (c : Dev nD) (t : Fin cfg5.N) :
    (dat5 (F := Ideal) V c).flushed 9 t = ((cfg5.win 9).blk t).view.read (Elt Ideal) (G_5 V c) := by
  show (cfg5.win 9).cut (grid5.coords t) ((dat5 (F := Ideal) V c).after 9 t) = _
  rw [after5_9]
  unfold out5_9
  rw [View.canon_unit_zero emlp_hz]
  simp only [View.ld_unit_zero (S := S2000x128) emlp_hz, View.ld_unit_zero (S := S128x128) emlp_hz, View.ld_unit_zero (S := S1x128) emlp_hz]
  obtain ⟨-, -, -, -, -, -, -, -, -, -, -, -, -, -, -, -, -, -, e90, e91⟩ := idx_facts_5 t
  funext j
  refine blk_5_apply V c t j (((cfg5.win 9).blk t).view.emb j) ?_ ?_
  · show win5_9.index t (0 : Fin 2) * 2000 + 1 * ((j : S2000x128.Idx) 0).val = 2000 * t.val + ((j : S2000x128.Idx) 0).val
    rw [e90]; omega
  · show win5_9.index t (1 : Fin 2) * 128 + 1 * ((j : S2000x128.Idx) 1).val = ((j : S2000x128.Idx) 1).val
    rw [e91]; omega

/-- An index of the result array is in point t's block iff each coordinate is in the block's range on its axis. -/
theorem mem_blk_5 (t : Fin cfg5.N) (i : S500000x128.Idx) :
    i ∈ ((cfg5.win 9).blk t).view.set
      ↔ ∀ a : Fin 2, win5_9.index t a * S2000x128.size a ≤ (i a).val ∧ (i a).val < win5_9.index t a * S2000x128.size a + S2000x128.size a := by
  show i ∈ ((View.whole main_v52).slice (win5_9.rect t)).set ↔ _
  rw [View.set_slice_whole, Rect.mem_set_unit]
  exact Iff.rfl

/-- Every row r of the result lies in the block of point r / 2000, which writes back. -/
theorem cover_5 (i : S500000x128.Idx) :
    ∃ t : Fin cfg5.N, (cfg5.win 9).flush t = true ∧ i ∈ ((cfg5.win 9).blk t).view.set := by
  have hi0 : (i 0).val < 500000 := (i 0).isLt
  have hi1 : (i 1).val < 128 := (i 1).isLt
  have hN : cfg5.N = 250 := N_5
  obtain ⟨t, ht⟩ : ∃ t : Fin cfg5.N, t.val = (i 0).val / 2000 := ⟨⟨(i 0).val / 2000, by rw [hN]; omega⟩, rfl⟩
  obtain ⟨-, -, -, -, -, -, -, -, -, -, -, -, -, -, -, -, -, -, e90, e91⟩ := idx_facts_5 t
  refine ⟨t, flush5_9 t, ?_⟩
  rw [mem_blk_5]
  intro a
  match a with
  | ⟨0, _⟩ =>
    show win5_9.index t (0 : Fin 2) * 2000 ≤ (i 0).val ∧ (i 0).val < win5_9.index t (0 : Fin 2) * 2000 + 2000
    rw [e90, ht]; omega
  | ⟨1, _⟩ =>
    show win5_9.index t (1 : Fin 2) * 128 ≤ (i 1).val ∧ (i 1).val < win5_9.index t (1 : Fin 2) * 128 + 128
    rw [e91]; omega

/-- The region's result array after its last point: the edge update of the arrays it read. -/
theorem final5 (c : Dev nD) : (dat5 (F := Ideal) V c).arrAt 9 cfg5.N
    = Cert.Spec.emlp (V c main_v37) (V c main_v38) (V c main_v7) (V c main_v41) (V c main_v42) (V c main_v43) (fun j : Fin 128 => V c main_v50 (ix2 (0 : Fin 1) j)) (V c main_v47) (fun j : Fin 128 => V c main_v51 (ix2 (0 : Fin 1) j)) :=
  (dat5 (F := Ideal) V c).arrAt_eq_of_cover 9 (G_5 V c) (fun t _ => flushed_5_eq V c t) (cover_5)

/-! ## Region 9 -/

/-- The perceptron's second product at (p, q): the positive part of the three first-layer products, summed left to
    right, plus the first bias row, against the second weight. -/
theorem pay2_9_apply (x0 x1 x2 : Vec Ideal S2000x128 .f32) (x3 x4 x5 : Vec Ideal S128x128 .f32) (x6 : Vec Ideal S1x128 .f32)
    (x7 : Vec Ideal S128x128 .f32) (p : Fin 2000) (q : Fin 128) :
    k9_pay2 x0 x1 x2 x3 x4 x5 x6 x7 (ix2 p q)
      = ∑ k : Fin 128, max ((((∑ j : Fin 128, x0 (ix2 p j) * x3 (ix2 j k)) + (∑ j : Fin 128, x1 (ix2 p j) * x4 (ix2 j k)))
          + (∑ j : Fin 128, x2 (ix2 p j) * x5 (ix2 j k))) + x6 (ix2 (0 : Fin 1) k)) 0 * x7 (ix2 k q) := by
  unfold k9_pay2
  refine (emlp_mm_apply _ _ p q).trans ?_
  refine Finset.sum_congr rfl fun k _ => ?_
  rw [truncf_apply, truncf_apply, shapeCast_self, maximumf_apply, addf_apply, addf_apply, addf_apply, emlp_mm_apply, emlp_mm_apply,
    emlp_mm_apply, emlp_row_apply, shapeCast_self, broadcast_apply]
  simp only [truncf_apply, shapeCast_self]
  show max _ (Ideal.ofBits .f32 0x00000000#32) * _ = _
  rw [Ideal.ofBits_zero_f32]

/-- The second bias row passes through its shape cast unchanged. -/
theorem pay3_9_eq (x8 : Vec Ideal S1x128 .f32) : k9_pay3 x8 = x8 := by
  unfold k9_pay3
  exact shapeCast_self _ _

/-- The stored value at (p, q): the edge feature plus half of (the second product plus the second bias row). -/
theorem pay1_9_apply (a : FVec Ideal S2000x128 .f32) (b : FVec Ideal S1x128 .f32) (x2 : Vec Ideal S2000x128 .f32) (p : Fin 2000)
    (q : Fin 128) :
    k9_pay1 a b x2 (ix2 p q) = x2 (ix2 p q) + (a (ix2 p q) + b (ix2 (0 : Fin 1) q)) * Ideal.ofBits .f32 0x3F000000#32 := by
  unfold k9_pay1
  rw [addf_apply, shapeCast_self, mulf_apply, addf_apply, emlp_row_apply, broadcast_apply]
  rfl

/-- Row p of what the body stores is row r of the edge update of any arrays whose rows r are the blocks' rows p and whose
    weights and bias rows are the blocks'. -/
theorem body_9_apply (hs hd ea : S500000x128.Idx → EReal) (wa wb wc w2 : S128x128.Idx → EReal) (b1 b2 : S1x128.Idx → EReal)
    (x0 x1 x2 : Vec Ideal S2000x128 .f32) (x3 x4 x5 : Vec Ideal S128x128 .f32) (x6 : Vec Ideal S1x128 .f32)
    (x7 : Vec Ideal S128x128 .f32) (x8 : Vec Ideal S1x128 .f32) (p : Fin 2000) (q : Fin 128) (r : Fin 500000)
    (h0 : ∀ k : Fin 128, x0 (ix2 p k) = hs (ix2 r k)) (h1 : ∀ k : Fin 128, x1 (ix2 p k) = hd (ix2 r k))
    (h2 : ∀ k : Fin 128, x2 (ix2 p k) = ea (ix2 r k)) (h3 : x3 = wa) (h4 : x4 = wb) (h5 : x5 = wc) (h6 : x6 = b1) (h7 : x7 = w2)
    (h8 : x8 = b2) :
    k9_pay1 (k9_pay2 x0 x1 x2 x3 x4 x5 x6 x7) (k9_pay3 x8) x2 (ix2 p q)
      = Cert.Spec.emlp hs hd ea wa wb wc (fun j : Fin 128 => b1 (ix2 (0 : Fin 1) j)) w2 (fun j : Fin 128 => b2 (ix2 (0 : Fin 1) j))
          (ix2 r q) := by
  subst h3 h4 h5 h6 h7 h8
  rw [pay1_9_apply, pay3_9_eq, pay2_9_apply, Cert.Spec.emlp_apply, Cert.Spec.lin_apply, h2 q]
  refine congrArg (fun z => ea (ix2 r q) + (z + x8 (ix2 (0 : Fin 1) q)) * Ideal.ofBits .f32 0x3F000000#32) ?_
  refine Finset.sum_congr rfl fun k _ => ?_
  rw [Cert.Spec.relu_apply, Cert.Spec.lin3_apply]
  simp only [h0, h1, h2]

/-- The printed index maps, decided over the grid: the three row-blocked inputs and the result move with the grid point
    on the rows and stay at block 0 on the columns; every weight and bias window stays at block 0 on both axes. -/
theorem idx_facts_9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = 0 ∧ win9_7.index t (1 : Fin 2) = 0
    ∧ win9_8.index t (0 : Fin 2) = 0 ∧ win9_8.index t (1 : Fin 2) = 0
    ∧ win9_9.index t (0 : Fin 2) = t.val ∧ win9_9.index t (1 : Fin 2) = 0 :=
  (by decide +kernel : ∀ t : Fin grid9.N, _)

/-- Window 0's block at point t is rows 2000·t … 2000·t + 1999 of its array. -/
theorem rows_9_0 (c : Dev nD) (t : Fin cfg9.N) (y : S2000x128.Idx) (i : S500000x128.Idx)
    (h0 : (i 0).val = 2000 * t.val + (y 0).val) (h1 : (i 1).val = (y 1).val) :
    (iblk9 (F := Ideal) V c 0 t : Vec Ideal S2000x128 .f32) y = (V c main_v82 : S500000x128.Idx → EReal) i := by
  obtain ⟨e00, e01, e10, e11, e20, e21, -⟩ := idx_facts_9 t
  unfold iblk9
  rw [View.read_apply]
  show V c main_v82 _ = V c main_v82 _
  congr 1
  funext a
  apply Fin.ext
  match a with
  | ⟨0, _⟩ => show win9_0.index t (0 : Fin 2) * 2000 + 1 * (y 0).val = (i 0).val; rw [e00, h0]; omega
  | ⟨1, _⟩ => show win9_0.index t (1 : Fin 2) * 128 + 1 * (y 1).val = (i 1).val; rw [e01, h1]; omega

/-- Window 1's block at point t is rows 2000·t … 2000·t + 1999 of its array. -/
theorem rows_9_1 (c : Dev nD) (t : Fin cfg9.N) (y : S2000x128.Idx) (i : S500000x128.Idx)
    (h0 : (i 0).val = 2000 * t.val + (y 0).val) (h1 : (i 1).val = (y 1).val) :
    (iblk9 (F := Ideal) V c 1 t : Vec Ideal S2000x128 .f32) y = (V c main_v83 : S500000x128.Idx → EReal) i := by
  obtain ⟨e00, e01, e10, e11, e20, e21, -⟩ := idx_facts_9 t
  unfold iblk9
  rw [View.read_apply]
  show V c main_v83 _ = V c main_v83 _
  congr 1
  funext a
  apply Fin.ext
  match a with
  | ⟨0, _⟩ => show win9_1.index t (0 : Fin 2) * 2000 + 1 * (y 0).val = (i 0).val; rw [e10, h0]; omega
  | ⟨1, _⟩ => show win9_1.index t (1 : Fin 2) * 128 + 1 * (y 1).val = (i 1).val; rw [e11, h1]; omega

/-- Window 2's block at point t is rows 2000·t … 2000·t + 1999 of its array. -/
theorem rows_9_2 (c : Dev nD) (t : Fin cfg9.N) (y : S2000x128.Idx) (i : S500000x128.Idx)
    (h0 : (i 0).val = 2000 * t.val + (y 0).val) (h1 : (i 1).val = (y 1).val) :
    (iblk9 (F := Ideal) V c 2 t : Vec Ideal S2000x128 .f32) y = (V c main_v52 : S500000x128.Idx → EReal) i := by
  obtain ⟨e00, e01, e10, e11, e20, e21, -⟩ := idx_facts_9 t
  unfold iblk9
  rw [View.read_apply]
  show V c main_v52 _ = V c main_v52 _
  congr 1
  funext a
  apply Fin.ext
  match a with
  | ⟨0, _⟩ => show win9_2.index t (0 : Fin 2) * 2000 + 1 * (y 0).val = (i 0).val; rw [e20, h0]; omega
  | ⟨1, _⟩ => show win9_2.index t (1 : Fin 2) * 128 + 1 * (y 1).val = (i 1).val; rw [e21, h1]; omega

/-- Window 3's block at every point is its whole [128 × 128] array. -/
theorem whole_9_3 (c : Dev nD) (t : Fin cfg9.N) :
    (iblk9 (F := Ideal) V c 3 t : Vec Ideal S128x128 .f32) = (V c main_v86 : S128x128.Idx → EReal) := by
  obtain ⟨-, -, -, -, -, -, e30, e31, e40, e41, e50, e51, -, -, e70, e71, -⟩ := idx_facts_9 t
  funext y
  unfold iblk9
  rw [View.read_apply]
  show V c main_v86 _ = V c main_v86 _
  congr 1
  funext a
  apply Fin.ext
  match a with
  | ⟨0, _⟩ => show win9_3.index t (0 : Fin 2) * 128 + 1 * (y 0).val = (y 0).val; rw [e30]; omega
  | ⟨1, _⟩ => show win9_3.index t (1 : Fin 2) * 128 + 1 * (y 1).val = (y 1).val; rw [e31]; omega

/-- Window 4's block at every point is its whole [128 × 128] array. -/
theorem whole_9_4 (c : Dev nD) (t : Fin cfg9.N) :
    (iblk9 (F := Ideal) V c 4 t : Vec Ideal S128x128 .f32) = (V c main_v87 : S128x128.Idx → EReal) := by
  obtain ⟨-, -, -, -, -, -, e30, e31, e40, e41, e50, e51, -, -, e70, e71, -⟩ := idx_facts_9 t
  funext y
  unfold iblk9
  rw [View.read_apply]
  show V c main_v87 _ = V c main_v87 _
  congr 1
  funext a
  apply Fin.ext
  match a with
  | ⟨0, _⟩ => show win9_4.index t (0 : Fin 2) * 128 + 1 * (y 0).val = (y 0).val; rw [e40]; omega
  | ⟨1, _⟩ => show win9_4.index t (1 : Fin 2) * 128 + 1 * (y 1).val = (y 1).val; rw [e41]; omega

/-- Window 5's block at every point is its whole [128 × 128] array. -/
theorem whole_9_5 (c : Dev nD) (t : Fin cfg9.N) :
    (iblk9 (F := Ideal) V c 5 t : Vec Ideal S128x128 .f32) = (V c main_v88 : S128x128.Idx → EReal) := by
  obtain ⟨-, -, -, -, -, -, e30, e31, e40, e41, e50, e51, -, -, e70, e71, -⟩ := idx_facts_9 t
  funext y
  unfold iblk9
  rw [View.read_apply]
  show V c main_v88 _ = V c main_v88 _
  congr 1
  funext a
  apply Fin.ext
  match a with
  | ⟨0, _⟩ => show win9_5.index t (0 : Fin 2) * 128 + 1 * (y 0).val = (y 0).val; rw [e50]; omega
  | ⟨1, _⟩ => show win9_5.index t (1 : Fin 2) * 128 + 1 * (y 1).val = (y 1).val; rw [e51]; omega

/-- Window 7's block at every point is its whole [128 × 128] array. -/
theorem whole_9_7 (c : Dev nD) (t : Fin cfg9.N) :
    (iblk9 (F := Ideal) V c 7 t : Vec Ideal S128x128 .f32) = (V c main_v92 : S128x128.Idx → EReal) := by
  obtain ⟨-, -, -, -, -, -, e30, e31, e40, e41, e50, e51, -, -, e70, e71, -⟩ := idx_facts_9 t
  funext y
  unfold iblk9
  rw [View.read_apply]
  show V c main_v92 _ = V c main_v92 _
  congr 1
  funext a
  apply Fin.ext
  match a with
  | ⟨0, _⟩ => show win9_7.index t (0 : Fin 2) * 128 + 1 * (y 0).val = (y 0).val; rw [e70]; omega
  | ⟨1, _⟩ => show win9_7.index t (1 : Fin 2) * 128 + 1 * (y 1).val = (y 1).val; rw [e71]; omega

/-- Window 6's block at every point is its whole [1 × 128] row. -/
theorem whole_9_6 (c : Dev nD) (t : Fin cfg9.N) :
    (iblk9 (F := Ideal) V c 6 t : Vec Ideal S1x128 .f32) = (V c main_v95 : S1x128.Idx → EReal) := by
  obtain ⟨-, -, -, -, -, -, -, -, -, -, -, -, e60, e61, -, -, e80, e81, -⟩ := idx_facts_9 t
  funext y
  unfold iblk9
  rw [View.read_apply]
  show V c main_v95 _ = V c main_v95 _
  congr 1
  funext a
  apply Fin.ext
  match a with
  | ⟨0, _⟩ => show win9_6.index t (0 : Fin 2) * 1 + 1 * (y 0).val = (y 0).val; rw [e60]; omega
  | ⟨1, _⟩ => show win9_6.index t (1 : Fin 2) * 128 + 1 * (y 1).val = (y 1).val; rw [e61]; omega

/-- Window 8's block at every point is its whole [1 × 128] row. -/
theorem whole_9_8 (c : Dev nD) (t : Fin cfg9.N) :
    (iblk9 (F := Ideal) V c 8 t : Vec Ideal S1x128 .f32) = (V c main_v96 : S1x128.Idx → EReal) := by
  obtain ⟨-, -, -, -, -, -, -, -, -, -, -, -, e60, e61, -, -, e80, e81, -⟩ := idx_facts_9 t
  funext y
  unfold iblk9
  rw [View.read_apply]
  show V c main_v96 _ = V c main_v96 _
  congr 1
  funext a
  apply Fin.ext
  match a with
  | ⟨0, _⟩ => show win9_8.index t (0 : Fin 2) * 1 + 1 * (y 0).val = (y 0).val; rw [e80]; omega
  | ⟨1, _⟩ => show win9_8.index t (1 : Fin 2) * 128 + 1 * (y 1).val = (y 1).val; rw [e81]; omega

/-- What the region's result array ends holding: the edge update of the arrays the region reads, as it finds them. -/
abbrev G_9 (c : Dev nD) : S500000x128.Idx → EReal :=
  Cert.Spec.emlp (V c main_v82) (V c main_v83) (V c main_v52) (V c main_v86) (V c main_v87) (V c main_v88)
    (fun j : Fin 128 => V c main_v95 (ix2 (0 : Fin 1) j)) (V c main_v92) (fun j : Fin 128 => V c main_v96 (ix2 (0 : Fin 1) j))

/-- The body's result for the blocks at point t, at local index y, is the edge update at the array index i that y sits at. -/
theorem blk_9_apply (c : Dev nD) (t : Fin cfg9.N) (y : S2000x128.Idx) (i : S500000x128.Idx)
    (h0 : (i 0).val = 2000 * t.val + (y 0).val) (h1 : (i 1).val = (y 1).val) :
    k9_pay1 (k9_pay2 (iblk9 (F := Ideal) V c 0 t) (iblk9 V c 1 t) (iblk9 V c 2 t) (iblk9 V c 3 t) (iblk9 V c 4 t) (iblk9 V c 5 t)
        (iblk9 V c 6 t) (iblk9 V c 7 t)) (k9_pay3 (iblk9 V c 8 t)) (iblk9 V c 2 t) y = G_9 V c i := by
  obtain ⟨p, q, rfl⟩ : ∃ (p : Fin 2000) (q : Fin 128), y = ix2 p q := ⟨y 0, y 1, eq_ix2 y⟩
  obtain ⟨r, q', rfl⟩ : ∃ (r : Fin 500000) (q' : Fin 128), i = ix2 r q' := ⟨i 0, i 1, eq_ix2 i⟩
  obtain rfl : q' = q := Fin.ext h1
  exact body_9_apply (V c main_v82) (V c main_v83) (V c main_v52) (V c main_v86) (V c main_v87) (V c main_v88) (V c main_v92) (V c main_v95) (V c main_v96)
    (iblk9 V c 0 t) (iblk9 V c 1 t) (iblk9 V c 2 t) (iblk9 V c 3 t) (iblk9 V c 4 t) (iblk9 V c 5 t) (iblk9 V c 6 t)
    (iblk9 V c 7 t) (iblk9 V c 8 t) p q' r
    (fun k => rows_9_0 V c t (ix2 p k) (ix2 r k) h0 rfl) (fun k => rows_9_1 V c t (ix2 p k) (ix2 r k) h0 rfl)
    (fun k => rows_9_2 V c t (ix2 p k) (ix2 r k) h0 rfl) (whole_9_3 V c t) (whole_9_4 V c t) (whole_9_5 V c t) (whole_9_6 V c t)
    (whole_9_7 V c t) (whole_9_8 V c t)

/-- What point t writes back is block t of the edge update of the whole arrays. -/
theorem flushed_9_eq (c : Dev nD) (t : Fin cfg9.N) :
    (dat9 (F := Ideal) V c).flushed 9 t = ((cfg9.win 9).blk t).view.read (Elt Ideal) (G_9 V c) := by
  show (cfg9.win 9).cut (grid9.coords t) ((dat9 (F := Ideal) V c).after 9 t) = _
  rw [after9_9]
  unfold out9_9
  rw [View.canon_unit_zero emlp_hz]
  simp only [View.ld_unit_zero (S := S2000x128) emlp_hz, View.ld_unit_zero (S := S128x128) emlp_hz, View.ld_unit_zero (S := S1x128) emlp_hz]
  obtain ⟨-, -, -, -, -, -, -, -, -, -, -, -, -, -, -, -, -, -, e90, e91⟩ := idx_facts_9 t
  funext j
  refine blk_9_apply V c t j (((cfg9.win 9).blk t).view.emb j) ?_ ?_
  · show win9_9.index t (0 : Fin 2) * 2000 + 1 * ((j : S2000x128.Idx) 0).val = 2000 * t.val + ((j : S2000x128.Idx) 0).val
    rw [e90]; omega
  · show win9_9.index t (1 : Fin 2) * 128 + 1 * ((j : S2000x128.Idx) 1).val = ((j : S2000x128.Idx) 1).val
    rw [e91]; omega

/-- An index of the result array is in point t's block iff each coordinate is in the block's range on its axis. -/
theorem mem_blk_9 (t : Fin cfg9.N) (i : S500000x128.Idx) :
    i ∈ ((cfg9.win 9).blk t).view.set
      ↔ ∀ a : Fin 2, win9_9.index t a * S2000x128.size a ≤ (i a).val ∧ (i a).val < win9_9.index t a * S2000x128.size a + S2000x128.size a := by
  show i ∈ ((View.whole main_v97).slice (win9_9.rect t)).set ↔ _
  rw [View.set_slice_whole, Rect.mem_set_unit]
  exact Iff.rfl

/-- Every row r of the result lies in the block of point r / 2000, which writes back. -/
theorem cover_9 (i : S500000x128.Idx) :
    ∃ t : Fin cfg9.N, (cfg9.win 9).flush t = true ∧ i ∈ ((cfg9.win 9).blk t).view.set := by
  have hi0 : (i 0).val < 500000 := (i 0).isLt
  have hi1 : (i 1).val < 128 := (i 1).isLt
  have hN : cfg9.N = 250 := N_9
  obtain ⟨t, ht⟩ : ∃ t : Fin cfg9.N, t.val = (i 0).val / 2000 := ⟨⟨(i 0).val / 2000, by rw [hN]; omega⟩, rfl⟩
  obtain ⟨-, -, -, -, -, -, -, -, -, -, -, -, -, -, -, -, -, -, e90, e91⟩ := idx_facts_9 t
  refine ⟨t, flush9_9 t, ?_⟩
  rw [mem_blk_9]
  intro a
  match a with
  | ⟨0, _⟩ =>
    show win9_9.index t (0 : Fin 2) * 2000 ≤ (i 0).val ∧ (i 0).val < win9_9.index t (0 : Fin 2) * 2000 + 2000
    rw [e90, ht]; omega
  | ⟨1, _⟩ =>
    show win9_9.index t (1 : Fin 2) * 128 ≤ (i 1).val ∧ (i 1).val < win9_9.index t (1 : Fin 2) * 128 + 128
    rw [e91]; omega

/-- The region's result array after its last point: the edge update of the arrays it read. -/
theorem final9 (c : Dev nD) : (dat9 (F := Ideal) V c).arrAt 9 cfg9.N
    = Cert.Spec.emlp (V c main_v82) (V c main_v83) (V c main_v52) (V c main_v86) (V c main_v87) (V c main_v88) (fun j : Fin 128 => V c main_v95 (ix2 (0 : Fin 1) j)) (V c main_v92) (fun j : Fin 128 => V c main_v96 (ix2 (0 : Fin 1) j)) :=
  (dat9 (F := Ideal) V c).arrAt_eq_of_cover 9 (G_9 V c) (fun t _ => flushed_9_eq V c t) (cover_9)

end Cert.KernelIdeal.Val

end
-- ==== Proof.KFinal.lean ====
/-
  The readout region (the last of the program's regions), as one function of the arrays it finds.

  Its body, at each of the 250 grid points, loads a block of 2000 rows of each of the three row-blocked operands
  (source features hs, destination features hd, edge features ea, each [500000 × 128]) and the whole of every weight and
  bias, and stores

      out = max (max (((hs · w1a + hd · w1b) + ea · w1c) + b1) 0 · w2 + b2) 0 · w3 + b3

  into the matching block of 2000 rows of the [500000 × 2] result. At the ideal values the narrowing of the products'
  operands and the shape casts to the same shape are the identity, a product into the zero accumulator is the plain sum
  over the contracted coordinate, and a [1 × N] bias broadcast along the rows reads the bias at the column: the stored
  block is the three-layer head `Cert.Spec.readout` of the loaded blocks (`pay10_eq`). Row r of the head reads only row r
  of hs, hd and ea, so the head of a block of rows is the block of rows of the head (`readout_rowsAt10`); the blocks tile
  the result array (row i lies in the block of point i / 2000), so the array ends holding the head of the whole operands
  (`final10`).
-/
import proofs.«410123_j23235773072029_1_alg».proof.Proof.Gen.KernelIdeal.Frame
import proofs.«410123_j23235773072029_1_alg».proof.Proof.Spec
import proofs.«410123_j23235773072029_1_alg».proof.Proof.LibMeanAggregate
import Idealize.ShloMosaic.Lib.ValueIdx
import Idealize.ShloMosaic.Lib.Pipeline.Value
import Idealize.ShloMosaic.PureOps.Ideal.Laws

noncomputable section

open scoped BigOperators

namespace Cert.KernelIdeal.Val

open Idealize.ShloMosaic Idealize.ShloMosaic.TcCoe Idealize.ShloMosaic.ValueIdx Idealize.SL.Sem Cert.KernelIdeal Cert.KernelIdeal.Gen

/-! ## The body's stored value at an index -/

/-- A product into the zero accumulator whose dimension record has the plain fields ([M × K] by [K × N], the left operand
    contracted on its columns, the right on its rows), read at (r, c): the sum over the contracted coordinate. -/
theorem mm10_apply {φ₁ φ₂ : FTy} (M K N : Nat) (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂) (r : Fin M) (c : Fin N) :
    matmul D prec lhs rhs (constant ⟨2, ![M, N]⟩ .f32 0x00000000#32) (ix2 r c) = ∑ k : Fin K, lhs (ix2 r k) * rhs (ix2 k c) := by
  subst hD
  exact MeanAggregate.plain_matmul_zero_apply M K N prec lhs rhs r c

/-- A [1 × N] row broadcast along the rows of an [M × N] array reads the row at the column. -/
theorem rowBcast10_apply {α : Type} (M N : Nat) (hN : N ≠ 1) (x : (⟨2, ![1, N]⟩ : Shape).Idx → α)
    (h : (⟨2, ![1, N]⟩ : Shape).Broadcasts ⟨2, ![M, N]⟩) (p : Fin M) (q : Fin N) :
    broadcastTo ⟨2, ![M, N]⟩ x h (ix2 p q) = x (ix2 (0 : Fin 1) q) :=
  broadcastTo_apply x h (ix2 p q) (ix2 (0 : Fin 1) q) fun a => by
    match a with
    | ⟨0, _⟩ => exact (if_pos rfl).symm
    | ⟨1, _⟩ => exact (if_neg hN).symm

/-- The three products' dimension records are the plain ones of their sizes. -/
theorem rec10_1 : dot_S2000x128_S128x50_S2000x50_1_0_0_1_n_n = DotDims.plain 2000 128 50 := rfl
theorem rec10_2 : dot_S2000x50_S50x25_S2000x25_1_0_0_1_n_n = DotDims.plain 2000 50 25 := rfl
theorem rec10_3 : dot_S2000x25_S25x2_S2000x2_1_0_0_1_n_n = DotDims.plain 2000 25 2 := rfl

/-- The second bias, broadcast along the rows. -/
theorem pay10_3_apply (x8 : Vec Ideal S1x25 .f32) (p : Fin 2000) (q : Fin 25) :
    k10_pay3 x8 (ix2 p q) = x8 (ix2 (0 : Fin 1) q) := by
  unfold k10_pay3
  rw [rowBcast10_apply 2000 25 (by decide), shapeCast_self]

/-- The second layer's product: the positive part of the first layer, times the second weight. -/
theorem pay10_2_apply (x0 x1 x2 : Vec Ideal S2000x128 .f32) (x3 x4 x5 : Vec Ideal S128x50 .f32) (x6 : Vec Ideal S1x50 .f32)
    (x7 : Vec Ideal S50x25 .f32) (p : Fin 2000) (q : Fin 25) :
    k10_pay2 x0 x1 x2 x3 x4 x5 x6 x7 (ix2 p q)
      = ∑ j : Fin 50, max ((((∑ k : Fin 128, x0 (ix2 p k) * x3 (ix2 k j)) + (∑ k : Fin 128, x1 (ix2 p k) * x4 (ix2 k j)))
          + (∑ k : Fin 128, x2 (ix2 p k) * x5 (ix2 k j))) + x6 (ix2 (0 : Fin 1) j)) 0 * x7 (ix2 j q) := by
  unfold k10_pay2
  rw [mm10_apply 2000 50 25 _ rec10_2]
  refine Finset.sum_congr rfl fun j _ => ?_
  rw [truncf_apply, truncf_apply, maximumf_apply, addf_apply, addf_apply, addf_apply, broadcast_apply,
    mm10_apply 2000 128 50 _ rec10_1, mm10_apply 2000 128 50 _ rec10_1, mm10_apply 2000 128 50 _ rec10_1,
    rowBcast10_apply 2000 50 (by decide)]
  simp only [truncf_apply, shapeCast_self]
  rw [show (Scalar.ofBits (F := Ideal) .f32 0x00000000#32 : EReal) = 0 from Ideal.ofBits_zero_f32]

/-- The third layer, from the second layer's product and bias. -/
theorem pay10_1_apply (v32 v35 : FVec Ideal S2000x25 .f32) (x9 : Vec Ideal S25x2 .f32) (x10 : Vec Ideal S1x2 .f32) (p : Fin 2000) (q : Fin 2) :
    k10_pay1 v32 v35 x9 x10 (ix2 p q)
      = (∑ j : Fin 25, max (v32 (ix2 p j) + v35 (ix2 p j)) 0 * x9 (ix2 j q)) + x10 (ix2 (0 : Fin 1) q) := by
  unfold k10_pay1
  rw [addf_apply, mm10_apply 2000 25 2 _ rec10_3, rowBcast10_apply 2000 2 (by decide), shapeCast_self]
  congr 1
  refine Finset.sum_congr rfl fun j _ => ?_
  rw [truncf_apply, truncf_apply, maximumf_apply, addf_apply, broadcast_apply]
  rw [show (Scalar.ofBits (F := Ideal) .f32 0x00000000#32 : EReal) = 0 from Ideal.ofBits_zero_f32]

/-- The body's stored value, entry by entry: the three-layer head of the loaded blocks. -/
theorem pay10_apply (x0 x1 x2 : Vec Ideal S2000x128 .f32) (x3 x4 x5 : Vec Ideal S128x50 .f32) (x6 : Vec Ideal S1x50 .f32)
    (x7 : Vec Ideal S50x25 .f32) (x8 : Vec Ideal S1x25 .f32) (x9 : Vec Ideal S25x2 .f32) (x10 : Vec Ideal S1x2 .f32)
    (p : Fin 2000) (q : Fin 2) :
    k10_pay1 (k10_pay2 x0 x1 x2 x3 x4 x5 x6 x7) (k10_pay3 x8) x9 x10 (ix2 p q)
      = Cert.Spec.readout x0 x1 x2 x3 x4 x5 (fun j : Fin 50 => x6 (ix2 (0 : Fin 1) j)) x7 (fun j : Fin 25 => x8 (ix2 (0 : Fin 1) j)) x9
          (fun j : Fin 2 => x10 (ix2 (0 : Fin 1) j)) (ix2 p q) := by
  rw [pay10_1_apply]
  simp only [pay10_2_apply, pay10_3_apply]
  rfl

/-- The same, as an equation of blocks. -/
theorem pay10_eq (x0 x1 x2 : Vec Ideal S2000x128 .f32) (x3 x4 x5 : Vec Ideal S128x50 .f32) (x6 : Vec Ideal S1x50 .f32)
    (x7 : Vec Ideal S50x25 .f32) (x8 : Vec Ideal S1x25 .f32) (x9 : Vec Ideal S25x2 .f32) (x10 : Vec Ideal S1x2 .f32) :
    k10_pay1 (k10_pay2 x0 x1 x2 x3 x4 x5 x6 x7) (k10_pay3 x8) x9 x10
      = Cert.Spec.readout x0 x1 x2 x3 x4 x5 (fun j : Fin 50 => x6 (ix2 (0 : Fin 1) j)) x7 (fun j : Fin 25 => x8 (ix2 (0 : Fin 1) j)) x9
          (fun j : Fin 2 => x10 (ix2 (0 : Fin 1) j)) := by
  funext i
  obtain ⟨p, q, rfl⟩ : ∃ (p : Fin 2000) (q : Fin 2), i = ix2 p q := ⟨i 0, i 1, eq_ix2 i⟩
  exact pay10_apply x0 x1 x2 x3 x4 x5 x6 x7 x8 x9 x10 p q

/-! ## Blocks of rows -/

/-- Rows 2000·n … 2000·n + 1999 of an array of 500000 rows. -/
def rowsAt10 {N : Nat} (n : Nat) (hn : n < 250) (A : Cert.Spec.Mat 500000 N) : Cert.Spec.Mat 2000 N :=
  fun i => A (ix2 (⟨2000 * n + (i 0).val, by
    have h0 : (i 0).val < 2000 := (i 0).isLt
    omega⟩ : Fin 500000) (i 1))

/-- Row r of the head reads only row r of the three row-blocked operands: the head of a block of rows is the block of rows
    of the head. -/
theorem readout_rowsAt10 (n : Nat) (hn : n < 250) (hs hd ea : Cert.Spec.Mat 500000 128) (wa wb wc : Cert.Spec.Mat 128 50) (b1 : Fin 50 → EReal)
    (w2 : Cert.Spec.Mat 50 25) (b2 : Fin 25 → EReal) (w3 : Cert.Spec.Mat 25 2) (b3 : Fin 2 → EReal) :
    Cert.Spec.readout (rowsAt10 n hn hs) (rowsAt10 n hn hd) (rowsAt10 n hn ea) wa wb wc b1 w2 b2 w3 b3
      = rowsAt10 n hn (Cert.Spec.readout hs hd ea wa wb wc b1 w2 b2 w3 b3) := by
  funext i
  rfl

/-! ## From blocks to the array -/

variable (V : (c : Dev nD) → (b : Ref sig .tc) → Buf (Elt Ideal) ((c : Thread nD τ).loc b))

theorem hz10 : (![0, 0] : Fin 2 → Nat) = fun _ => 0 := funext fun a => by fin_cases a <;> rfl

/-- The grid has 250 points. -/
theorem tlt10 (t : Fin cfg10.N) : t.val < 250 := by
  have h := t.isLt
  have hN : cfg10.N = 250 := N_10
  omega

/-- The printed index maps, decided over the grid: at point t a row-blocked window (the three operands and the result) is at
    block t of its rows and block 0 of its columns; -/
theorem idx_rows10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_11.index t (0 : Fin 2) = t.val ∧ win10_11.index t (1 : Fin 2) = 0 :=
  (by decide +kernel : ∀ t : Fin grid10.N, _)

/-- a weight's or a bias's window is at block 0 on both axes. -/
theorem idx_whole10 : ∀ t : Fin cfg10.N,
    win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = 0 ∧ win10_7.index t (1 : Fin 2) = 0
    ∧ win10_8.index t (0 : Fin 2) = 0 ∧ win10_8.index t (1 : Fin 2) = 0
    ∧ win10_9.index t (0 : Fin 2) = 0 ∧ win10_9.index t (1 : Fin 2) = 0
    ∧ win10_10.index t (0 : Fin 2) = 0 ∧ win10_10.index t (1 : Fin 2) = 0 :=
  (by decide +kernel : ∀ t : Fin grid10.N, _)

/-- The source-feature window's block at point t is rows 2000·t … of its array. -/
theorem blk10_0 (c : Dev nD) (t : Fin cfg10.N) :
    iblk10 (F := Ideal) V c 0 t = rowsAt10 t.val (tlt10 t) (V c main_v98) := by
  obtain ⟨e0, e1, -⟩ := idx_rows10 t
  funext y
  show V c main_v98 (((cfg10.win 0).blk t).view.emb y) = V c main_v98 _
  refine congrArg (V c main_v98) (funext fun a => Fin.ext ?_)
  match a with
  | ⟨0, _⟩ => show win10_0.index t (0 : Fin 2) * 2000 + 1 * (y 0).val = 2000 * t.val + (y 0).val; rw [e0]; omega
  | ⟨1, _⟩ => show win10_0.index t (1 : Fin 2) * 128 + 1 * (y 1).val = (y 1).val; rw [e1]; omega

/-- The destination-feature window's. -/
theorem blk10_1 (c : Dev nD) (t : Fin cfg10.N) :
    iblk10 (F := Ideal) V c 1 t = rowsAt10 t.val (tlt10 t) (V c main_v99) := by
  obtain ⟨-, -, e0, e1, -⟩ := idx_rows10 t
  funext y
  show V c main_v99 (((cfg10.win 1).blk t).view.emb y) = V c main_v99 _
  refine congrArg (V c main_v99) (funext fun a => Fin.ext ?_)
  match a with
  | ⟨0, _⟩ => show win10_1.index t (0 : Fin 2) * 2000 + 1 * (y 0).val = 2000 * t.val + (y 0).val; rw [e0]; omega
  | ⟨1, _⟩ => show win10_1.index t (1 : Fin 2) * 128 + 1 * (y 1).val = (y 1).val; rw [e1]; omega

/-- The edge-feature window's. -/
theorem blk10_2 (c : Dev nD) (t : Fin cfg10.N) :
    iblk10 (F := Ideal) V c 2 t = rowsAt10 t.val (tlt10 t) (V c main_v97) := by
  obtain ⟨-, -, -, -, e0, e1, -⟩ := idx_rows10 t
  funext y
  show V c main_v97 (((cfg10.win 2).blk t).view.emb y) = V c main_v97 _
  refine congrArg (V c main_v97) (funext fun a => Fin.ext ?_)
  match a with
  | ⟨0, _⟩ => show win10_2.index t (0 : Fin 2) * 2000 + 1 * (y 0).val = 2000 * t.val + (y 0).val; rw [e0]; omega
  | ⟨1, _⟩ => show win10_2.index t (1 : Fin 2) * 128 + 1 * (y 1).val = (y 1).val; rw [e1]; omega

/-- A weight's or a bias's block at any point is its whole array. -/
theorem blk10_3 (c : Dev nD) (t : Fin cfg10.N) : iblk10 (F := Ideal) V c 3 t = V c main_v100 := by
  obtain ⟨e0, e1, -⟩ := idx_whole10 t
  funext y
  show V c main_v100 (((cfg10.win 3).blk t).view.emb y) = V c main_v100 y
  refine congrArg (V c main_v100) (funext fun a => Fin.ext ?_)
  match a with
  | ⟨0, _⟩ => show win10_3.index t (0 : Fin 2) * 128 + 1 * (y 0).val = (y 0).val; rw [e0]; omega
  | ⟨1, _⟩ => show win10_3.index t (1 : Fin 2) * 50 + 1 * (y 1).val = (y 1).val; rw [e1]; omega

theorem blk10_4 (c : Dev nD) (t : Fin cfg10.N) : iblk10 (F := Ideal) V c 4 t = V c main_v101 := by
  obtain ⟨-, -, e0, e1, -⟩ := idx_whole10 t
  funext y
  show V c main_v101 (((cfg10.win 4).blk t).view.emb y) = V c main_v101 y
  refine congrArg (V c main_v101) (funext fun a => Fin.ext ?_)
  match a with
  | ⟨0, _⟩ => show win10_4.index t (0 : Fin 2) * 128 + 1 * (y 0).val = (y 0).val; rw [e0]; omega
  | ⟨1, _⟩ => show win10_4.index t (1 : Fin 2) * 50 + 1 * (y 1).val = (y 1).val; rw [e1]; omega

theorem blk10_5 (c : Dev nD) (t : Fin cfg10.N) : iblk10 (F := Ideal) V c 5 t = V c main_v102 := by
  obtain ⟨-, -, -, -, e0, e1, -⟩ := idx_whole10 t
  funext y
  show V c main_v102 (((cfg10.win 5).blk t).view.emb y) = V c main_v102 y
  refine congrArg (V c main_v102) (funext fun a => Fin.ext ?_)
  match a with
  | ⟨0, _⟩ => show win10_5.index t (0 : Fin 2) * 128 + 1 * (y 0).val = (y 0).val; rw [e0]; omega
  | ⟨1, _⟩ => show win10_5.index t (1 : Fin 2) * 50 + 1 * (y 1).val = (y 1).val; rw [e1]; omega

theorem blk10_6 (c : Dev nD) (t : Fin cfg10.N) : iblk10 (F := Ideal) V c 6 t = V c main_v103 := by
  obtain ⟨-, -, -, -, -, -, e0, e1, -⟩ := idx_whole10 t
  funext y
  show V c main_v103 (((cfg10.win 6).blk t).view.emb y) = V c main_v103 y
  refine congrArg (V c main_v103) (funext fun a => Fin.ext ?_)
  match a with
  | ⟨0, _⟩ => show win10_6.index t (0 : Fin 2) * 1 + 1 * (y 0).val = (y 0).val; rw [e0]; omega
  | ⟨1, _⟩ => show win10_6.index t (1 : Fin 2) * 50 + 1 * (y 1).val = (y 1).val; rw [e1]; omega

theorem blk10_7 (c : Dev nD) (t : Fin cfg10.N) : iblk10 (F := Ideal) V c 7 t = V c main_arg18 := by
  obtain ⟨-, -, -, -, -, -, -, -, e0, e1, -⟩ := idx_whole10 t
  funext y
  show V c main_arg18 (((cfg10.win 7).blk t).view.emb y) = V c main_arg18 y
  refine congrArg (V c main_arg18) (funext fun a => Fin.ext ?_)
  match a with
  | ⟨0, _⟩ => show win10_7.index t (0 : Fin 2) * 50 + 1 * (y 0).val = (y 0).val; rw [e0]; omega
  | ⟨1, _⟩ => show win10_7.index t (1 : Fin 2) * 25 + 1 * (y 1).val = (y 1).val; rw [e1]; omega

theorem blk10_8 (c : Dev nD) (t : Fin cfg10.N) : iblk10 (F := Ideal) V c 8 t = V c main_v104 := by
  obtain ⟨-, -, -, -, -, -, -, -, -, -, e0, e1, -⟩ := idx_whole10 t
  funext y
  show V c main_v104 (((cfg10.win 8).blk t).view.emb y) = V c main_v104 y
  refine congrArg (V c main_v104) (funext fun a => Fin.ext ?_)
  match a with
  | ⟨0, _⟩ => show win10_8.index t (0 : Fin 2) * 1 + 1 * (y 0).val = (y 0).val; rw [e0]; omega
  | ⟨1, _⟩ => show win10_8.index t (1 : Fin 2) * 25 + 1 * (y 1).val = (y 1).val; rw [e1]; omega

theorem blk10_9 (c : Dev nD) (t : Fin cfg10.N) : iblk10 (F := Ideal) V c 9 t = V c main_arg20 := by
  obtain ⟨-, -, -, -, -, -, -, -, -, -, -, -, e0, e1, -⟩ := idx_whole10 t
  funext y
  show V c main_arg20 (((cfg10.win 9).blk t).view.emb y) = V c main_arg20 y
  refine congrArg (V c main_arg20) (funext fun a => Fin.ext ?_)
  match a with
  | ⟨0, _⟩ => show win10_9.index t (0 : Fin 2) * 25 + 1 * (y 0).val = (y 0).val; rw [e0]; omega
  | ⟨1, _⟩ => show win10_9.index t (1 : Fin 2) * 2 + 1 * (y 1).val = (y 1).val; rw [e1]; omega

theorem blk10_10 (c : Dev nD) (t : Fin cfg10.N) : iblk10 (F := Ideal) V c 10 t = V c main_v105 := by
  obtain ⟨-, -, -, -, -, -, -, -, -, -, -, -, -, -, e0, e1⟩ := idx_whole10 t
  funext y
  show V c main_v105 (((cfg10.win 10).blk t).view.emb y) = V c main_v105 y
  refine congrArg (V c main_v105) (funext fun a => Fin.ext ?_)
  match a with
  | ⟨0, _⟩ => show win10_10.index t (0 : Fin 2) * 1 + 1 * (y 0).val = (y 0).val; rw [e0]; omega
  | ⟨1, _⟩ => show win10_10.index t (1 : Fin 2) * 2 + 1 * (y 1).val = (y 1).val; rw [e1]; omega

/-- The head of the whole operands as the region finds them: what the result array ends holding. -/
abbrev G10 (c : Dev nD) : Cert.Spec.Mat 500000 2 :=
  Cert.Spec.readout (V c main_v98) (V c main_v99) (V c main_v97) (V c main_v100) (V c main_v101) (V c main_v102)
    (fun j : Fin 50 => V c main_v103 (ix2 (0 : Fin 1) j)) (V c main_arg18) (fun j : Fin 25 => V c main_v104 (ix2 (0 : Fin 1) j))
    (V c main_arg20) (fun j : Fin 2 => V c main_v105 (ix2 (0 : Fin 1) j))

/-- What point t writes back is block t of the head of the whole operands. -/
theorem flushed10_eq (c : Dev nD) (t : Fin cfg10.N) :
    (dat10 (F := Ideal) V c).flushed 11 t = ((cfg10.win 11).blk t).view.read (Elt Ideal) (G10 V c) := by
  show (cfg10.win 11).cut (grid10.coords t) ((dat10 (F := Ideal) V c).after 11 t) = _
  rw [after10_11]
  unfold out10_11
  rw [View.canon_unit_zero hz10]
  simp only [View.ld_unit_zero (S := S2000x128) hz10, View.ld_unit_zero (S := S128x50) hz10, View.ld_unit_zero (S := S1x50) hz10,
    View.ld_unit_zero (S := S50x25) hz10, View.ld_unit_zero (S := S1x25) hz10, View.ld_unit_zero (S := S25x2) hz10,
    View.ld_unit_zero (S := S1x2) hz10]
  rw [pay10_eq, blk10_0 V c t, blk10_1 V c t, blk10_2 V c t, blk10_3 V c t, blk10_4 V c t, blk10_5 V c t, blk10_6 V c t,
    blk10_7 V c t, blk10_8 V c t, blk10_9 V c t, blk10_10 V c t, readout_rowsAt10]
  obtain ⟨-, -, -, -, -, -, e0, e1⟩ := idx_rows10 t
  funext y
  show G10 V c _ = G10 V c (((cfg10.win 11).blk t).view.emb y)
  refine congrArg (G10 V c) (funext fun a => Fin.ext ?_)
  match a with
  | ⟨0, _⟩ => show 2000 * t.val + (y 0).val = win10_11.index t (0 : Fin 2) * 2000 + 1 * (y 0).val; rw [e0]; omega
  | ⟨1, _⟩ => show (y 1).val = win10_11.index t (1 : Fin 2) * 2 + 1 * (y 1).val; rw [e1]; omega

/-- An index of the result array is in point t's block iff each coordinate is in the block's range on its axis. -/
theorem mem_blk10 (t : Fin cfg10.N) (i : S500000x2.Idx) :
    i ∈ ((cfg10.win 11).blk t).view.set
      ↔ ∀ a : Fin 2, win10_11.index t a * S2000x2.size a ≤ (i a).val ∧ (i a).val < win10_11.index t a * S2000x2.size a + S2000x2.size a := by
  show i ∈ ((View.whole main_v106).slice (win10_11.rect t)).set ↔ _
  rw [View.set_slice_whole, Rect.mem_set_unit]
  exact Iff.rfl

/-- Every index of the result array is in the block of the point its row falls to: row i is in block i / 2000. -/
theorem cover10 (i : S500000x2.Idx) :
    ∃ t : Fin cfg10.N, (cfg10.win 11).flush t = true ∧ i ∈ ((cfg10.win 11).blk t).view.set := by
  have h0 : (i 0).val < 500000 := (i 0).isLt
  have h1 : (i 1).val < 2 := (i 1).isLt
  obtain ⟨t, ht⟩ : ∃ t : Fin cfg10.N, t.val = (i 0).val / 2000 :=
    ⟨⟨(i 0).val / 2000, by rw [show cfg10.N = 250 from N_10]; omega⟩, rfl⟩
  obtain ⟨-, -, -, -, -, -, e0, e1⟩ := idx_rows10 t
  refine ⟨t, flush10_11 t, ?_⟩
  rw [mem_blk10]
  intro a
  match a with
  | ⟨0, _⟩ =>
    show win10_11.index t (0 : Fin 2) * 2000 ≤ (i 0).val ∧ (i 0).val < win10_11.index t (0 : Fin 2) * 2000 + 2000
    rw [e0, ht]; omega
  | ⟨1, _⟩ =>
    show win10_11.index t (1 : Fin 2) * 2 ≤ (i 1).val ∧ (i 1).val < win10_11.index t (1 : Fin 2) * 2 + 2
    rw [e1]; omega

/-- The result array after the region: the three-layer head of the operand arrays as the region finds them. -/
theorem final10 (c : Dev nD) : (dat10 (F := Ideal) V c).arrAt 11 cfg10.N
    = Cert.Spec.readout (V c main_v98) (V c main_v99) (V c main_v97) (V c main_v100) (V c main_v101) (V c main_v102) (fun j : Fin 50 => V c main_v103 (ix2 (0 : Fin 1) j)) (V c main_arg18) (fun j : Fin 25 => V c main_v104 (ix2 (0 : Fin 1) j)) (V c main_arg20) (fun j : Fin 2 => V c main_v105 (ix2 (0 : Fin 1) j)) :=
  (dat10 (F := Ideal) V c).arrAt_eq_of_cover 11 (G10 V c) (fun t _ => flushed10_eq V c t) (fun i => cover10 i)

end Cert.KernelIdeal.Val

end
-- ==== Proof.KChain.lean ====
/-
  The idealized kernel program's result as the network of the specification. The program is eleven regions among
  stretches of host operations; the buffer contents at the segment boundaries are a fold from the launch memory.
  A region leaves in its output array the stage function of its input arrays (the region modules); a stretch leaves in
  each buffer it writes a slice, a row, a gathered or summed array of what it reads (the host-stretch modules), a
  gather in "fill" mode being the plain gather because every index word is in range; every segment leaves the buffers
  it does not write as they were. Walking the fold from the result buffer back to the launch memory composes these into
  `Cert.Spec.net` at the host operations of the reference's spelling.
-/
import proofs.«410123_j23235773072029_1_alg».proof.Proof.KKeep
import proofs.«410123_j23235773072029_1_alg».proof.Proof.KHostA
import proofs.«410123_j23235773072029_1_alg».proof.Proof.KHostB
import proofs.«410123_j23235773072029_1_alg».proof.Proof.KAffine
import proofs.«410123_j23235773072029_1_alg».proof.Proof.KMsg
import proofs.«410123_j23235773072029_1_alg».proof.Proof.KBn
import proofs.«410123_j23235773072029_1_alg».proof.Proof.KConv
import proofs.«410123_j23235773072029_1_alg».proof.Proof.KEmlp
import proofs.«410123_j23235773072029_1_alg».proof.Proof.KFinal

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Cert.ReferenceIdeal.RVal (srcOf dstOf take segsum mean var HR)

variable (m : (ℓ : Loc nD τ sig) → Buf (Elt Ideal) ℓ) (ρ : Dev nD → PrngReg)

/-! ## The closed forms -/

/-- The edge-index array at launch. -/
abbrev ei (c : Dev nD) := W0 m ρ c (Proc.devRef .tc main_arg22)
/-- The host operations at it. -/
def H (c : Dev nD) : Cert.Spec.HostOps := HR (ei m ρ c)
def h0 (c : Dev nD) : Cert.Spec.Mat 50000 128 := Cert.Spec.lin (W0 m ρ c (Proc.devRef .tc main_arg0)) (W0 m ρ c (Proc.devRef .tc main_arg2)) (Cert.Spec.vecOf (W0 m ρ c (Proc.devRef .tc main_arg3)))
def e0 (c : Dev nD) : Cert.Spec.Mat 500000 128 := Cert.Spec.lin (W0 m ρ c (Proc.devRef .tc main_arg1)) (W0 m ρ c (Proc.devRef .tc main_arg4)) (Cert.Spec.vecOf (W0 m ρ c (Proc.devRef .tc main_arg5)))
def z (l : Fin 2) (c : Dev nD) (h : Cert.Spec.Mat 50000 128) (e : Cert.Spec.Mat 500000 128) : Cert.Spec.Mat 50000 128 :=
  Cert.Spec.conv h ((H m ρ c).segsum (Cert.Spec.msg ((H m ρ c).takeSrc h) e)) (Cert.Spec.slab l (W0 m ρ c (Proc.devRef .tc main_arg6))) (Cert.Spec.rowOf l (W0 m ρ c (Proc.devRef .tc main_arg7)))
    (Cert.Spec.slab l (W0 m ρ c (Proc.devRef .tc main_arg8))) (Cert.Spec.rowOf l (W0 m ρ c (Proc.devRef .tc main_arg9)))
def hn (l : Fin 2) (c : Dev nD) (h : Cert.Spec.Mat 50000 128) (e : Cert.Spec.Mat 500000 128) : Cert.Spec.Mat 50000 128 :=
  Cert.Spec.bn h (z m ρ l c h e) ((H m ρ c).mean (z m ρ l c h e)) ((H m ρ c).var (z m ρ l c h e)) (Cert.Spec.rowOf l (W0 m ρ c (Proc.devRef .tc main_arg10))) (Cert.Spec.rowOf l (W0 m ρ c (Proc.devRef .tc main_arg11)))
def en (l : Fin 2) (c : Dev nD) (h : Cert.Spec.Mat 50000 128) (e : Cert.Spec.Mat 500000 128) : Cert.Spec.Mat 500000 128 :=
  Cert.Spec.emlp ((H m ρ c).takeSrc h) ((H m ρ c).takeDst h) e (Cert.Spec.third 0 (Cert.Spec.slab l (W0 m ρ c (Proc.devRef .tc main_arg12)))) (Cert.Spec.third 1 (Cert.Spec.slab l (W0 m ρ c (Proc.devRef .tc main_arg12))))
    (Cert.Spec.third 2 (Cert.Spec.slab l (W0 m ρ c (Proc.devRef .tc main_arg12)))) (Cert.Spec.rowOf l (W0 m ρ c (Proc.devRef .tc main_arg13))) (Cert.Spec.slab l (W0 m ρ c (Proc.devRef .tc main_arg14))) (Cert.Spec.rowOf l (W0 m ρ c (Proc.devRef .tc main_arg15)))
def h1 (c : Dev nD) := hn m ρ 0 c (h0 m ρ c) (e0 m ρ c)
def e1 (c : Dev nD) := en m ρ 0 c (h1 m ρ c) (e0 m ρ c)
def h2 (c : Dev nD) := hn m ρ 1 c (h1 m ρ c) (e1 m ρ c)
def e2 (c : Dev nD) := en m ρ 1 c (h2 m ρ c) (e1 m ρ c)
def out (c : Dev nD) : Cert.Spec.Mat 500000 2 :=
  Cert.Spec.readout ((H m ρ c).takeSrc (h2 m ρ c)) ((H m ρ c).takeDst (h2 m ρ c)) (e2 m ρ c) (Cert.Spec.third 0 (W0 m ρ c (Proc.devRef .tc main_arg16))) (Cert.Spec.third 1 (W0 m ρ c (Proc.devRef .tc main_arg16)))
    (Cert.Spec.third 2 (W0 m ρ c (Proc.devRef .tc main_arg16))) (Cert.Spec.vecOf (W0 m ρ c (Proc.devRef .tc main_arg17))) (W0 m ρ c (Proc.devRef .tc main_arg18)) (Cert.Spec.vecOf (W0 m ρ c (Proc.devRef .tc main_arg19))) (W0 m ρ c (Proc.devRef .tc main_arg20))
    (Cert.Spec.vecOf (W0 m ρ c (Proc.devRef .tc main_arg21)))

/-- The closed forms compose to the network. -/
theorem out_eq_net (c : Dev nD) : out m ρ c = Cert.Spec.net (H m ρ c) (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))
    (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11))
    (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) (W0 m ρ c (Proc.devRef .tc main_arg18))
    (W0 m ρ c (Proc.devRef .tc main_arg19)) (W0 m ρ c (Proc.devRef .tc main_arg20)) (W0 m ρ c (Proc.devRef .tc main_arg21)) := rfl

/-! ## The stretches' results, at the boundary contents -/

theorem L_h0_v4 (c : Dev nD) : row1 (W1 m ρ c (no_index (Proc.devRef .tc main_v4))) = Cert.Spec.vecOf (W0 m ρ c (Proc.devRef .tc main_arg3)) := h0_v4 (W0 m ρ c)
theorem L_h1_v6 (c : Dev nD) : row1 (W3 m ρ c (no_index (Proc.devRef .tc main_v6))) = Cert.Spec.vecOf (W2 m ρ c (Proc.devRef .tc main_arg5)) := h1_v6 (W2 m ρ c)
theorem L_h3_v14 (c : Dev nD) : W7 m ρ c (no_index (Proc.devRef .tc main_v14)) = Cert.Spec.slab (0 : Fin 2) (W6 m ρ c (Proc.devRef .tc main_arg6)) := h3_v14 (W6 m ρ c)
theorem L_h3_v18 (c : Dev nD) : W7 m ρ c (no_index (Proc.devRef .tc main_v18)) = Cert.Spec.slab (0 : Fin 2) (W6 m ρ c (Proc.devRef .tc main_arg8)) := h3_v18 (W6 m ρ c)
theorem L_h3_v21 (c : Dev nD) : row1 (W7 m ρ c (no_index (Proc.devRef .tc main_v21))) = Cert.Spec.rowOf (0 : Fin 2) (W6 m ρ c (Proc.devRef .tc main_arg7)) := h3_v21 (W6 m ρ c)
theorem L_h3_v22 (c : Dev nD) : row1 (W7 m ρ c (no_index (Proc.devRef .tc main_v22))) = Cert.Spec.rowOf (0 : Fin 2) (W6 m ρ c (Proc.devRef .tc main_arg9)) := h3_v22 (W6 m ρ c)
theorem L_h7_v59 (c : Dev nD) : W19 m ρ c (no_index (Proc.devRef .tc main_v59)) = Cert.Spec.slab (1 : Fin 2) (W18 m ρ c (Proc.devRef .tc main_arg6)) := h7_v59 (W18 m ρ c)
theorem L_h7_v63 (c : Dev nD) : W19 m ρ c (no_index (Proc.devRef .tc main_v63)) = Cert.Spec.slab (1 : Fin 2) (W18 m ρ c (Proc.devRef .tc main_arg8)) := h7_v63 (W18 m ρ c)
theorem L_h7_v66 (c : Dev nD) : row1 (W19 m ρ c (no_index (Proc.devRef .tc main_v66))) = Cert.Spec.rowOf (1 : Fin 2) (W18 m ρ c (Proc.devRef .tc main_arg7)) := h7_v66 (W18 m ρ c)
theorem L_h7_v67 (c : Dev nD) : row1 (W19 m ρ c (no_index (Proc.devRef .tc main_v67))) = Cert.Spec.rowOf (1 : Fin 2) (W18 m ρ c (Proc.devRef .tc main_arg9)) := h7_v67 (W18 m ρ c)
theorem L_s3_v12 (c : Dev nD) : W7 m ρ c (no_index (Proc.devRef .tc main_v12)) = segsum (W6 m ρ c (Proc.devRef .tc main_v3)) (W6 m ρ c (Proc.devRef .tc main_v9)) := s3_v12 (W6 m ρ c)
theorem L_s7_v57 (c : Dev nD) : W19 m ρ c (no_index (Proc.devRef .tc main_v57)) = segsum (W18 m ρ c (Proc.devRef .tc main_v3)) (W18 m ρ c (Proc.devRef .tc main_v54)) := s7_v57 (W18 m ρ c)
theorem L_m4_v26 (c : Dev nD) : W9 m ρ c (no_index (Proc.devRef .tc main_v26)) = mean (W8 m ρ c (Proc.devRef .tc main_v23)) := m4_v26 (W8 m ρ c)
theorem L_m8_v71 (c : Dev nD) : W21 m ρ c (no_index (Proc.devRef .tc main_v71)) = mean (W20 m ρ c (Proc.devRef .tc main_v68)) := m8_v71 (W20 m ρ c)
theorem L_h4_2_v32 (c : Dev nD) : row1 (W11 m ρ c (no_index (Proc.devRef .tc main_v32))) = Cert.Spec.vecOf (W10 m ρ c (Proc.devRef .tc main_v26)) := h4_2_v32 (W10 m ρ c)
theorem L_h4_2_v33 (c : Dev nD) : row1 (W11 m ρ c (no_index (Proc.devRef .tc main_v33))) = Cert.Spec.vecOf (W10 m ρ c (Proc.devRef .tc main_v27)) := h4_2_v33 (W10 m ρ c)
theorem L_h4_2_v34 (c : Dev nD) : row1 (W11 m ρ c (no_index (Proc.devRef .tc main_v34))) = Cert.Spec.rowOf (0 : Fin 2) (W10 m ρ c (Proc.devRef .tc main_arg10)) := h4_2_v34 (W10 m ρ c)
theorem L_h4_2_v35 (c : Dev nD) : row1 (W11 m ρ c (no_index (Proc.devRef .tc main_v35))) = Cert.Spec.rowOf (0 : Fin 2) (W10 m ρ c (Proc.devRef .tc main_arg11)) := h4_2_v35 (W10 m ρ c)
theorem L_h8_2_v77 (c : Dev nD) : row1 (W23 m ρ c (no_index (Proc.devRef .tc main_v77))) = Cert.Spec.vecOf (W22 m ρ c (Proc.devRef .tc main_v71)) := h8_2_v77 (W22 m ρ c)
theorem L_h8_2_v78 (c : Dev nD) : row1 (W23 m ρ c (no_index (Proc.devRef .tc main_v78))) = Cert.Spec.vecOf (W22 m ρ c (Proc.devRef .tc main_v72)) := h8_2_v78 (W22 m ρ c)
theorem L_h8_2_v79 (c : Dev nD) : row1 (W23 m ρ c (no_index (Proc.devRef .tc main_v79))) = Cert.Spec.rowOf (1 : Fin 2) (W22 m ρ c (Proc.devRef .tc main_arg10)) := h8_2_v79 (W22 m ρ c)
theorem L_h8_2_v80 (c : Dev nD) : row1 (W23 m ρ c (no_index (Proc.devRef .tc main_v80))) = Cert.Spec.rowOf (1 : Fin 2) (W22 m ρ c (Proc.devRef .tc main_arg11)) := h8_2_v80 (W22 m ρ c)
theorem L_h5_2_v41 (c : Dev nD) : W15 m ρ c (no_index (Proc.devRef .tc main_v41)) = Cert.Spec.third 0 (Cert.Spec.slab (0 : Fin 2) (W14 m ρ c (Proc.devRef .tc main_arg12))) := h5_2_v41 (W14 m ρ c)
theorem L_h5_2_v42 (c : Dev nD) : W15 m ρ c (no_index (Proc.devRef .tc main_v42)) = Cert.Spec.third 1 (Cert.Spec.slab (0 : Fin 2) (W14 m ρ c (Proc.devRef .tc main_arg12))) := h5_2_v42 (W14 m ρ c)
theorem L_h5_2_v43 (c : Dev nD) : W15 m ρ c (no_index (Proc.devRef .tc main_v43)) = Cert.Spec.third 2 (Cert.Spec.slab (0 : Fin 2) (W14 m ρ c (Proc.devRef .tc main_arg12))) := h5_2_v43 (W14 m ρ c)
theorem L_h5_2_v47 (c : Dev nD) : W15 m ρ c (no_index (Proc.devRef .tc main_v47)) = Cert.Spec.slab (0 : Fin 2) (W14 m ρ c (Proc.devRef .tc main_arg14)) := h5_2_v47 (W14 m ρ c)
theorem L_h5_2_v50 (c : Dev nD) : row1 (W15 m ρ c (no_index (Proc.devRef .tc main_v50))) = Cert.Spec.rowOf (0 : Fin 2) (W14 m ρ c (Proc.devRef .tc main_arg13)) := h5_2_v50 (W14 m ρ c)
theorem L_h5_2_v51 (c : Dev nD) : row1 (W15 m ρ c (no_index (Proc.devRef .tc main_v51))) = Cert.Spec.rowOf (0 : Fin 2) (W14 m ρ c (Proc.devRef .tc main_arg15)) := h5_2_v51 (W14 m ρ c)
theorem L_h9_2_v86 (c : Dev nD) : W27 m ρ c (no_index (Proc.devRef .tc main_v86)) = Cert.Spec.third 0 (Cert.Spec.slab (1 : Fin 2) (W26 m ρ c (Proc.devRef .tc main_arg12))) := h9_2_v86 (W26 m ρ c)
theorem L_h9_2_v87 (c : Dev nD) : W27 m ρ c (no_index (Proc.devRef .tc main_v87)) = Cert.Spec.third 1 (Cert.Spec.slab (1 : Fin 2) (W26 m ρ c (Proc.devRef .tc main_arg12))) := h9_2_v87 (W26 m ρ c)
theorem L_h9_2_v88 (c : Dev nD) : W27 m ρ c (no_index (Proc.devRef .tc main_v88)) = Cert.Spec.third 2 (Cert.Spec.slab (1 : Fin 2) (W26 m ρ c (Proc.devRef .tc main_arg12))) := h9_2_v88 (W26 m ρ c)
theorem L_h9_2_v92 (c : Dev nD) : W27 m ρ c (no_index (Proc.devRef .tc main_v92)) = Cert.Spec.slab (1 : Fin 2) (W26 m ρ c (Proc.devRef .tc main_arg14)) := h9_2_v92 (W26 m ρ c)
theorem L_h9_2_v95 (c : Dev nD) : row1 (W27 m ρ c (no_index (Proc.devRef .tc main_v95))) = Cert.Spec.rowOf (1 : Fin 2) (W26 m ρ c (Proc.devRef .tc main_arg13)) := h9_2_v95 (W26 m ρ c)
theorem L_h9_2_v96 (c : Dev nD) : row1 (W27 m ρ c (no_index (Proc.devRef .tc main_v96))) = Cert.Spec.rowOf (1 : Fin 2) (W26 m ρ c (Proc.devRef .tc main_arg15)) := h9_2_v96 (W26 m ρ c)
theorem L_h10_2_v100 (c : Dev nD) : W31 m ρ c (no_index (Proc.devRef .tc main_v100)) = Cert.Spec.third 0 (W30 m ρ c (Proc.devRef .tc main_arg16)) := h10_2_v100 (W30 m ρ c)
theorem L_h10_2_v101 (c : Dev nD) : W31 m ρ c (no_index (Proc.devRef .tc main_v101)) = Cert.Spec.third 1 (W30 m ρ c (Proc.devRef .tc main_arg16)) := h10_2_v101 (W30 m ρ c)
theorem L_h10_2_v102 (c : Dev nD) : W31 m ρ c (no_index (Proc.devRef .tc main_v102)) = Cert.Spec.third 2 (W30 m ρ c (Proc.devRef .tc main_arg16)) := h10_2_v102 (W30 m ρ c)
theorem L_h10_2_v103 (c : Dev nD) : row1 (W31 m ρ c (no_index (Proc.devRef .tc main_v103))) = Cert.Spec.vecOf (W30 m ρ c (Proc.devRef .tc main_arg17)) := h10_2_v103 (W30 m ρ c)
theorem L_h10_2_v104 (c : Dev nD) : row1 (W31 m ρ c (no_index (Proc.devRef .tc main_v104))) = Cert.Spec.vecOf (W30 m ρ c (Proc.devRef .tc main_arg19)) := h10_2_v104 (W30 m ρ c)
theorem L_h10_2_v105 (c : Dev nD) : row1 (W31 m ρ c (no_index (Proc.devRef .tc main_v105))) = Cert.Spec.vecOf (W30 m ρ c (Proc.devRef .tc main_arg21)) := h10_2_v105 (W30 m ρ c)

/-- Walk a buffer back through the segments that do not write it, and read the stretches' results. -/
macro "chain" : tactic =>
  `(tactic| simp (disch := decide) only [keep1, keep2, keep3, keep4, keep5, keep6, keep7, keep8, keep9, keep10, keep11, keep12, keep13, keep14, keep15, keep16, keep17, keep18, keep19, keep20, keep21, keep22, keep23, keep24, keep25, keep26, keep27, keep28, keep29, keep30, keep31, keep32, L_h0_v4, L_h1_v6, L_h3_v14, L_h3_v18, L_h3_v21, L_h3_v22, L_h7_v59, L_h7_v63, L_h7_v66, L_h7_v67, L_s3_v12, L_s7_v57, L_m4_v26, L_m8_v71, L_h4_2_v32, L_h4_2_v33, L_h4_2_v34, L_h4_2_v35, L_h8_2_v77, L_h8_2_v78, L_h8_2_v79, L_h8_2_v80, L_h5_2_v41, L_h5_2_v42, L_h5_2_v43, L_h5_2_v47, L_h5_2_v50, L_h5_2_v51, L_h9_2_v86, L_h9_2_v87, L_h9_2_v88, L_h9_2_v92, L_h9_2_v95, L_h9_2_v96, L_h10_2_v100, L_h10_2_v101, L_h10_2_v102, L_h10_2_v103, L_h10_2_v104, L_h10_2_v105])

/-! ## The index vectors, in range -/

variable (hei : ∀ (c : Dev nD) k, -(50000 : Int) ≤ ((ei m ρ c) k).toInt ∧ ((ei m ρ c) k).toInt < 50000)

theorem src1 (c : Dev nD) : W1 m ρ c (Proc.devRef .tc main_v1) = srcOf (ei m ρ c) := h0_v1 (W0 m ρ c)
theorem dst1 (c : Dev nD) : W1 m ρ c (Proc.devRef .tc main_v3) = dstOf (ei m ρ c) := h0_v3 (W0 m ρ c)

include hei in
theorem src_range (c : Dev nD) (k) : -(50000 : Int) ≤ ((srcOf (ei m ρ c)) k).toInt ∧ ((srcOf (ei m ρ c)) k).toInt < 50000 := by
  obtain ⟨k', hk'⟩ : ∃ k', (srcOf (ei m ρ c)) k = (ei m ρ c) k' := ⟨_, rfl⟩
  rw [hk']; exact hei c k'
include hei in
theorem dst_range (c : Dev nD) (k) : -(50000 : Int) ≤ ((dstOf (ei m ρ c)) k).toInt ∧ ((dstOf (ei m ρ c)) k).toInt < 50000 := by
  obtain ⟨k', hk'⟩ : ∃ k', (dstOf (ei m ρ c)) k = (ei m ρ c) k' := ⟨_, rfl⟩
  rw [hk']; exact hei c k'

/-- The index vectors, wherever they are read. -/
theorem srcAt4 (c : Dev nD) : W4 m ρ c (Proc.devRef .tc main_v1) = srcOf (ei m ρ c) := by
  simp (disch := decide) only [keep1, keep2, keep3, keep4, keep5, keep6, keep7, keep8, keep9, keep10, keep11, keep12, keep13, keep14, keep15, keep16, keep17, keep18, keep19, keep20, keep21, keep22, keep23, keep24, keep25, keep26, keep27, keep28, keep29, keep30, keep31, keep32]
  exact src1 m ρ c
theorem srcAt12 (c : Dev nD) : W12 m ρ c (Proc.devRef .tc main_v1) = srcOf (ei m ρ c) := by
  simp (disch := decide) only [keep1, keep2, keep3, keep4, keep5, keep6, keep7, keep8, keep9, keep10, keep11, keep12, keep13, keep14, keep15, keep16, keep17, keep18, keep19, keep20, keep21, keep22, keep23, keep24, keep25, keep26, keep27, keep28, keep29, keep30, keep31, keep32]
  exact src1 m ρ c
theorem srcAt16 (c : Dev nD) : W16 m ρ c (Proc.devRef .tc main_v1) = srcOf (ei m ρ c) := by
  simp (disch := decide) only [keep1, keep2, keep3, keep4, keep5, keep6, keep7, keep8, keep9, keep10, keep11, keep12, keep13, keep14, keep15, keep16, keep17, keep18, keep19, keep20, keep21, keep22, keep23, keep24, keep25, keep26, keep27, keep28, keep29, keep30, keep31, keep32]
  exact src1 m ρ c
theorem srcAt24 (c : Dev nD) : W24 m ρ c (Proc.devRef .tc main_v1) = srcOf (ei m ρ c) := by
  simp (disch := decide) only [keep1, keep2, keep3, keep4, keep5, keep6, keep7, keep8, keep9, keep10, keep11, keep12, keep13, keep14, keep15, keep16, keep17, keep18, keep19, keep20, keep21, keep22, keep23, keep24, keep25, keep26, keep27, keep28, keep29, keep30, keep31, keep32]
  exact src1 m ρ c
theorem srcAt28 (c : Dev nD) : W28 m ρ c (Proc.devRef .tc main_v1) = srcOf (ei m ρ c) := by
  simp (disch := decide) only [keep1, keep2, keep3, keep4, keep5, keep6, keep7, keep8, keep9, keep10, keep11, keep12, keep13, keep14, keep15, keep16, keep17, keep18, keep19, keep20, keep21, keep22, keep23, keep24, keep25, keep26, keep27, keep28, keep29, keep30, keep31, keep32]
  exact src1 m ρ c
theorem dstAt13 (c : Dev nD) : W13 m ρ c (Proc.devRef .tc main_v3) = dstOf (ei m ρ c) := by
  simp (disch := decide) only [keep1, keep2, keep3, keep4, keep5, keep6, keep7, keep8, keep9, keep10, keep11, keep12, keep13, keep14, keep15, keep16, keep17, keep18, keep19, keep20, keep21, keep22, keep23, keep24, keep25, keep26, keep27, keep28, keep29, keep30, keep31, keep32]
  exact dst1 m ρ c
theorem dstAt25 (c : Dev nD) : W25 m ρ c (Proc.devRef .tc main_v3) = dstOf (ei m ρ c) := by
  simp (disch := decide) only [keep1, keep2, keep3, keep4, keep5, keep6, keep7, keep8, keep9, keep10, keep11, keep12, keep13, keep14, keep15, keep16, keep17, keep18, keep19, keep20, keep21, keep22, keep23, keep24, keep25, keep26, keep27, keep28, keep29, keep30, keep31, keep32]
  exact dst1 m ρ c
theorem dstAt29 (c : Dev nD) : W29 m ρ c (Proc.devRef .tc main_v3) = dstOf (ei m ρ c) := by
  simp (disch := decide) only [keep1, keep2, keep3, keep4, keep5, keep6, keep7, keep8, keep9, keep10, keep11, keep12, keep13, keep14, keep15, keep16, keep17, keep18, keep19, keep20, keep21, keep22, keep23, keep24, keep25, keep26, keep27, keep28, keep29, keep30, keep31, keep32]
  exact dst1 m ρ c
theorem dstAt6 (c : Dev nD) : W6 m ρ c (Proc.devRef .tc main_v3) = dstOf (ei m ρ c) := by
  simp (disch := decide) only [keep1, keep2, keep3, keep4, keep5, keep6, keep7, keep8, keep9, keep10, keep11, keep12, keep13, keep14, keep15, keep16, keep17, keep18, keep19, keep20, keep21, keep22, keep23, keep24, keep25, keep26, keep27, keep28, keep29, keep30, keep31, keep32]
  exact dst1 m ρ c
theorem dstAt18 (c : Dev nD) : W18 m ρ c (Proc.devRef .tc main_v3) = dstOf (ei m ρ c) := by
  simp (disch := decide) only [keep1, keep2, keep3, keep4, keep5, keep6, keep7, keep8, keep9, keep10, keep11, keep12, keep13, keep14, keep15, keep16, keep17, keep18, keep19, keep20, keep21, keep22, keep23, keep24, keep25, keep26, keep27, keep28, keep29, keep30, keep31, keep32]
  exact dst1 m ρ c

/-! ## The regions, at their entry contents -/

theorem reg0 (c : Dev nD) : W2 m ρ c (Proc.devRef .tc main_v5) = Cert.Spec.lin (W1 m ρ c (Proc.devRef .tc main_arg0)) (W1 m ρ c (Proc.devRef .tc main_arg2)) (row1 (W1 m ρ c (Proc.devRef .tc main_v4))) :=
  (W2_arr m ρ c 3).trans (final0 (V1 m ρ) c)
theorem reg1 (c : Dev nD) : W4 m ρ c (Proc.devRef .tc main_v7) = Cert.Spec.lin (W3 m ρ c (Proc.devRef .tc main_arg1)) (W3 m ρ c (Proc.devRef .tc main_arg4)) (row1 (W3 m ρ c (Proc.devRef .tc main_v6))) :=
  (W4_arr m ρ c 3).trans (final1 (V3 m ρ) c)
theorem reg2 (c : Dev nD) : W6 m ρ c (Proc.devRef .tc main_v9) = Cert.Spec.msg (W5 m ρ c (Proc.devRef .tc main_v8)) (W5 m ρ c (Proc.devRef .tc main_v7)) :=
  (W6_arr m ρ c 2).trans (final2 (V5 m ρ) c)
theorem reg3 (c : Dev nD) : W8 m ρ c (Proc.devRef .tc main_v23) = Cert.Spec.conv (W7 m ρ c (Proc.devRef .tc main_v5)) (W7 m ρ c (Proc.devRef .tc main_v12)) (W7 m ρ c (Proc.devRef .tc main_v14)) (row1 (W7 m ρ c (Proc.devRef .tc main_v21))) (W7 m ρ c (Proc.devRef .tc main_v18)) (row1 (W7 m ρ c (Proc.devRef .tc main_v22))) :=
  (W8_arr m ρ c 6).trans (final3 (V7 m ρ) c)
theorem reg4 (c : Dev nD) : W12 m ρ c (Proc.devRef .tc main_v36) = Cert.Spec.bn (W11 m ρ c (Proc.devRef .tc main_v5)) (W11 m ρ c (Proc.devRef .tc main_v23)) (row1 (W11 m ρ c (Proc.devRef .tc main_v32))) (row1 (W11 m ρ c (Proc.devRef .tc main_v33))) (row1 (W11 m ρ c (Proc.devRef .tc main_v34))) (row1 (W11 m ρ c (Proc.devRef .tc main_v35))) :=
  (W12_arr m ρ c 6).trans (final4 (V11 m ρ) c)
theorem reg5 (c : Dev nD) : W16 m ρ c (Proc.devRef .tc main_v52) = Cert.Spec.emlp (W15 m ρ c (Proc.devRef .tc main_v37)) (W15 m ρ c (Proc.devRef .tc main_v38)) (W15 m ρ c (Proc.devRef .tc main_v7)) (W15 m ρ c (Proc.devRef .tc main_v41)) (W15 m ρ c (Proc.devRef .tc main_v42)) (W15 m ρ c (Proc.devRef .tc main_v43)) (row1 (W15 m ρ c (Proc.devRef .tc main_v50))) (W15 m ρ c (Proc.devRef .tc main_v47)) (row1 (W15 m ρ c (Proc.devRef .tc main_v51))) :=
  (W16_arr m ρ c 9).trans (final5 (V15 m ρ) c)
theorem reg6 (c : Dev nD) : W18 m ρ c (Proc.devRef .tc main_v54) = Cert.Spec.msg (W17 m ρ c (Proc.devRef .tc main_v53)) (W17 m ρ c (Proc.devRef .tc main_v52)) :=
  (W18_arr m ρ c 2).trans (final6 (V17 m ρ) c)
theorem reg7 (c : Dev nD) : W20 m ρ c (Proc.devRef .tc main_v68) = Cert.Spec.conv (W19 m ρ c (Proc.devRef .tc main_v36)) (W19 m ρ c (Proc.devRef .tc main_v57)) (W19 m ρ c (Proc.devRef .tc main_v59)) (row1 (W19 m ρ c (Proc.devRef .tc main_v66))) (W19 m ρ c (Proc.devRef .tc main_v63)) (row1 (W19 m ρ c (Proc.devRef .tc main_v67))) :=
  (W20_arr m ρ c 6).trans (final7 (V19 m ρ) c)
theorem reg8 (c : Dev nD) : W24 m ρ c (Proc.devRef .tc main_v81) = Cert.Spec.bn (W23 m ρ c (Proc.devRef .tc main_v36)) (W23 m ρ c (Proc.devRef .tc main_v68)) (row1 (W23 m ρ c (Proc.devRef .tc main_v77))) (row1 (W23 m ρ c (Proc.devRef .tc main_v78))) (row1 (W23 m ρ c (Proc.devRef .tc main_v79))) (row1 (W23 m ρ c (Proc.devRef .tc main_v80))) :=
  (W24_arr m ρ c 6).trans (final8 (V23 m ρ) c)
theorem reg9 (c : Dev nD) : W28 m ρ c (Proc.devRef .tc main_v97) = Cert.Spec.emlp (W27 m ρ c (Proc.devRef .tc main_v82)) (W27 m ρ c (Proc.devRef .tc main_v83)) (W27 m ρ c (Proc.devRef .tc main_v52)) (W27 m ρ c (Proc.devRef .tc main_v86)) (W27 m ρ c (Proc.devRef .tc main_v87)) (W27 m ρ c (Proc.devRef .tc main_v88)) (row1 (W27 m ρ c (Proc.devRef .tc main_v95))) (W27 m ρ c (Proc.devRef .tc main_v92)) (row1 (W27 m ρ c (Proc.devRef .tc main_v96))) :=
  (W28_arr m ρ c 9).trans (final9 (V27 m ρ) c)
theorem reg10 (c : Dev nD) : W32 m ρ c (Proc.devRef .tc main_v106) = Cert.Spec.readout (W31 m ρ c (Proc.devRef .tc main_v98)) (W31 m ρ c (Proc.devRef .tc main_v99)) (W31 m ρ c (Proc.devRef .tc main_v97)) (W31 m ρ c (Proc.devRef .tc main_v100)) (W31 m ρ c (Proc.devRef .tc main_v101)) (W31 m ρ c (Proc.devRef .tc main_v102)) (row1 (W31 m ρ c (Proc.devRef .tc main_v103))) (W31 m ρ c (Proc.devRef .tc main_arg18)) (row1 (W31 m ρ c (Proc.devRef .tc main_v104))) (W31 m ρ c (Proc.devRef .tc main_arg20)) (row1 (W31 m ρ c (Proc.devRef .tc main_v105))) :=
  (W32_arr m ρ c 11).trans (final10 (V31 m ρ) c)

/-! ## The walk: each intermediate at its closed form -/

/-- The index vectors at boundary 1, for rewriting at any buffer expression. -/
theorem L_src1 (c : Dev nD) : W1 m ρ c (no_index (Proc.devRef .tc main_v1)) = srcOf (ei m ρ c) := src1 m ρ c
theorem L_dst1 (c : Dev nD) : W1 m ρ c (no_index (Proc.devRef .tc main_v3)) = dstOf (ei m ρ c) := dst1 m ρ c

/-- The walk with the index vectors read as well. -/
macro "walk" : tactic =>
  `(tactic| simp (disch := decide) only [keep1, keep2, keep3, keep4, keep5, keep6, keep7, keep8, keep9, keep10, keep11, keep12, keep13, keep14, keep15, keep16, keep17, keep18, keep19, keep20, keep21, keep22, keep23, keep24, keep25, keep26, keep27, keep28, keep29, keep30, keep31, keep32, L_h0_v4, L_h1_v6, L_h3_v14, L_h3_v18, L_h3_v21, L_h3_v22, L_h7_v59, L_h7_v63, L_h7_v66, L_h7_v67, L_s3_v12, L_s7_v57, L_m4_v26, L_m8_v71, L_h4_2_v32, L_h4_2_v33, L_h4_2_v34, L_h4_2_v35, L_h8_2_v77, L_h8_2_v78, L_h8_2_v79, L_h8_2_v80, L_h5_2_v41, L_h5_2_v42, L_h5_2_v43, L_h5_2_v47, L_h5_2_v50, L_h5_2_v51, L_h9_2_v86, L_h9_2_v87, L_h9_2_v88, L_h9_2_v92, L_h9_2_v95, L_h9_2_v96, L_h10_2_v100, L_h10_2_v101, L_h10_2_v102, L_h10_2_v103, L_h10_2_v104, L_h10_2_v105, L_src1, L_dst1])

theorem at2 (c : Dev nD) : W2 m ρ c (no_index (Proc.devRef .tc main_v5)) = h0 m ρ c := by
  rw [reg0]; walk; rfl

theorem at4 (c : Dev nD) : W4 m ρ c (no_index (Proc.devRef .tc main_v7)) = e0 m ρ c := by
  rw [reg1]; walk; rfl

include hei in
theorem at5 (c : Dev nD) : W5 m ρ c (no_index (Proc.devRef .tc main_v8)) = (H m ρ c).takeSrc (h0 m ρ c) := by
  rw [show W5 m ρ c (Proc.devRef .tc main_v8) = _ from t2_v8 (W4 m ρ c) (by rw [srcAt4]; exact src_range m ρ hei c)]
  walk; simp only [at2]; rfl

include hei in
theorem at6 (c : Dev nD) : W6 m ρ c (no_index (Proc.devRef .tc main_v9)) = Cert.Spec.msg ((H m ρ c).takeSrc (h0 m ρ c)) (e0 m ρ c) := by
  rw [reg2]; walk; simp only [at5 m ρ hei, at4]

include hei in
theorem at8 (c : Dev nD) : W8 m ρ c (no_index (Proc.devRef .tc main_v23)) = z m ρ 0 c (h0 m ρ c) (e0 m ρ c) := by
  rw [reg3]; walk; simp only [at2, at6 m ρ hei]; rfl

include hei in
theorem at12 (c : Dev nD) : W12 m ρ c (no_index (Proc.devRef .tc main_v36)) = h1 m ρ c := by
  rw [reg4]; walk
  rw [show W10 m ρ c (Proc.devRef .tc main_v27) = _ from v4_1_v27 (W9 m ρ c) (c4_c (W8 m ρ c))]; walk
  simp only [at2, at8 m ρ hei]; rfl

include hei in
theorem at13 (c : Dev nD) : W13 m ρ c (no_index (Proc.devRef .tc main_v37)) = (H m ρ c).takeSrc (h1 m ρ c) := by
  rw [show W13 m ρ c (Proc.devRef .tc main_v37) = _ from t5_v37 (W12 m ρ c) (by rw [srcAt12]; exact src_range m ρ hei c)]
  walk; simp only [at12 m ρ hei]; rfl

include hei in
theorem at14 (c : Dev nD) : W14 m ρ c (no_index (Proc.devRef .tc main_v38)) = (H m ρ c).takeDst (h1 m ρ c) := by
  rw [show W14 m ρ c (Proc.devRef .tc main_v38) = _ from t5_1_v38 (W13 m ρ c) (by rw [dstAt13]; exact dst_range m ρ hei c)]
  walk; simp only [at12 m ρ hei]; rfl

include hei in
theorem at16 (c : Dev nD) : W16 m ρ c (no_index (Proc.devRef .tc main_v52)) = e1 m ρ c := by
  rw [reg5]; walk; simp only [at13 m ρ hei, at14 m ρ hei, at4]; rfl

include hei in
theorem at17 (c : Dev nD) : W17 m ρ c (no_index (Proc.devRef .tc main_v53)) = (H m ρ c).takeSrc (h1 m ρ c) := by
  rw [show W17 m ρ c (Proc.devRef .tc main_v53) = _ from t6_v53 (W16 m ρ c) (by rw [srcAt16]; exact src_range m ρ hei c)]
  walk; simp only [at12 m ρ hei]; rfl

include hei in
theorem at18 (c : Dev nD) : W18 m ρ c (no_index (Proc.devRef .tc main_v54)) = Cert.Spec.msg ((H m ρ c).takeSrc (h1 m ρ c)) (e1 m ρ c) := by
  rw [reg6]; walk; simp only [at17 m ρ hei, at16 m ρ hei]

include hei in
theorem at20 (c : Dev nD) : W20 m ρ c (no_index (Proc.devRef .tc main_v68)) = z m ρ 1 c (h1 m ρ c) (e1 m ρ c) := by
  rw [reg7]; walk; simp only [at12 m ρ hei, at18 m ρ hei]; rfl

include hei in
theorem at24 (c : Dev nD) : W24 m ρ c (no_index (Proc.devRef .tc main_v81)) = h2 m ρ c := by
  rw [reg8]; walk
  rw [show W22 m ρ c (Proc.devRef .tc main_v72) = _ from v8_1_v72 (W21 m ρ c) (c8_c5 (W20 m ρ c))]; walk
  simp only [at12 m ρ hei, at20 m ρ hei]; rfl

include hei in
theorem at25 (c : Dev nD) : W25 m ρ c (no_index (Proc.devRef .tc main_v82)) = (H m ρ c).takeSrc (h2 m ρ c) := by
  rw [show W25 m ρ c (Proc.devRef .tc main_v82) = _ from t9_v82 (W24 m ρ c) (by rw [srcAt24]; exact src_range m ρ hei c)]
  walk; simp only [at24 m ρ hei]; rfl

include hei in
theorem at26 (c : Dev nD) : W26 m ρ c (no_index (Proc.devRef .tc main_v83)) = (H m ρ c).takeDst (h2 m ρ c) := by
  rw [show W26 m ρ c (Proc.devRef .tc main_v83) = _ from t9_1_v83 (W25 m ρ c) (by rw [dstAt25]; exact dst_range m ρ hei c)]
  walk; simp only [at24 m ρ hei]; rfl

include hei in
theorem at28 (c : Dev nD) : W28 m ρ c (no_index (Proc.devRef .tc main_v97)) = e2 m ρ c := by
  rw [reg9]; walk; simp only [at25 m ρ hei, at26 m ρ hei, at16 m ρ hei]; rfl

include hei in
theorem at29 (c : Dev nD) : W29 m ρ c (no_index (Proc.devRef .tc main_v98)) = (H m ρ c).takeSrc (h2 m ρ c) := by
  rw [show W29 m ρ c (Proc.devRef .tc main_v98) = _ from t10_v98 (W28 m ρ c) (by rw [srcAt28]; exact src_range m ρ hei c)]
  walk; simp only [at24 m ρ hei]; rfl

include hei in
theorem at30 (c : Dev nD) : W30 m ρ c (no_index (Proc.devRef .tc main_v99)) = (H m ρ c).takeDst (h2 m ρ c) := by
  rw [show W30 m ρ c (Proc.devRef .tc main_v99) = _ from t10_1_v99 (W29 m ρ c) (by rw [dstAt29]; exact dst_range m ρ hei c)]
  walk; simp only [at24 m ρ hei]; rfl

include hei in
/-- The result buffer after the last region is the network. -/
theorem at32 (c : Dev nD) : W32 m ρ c (Proc.devRef .tc main_v106) = out m ρ c := by
  rw [reg10]; walk; simp only [at29 m ρ hei, at30 m ρ hei, at28 m ρ hei]; rfl

end Cert.KernelIdeal.Val

end
-- ==== Proof.ROps.lean ====
/- The reference program's @main as lists of its host operations, the outlined functions' bodies written out at their calls,
   grouped by the stage of the network they compute; @main is the straight line of them all, and its run leaves every
   buffer at the operations' fold over the launch contents. -/
import proofs.«410123_j23235773072029_1_alg».proof.Proof.Gen.ReferenceIdeal
import Idealize.ShloMosaic.Lib.StableHlo.Run
import Idealize.ShloMosaic.Lib.Pipeline.Regions
import Idealize.ShloMosaic.Lib.Pipeline.Frame

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

/-- Item 0 (stage 0). -/
abbrev it0 : List (HloOp τ sig (Elt F)) :=
  [ StableHlo.unary main_arg22 main_v0 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v0 main_v1 rfl shapeCasts_S1x500000_S500000,
    StableHlo.unary main_arg22 main_v2 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v2 main_v3 rfl shapeCasts_S1x500000_S500000 ]
theorem it0_sub : (it0 : List (HloOp τ sig (Elt F))).Forall fun op => op.bufs ⊆ tcRefs τ sig :=
  ⟨unary_bufs_sub .., reshape_bufs_sub .., unary_bufs_sub .., reshape_bufs_sub ..⟩
theorem it0_fresh : (it0 : List (HloOp τ sig (Elt F))).Forall fun op => op.fresh = ∅ := by
  simp only [List.Forall]; repeat' constructor
/-- The buffers item 0 writes. -/
abbrev wr_it0 : List (Ref sig .tc) := [main_v0, main_v1, main_v2, main_v3]
theorem it0_writes : (it0 : List (HloOp τ sig (Elt F))).Forall fun op => op.writes ⊆ ((wr_it0).map (Proc.devRef (τ := τ) .tc)).toFinset := by
  simp only [it0, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it0 (W : Valuation τ sig (Elt F)) (r : Ref sig .tc) (hr : r ∉ wr_it0) : after (it0 : List (HloOp τ sig (Elt F))) W (no_index (Proc.devRef .tc r)) = W (Proc.devRef .tc r) :=
  after_of_writes_sub it0 W (it0_writes (F := F)) hr

/-- Item 1 (stage 1). -/
abbrev it1 : List (HloOp τ sig (Elt F)) :=
  [ StableHlo.binary main_arg0 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S50000x128 ![0, 1] bcast_S1x128_S50000x128_0_1 : (⟨S1x128, .f32⟩ : BufTy).Contents (Elt F) → (⟨S50000x128, .f32⟩ : BufTy).Contents (Elt F)),
    StableHlo.binary main_v4 main_v6 main_v7 (addf : (⟨S50000x128, .f32⟩ : BufTy).Contents (Elt F) → (⟨S50000x128, .f32⟩ : BufTy).Contents (Elt F) → (⟨S50000x128, .f32⟩ : BufTy).Contents (Elt F)) ]
theorem it1_sub : (it1 : List (HloOp τ sig (Elt F))).Forall fun op => op.bufs ⊆ tcRefs τ sig :=
  ⟨binary_bufs_sub .., unary_bufs_sub .., unary_bufs_sub .., binary_bufs_sub ..⟩
theorem it1_fresh : (it1 : List (HloOp τ sig (Elt F))).Forall fun op => op.fresh = ∅ := by
  simp only [List.Forall]; repeat' constructor
/-- The buffers item 1 writes. -/
abbrev wr_it1 : List (Ref sig .tc) := [main_v4, main_v5, main_v6, main_v7]
theorem it1_writes : (it1 : List (HloOp τ sig (Elt F))).Forall fun op => op.writes ⊆ ((wr_it1).map (Proc.devRef (τ := τ) .tc)).toFinset := by
  simp only [it1, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it1 (W : Valuation τ sig (Elt F)) (r : Ref sig .tc) (hr : r ∉ wr_it1) : after (it1 : List (HloOp τ sig (Elt F))) W (no_index (Proc.devRef .tc r)) = W (Proc.devRef .tc r) :=
  after_of_writes_sub it1 W (it1_writes (F := F)) hr

/-- Item 2 (stage 2). -/
abbrev it2 : List (HloOp τ sig (Elt F)) :=
  [ StableHlo.binary main_arg1 main_arg4 main_v8 ((fun l r => Host.dotGeneral dot_S500000x16_S16x128_S500000x128_1_0_0_1_n_n none l r) : (⟨S500000x16, .f32⟩ : BufTy).Contents (Elt F) → (⟨S16x128, .f32⟩ : BufTy).Contents (Elt F) → (⟨S500000x128, .f32⟩ : BufTy).Contents (Elt F)),
    StableHlo.unary main_arg5 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S500000x128 ![0, 1] bcast_S1x128_S500000x128_0_1 : (⟨S1x128, .f32⟩ : BufTy).Contents (Elt F) → (⟨S500000x128, .f32⟩ : BufTy).Contents (Elt F)),
    StableHlo.binary main_v8 main_v10 main_v11 (addf : (⟨S500000x128, .f32⟩ : BufTy).Contents (Elt F) → (⟨S500000x128, .f32⟩ : BufTy).Contents (Elt F) → (⟨S500000x128, .f32⟩ : BufTy).Contents (Elt F)) ]
theorem it2_sub : (it2 : List (HloOp τ sig (Elt F))).Forall fun op => op.bufs ⊆ tcRefs τ sig :=
  ⟨binary_bufs_sub .., unary_bufs_sub .., unary_bufs_sub .., binary_bufs_sub ..⟩
theorem it2_fresh : (it2 : List (HloOp τ sig (Elt F))).Forall fun op => op.fresh = ∅ := by
  simp only [List.Forall]; repeat' constructor
/-- The buffers item 2 writes. -/
abbrev wr_it2 : List (Ref sig .tc) := [main_v8, main_v9, main_v10, main_v11]
theorem it2_writes : (it2 : List (HloOp τ sig (Elt F))).Forall fun op => op.writes ⊆ ((wr_it2).map (Proc.devRef (τ := τ) .tc)).toFinset := by
  simp only [it2, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it2 (W : Valuation τ sig (Elt F)) (r : Ref sig .tc) (hr : r ∉ wr_it2) : after (it2 : List (HloOp τ sig (Elt F))) W (no_index (Proc.devRef .tc r)) = W (Proc.devRef .tc r) :=
  after_of_writes_sub it2 W (it2_writes (F := F)) hr

/-- Item 3 (stage 3). -/
abbrev it3 : List (HloOp τ sig (Elt F)) :=
  [ StableHlo.nullary main_c (constantI S_ 32 0#32),
    StableHlo.unary main_c main_v12 (broadcastInDim S500000 ![] bcast_S_S500000 : (⟨S_, .i32⟩ : BufTy).Contents (Elt F) → (⟨S500000, .i32⟩ : BufTy).Contents (Elt F)),
    StableHlo.binary main_v1 main_v12 main_v13 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 50000#32),
    StableHlo.unary main_c_0 main_v14 (broadcastInDim S500000 ![] bcast_S_S500000 : (⟨S_, .i32⟩ : BufTy).Contents (Elt F) → (⟨S500000, .i32⟩ : BufTy).Contents (Elt F)),
    StableHlo.binary main_v1 main_v14 main_v15 (addi : (⟨S500000, .i32⟩ : BufTy).Contents (Elt F) → (⟨S500000, .i32⟩ : BufTy).Contents (Elt F) → (⟨S500000, .i32⟩ : BufTy).Contents (Elt F)),
    StableHlo.ternary main_v13 main_v15 main_v1 main_v16 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v16 main_v17 (broadcastInDim S500000x1 ![0] bcast_S500000_S500000x1_0 : (⟨S500000, .i32⟩ : BufTy).Contents (Elt F) → (⟨S500000x1, .i32⟩ : BufTy).Contents (Elt F)),
    StableHlo.binary main_v7 main_v17 main_v18 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.binary main_v18 main_v11 main_v19 (addf : (⟨S500000x128, .f32⟩ : BufTy).Contents (Elt F) → (⟨S500000x128, .f32⟩ : BufTy).Contents (Elt F) → (⟨S500000x128, .f32⟩ : BufTy).Contents (Elt F)) ]
theorem it3_sub : (it3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
theorem it3_fresh : (it3 : List (HloOp τ sig (Elt F))).Forall fun op => op.fresh = ∅ := by
  simp only [List.Forall]; repeat' constructor
/-- The buffers item 3 writes. -/
abbrev wr_it3 : List (Ref sig .tc) := [main_c, main_v12, main_v13, main_c_0, main_v14, main_v15, main_v16, main_v17, main_v18, main_v19]
theorem it3_writes : (it3 : List (HloOp τ sig (Elt F))).Forall fun op => op.writes ⊆ ((wr_it3).map (Proc.devRef (τ := τ) .tc)).toFinset := by
  simp only [it3, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it3 (W : Valuation τ sig (Elt F)) (r : Ref sig .tc) (hr : r ∉ wr_it3) : after (it3 : List (HloOp τ sig (Elt F))) W (no_index (Proc.devRef .tc r)) = W (Proc.devRef .tc r) :=
  after_of_writes_sub it3 W (it3_writes (F := F)) hr

/-- Item 4 (stage 3). -/
abbrev it4 : List (HloOp τ sig (Elt F)) :=
  [ StableHlo.TRef.nullary main_call0.cst (constant S_ .f32 0x00000000#32),
    StableHlo.TRef.unary main_call0.cst main_call0.v0 (broadcastInDim S500000x128 ![] bcast_S_S500000x128),
    StableHlo.TRef.binary (.of main_v19) main_call0.v0 main_call0.v1 maximumf ]
theorem it4_sub : (it4 : List (HloOp τ sig (Elt F))).Forall fun op => op.bufs ⊆ tcRefs τ sig :=
  ⟨nullary_bufs_sub .., unary_bufs_sub .., binary_bufs_sub ..⟩
theorem it4_fresh : (it4 : List (HloOp τ sig (Elt F))).Forall fun op => op.fresh = ∅ := by
  simp only [List.Forall]; repeat' constructor
/-- The buffers item 4 writes. -/
abbrev wr_it4 : List (Ref sig .tc) := [main_call0.cst.ref, main_call0.v0.ref, main_call0.v1.ref]
theorem it4_writes : (it4 : List (HloOp τ sig (Elt F))).Forall fun op => op.writes ⊆ ((wr_it4).map (Proc.devRef (τ := τ) .tc)).toFinset := by
  simp only [it4, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it4 (W : Valuation τ sig (Elt F)) (r : Ref sig .tc) (hr : r ∉ wr_it4) : after (it4 : List (HloOp τ sig (Elt F))) W (no_index (Proc.devRef .tc r)) = W (Proc.devRef .tc r) :=
  after_of_writes_sub it4 W (it4_writes (F := F)) hr

/-- Item 5 (stage 3). -/
abbrev it5 : List (HloOp τ sig (Elt F)) :=
  [ StableHlo.nullary main_cst (constant S_ .f32 0x00000000#32),
    StableHlo.unary main_cst main_v21 (broadcastInDim S50000x128 ![] bcast_S_S50000x128 : (⟨S_, .f32⟩ : BufTy).Contents (Elt F) → (⟨S50000x128, .f32⟩ : BufTy).Contents (Elt F)),
    StableHlo.unary main_v3 main_v22 (broadcastInDim S500000x1 ![0] bcast_S500000_S500000x1_0 : (⟨S500000, .i32⟩ : BufTy).Contents (Elt F) → (⟨S500000x1, .i32⟩ : BufTy).Contents (Elt F)),
    StableHlo.ternary main_v21 main_v22 main_v20 main_v23 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) ]
theorem it5_sub : (it5 : List (HloOp τ sig (Elt F))).Forall fun op => op.bufs ⊆ tcRefs τ sig :=
  ⟨nullary_bufs_sub .., unary_bufs_sub .., unary_bufs_sub .., ternary_bufs_sub ..⟩
theorem it5_fresh : (it5 : List (HloOp τ sig (Elt F))).Forall fun op => op.fresh = ∅ := by
  simp only [List.Forall]; repeat' constructor
/-- The buffers item 5 writes. -/
abbrev wr_it5 : List (Ref sig .tc) := [main_cst, main_v21, main_v22, main_v23]
theorem it5_writes : (it5 : List (HloOp τ sig (Elt F))).Forall fun op => op.writes ⊆ ((wr_it5).map (Proc.devRef (τ := τ) .tc)).toFinset := by
  simp only [it5, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it5 (W : Valuation τ sig (Elt F)) (r : Ref sig .tc) (hr : r ∉ wr_it5) : after (it5 : List (HloOp τ sig (Elt F))) W (no_index (Proc.devRef .tc r)) = W (Proc.devRef .tc r) :=
  after_of_writes_sub it5 W (it5_writes (F := F)) hr

/-- Item 6 (stage 4). -/
abbrev it6 : List (HloOp τ sig (Elt F)) :=
  [ StableHlo.binary main_v7 main_v23 main_v24 (addf : (⟨S50000x128, .f32⟩ : BufTy).Contents (Elt F) → (⟨S50000x128, .f32⟩ : BufTy).Contents (Elt F) → (⟨S50000x128, .f32⟩ : BufTy).Contents (Elt F)),
    StableHlo.unary main_arg6 main_v25 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v25 main_v26 rfl shapeCasts_S1x128x128_S128x128,
    StableHlo.binary main_v24 main_v26 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v28 ((extractStridedSlice S1x128 ![0, 0] · slices_S2x128_S1x128_0_0) : (⟨S2x128, .f32⟩ : BufTy).Contents (Elt F) → (⟨S1x128, .f32⟩ : BufTy).Contents (Elt F)),
    StableHlo.reshape main_v28 main_v29 rfl shapeCasts_S1x128_S128,
    StableHlo.unary main_v29 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v31 main_v32 (addf : (⟨S50000x128, .f32⟩ : BufTy).Contents (Elt F) → (⟨S50000x128, .f32⟩ : BufTy).Contents (Elt F) → (⟨S50000x128, .f32⟩ : BufTy).Contents (Elt F)) ]
theorem it6_sub : (it6 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub ..⟩
theorem it6_fresh : (it6 : List (HloOp τ sig (Elt F))).Forall fun op => op.fresh = ∅ := by
  simp only [List.Forall]; repeat' constructor
/-- The buffers item 6 writes. -/
abbrev wr_it6 : List (Ref sig .tc) := [main_v24, main_v25, main_v26, main_v27, main_v28, main_v29, main_v30, main_v31, main_v32]
theorem it6_writes : (it6 : List (HloOp τ sig (Elt F))).Forall fun op => op.writes ⊆ ((wr_it6).map (Proc.devRef (τ := τ) .tc)).toFinset := by
  simp only [it6, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it6 (W : Valuation τ sig (Elt F)) (r : Ref sig .tc) (hr : r ∉ wr_it6) : after (it6 : List (HloOp τ sig (Elt F))) W (no_index (Proc.devRef .tc r)) = W (Proc.devRef .tc r) :=
  after_of_writes_sub it6 W (it6_writes (F := F)) hr

/-- Item 7 (stage 4). -/
abbrev it7 : List (HloOp τ sig (Elt F)) :=
  [ StableHlo.TRef.nullary main_call1.cst (constant S_ .f32 0x00000000#32),
    StableHlo.TRef.unary main_call1.cst main_call1.v0 (broadcastInDim S50000x128 ![] bcast_S_S50000x128),
    StableHlo.TRef.binary (.of main_v32) main_call1.v0 main_call1.v1 maximumf ]
theorem it7_sub : (it7 : List (HloOp τ sig (Elt F))).Forall fun op => op.bufs ⊆ tcRefs τ sig :=
  ⟨nullary_bufs_sub .., unary_bufs_sub .., binary_bufs_sub ..⟩
theorem it7_fresh : (it7 : List (HloOp τ sig (Elt F))).Forall fun op => op.fresh = ∅ := by
  simp only [List.Forall]; repeat' constructor
/-- The buffers item 7 writes. -/
abbrev wr_it7 : List (Ref sig .tc) := [main_call1.cst.ref, main_call1.v0.ref, main_call1.v1.ref]
theorem it7_writes : (it7 : List (HloOp τ sig (Elt F))).Forall fun op => op.writes ⊆ ((wr_it7).map (Proc.devRef (τ := τ) .tc)).toFinset := by
  simp only [it7, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it7 (W : Valuation τ sig (Elt F)) (r : Ref sig .tc) (hr : r ∉ wr_it7) : after (it7 : List (HloOp τ sig (Elt F))) W (no_index (Proc.devRef .tc r)) = W (Proc.devRef .tc r) :=
  after_of_writes_sub it7 W (it7_writes (F := F)) hr

/-- Item 8 (stage 4). -/
abbrev it8 : List (HloOp τ sig (Elt F)) :=
  [ StableHlo.unary main_arg8 main_v34 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v34 main_v35 rfl shapeCasts_S1x128x128_S128x128,
    StableHlo.binary main_v33 main_v35 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v37 ((extractStridedSlice S1x128 ![0, 0] · slices_S2x128_S1x128_0_0) : (⟨S2x128, .f32⟩ : BufTy).Contents (Elt F) → (⟨S1x128, .f32⟩ : BufTy).Contents (Elt F)),
    StableHlo.reshape main_v37 main_v38 rfl shapeCasts_S1x128_S128,
    StableHlo.unary main_v38 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v40 main_v41 (addf : (⟨S50000x128, .f32⟩ : BufTy).Contents (Elt F) → (⟨S50000x128, .f32⟩ : BufTy).Contents (Elt F) → (⟨S50000x128, .f32⟩ : BufTy).Contents (Elt F)) ]
theorem it8_sub : (it8 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
theorem it8_fresh : (it8 : List (HloOp τ sig (Elt F))).Forall fun op => op.fresh = ∅ := by
  simp only [List.Forall]; repeat' constructor
/-- The buffers item 8 writes. -/
abbrev wr_it8 : List (Ref sig .tc) := [main_v34, main_v35, main_v36, main_v37, main_v38, main_v39, main_v40, main_v41]
theorem it8_writes : (it8 : List (HloOp τ sig (Elt F))).Forall fun op => op.writes ⊆ ((wr_it8).map (Proc.devRef (τ := τ) .tc)).toFinset := by
  simp only [it8, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it8 (W : Valuation τ sig (Elt F)) (r : Ref sig .tc) (hr : r ∉ wr_it8) : after (it8 : List (HloOp τ sig (Elt F))) W (no_index (Proc.devRef .tc r)) = W (Proc.devRef .tc r) :=
  after_of_writes_sub it8 W (it8_writes (F := F)) hr

/-- Item 9 (stage 5). -/
abbrev it9 : List (HloOp τ sig (Elt F)) :=
  [ StableHlo.nullary main_cst_1 (constant S_ .f32 0x00000000#32),
    StableHlo.binary main_v41 main_cst_1 main_v42 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v43 (broadcastInDim S128 ![] bcast_S_S128 : (⟨S_, .f32⟩ : BufTy).Contents (Elt F) → (⟨S128, .f32⟩ : BufTy).Contents (Elt F)),
    StableHlo.binary main_v42 main_v43 main_v44 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32) ]
theorem it9_sub : (it9 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem it9_fresh : (it9 : List (HloOp τ sig (Elt F))).Forall fun op => op.fresh = ∅ := by
  simp only [List.Forall]; repeat' constructor
/-- The buffers item 9 writes. -/
abbrev wr_it9 : List (Ref sig .tc) := [main_cst_1, main_v42, main_cst_2, main_v43, main_v44, main_c_3]
theorem it9_writes : (it9 : List (HloOp τ sig (Elt F))).Forall fun op => op.writes ⊆ ((wr_it9).map (Proc.devRef (τ := τ) .tc)).toFinset := by
  simp only [it9, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it9 (W : Valuation τ sig (Elt F)) (r : Ref sig .tc) (hr : r ∉ wr_it9) : after (it9 : List (HloOp τ sig (Elt F))) W (no_index (Proc.devRef .tc r)) = W (Proc.devRef .tc r) :=
  after_of_writes_sub it9 W (it9_writes (F := F)) hr

/-- Item 10 (stage 5). -/
abbrev it10 : List (HloOp τ sig (Elt F)) :=
  [ StableHlo.TRef.nullary main_call2.cst (constant S_ .f32 0x00000000#32),
    StableHlo.TRef.binary (.of main_v41) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v41) main_call2.v4 main_call2.v5 subf,
    StableHlo.TRef.binary main_call2.v5 main_call2.v5 main_call2.v6 mulf,
    StableHlo.TRef.unary (.of main_c_3) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32) ]
theorem it10_sub : (it10 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub ..⟩
theorem it10_fresh : (it10 : List (HloOp τ sig (Elt F))).Forall fun op => op.fresh = ∅ := by
  simp only [List.Forall]; repeat' constructor
/-- The buffers item 10 writes. -/
abbrev wr_it10 : List (Ref sig .tc) := [main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref]
theorem it10_writes : (it10 : List (HloOp τ sig (Elt F))).Forall fun op => op.writes ⊆ ((wr_it10).map (Proc.devRef (τ := τ) .tc)).toFinset := by
  simp only [it10, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it10 (W : Valuation τ sig (Elt F)) (r : Ref sig .tc) (hr : r ∉ wr_it10) : after (it10 : List (HloOp τ sig (Elt F))) W (no_index (Proc.devRef .tc r)) = W (Proc.devRef .tc r) :=
  after_of_writes_sub it10 W (it10_writes (F := F)) hr

/-- Item 11 (stage 5). -/
abbrev it11 : List (HloOp τ sig (Elt F)) :=
  [ StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]
theorem it11_sub : (it11 : List (HloOp τ sig (Elt F))).Forall fun op => op.bufs ⊆ tcRefs τ sig :=
  ⟨unary_bufs_sub .., unary_bufs_sub .., ternary_bufs_sub ..⟩
theorem it11_fresh : (it11 : List (HloOp τ sig (Elt F))).Forall fun op => op.fresh = ∅ := by
  simp only [List.Forall]; repeat' constructor
/-- The buffers item 11 writes. -/
abbrev wr_it11 : List (Ref sig .tc) := [main_call2.call0.v0.ref, main_call2.call0.v1.ref, main_call2.call0.v2.ref]
theorem it11_writes : (it11 : List (HloOp τ sig (Elt F))).Forall fun op => op.writes ⊆ ((wr_it11).map (Proc.devRef (τ := τ) .tc)).toFinset := by
  simp only [it11, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it11 (W : Valuation τ sig (Elt F)) (r : Ref sig .tc) (hr : r ∉ wr_it11) : after (it11 : List (HloOp τ sig (Elt F))) W (no_index (Proc.devRef .tc r)) = W (Proc.devRef .tc r) :=
  after_of_writes_sub it11 W (it11_writes (F := F)) hr

/-- Item 12 (stage 6). -/
abbrev it12 : List (HloOp τ sig (Elt F)) :=
  [ StableHlo.unary main_arg10 main_v46 ((extractStridedSlice S1x128 ![0, 0] · slices_S2x128_S1x128_0_0) : (⟨S2x128, .f32⟩ : BufTy).Contents (Elt F) → (⟨S1x128, .f32⟩ : BufTy).Contents (Elt F)),
    StableHlo.reshape main_v46 main_v47 rfl shapeCasts_S1x128_S128,
    StableHlo.unary main_v44 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v49 main_v50 (subf : (⟨S50000x128, .f32⟩ : BufTy).Contents (Elt F) → (⟨S50000x128, .f32⟩ : BufTy).Contents (Elt F) → (⟨S50000x128, .f32⟩ : BufTy).Contents (Elt F)),
    StableHlo.unary main_v47 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v50 main_v53 (mulf : (⟨S50000x128, .f32⟩ : BufTy).Contents (Elt F) → (⟨S50000x128, .f32⟩ : BufTy).Contents (Elt F) → (⟨S50000x128, .f32⟩ : BufTy).Contents (Elt F)) ]
theorem it12_sub : (it12 : List (HloOp τ sig (Elt F))).Forall fun op => op.bufs ⊆ tcRefs τ sig :=
  ⟨unary_bufs_sub .., reshape_bufs_sub .., unary_bufs_sub .., unary_bufs_sub .., binary_bufs_sub .., unary_bufs_sub .., unary_bufs_sub .., binary_bufs_sub ..⟩
theorem it12_fresh : (it12 : List (HloOp τ sig (Elt F))).Forall fun op => op.fresh = ∅ := by
  simp only [List.Forall]; repeat' constructor
/-- The buffers item 12 writes. -/
abbrev wr_it12 : List (Ref sig .tc) := [main_v46, main_v47, main_v48, main_v49, main_v50, main_v51, main_v52, main_v53]
theorem it12_writes : (it12 : List (HloOp τ sig (Elt F))).Forall fun op => op.writes ⊆ ((wr_it12).map (Proc.devRef (τ := τ) .tc)).toFinset := by
  simp only [it12, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it12 (W : Valuation τ sig (Elt F)) (r : Ref sig .tc) (hr : r ∉ wr_it12) : after (it12 : List (HloOp τ sig (Elt F))) W (no_index (Proc.devRef .tc r)) = W (Proc.devRef .tc r) :=
  after_of_writes_sub it12 W (it12_writes (F := F)) hr

/-- Item 13 (stage 6). -/
abbrev it13 : List (HloOp τ sig (Elt F)) :=
  [ StableHlo.nullary main_cst_4 (constant S_ .f32 0x3727C5AC#32),
    StableHlo.unary main_cst_4 main_v54 (broadcastInDim S128 ![] bcast_S_S128 : (⟨S_, .f32⟩ : BufTy).Contents (Elt F) → (⟨S128, .f32⟩ : BufTy).Contents (Elt F)),
    StableHlo.binary main_v45 main_v54 main_v55 (addf : (⟨S128, .f32⟩ : BufTy).Contents (Elt F) → (⟨S128, .f32⟩ : BufTy).Contents (Elt F) → (⟨S128, .f32⟩ : BufTy).Contents (Elt F)),
    StableHlo.unary main_v55 main_v56 (Host.rsqrt : (⟨S128, .f32⟩ : BufTy).Contents (Elt F) → (⟨S128, .f32⟩ : BufTy).Contents (Elt F)),
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v58 main_v59 (mulf : (⟨S50000x128, .f32⟩ : BufTy).Contents (Elt F) → (⟨S50000x128, .f32⟩ : BufTy).Contents (Elt F) → (⟨S50000x128, .f32⟩ : BufTy).Contents (Elt F)),
    StableHlo.unary main_arg11 main_v60 ((extractStridedSlice S1x128 ![0, 0] · slices_S2x128_S1x128_0_0) : (⟨S2x128, .f32⟩ : BufTy).Contents (Elt F) → (⟨S1x128, .f32⟩ : BufTy).Contents (Elt F)),
    StableHlo.reshape main_v60 main_v61 rfl shapeCasts_S1x128_S128,
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v63 main_v64 (addf : (⟨S50000x128, .f32⟩ : BufTy).Contents (Elt F) → (⟨S50000x128, .f32⟩ : BufTy).Contents (Elt F) → (⟨S50000x128, .f32⟩ : BufTy).Contents (Elt F)) ]
theorem it13_sub : (it13 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub ..⟩
theorem it13_fresh : (it13 : List (HloOp τ sig (Elt F))).Forall fun op => op.fresh = ∅ := by
  simp only [List.Forall]; repeat' constructor
/-- The buffers item 13 writes. -/
abbrev wr_it13 : List (Ref sig .tc) := [main_cst_4, main_v54, main_v55, main_v56, main_v57, main_v58, main_v59, main_v60, main_v61, main_v62, main_v63, main_v64]
theorem it13_writes : (it13 : List (HloOp τ sig (Elt F))).Forall fun op => op.writes ⊆ ((wr_it13).map (Proc.devRef (τ := τ) .tc)).toFinset := by
  simp only [it13, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it13 (W : Valuation τ sig (Elt F)) (r : Ref sig .tc) (hr : r ∉ wr_it13) : after (it13 : List (HloOp τ sig (Elt F))) W (no_index (Proc.devRef .tc r)) = W (Proc.devRef .tc r) :=
  after_of_writes_sub it13 W (it13_writes (F := F)) hr

/-- Item 14 (stage 6). -/
abbrev it14 : List (HloOp τ sig (Elt F)) :=
  [ StableHlo.TRef.nullary main_call3.cst (constant S_ .f32 0x00000000#32),
    StableHlo.TRef.unary main_call3.cst main_call3.v0 (broadcastInDim S50000x128 ![] bcast_S_S50000x128),
    StableHlo.TRef.binary (.of main_v64) main_call3.v0 main_call3.v1 maximumf ]
theorem it14_sub : (it14 : List (HloOp τ sig (Elt F))).Forall fun op => op.bufs ⊆ tcRefs τ sig :=
  ⟨nullary_bufs_sub .., unary_bufs_sub .., binary_bufs_sub ..⟩
theorem it14_fresh : (it14 : List (HloOp τ sig (Elt F))).Forall fun op => op.fresh = ∅ := by
  simp only [List.Forall]; repeat' constructor
/-- The buffers item 14 writes. -/
abbrev wr_it14 : List (Ref sig .tc) := [main_call3.cst.ref, main_call3.v0.ref, main_call3.v1.ref]
theorem it14_writes : (it14 : List (HloOp τ sig (Elt F))).Forall fun op => op.writes ⊆ ((wr_it14).map (Proc.devRef (τ := τ) .tc)).toFinset := by
  simp only [it14, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it14 (W : Valuation τ sig (Elt F)) (r : Ref sig .tc) (hr : r ∉ wr_it14) : after (it14 : List (HloOp τ sig (Elt F))) W (no_index (Proc.devRef .tc r)) = W (Proc.devRef .tc r) :=
  after_of_writes_sub it14 W (it14_writes (F := F)) hr

/-- Item 15 (stage 6). -/
abbrev it15 : List (HloOp τ sig (Elt F)) :=
  [ StableHlo.binary main_v7 main_v65 main_v66 (addf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x3F000000#32),
    StableHlo.unary main_cst_5 main_v67 (broadcastInDim S50000x128 ![] bcast_S_S50000x128 : (⟨S_, .f32⟩ : BufTy).Contents (Elt F) → (⟨S50000x128, .f32⟩ : BufTy).Contents (Elt F)),
    StableHlo.binary main_v66 main_v67 main_v68 (mulf : (⟨S50000x128, .f32⟩ : BufTy).Contents (Elt F) → (⟨S50000x128, .f32⟩ : BufTy).Contents (Elt F) → (⟨S50000x128, .f32⟩ : BufTy).Contents (Elt F)) ]
theorem it15_sub : (it15 : List (HloOp τ sig (Elt F))).Forall fun op => op.bufs ⊆ tcRefs τ sig :=
  ⟨binary_bufs_sub .., nullary_bufs_sub .., unary_bufs_sub .., binary_bufs_sub ..⟩
theorem it15_fresh : (it15 : List (HloOp τ sig (Elt F))).Forall fun op => op.fresh = ∅ := by
  simp only [List.Forall]; repeat' constructor
/-- The buffers item 15 writes. -/
abbrev wr_it15 : List (Ref sig .tc) := [main_v66, main_cst_5, main_v67, main_v68]
theorem it15_writes : (it15 : List (HloOp τ sig (Elt F))).Forall fun op => op.writes ⊆ ((wr_it15).map (Proc.devRef (τ := τ) .tc)).toFinset := by
  simp only [it15, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it15 (W : Valuation τ sig (Elt F)) (r : Ref sig .tc) (hr : r ∉ wr_it15) : after (it15 : List (HloOp τ sig (Elt F))) W (no_index (Proc.devRef .tc r)) = W (Proc.devRef .tc r) :=
  after_of_writes_sub it15 W (it15_writes (F := F)) hr

/-- Item 16 (stage 7). -/
abbrev it16 : List (HloOp τ sig (Elt F)) :=
  [ StableHlo.nullary main_c_6 (constantI S_ 32 0#32),
    StableHlo.unary main_c_6 main_v69 (broadcastInDim S500000 ![] bcast_S_S500000 : (⟨S_, .i32⟩ : BufTy).Contents (Elt F) → (⟨S500000, .i32⟩ : BufTy).Contents (Elt F)),
    StableHlo.binary main_v1 main_v69 main_v70 (cmpi .slt : (⟨S500000, .i32⟩ : BufTy).Contents (Elt F) → (⟨S500000, .i32⟩ : BufTy).Contents (Elt F) → (⟨S500000, .i1⟩ : BufTy).Contents (Elt F)),
    StableHlo.nullary main_c_7 (constantI S_ 32 50000#32),
    StableHlo.unary main_c_7 main_v71 (broadcastInDim S500000 ![] bcast_S_S500000 : (⟨S_, .i32⟩ : BufTy).Contents (Elt F) → (⟨S500000, .i32⟩ : BufTy).Contents (Elt F)),
    StableHlo.binary main_v1 main_v71 main_v72 (addi : (⟨S500000, .i32⟩ : BufTy).Contents (Elt F) → (⟨S500000, .i32⟩ : BufTy).Contents (Elt F) → (⟨S500000, .i32⟩ : BufTy).Contents (Elt F)),
    StableHlo.ternary main_v70 main_v72 main_v1 main_v73 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v73 main_v74 (broadcastInDim S500000x1 ![0] bcast_S500000_S500000x1_0 : (⟨S500000, .i32⟩ : BufTy).Contents (Elt F) → (⟨S500000x1, .i32⟩ : BufTy).Contents (Elt F)),
    StableHlo.binary main_v68 main_v74 main_v75 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.nullary main_c_8 (constantI S_ 32 0#32),
    StableHlo.unary main_c_8 main_v76 (broadcastInDim S500000 ![] bcast_S_S500000 : (⟨S_, .i32⟩ : BufTy).Contents (Elt F) → (⟨S500000, .i32⟩ : BufTy).Contents (Elt F)),
    StableHlo.binary main_v3 main_v76 main_v77 (cmpi .slt : (⟨S500000, .i32⟩ : BufTy).Contents (Elt F) → (⟨S500000, .i32⟩ : BufTy).Contents (Elt F) → (⟨S500000, .i1⟩ : BufTy).Contents (Elt F)),
    StableHlo.nullary main_c_9 (constantI S_ 32 50000#32),
    StableHlo.unary main_c_9 main_v78 (broadcastInDim S500000 ![] bcast_S_S500000 : (⟨S_, .i32⟩ : BufTy).Contents (Elt F) → (⟨S500000, .i32⟩ : BufTy).Contents (Elt F)),
    StableHlo.binary main_v3 main_v78 main_v79 (addi : (⟨S500000, .i32⟩ : BufTy).Contents (Elt F) → (⟨S500000, .i32⟩ : BufTy).Contents (Elt F) → (⟨S500000, .i32⟩ : BufTy).Contents (Elt F)),
    StableHlo.ternary main_v77 main_v79 main_v3 main_v80 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v80 main_v81 (broadcastInDim S500000x1 ![0] bcast_S500000_S500000x1_0 : (⟨S500000, .i32⟩ : BufTy).Contents (Elt F) → (⟨S500000x1, .i32⟩ : BufTy).Contents (Elt F)),
    StableHlo.binary main_v68 main_v81 main_v82 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.nary ![main_v75, main_v82, main_v11] main_v83 (fun u => concatenate S500000x384 1 [⟨S500000x128, u 0⟩, ⟨S500000x128, u 1⟩, ⟨S500000x128, u 2⟩] concatenates_S500000x128_S500000x128_S500000x128_S500000x384_d1),
    StableHlo.unary main_arg12 main_v84 ((extractStridedSlice S1x384x128 ![0, 0, 0] · slices_S2x384x128_S1x384x128_0_0_0) : (⟨S2x384x128, .f32⟩ : BufTy).Contents (Elt F) → (⟨S1x384x128, .f32⟩ : BufTy).Contents (Elt F)),
    StableHlo.reshape main_v84 main_v85 rfl shapeCasts_S1x384x128_S384x128,
    StableHlo.binary main_v83 main_v85 main_v86 ((fun l r => Host.dotGeneral dot_S500000x384_S384x128_S500000x128_1_0_0_1_n_n none l r) : (⟨S500000x384, .f32⟩ : BufTy).Contents (Elt F) → (⟨S384x128, .f32⟩ : BufTy).Contents (Elt F) → (⟨S500000x128, .f32⟩ : BufTy).Contents (Elt F)),
    StableHlo.unary main_arg13 main_v87 ((extractStridedSlice S1x128 ![0, 0] · slices_S2x128_S1x128_0_0) : (⟨S2x128, .f32⟩ : BufTy).Contents (Elt F) → (⟨S1x128, .f32⟩ : BufTy).Contents (Elt F)),
    StableHlo.reshape main_v87 main_v88 rfl shapeCasts_S1x128_S128,
    StableHlo.unary main_v88 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S500000x128 ![0, 1] bcast_S1x128_S500000x128_0_1 : (⟨S1x128, .f32⟩ : BufTy).Contents (Elt F) → (⟨S500000x128, .f32⟩ : BufTy).Contents (Elt F)),
    StableHlo.binary main_v86 main_v90 main_v91 (addf : (⟨S500000x128, .f32⟩ : BufTy).Contents (Elt F) → (⟨S500000x128, .f32⟩ : BufTy).Contents (Elt F) → (⟨S500000x128, .f32⟩ : BufTy).Contents (Elt F)) ]
theorem it16_sub : (it16 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., reshape_bufs_sub .., binary_bufs_sub .., unary_bufs_sub .., reshape_bufs_sub .., unary_bufs_sub .., unary_bufs_sub .., binary_bufs_sub ..⟩
theorem it16_fresh : (it16 : List (HloOp τ sig (Elt F))).Forall fun op => op.fresh = ∅ := by
  simp only [List.Forall]; repeat' constructor
/-- The buffers item 16 writes. -/
abbrev wr_it16 : List (Ref sig .tc) := [main_c_6, main_v69, main_v70, main_c_7, main_v71, main_v72, main_v73, main_v74, main_v75, main_c_8, main_v76, main_v77, main_c_9, main_v78, main_v79, main_v80, main_v81, main_v82, main_v83, main_v84, main_v85, main_v86, main_v87, main_v88, main_v89, main_v90, main_v91]
theorem it16_writes : (it16 : List (HloOp τ sig (Elt F))).Forall fun op => op.writes ⊆ ((wr_it16).map (Proc.devRef (τ := τ) .tc)).toFinset := by
  simp only [it16, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it16 (W : Valuation τ sig (Elt F)) (r : Ref sig .tc) (hr : r ∉ wr_it16) : after (it16 : List (HloOp τ sig (Elt F))) W (no_index (Proc.devRef .tc r)) = W (Proc.devRef .tc r) :=
  after_of_writes_sub it16 W (it16_writes (F := F)) hr

/-- Item 17 (stage 7). -/
abbrev it17 : List (HloOp τ sig (Elt F)) :=
  [ StableHlo.TRef.nullary main_call4.cst (constant S_ .f32 0x00000000#32),
    StableHlo.TRef.unary main_call4.cst main_call4.v0 (broadcastInDim S500000x128 ![] bcast_S_S500000x128),
    StableHlo.TRef.binary (.of main_v91) main_call4.v0 main_call4.v1 maximumf ]
theorem it17_sub : (it17 : List (HloOp τ sig (Elt F))).Forall fun op => op.bufs ⊆ tcRefs τ sig :=
  ⟨nullary_bufs_sub .., unary_bufs_sub .., binary_bufs_sub ..⟩
theorem it17_fresh : (it17 : List (HloOp τ sig (Elt F))).Forall fun op => op.fresh = ∅ := by
  simp only [List.Forall]; repeat' constructor
/-- The buffers item 17 writes. -/
abbrev wr_it17 : List (Ref sig .tc) := [main_call4.cst.ref, main_call4.v0.ref, main_call4.v1.ref]
theorem it17_writes : (it17 : List (HloOp τ sig (Elt F))).Forall fun op => op.writes ⊆ ((wr_it17).map (Proc.devRef (τ := τ) .tc)).toFinset := by
  simp only [it17, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it17 (W : Valuation τ sig (Elt F)) (r : Ref sig .tc) (hr : r ∉ wr_it17) : after (it17 : List (HloOp τ sig (Elt F))) W (no_index (Proc.devRef .tc r)) = W (Proc.devRef .tc r) :=
  after_of_writes_sub it17 W (it17_writes (F := F)) hr

/-- Item 18 (stage 7). -/
abbrev it18 : List (HloOp τ sig (Elt F)) :=
  [ StableHlo.unary main_arg14 main_v93 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v93 main_v94 rfl shapeCasts_S1x128x128_S128x128,
    StableHlo.binary main_v92 main_v94 main_v95 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.unary main_arg15 main_v96 ((extractStridedSlice S1x128 ![0, 0] · slices_S2x128_S1x128_0_0) : (⟨S2x128, .f32⟩ : BufTy).Contents (Elt F) → (⟨S1x128, .f32⟩ : BufTy).Contents (Elt F)),
    StableHlo.reshape main_v96 main_v97 rfl shapeCasts_S1x128_S128,
    StableHlo.unary main_v97 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S500000x128 ![0, 1] bcast_S1x128_S500000x128_0_1 : (⟨S1x128, .f32⟩ : BufTy).Contents (Elt F) → (⟨S500000x128, .f32⟩ : BufTy).Contents (Elt F)),
    StableHlo.binary main_v95 main_v99 main_v100 (addf : (⟨S500000x128, .f32⟩ : BufTy).Contents (Elt F) → (⟨S500000x128, .f32⟩ : BufTy).Contents (Elt F) → (⟨S500000x128, .f32⟩ : BufTy).Contents (Elt F)),
    StableHlo.nullary main_cst_10 (constant S_ .f32 0x3F000000#32),
    StableHlo.unary main_cst_10 main_v101 (broadcastInDim S500000x128 ![] bcast_S_S500000x128 : (⟨S_, .f32⟩ : BufTy).Contents (Elt F) → (⟨S500000x128, .f32⟩ : BufTy).Contents (Elt F)),
    StableHlo.binary main_v100 main_v101 main_v102 (mulf : (⟨S500000x128, .f32⟩ : BufTy).Contents (Elt F) → (⟨S500000x128, .f32⟩ : BufTy).Contents (Elt F) → (⟨S500000x128, .f32⟩ : BufTy).Contents (Elt F)),
    StableHlo.binary main_v11 main_v102 main_v103 (addf : (⟨S500000x128, .f32⟩ : BufTy).Contents (Elt F) → (⟨S500000x128, .f32⟩ : BufTy).Contents (Elt F) → (⟨S500000x128, .f32⟩ : BufTy).Contents (Elt F)) ]
theorem it18_sub : (it18 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub ..⟩
theorem it18_fresh : (it18 : List (HloOp τ sig (Elt F))).Forall fun op => op.fresh = ∅ := by
  simp only [List.Forall]; repeat' constructor
/-- The buffers item 18 writes. -/
abbrev wr_it18 : List (Ref sig .tc) := [main_v93, main_v94, main_v95, main_v96, main_v97, main_v98, main_v99, main_v100, main_cst_10, main_v101, main_v102, main_v103]
theorem it18_writes : (it18 : List (HloOp τ sig (Elt F))).Forall fun op => op.writes ⊆ ((wr_it18).map (Proc.devRef (τ := τ) .tc)).toFinset := by
  simp only [it18, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it18 (W : Valuation τ sig (Elt F)) (r : Ref sig .tc) (hr : r ∉ wr_it18) : after (it18 : List (HloOp τ sig (Elt F))) W (no_index (Proc.devRef .tc r)) = W (Proc.devRef .tc r) :=
  after_of_writes_sub it18 W (it18_writes (F := F)) hr

/-- Item 19 (stage 8). -/
abbrev it19 : List (HloOp τ sig (Elt F)) :=
  [ StableHlo.nullary main_c_11 (constantI S_ 32 0#32),
    StableHlo.unary main_c_11 main_v104 (broadcastInDim S500000 ![] bcast_S_S500000 : (⟨S_, .i32⟩ : BufTy).Contents (Elt F) → (⟨S500000, .i32⟩ : BufTy).Contents (Elt F)),
    StableHlo.binary main_v1 main_v104 main_v105 (cmpi .slt : (⟨S500000, .i32⟩ : BufTy).Contents (Elt F) → (⟨S500000, .i32⟩ : BufTy).Contents (Elt F) → (⟨S500000, .i1⟩ : BufTy).Contents (Elt F)) ]
theorem it19_sub : (it19 : List (HloOp τ sig (Elt F))).Forall fun op => op.bufs ⊆ tcRefs τ sig :=
  ⟨nullary_bufs_sub .., unary_bufs_sub .., binary_bufs_sub ..⟩
theorem it19_fresh : (it19 : List (HloOp τ sig (Elt F))).Forall fun op => op.fresh = ∅ := by
  simp only [List.Forall]; repeat' constructor
/-- The buffers item 19 writes. -/
abbrev wr_it19 : List (Ref sig .tc) := [main_c_11, main_v104, main_v105]
theorem it19_writes : (it19 : List (HloOp τ sig (Elt F))).Forall fun op => op.writes ⊆ ((wr_it19).map (Proc.devRef (τ := τ) .tc)).toFinset := by
  simp only [it19, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it19 (W : Valuation τ sig (Elt F)) (r : Ref sig .tc) (hr : r ∉ wr_it19) : after (it19 : List (HloOp τ sig (Elt F))) W (no_index (Proc.devRef .tc r)) = W (Proc.devRef .tc r) :=
  after_of_writes_sub it19 W (it19_writes (F := F)) hr

/-- Item 20 (stage 8). -/
abbrev it20 : List (HloOp τ sig (Elt F)) :=
  [ StableHlo.nullary main_c_12 (constantI S_ 32 50000#32),
    StableHlo.unary main_c_12 main_v106 (broadcastInDim S500000 ![] bcast_S_S500000 : (⟨S_, .i32⟩ : BufTy).Contents (Elt F) → (⟨S500000, .i32⟩ : BufTy).Contents (Elt F)),
    StableHlo.binary main_v1 main_v106 main_v107 (addi : (⟨S500000, .i32⟩ : BufTy).Contents (Elt F) → (⟨S500000, .i32⟩ : BufTy).Contents (Elt F) → (⟨S500000, .i32⟩ : BufTy).Contents (Elt F)),
    StableHlo.ternary main_v105 main_v107 main_v1 main_v108 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v108 main_v109 (broadcastInDim S500000x1 ![0] bcast_S500000_S500000x1_0 : (⟨S500000, .i32⟩ : BufTy).Contents (Elt F) → (⟨S500000x1, .i32⟩ : BufTy).Contents (Elt F)),
    StableHlo.binary main_v68 main_v109 main_v110 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.binary main_v110 main_v103 main_v111 (addf : (⟨S500000x128, .f32⟩ : BufTy).Contents (Elt F) → (⟨S500000x128, .f32⟩ : BufTy).Contents (Elt F) → (⟨S500000x128, .f32⟩ : BufTy).Contents (Elt F)) ]
theorem it20_sub : (it20 : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub ..⟩
theorem it20_fresh : (it20 : List (HloOp τ sig (Elt F))).Forall fun op => op.fresh = ∅ := by
  simp only [List.Forall]; repeat' constructor
/-- The buffers item 20 writes. -/
abbrev wr_it20 : List (Ref sig .tc) := [main_c_12, main_v106, main_v107, main_v108, main_v109, main_v110, main_v111]
theorem it20_writes : (it20 : List (HloOp τ sig (Elt F))).Forall fun op => op.writes ⊆ ((wr_it20).map (Proc.devRef (τ := τ) .tc)).toFinset := by
  simp only [it20, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it20 (W : Valuation τ sig (Elt F)) (r : Ref sig .tc) (hr : r ∉ wr_it20) : after (it20 : List (HloOp τ sig (Elt F))) W (no_index (Proc.devRef .tc r)) = W (Proc.devRef .tc r) :=
  after_of_writes_sub it20 W (it20_writes (F := F)) hr

/-- Item 21 (stage 8). -/
abbrev it21 : List (HloOp τ sig (Elt F)) :=
  [ StableHlo.TRef.nullary main_call5.cst (constant S_ .f32 0x00000000#32),
    StableHlo.TRef.unary main_call5.cst main_call5.v0 (broadcastInDim S500000x128 ![] bcast_S_S500000x128),
    StableHlo.TRef.binary (.of main_v111) main_call5.v0 main_call5.v1 maximumf ]
theorem it21_sub : (it21 : List (HloOp τ sig (Elt F))).Forall fun op => op.bufs ⊆ tcRefs τ sig :=
  ⟨nullary_bufs_sub .., unary_bufs_sub .., binary_bufs_sub ..⟩
theorem it21_fresh : (it21 : List (HloOp τ sig (Elt F))).Forall fun op => op.fresh = ∅ := by
  simp only [List.Forall]; repeat' constructor
/-- The buffers item 21 writes. -/
abbrev wr_it21 : List (Ref sig .tc) := [main_call5.cst.ref, main_call5.v0.ref, main_call5.v1.ref]
theorem it21_writes : (it21 : List (HloOp τ sig (Elt F))).Forall fun op => op.writes ⊆ ((wr_it21).map (Proc.devRef (τ := τ) .tc)).toFinset := by
  simp only [it21, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it21 (W : Valuation τ sig (Elt F)) (r : Ref sig .tc) (hr : r ∉ wr_it21) : after (it21 : List (HloOp τ sig (Elt F))) W (no_index (Proc.devRef .tc r)) = W (Proc.devRef .tc r) :=
  after_of_writes_sub it21 W (it21_writes (F := F)) hr

/-- Item 22 (stage 8). -/
abbrev it22 : List (HloOp τ sig (Elt F)) :=
  [ StableHlo.nullary main_cst_13 (constant S_ .f32 0x00000000#32),
    StableHlo.unary main_cst_13 main_v113 (broadcastInDim S50000x128 ![] bcast_S_S50000x128 : (⟨S_, .f32⟩ : BufTy).Contents (Elt F) → (⟨S50000x128, .f32⟩ : BufTy).Contents (Elt F)),
    StableHlo.unary main_v3 main_v114 (broadcastInDim S500000x1 ![0] bcast_S500000_S500000x1_0 : (⟨S500000, .i32⟩ : BufTy).Contents (Elt F) → (⟨S500000x1, .i32⟩ : BufTy).Contents (Elt F)),
    StableHlo.ternary main_v113 main_v114 main_v112 main_v115 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) ]
theorem it22_sub : (it22 : List (HloOp τ sig (Elt F))).Forall fun op => op.bufs ⊆ tcRefs τ sig :=
  ⟨nullary_bufs_sub .., unary_bufs_sub .., unary_bufs_sub .., ternary_bufs_sub ..⟩
theorem it22_fresh : (it22 : List (HloOp τ sig (Elt F))).Forall fun op => op.fresh = ∅ := by
  simp only [List.Forall]; repeat' constructor
/-- The buffers item 22 writes. -/
abbrev wr_it22 : List (Ref sig .tc) := [main_cst_13, main_v113, main_v114, main_v115]
theorem it22_writes : (it22 : List (HloOp τ sig (Elt F))).Forall fun op => op.writes ⊆ ((wr_it22).map (Proc.devRef (τ := τ) .tc)).toFinset := by
  simp only [it22, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it22 (W : Valuation τ sig (Elt F)) (r : Ref sig .tc) (hr : r ∉ wr_it22) : after (it22 : List (HloOp τ sig (Elt F))) W (no_index (Proc.devRef .tc r)) = W (Proc.devRef .tc r) :=
  after_of_writes_sub it22 W (it22_writes (F := F)) hr

/-- Item 23 (stage 9). -/
abbrev it23 : List (HloOp τ sig (Elt F)) :=
  [ StableHlo.binary main_v68 main_v115 main_v116 (addf : (⟨S50000x128, .f32⟩ : BufTy).Contents (Elt F) → (⟨S50000x128, .f32⟩ : BufTy).Contents (Elt F) → (⟨S50000x128, .f32⟩ : BufTy).Contents (Elt F)),
    StableHlo.unary main_arg6 main_v117 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v117 main_v118 rfl shapeCasts_S1x128x128_S128x128,
    StableHlo.binary main_v116 main_v118 main_v119 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v120 ((extractStridedSlice S1x128 ![1, 0] · slices_S2x128_S1x128_1_0) : (⟨S2x128, .f32⟩ : BufTy).Contents (Elt F) → (⟨S1x128, .f32⟩ : BufTy).Contents (Elt F)),
    StableHlo.reshape main_v120 main_v121 rfl shapeCasts_S1x128_S128,
    StableHlo.unary main_v121 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S50000x128 ![0, 1] bcast_S1x128_S50000x128_0_1 : (⟨S1x128, .f32⟩ : BufTy).Contents (Elt F) → (⟨S50000x128, .f32⟩ : BufTy).Contents (Elt F)),
    StableHlo.binary main_v119 main_v123 main_v124 (addf : (⟨S50000x128, .f32⟩ : BufTy).Contents (Elt F) → (⟨S50000x128, .f32⟩ : BufTy).Contents (Elt F) → (⟨S50000x128, .f32⟩ : BufTy).Contents (Elt F)) ]
theorem it23_sub : (it23 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub ..⟩
theorem it23_fresh : (it23 : List (HloOp τ sig (Elt F))).Forall fun op => op.fresh = ∅ := by
  simp only [List.Forall]; repeat' constructor
/-- The buffers item 23 writes. -/
abbrev wr_it23 : List (Ref sig .tc) := [main_v116, main_v117, main_v118, main_v119, main_v120, main_v121, main_v122, main_v123, main_v124]
theorem it23_writes : (it23 : List (HloOp τ sig (Elt F))).Forall fun op => op.writes ⊆ ((wr_it23).map (Proc.devRef (τ := τ) .tc)).toFinset := by
  simp only [it23, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it23 (W : Valuation τ sig (Elt F)) (r : Ref sig .tc) (hr : r ∉ wr_it23) : after (it23 : List (HloOp τ sig (Elt F))) W (no_index (Proc.devRef .tc r)) = W (Proc.devRef .tc r) :=
  after_of_writes_sub it23 W (it23_writes (F := F)) hr

/-- Item 24 (stage 9). -/
abbrev it24 : List (HloOp τ sig (Elt F)) :=
  [ StableHlo.TRef.nullary main_call6.cst (constant S_ .f32 0x00000000#32),
    StableHlo.TRef.unary main_call6.cst main_call6.v0 (broadcastInDim S50000x128 ![] bcast_S_S50000x128),
    StableHlo.TRef.binary (.of main_v124) main_call6.v0 main_call6.v1 maximumf ]
theorem it24_sub : (it24 : List (HloOp τ sig (Elt F))).Forall fun op => op.bufs ⊆ tcRefs τ sig :=
  ⟨nullary_bufs_sub .., unary_bufs_sub .., binary_bufs_sub ..⟩
theorem it24_fresh : (it24 : List (HloOp τ sig (Elt F))).Forall fun op => op.fresh = ∅ := by
  simp only [List.Forall]; repeat' constructor
/-- The buffers item 24 writes. -/
abbrev wr_it24 : List (Ref sig .tc) := [main_call6.cst.ref, main_call6.v0.ref, main_call6.v1.ref]
theorem it24_writes : (it24 : List (HloOp τ sig (Elt F))).Forall fun op => op.writes ⊆ ((wr_it24).map (Proc.devRef (τ := τ) .tc)).toFinset := by
  simp only [it24, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it24 (W : Valuation τ sig (Elt F)) (r : Ref sig .tc) (hr : r ∉ wr_it24) : after (it24 : List (HloOp τ sig (Elt F))) W (no_index (Proc.devRef .tc r)) = W (Proc.devRef .tc r) :=
  after_of_writes_sub it24 W (it24_writes (F := F)) hr

/-- Item 25 (stage 9). -/
abbrev it25 : List (HloOp τ sig (Elt F)) :=
  [ StableHlo.unary main_arg8 main_v126 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v126 main_v127 rfl shapeCasts_S1x128x128_S128x128,
    StableHlo.binary main_v125 main_v127 main_v128 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v129 ((extractStridedSlice S1x128 ![1, 0] · slices_S2x128_S1x128_1_0) : (⟨S2x128, .f32⟩ : BufTy).Contents (Elt F) → (⟨S1x128, .f32⟩ : BufTy).Contents (Elt F)),
    StableHlo.reshape main_v129 main_v130 rfl shapeCasts_S1x128_S128,
    StableHlo.unary main_v130 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S50000x128 ![0, 1] bcast_S1x128_S50000x128_0_1 : (⟨S1x128, .f32⟩ : BufTy).Contents (Elt F) → (⟨S50000x128, .f32⟩ : BufTy).Contents (Elt F)),
    StableHlo.binary main_v128 main_v132 main_v133 (addf : (⟨S50000x128, .f32⟩ : BufTy).Contents (Elt F) → (⟨S50000x128, .f32⟩ : BufTy).Contents (Elt F) → (⟨S50000x128, .f32⟩ : BufTy).Contents (Elt F)) ]
theorem it25_sub : (it25 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
theorem it25_fresh : (it25 : List (HloOp τ sig (Elt F))).Forall fun op => op.fresh = ∅ := by
  simp only [List.Forall]; repeat' constructor
/-- The buffers item 25 writes. -/
abbrev wr_it25 : List (Ref sig .tc) := [main_v126, main_v127, main_v128, main_v129, main_v130, main_v131, main_v132, main_v133]
theorem it25_writes : (it25 : List (HloOp τ sig (Elt F))).Forall fun op => op.writes ⊆ ((wr_it25).map (Proc.devRef (τ := τ) .tc)).toFinset := by
  simp only [it25, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it25 (W : Valuation τ sig (Elt F)) (r : Ref sig .tc) (hr : r ∉ wr_it25) : after (it25 : List (HloOp τ sig (Elt F))) W (no_index (Proc.devRef .tc r)) = W (Proc.devRef .tc r) :=
  after_of_writes_sub it25 W (it25_writes (F := F)) hr

/-- Item 26 (stage 10). -/
abbrev it26 : List (HloOp τ sig (Elt F)) :=
  [ StableHlo.nullary main_cst_14 (constant S_ .f32 0x00000000#32),
    StableHlo.binary main_v133 main_cst_14 main_v134 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v135 (broadcastInDim S128 ![] bcast_S_S128 : (⟨S_, .f32⟩ : BufTy).Contents (Elt F) → (⟨S128, .f32⟩ : BufTy).Contents (Elt F)),
    StableHlo.binary main_v134 main_v135 main_v136 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32) ]
theorem it26_sub : (it26 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem it26_fresh : (it26 : List (HloOp τ sig (Elt F))).Forall fun op => op.fresh = ∅ := by
  simp only [List.Forall]; repeat' constructor
/-- The buffers item 26 writes. -/
abbrev wr_it26 : List (Ref sig .tc) := [main_cst_14, main_v134, main_cst_15, main_v135, main_v136, main_c_16]
theorem it26_writes : (it26 : List (HloOp τ sig (Elt F))).Forall fun op => op.writes ⊆ ((wr_it26).map (Proc.devRef (τ := τ) .tc)).toFinset := by
  simp only [it26, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it26 (W : Valuation τ sig (Elt F)) (r : Ref sig .tc) (hr : r ∉ wr_it26) : after (it26 : List (HloOp τ sig (Elt F))) W (no_index (Proc.devRef .tc r)) = W (Proc.devRef .tc r) :=
  after_of_writes_sub it26 W (it26_writes (F := F)) hr

/-- Item 27 (stage 10). -/
abbrev it27 : List (HloOp τ sig (Elt F)) :=
  [ StableHlo.TRef.nullary main_call7.cst (constant S_ .f32 0x00000000#32),
    StableHlo.TRef.binary (.of main_v133) main_call7.cst main_call7.v0 (fun x v => Host.reduceAdd x v reducesTo_S50000x128_S128_d0 h_S_),
    StableHlo.TRef.unary main_call7.v0 main_call7.v1 (broadcastInDim S1x128 ![1] bcast_S128_S1x128_1),
    StableHlo.TRef.nullary main_call7.cst_0 (constant S_ .f32 0x47435000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S50000x128 ![0, 1] bcast_S1x128_S50000x128_0_1),
    StableHlo.TRef.binary (.of main_v133) main_call7.v4 main_call7.v5 subf,
    StableHlo.TRef.binary main_call7.v5 main_call7.v5 main_call7.v6 mulf,
    StableHlo.TRef.unary (.of main_c_16) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32) ]
theorem it27_sub : (it27 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub ..⟩
theorem it27_fresh : (it27 : List (HloOp τ sig (Elt F))).Forall fun op => op.fresh = ∅ := by
  simp only [List.Forall]; repeat' constructor
/-- The buffers item 27 writes. -/
abbrev wr_it27 : List (Ref sig .tc) := [main_call7.cst.ref, main_call7.v0.ref, main_call7.v1.ref, main_call7.cst_0.ref, main_call7.v2.ref, main_call7.v3.ref, main_call7.v4.ref, main_call7.v5.ref, main_call7.v6.ref, main_call7.v7.ref, main_call7.cst_1.ref, main_call7.v8.ref, main_call7.cst_2.ref, main_call7.v9.ref, main_call7.v10.ref, main_call7.v11.ref, main_call7.cst_3.ref, main_call7.v12.ref, main_call7.cst_4.ref]
theorem it27_writes : (it27 : List (HloOp τ sig (Elt F))).Forall fun op => op.writes ⊆ ((wr_it27).map (Proc.devRef (τ := τ) .tc)).toFinset := by
  simp only [it27, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it27 (W : Valuation τ sig (Elt F)) (r : Ref sig .tc) (hr : r ∉ wr_it27) : after (it27 : List (HloOp τ sig (Elt F))) W (no_index (Proc.devRef .tc r)) = W (Proc.devRef .tc r) :=
  after_of_writes_sub it27 W (it27_writes (F := F)) hr

/-- Item 28 (stage 10). -/
abbrev it28 : List (HloOp τ sig (Elt F)) :=
  [ StableHlo.TRef.unary main_call7.cst_4 main_call7.call0.v0 id,
    StableHlo.TRef.unary main_call7.call0.v0 main_call7.call0.v1 (broadcastInDim S128 ![] bcast_S_S128),
    StableHlo.TRef.ternary main_call7.v12 main_call7.v11 main_call7.call0.v1 main_call7.call0.v2 (fun p a b => select (broadcastInDim S128 ![] bcast_S_S128 p) a b) ]
theorem it28_sub : (it28 : List (HloOp τ sig (Elt F))).Forall fun op => op.bufs ⊆ tcRefs τ sig :=
  ⟨unary_bufs_sub .., unary_bufs_sub .., ternary_bufs_sub ..⟩
theorem it28_fresh : (it28 : List (HloOp τ sig (Elt F))).Forall fun op => op.fresh = ∅ := by
  simp only [List.Forall]; repeat' constructor
/-- The buffers item 28 writes. -/
abbrev wr_it28 : List (Ref sig .tc) := [main_call7.call0.v0.ref, main_call7.call0.v1.ref, main_call7.call0.v2.ref]
theorem it28_writes : (it28 : List (HloOp τ sig (Elt F))).Forall fun op => op.writes ⊆ ((wr_it28).map (Proc.devRef (τ := τ) .tc)).toFinset := by
  simp only [it28, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it28 (W : Valuation τ sig (Elt F)) (r : Ref sig .tc) (hr : r ∉ wr_it28) : after (it28 : List (HloOp τ sig (Elt F))) W (no_index (Proc.devRef .tc r)) = W (Proc.devRef .tc r) :=
  after_of_writes_sub it28 W (it28_writes (F := F)) hr

/-- Item 29 (stage 11). -/
abbrev it29 : List (HloOp τ sig (Elt F)) :=
  [ StableHlo.unary main_arg10 main_v138 ((extractStridedSlice S1x128 ![1, 0] · slices_S2x128_S1x128_1_0) : (⟨S2x128, .f32⟩ : BufTy).Contents (Elt F) → (⟨S1x128, .f32⟩ : BufTy).Contents (Elt F)),
    StableHlo.reshape main_v138 main_v139 rfl shapeCasts_S1x128_S128,
    StableHlo.unary main_v136 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S50000x128 ![0, 1] bcast_S1x128_S50000x128_0_1 : (⟨S1x128, .f32⟩ : BufTy).Contents (Elt F) → (⟨S50000x128, .f32⟩ : BufTy).Contents (Elt F)),
    StableHlo.binary main_v133 main_v141 main_v142 (subf : (⟨S50000x128, .f32⟩ : BufTy).Contents (Elt F) → (⟨S50000x128, .f32⟩ : BufTy).Contents (Elt F) → (⟨S50000x128, .f32⟩ : BufTy).Contents (Elt F)),
    StableHlo.unary main_v139 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S50000x128 ![0, 1] bcast_S1x128_S50000x128_0_1 : (⟨S1x128, .f32⟩ : BufTy).Contents (Elt F) → (⟨S50000x128, .f32⟩ : BufTy).Contents (Elt F)),
    StableHlo.binary main_v144 main_v142 main_v145 (mulf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v146 (broadcastInDim S128 ![] bcast_S_S128 : (⟨S_, .f32⟩ : BufTy).Contents (Elt F) → (⟨S128, .f32⟩ : BufTy).Contents (Elt F)),
    StableHlo.binary main_v137 main_v146 main_v147 (addf : (⟨S128, .f32⟩ : BufTy).Contents (Elt F) → (⟨S128, .f32⟩ : BufTy).Contents (Elt F) → (⟨S128, .f32⟩ : BufTy).Contents (Elt F)),
    StableHlo.unary main_v147 main_v148 (Host.rsqrt : (⟨S128, .f32⟩ : BufTy).Contents (Elt F) → (⟨S128, .f32⟩ : BufTy).Contents (Elt F)),
    StableHlo.unary main_v148 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S50000x128 ![0, 1] bcast_S1x128_S50000x128_0_1 : (⟨S1x128, .f32⟩ : BufTy).Contents (Elt F) → (⟨S50000x128, .f32⟩ : BufTy).Contents (Elt F)),
    StableHlo.binary main_v145 main_v150 main_v151 (mulf : (⟨S50000x128, .f32⟩ : BufTy).Contents (Elt F) → (⟨S50000x128, .f32⟩ : BufTy).Contents (Elt F) → (⟨S50000x128, .f32⟩ : BufTy).Contents (Elt F)),
    StableHlo.unary main_arg11 main_v152 ((extractStridedSlice S1x128 ![1, 0] · slices_S2x128_S1x128_1_0) : (⟨S2x128, .f32⟩ : BufTy).Contents (Elt F) → (⟨S1x128, .f32⟩ : BufTy).Contents (Elt F)),
    StableHlo.reshape main_v152 main_v153 rfl shapeCasts_S1x128_S128,
    StableHlo.unary main_v153 main_v154 (broadcastInDim S1x128 ![1] bcast_S128_S1x128_1 : (⟨S128, .f32⟩ : BufTy).Contents (Elt F) → (⟨S1x128, .f32⟩ : BufTy).Contents (Elt F)),
    StableHlo.unary main_v154 main_v155 (broadcastInDim S50000x128 ![0, 1] bcast_S1x128_S50000x128_0_1 : (⟨S1x128, .f32⟩ : BufTy).Contents (Elt F) → (⟨S50000x128, .f32⟩ : BufTy).Contents (Elt F)),
    StableHlo.binary main_v151 main_v155 main_v156 (addf : (⟨S50000x128, .f32⟩ : BufTy).Contents (Elt F) → (⟨S50000x128, .f32⟩ : BufTy).Contents (Elt F) → (⟨S50000x128, .f32⟩ : BufTy).Contents (Elt F)) ]
theorem it29_sub : (it29 : List (HloOp τ sig (Elt F))).Forall fun op => op.bufs ⊆ tcRefs τ sig :=
  ⟨unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub ..⟩
theorem it29_fresh : (it29 : List (HloOp τ sig (Elt F))).Forall fun op => op.fresh = ∅ := by
  simp only [List.Forall]; repeat' constructor
/-- The buffers item 29 writes. -/
abbrev wr_it29 : List (Ref sig .tc) := [main_v138, main_v139, main_v140, main_v141, main_v142, main_v143, main_v144, main_v145, main_cst_17, main_v146, main_v147, main_v148, main_v149, main_v150, main_v151, main_v152, main_v153, main_v154, main_v155, main_v156]
theorem it29_writes : (it29 : List (HloOp τ sig (Elt F))).Forall fun op => op.writes ⊆ ((wr_it29).map (Proc.devRef (τ := τ) .tc)).toFinset := by
  simp only [it29, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it29 (W : Valuation τ sig (Elt F)) (r : Ref sig .tc) (hr : r ∉ wr_it29) : after (it29 : List (HloOp τ sig (Elt F))) W (no_index (Proc.devRef .tc r)) = W (Proc.devRef .tc r) :=
  after_of_writes_sub it29 W (it29_writes (F := F)) hr

/-- Item 30 (stage 11). -/
abbrev it30 : List (HloOp τ sig (Elt F)) :=
  [ StableHlo.TRef.nullary main_call8.cst (constant S_ .f32 0x00000000#32),
    StableHlo.TRef.unary main_call8.cst main_call8.v0 (broadcastInDim S50000x128 ![] bcast_S_S50000x128),
    StableHlo.TRef.binary (.of main_v156) main_call8.v0 main_call8.v1 maximumf ]
theorem it30_sub : (it30 : List (HloOp τ sig (Elt F))).Forall fun op => op.bufs ⊆ tcRefs τ sig :=
  ⟨nullary_bufs_sub .., unary_bufs_sub .., binary_bufs_sub ..⟩
theorem it30_fresh : (it30 : List (HloOp τ sig (Elt F))).Forall fun op => op.fresh = ∅ := by
  simp only [List.Forall]; repeat' constructor
/-- The buffers item 30 writes. -/
abbrev wr_it30 : List (Ref sig .tc) := [main_call8.cst.ref, main_call8.v0.ref, main_call8.v1.ref]
theorem it30_writes : (it30 : List (HloOp τ sig (Elt F))).Forall fun op => op.writes ⊆ ((wr_it30).map (Proc.devRef (τ := τ) .tc)).toFinset := by
  simp only [it30, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it30 (W : Valuation τ sig (Elt F)) (r : Ref sig .tc) (hr : r ∉ wr_it30) : after (it30 : List (HloOp τ sig (Elt F))) W (no_index (Proc.devRef .tc r)) = W (Proc.devRef .tc r) :=
  after_of_writes_sub it30 W (it30_writes (F := F)) hr

/-- Item 31 (stage 11). -/
abbrev it31 : List (HloOp τ sig (Elt F)) :=
  [ StableHlo.binary main_v68 main_v157 main_v158 (addf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3F000000#32) ]
theorem it31_sub : (it31 : List (HloOp τ sig (Elt F))).Forall fun op => op.bufs ⊆ tcRefs τ sig :=
  ⟨binary_bufs_sub .., nullary_bufs_sub ..⟩
theorem it31_fresh : (it31 : List (HloOp τ sig (Elt F))).Forall fun op => op.fresh = ∅ := by
  simp only [List.Forall]; repeat' constructor
/-- The buffers item 31 writes. -/
abbrev wr_it31 : List (Ref sig .tc) := [main_v158, main_cst_18]
theorem it31_writes : (it31 : List (HloOp τ sig (Elt F))).Forall fun op => op.writes ⊆ ((wr_it31).map (Proc.devRef (τ := τ) .tc)).toFinset := by
  simp only [it31, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it31 (W : Valuation τ sig (Elt F)) (r : Ref sig .tc) (hr : r ∉ wr_it31) : after (it31 : List (HloOp τ sig (Elt F))) W (no_index (Proc.devRef .tc r)) = W (Proc.devRef .tc r) :=
  after_of_writes_sub it31 W (it31_writes (F := F)) hr

/-- Item 32 (stage 11). -/
abbrev it32 : List (HloOp τ sig (Elt F)) :=
  [ StableHlo.unary main_cst_18 main_v159 (broadcastInDim S50000x128 ![] bcast_S_S50000x128 : (⟨S_, .f32⟩ : BufTy).Contents (Elt F) → (⟨S50000x128, .f32⟩ : BufTy).Contents (Elt F)),
    StableHlo.binary main_v158 main_v159 main_v160 (mulf : (⟨S50000x128, .f32⟩ : BufTy).Contents (Elt F) → (⟨S50000x128, .f32⟩ : BufTy).Contents (Elt F) → (⟨S50000x128, .f32⟩ : BufTy).Contents (Elt F)) ]
theorem it32_sub : (it32 : List (HloOp τ sig (Elt F))).Forall fun op => op.bufs ⊆ tcRefs τ sig :=
  ⟨unary_bufs_sub .., binary_bufs_sub ..⟩
theorem it32_fresh : (it32 : List (HloOp τ sig (Elt F))).Forall fun op => op.fresh = ∅ := by
  simp only [List.Forall]; repeat' constructor
/-- The buffers item 32 writes. -/
abbrev wr_it32 : List (Ref sig .tc) := [main_v159, main_v160]
theorem it32_writes : (it32 : List (HloOp τ sig (Elt F))).Forall fun op => op.writes ⊆ ((wr_it32).map (Proc.devRef (τ := τ) .tc)).toFinset := by
  simp only [it32, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it32 (W : Valuation τ sig (Elt F)) (r : Ref sig .tc) (hr : r ∉ wr_it32) : after (it32 : List (HloOp τ sig (Elt F))) W (no_index (Proc.devRef .tc r)) = W (Proc.devRef .tc r) :=
  after_of_writes_sub it32 W (it32_writes (F := F)) hr

/-- Item 33 (stage 12). -/
abbrev it33 : List (HloOp τ sig (Elt F)) :=
  [ StableHlo.nullary main_c_19 (constantI S_ 32 0#32),
    StableHlo.unary main_c_19 main_v161 (broadcastInDim S500000 ![] bcast_S_S500000 : (⟨S_, .i32⟩ : BufTy).Contents (Elt F) → (⟨S500000, .i32⟩ : BufTy).Contents (Elt F)),
    StableHlo.binary main_v1 main_v161 main_v162 (cmpi .slt : (⟨S500000, .i32⟩ : BufTy).Contents (Elt F) → (⟨S500000, .i32⟩ : BufTy).Contents (Elt F) → (⟨S500000, .i1⟩ : BufTy).Contents (Elt F)),
    StableHlo.nullary main_c_20 (constantI S_ 32 50000#32),
    StableHlo.unary main_c_20 main_v163 (broadcastInDim S500000 ![] bcast_S_S500000 : (⟨S_, .i32⟩ : BufTy).Contents (Elt F) → (⟨S500000, .i32⟩ : BufTy).Contents (Elt F)),
    StableHlo.binary main_v1 main_v163 main_v164 (addi : (⟨S500000, .i32⟩ : BufTy).Contents (Elt F) → (⟨S500000, .i32⟩ : BufTy).Contents (Elt F) → (⟨S500000, .i32⟩ : BufTy).Contents (Elt F)),
    StableHlo.ternary main_v162 main_v164 main_v1 main_v165 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v165 main_v166 (broadcastInDim S500000x1 ![0] bcast_S500000_S500000x1_0 : (⟨S500000, .i32⟩ : BufTy).Contents (Elt F) → (⟨S500000x1, .i32⟩ : BufTy).Contents (Elt F)),
    StableHlo.binary main_v160 main_v166 main_v167 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.nullary main_c_21 (constantI S_ 32 0#32),
    StableHlo.unary main_c_21 main_v168 (broadcastInDim S500000 ![] bcast_S_S500000 : (⟨S_, .i32⟩ : BufTy).Contents (Elt F) → (⟨S500000, .i32⟩ : BufTy).Contents (Elt F)),
    StableHlo.binary main_v3 main_v168 main_v169 (cmpi .slt : (⟨S500000, .i32⟩ : BufTy).Contents (Elt F) → (⟨S500000, .i32⟩ : BufTy).Contents (Elt F) → (⟨S500000, .i1⟩ : BufTy).Contents (Elt F)),
    StableHlo.nullary main_c_22 (constantI S_ 32 50000#32),
    StableHlo.unary main_c_22 main_v170 (broadcastInDim S500000 ![] bcast_S_S500000 : (⟨S_, .i32⟩ : BufTy).Contents (Elt F) → (⟨S500000, .i32⟩ : BufTy).Contents (Elt F)),
    StableHlo.binary main_v3 main_v170 main_v171 (addi : (⟨S500000, .i32⟩ : BufTy).Contents (Elt F) → (⟨S500000, .i32⟩ : BufTy).Contents (Elt F) → (⟨S500000, .i32⟩ : BufTy).Contents (Elt F)),
    StableHlo.ternary main_v169 main_v171 main_v3 main_v172 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v172 main_v173 (broadcastInDim S500000x1 ![0] bcast_S500000_S500000x1_0 : (⟨S500000, .i32⟩ : BufTy).Contents (Elt F) → (⟨S500000x1, .i32⟩ : BufTy).Contents (Elt F)),
    StableHlo.binary main_v160 main_v173 main_v174 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.nary ![main_v167, main_v174, main_v103] main_v175 (fun u => concatenate S500000x384 1 [⟨S500000x128, u 0⟩, ⟨S500000x128, u 1⟩, ⟨S500000x128, u 2⟩] concatenates_S500000x128_S500000x128_S500000x128_S500000x384_d1),
    StableHlo.unary main_arg12 main_v176 ((extractStridedSlice S1x384x128 ![1, 0, 0] · slices_S2x384x128_S1x384x128_1_0_0) : (⟨S2x384x128, .f32⟩ : BufTy).Contents (Elt F) → (⟨S1x384x128, .f32⟩ : BufTy).Contents (Elt F)),
    StableHlo.reshape main_v176 main_v177 rfl shapeCasts_S1x384x128_S384x128,
    StableHlo.binary main_v175 main_v177 main_v178 ((fun l r => Host.dotGeneral dot_S500000x384_S384x128_S500000x128_1_0_0_1_n_n none l r) : (⟨S500000x384, .f32⟩ : BufTy).Contents (Elt F) → (⟨S384x128, .f32⟩ : BufTy).Contents (Elt F) → (⟨S500000x128, .f32⟩ : BufTy).Contents (Elt F)),
    StableHlo.unary main_arg13 main_v179 ((extractStridedSlice S1x128 ![1, 0] · slices_S2x128_S1x128_1_0) : (⟨S2x128, .f32⟩ : BufTy).Contents (Elt F) → (⟨S1x128, .f32⟩ : BufTy).Contents (Elt F)),
    StableHlo.reshape main_v179 main_v180 rfl shapeCasts_S1x128_S128,
    StableHlo.unary main_v180 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S500000x128 ![0, 1] bcast_S1x128_S500000x128_0_1 : (⟨S1x128, .f32⟩ : BufTy).Contents (Elt F) → (⟨S500000x128, .f32⟩ : BufTy).Contents (Elt F)),
    StableHlo.binary main_v178 main_v182 main_v183 (addf : (⟨S500000x128, .f32⟩ : BufTy).Contents (Elt F) → (⟨S500000x128, .f32⟩ : BufTy).Contents (Elt F) → (⟨S500000x128, .f32⟩ : BufTy).Contents (Elt F)) ]
theorem it33_sub : (it33 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., reshape_bufs_sub .., binary_bufs_sub .., unary_bufs_sub .., reshape_bufs_sub .., unary_bufs_sub .., unary_bufs_sub .., binary_bufs_sub ..⟩
theorem it33_fresh : (it33 : List (HloOp τ sig (Elt F))).Forall fun op => op.fresh = ∅ := by
  simp only [List.Forall]; repeat' constructor
/-- The buffers item 33 writes. -/
abbrev wr_it33 : List (Ref sig .tc) := [main_c_19, main_v161, main_v162, main_c_20, main_v163, main_v164, main_v165, main_v166, main_v167, main_c_21, main_v168, main_v169, main_c_22, main_v170, main_v171, main_v172, main_v173, main_v174, main_v175, main_v176, main_v177, main_v178, main_v179, main_v180, main_v181, main_v182, main_v183]
theorem it33_writes : (it33 : List (HloOp τ sig (Elt F))).Forall fun op => op.writes ⊆ ((wr_it33).map (Proc.devRef (τ := τ) .tc)).toFinset := by
  simp only [it33, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it33 (W : Valuation τ sig (Elt F)) (r : Ref sig .tc) (hr : r ∉ wr_it33) : after (it33 : List (HloOp τ sig (Elt F))) W (no_index (Proc.devRef .tc r)) = W (Proc.devRef .tc r) :=
  after_of_writes_sub it33 W (it33_writes (F := F)) hr

/-- Item 34 (stage 12). -/
abbrev it34 : List (HloOp τ sig (Elt F)) :=
  [ StableHlo.TRef.nullary main_call9.cst (constant S_ .f32 0x00000000#32),
    StableHlo.TRef.unary main_call9.cst main_call9.v0 (broadcastInDim S500000x128 ![] bcast_S_S500000x128),
    StableHlo.TRef.binary (.of main_v183) main_call9.v0 main_call9.v1 maximumf ]
theorem it34_sub : (it34 : List (HloOp τ sig (Elt F))).Forall fun op => op.bufs ⊆ tcRefs τ sig :=
  ⟨nullary_bufs_sub .., unary_bufs_sub .., binary_bufs_sub ..⟩
theorem it34_fresh : (it34 : List (HloOp τ sig (Elt F))).Forall fun op => op.fresh = ∅ := by
  simp only [List.Forall]; repeat' constructor
/-- The buffers item 34 writes. -/
abbrev wr_it34 : List (Ref sig .tc) := [main_call9.cst.ref, main_call9.v0.ref, main_call9.v1.ref]
theorem it34_writes : (it34 : List (HloOp τ sig (Elt F))).Forall fun op => op.writes ⊆ ((wr_it34).map (Proc.devRef (τ := τ) .tc)).toFinset := by
  simp only [it34, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it34 (W : Valuation τ sig (Elt F)) (r : Ref sig .tc) (hr : r ∉ wr_it34) : after (it34 : List (HloOp τ sig (Elt F))) W (no_index (Proc.devRef .tc r)) = W (Proc.devRef .tc r) :=
  after_of_writes_sub it34 W (it34_writes (F := F)) hr

/-- Item 35 (stage 12). -/
abbrev it35 : List (HloOp τ sig (Elt F)) :=
  [ StableHlo.unary main_arg14 main_v185 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v185 main_v186 rfl shapeCasts_S1x128x128_S128x128,
    StableHlo.binary main_v184 main_v186 main_v187 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.unary main_arg15 main_v188 ((extractStridedSlice S1x128 ![1, 0] · slices_S2x128_S1x128_1_0) : (⟨S2x128, .f32⟩ : BufTy).Contents (Elt F) → (⟨S1x128, .f32⟩ : BufTy).Contents (Elt F)),
    StableHlo.reshape main_v188 main_v189 rfl shapeCasts_S1x128_S128,
    StableHlo.unary main_v189 main_v190 (broadcastInDim S1x128 ![1] bcast_S128_S1x128_1 : (⟨S128, .f32⟩ : BufTy).Contents (Elt F) → (⟨S1x128, .f32⟩ : BufTy).Contents (Elt F)),
    StableHlo.unary main_v190 main_v191 (broadcastInDim S500000x128 ![0, 1] bcast_S1x128_S500000x128_0_1 : (⟨S1x128, .f32⟩ : BufTy).Contents (Elt F) → (⟨S500000x128, .f32⟩ : BufTy).Contents (Elt F)),
    StableHlo.binary main_v187 main_v191 main_v192 (addf : (⟨S500000x128, .f32⟩ : BufTy).Contents (Elt F) → (⟨S500000x128, .f32⟩ : BufTy).Contents (Elt F) → (⟨S500000x128, .f32⟩ : BufTy).Contents (Elt F)),
    StableHlo.nullary main_cst_23 (constant S_ .f32 0x3F000000#32),
    StableHlo.unary main_cst_23 main_v193 (broadcastInDim S500000x128 ![] bcast_S_S500000x128 : (⟨S_, .f32⟩ : BufTy).Contents (Elt F) → (⟨S500000x128, .f32⟩ : BufTy).Contents (Elt F)),
    StableHlo.binary main_v192 main_v193 main_v194 (mulf : (⟨S500000x128, .f32⟩ : BufTy).Contents (Elt F) → (⟨S500000x128, .f32⟩ : BufTy).Contents (Elt F) → (⟨S500000x128, .f32⟩ : BufTy).Contents (Elt F)),
    StableHlo.binary main_v103 main_v194 main_v195 (addf : (⟨S500000x128, .f32⟩ : BufTy).Contents (Elt F) → (⟨S500000x128, .f32⟩ : BufTy).Contents (Elt F) → (⟨S500000x128, .f32⟩ : BufTy).Contents (Elt F)) ]
theorem it35_sub : (it35 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub ..⟩
theorem it35_fresh : (it35 : List (HloOp τ sig (Elt F))).Forall fun op => op.fresh = ∅ := by
  simp only [List.Forall]; repeat' constructor
/-- The buffers item 35 writes. -/
abbrev wr_it35 : List (Ref sig .tc) := [main_v185, main_v186, main_v187, main_v188, main_v189, main_v190, main_v191, main_v192, main_cst_23, main_v193, main_v194, main_v195]
theorem it35_writes : (it35 : List (HloOp τ sig (Elt F))).Forall fun op => op.writes ⊆ ((wr_it35).map (Proc.devRef (τ := τ) .tc)).toFinset := by
  simp only [it35, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it35 (W : Valuation τ sig (Elt F)) (r : Ref sig .tc) (hr : r ∉ wr_it35) : after (it35 : List (HloOp τ sig (Elt F))) W (no_index (Proc.devRef .tc r)) = W (Proc.devRef .tc r) :=
  after_of_writes_sub it35 W (it35_writes (F := F)) hr

/-- Item 36 (stage 13). -/
abbrev it36 : List (HloOp τ sig (Elt F)) :=
  [ StableHlo.nullary main_c_24 (constantI S_ 32 0#32),
    StableHlo.unary main_c_24 main_v196 (broadcastInDim S500000 ![] bcast_S_S500000 : (⟨S_, .i32⟩ : BufTy).Contents (Elt F) → (⟨S500000, .i32⟩ : BufTy).Contents (Elt F)),
    StableHlo.binary main_v1 main_v196 main_v197 (cmpi .slt : (⟨S500000, .i32⟩ : BufTy).Contents (Elt F) → (⟨S500000, .i32⟩ : BufTy).Contents (Elt F) → (⟨S500000, .i1⟩ : BufTy).Contents (Elt F)),
    StableHlo.nullary main_c_25 (constantI S_ 32 50000#32),
    StableHlo.unary main_c_25 main_v198 (broadcastInDim S500000 ![] bcast_S_S500000 : (⟨S_, .i32⟩ : BufTy).Contents (Elt F) → (⟨S500000, .i32⟩ : BufTy).Contents (Elt F)),
    StableHlo.binary main_v1 main_v198 main_v199 (addi : (⟨S500000, .i32⟩ : BufTy).Contents (Elt F) → (⟨S500000, .i32⟩ : BufTy).Contents (Elt F) → (⟨S500000, .i32⟩ : BufTy).Contents (Elt F)),
    StableHlo.ternary main_v197 main_v199 main_v1 main_v200 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v200 main_v201 (broadcastInDim S500000x1 ![0] bcast_S500000_S500000x1_0 : (⟨S500000, .i32⟩ : BufTy).Contents (Elt F) → (⟨S500000x1, .i32⟩ : BufTy).Contents (Elt F)),
    StableHlo.binary main_v160 main_v201 main_v202 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.nullary main_c_26 (constantI S_ 32 0#32),
    StableHlo.unary main_c_26 main_v203 (broadcastInDim S500000 ![] bcast_S_S500000 : (⟨S_, .i32⟩ : BufTy).Contents (Elt F) → (⟨S500000, .i32⟩ : BufTy).Contents (Elt F)),
    StableHlo.binary main_v3 main_v203 main_v204 (cmpi .slt : (⟨S500000, .i32⟩ : BufTy).Contents (Elt F) → (⟨S500000, .i32⟩ : BufTy).Contents (Elt F) → (⟨S500000, .i1⟩ : BufTy).Contents (Elt F)),
    StableHlo.nullary main_c_27 (constantI S_ 32 50000#32),
    StableHlo.unary main_c_27 main_v205 (broadcastInDim S500000 ![] bcast_S_S500000 : (⟨S_, .i32⟩ : BufTy).Contents (Elt F) → (⟨S500000, .i32⟩ : BufTy).Contents (Elt F)),
    StableHlo.binary main_v3 main_v205 main_v206 (addi : (⟨S500000, .i32⟩ : BufTy).Contents (Elt F) → (⟨S500000, .i32⟩ : BufTy).Contents (Elt F) → (⟨S500000, .i32⟩ : BufTy).Contents (Elt F)),
    StableHlo.ternary main_v204 main_v206 main_v3 main_v207 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v207 main_v208 (broadcastInDim S500000x1 ![0] bcast_S500000_S500000x1_0 : (⟨S500000, .i32⟩ : BufTy).Contents (Elt F) → (⟨S500000x1, .i32⟩ : BufTy).Contents (Elt F)),
    StableHlo.binary main_v160 main_v208 main_v209 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)) ]
theorem it36_sub : (it36 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem it36_fresh : (it36 : List (HloOp τ sig (Elt F))).Forall fun op => op.fresh = ∅ := by
  simp only [List.Forall]; repeat' constructor
/-- The buffers item 36 writes. -/
abbrev wr_it36 : List (Ref sig .tc) := [main_c_24, main_v196, main_v197, main_c_25, main_v198, main_v199, main_v200, main_v201, main_v202, main_c_26, main_v203, main_v204, main_c_27, main_v205, main_v206, main_v207, main_v208, main_v209]
theorem it36_writes : (it36 : List (HloOp τ sig (Elt F))).Forall fun op => op.writes ⊆ ((wr_it36).map (Proc.devRef (τ := τ) .tc)).toFinset := by
  simp only [it36, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it36 (W : Valuation τ sig (Elt F)) (r : Ref sig .tc) (hr : r ∉ wr_it36) : after (it36 : List (HloOp τ sig (Elt F))) W (no_index (Proc.devRef .tc r)) = W (Proc.devRef .tc r) :=
  after_of_writes_sub it36 W (it36_writes (F := F)) hr

/-- Item 37 (stage 13). -/
abbrev it37 : List (HloOp τ sig (Elt F)) :=
  [ StableHlo.nary ![main_v202, main_v209, main_v195] main_v210 (fun u => concatenate S500000x384 1 [⟨S500000x128, u 0⟩, ⟨S500000x128, u 1⟩, ⟨S500000x128, u 2⟩] concatenates_S500000x128_S500000x128_S500000x128_S500000x384_d1),
    StableHlo.binary main_v210 main_arg16 main_v211 ((fun l r => Host.dotGeneral dot_S500000x384_S384x50_S500000x50_1_0_0_1_n_n none l r) : (⟨S500000x384, .f32⟩ : BufTy).Contents (Elt F) → (⟨S384x50, .f32⟩ : BufTy).Contents (Elt F) → (⟨S500000x50, .f32⟩ : BufTy).Contents (Elt F)),
    StableHlo.unary main_arg17 main_v212 (broadcastInDim S1x50 ![1] bcast_S50_S1x50_1 : (⟨S50, .f32⟩ : BufTy).Contents (Elt F) → (⟨S1x50, .f32⟩ : BufTy).Contents (Elt F)),
    StableHlo.unary main_v212 main_v213 (broadcastInDim S500000x50 ![0, 1] bcast_S1x50_S500000x50_0_1 : (⟨S1x50, .f32⟩ : BufTy).Contents (Elt F) → (⟨S500000x50, .f32⟩ : BufTy).Contents (Elt F)),
    StableHlo.binary main_v211 main_v213 main_v214 (addf : (⟨S500000x50, .f32⟩ : BufTy).Contents (Elt F) → (⟨S500000x50, .f32⟩ : BufTy).Contents (Elt F) → (⟨S500000x50, .f32⟩ : BufTy).Contents (Elt F)) ]
theorem it37_sub : (it37 : List (HloOp τ sig (Elt F))).Forall fun op => op.bufs ⊆ tcRefs τ sig :=
  ⟨nary_bufs_sub .., binary_bufs_sub .., unary_bufs_sub .., unary_bufs_sub .., binary_bufs_sub ..⟩
theorem it37_fresh : (it37 : List (HloOp τ sig (Elt F))).Forall fun op => op.fresh = ∅ := by
  simp only [List.Forall]; repeat' constructor
/-- The buffers item 37 writes. -/
abbrev wr_it37 : List (Ref sig .tc) := [main_v210, main_v211, main_v212, main_v213, main_v214]
theorem it37_writes : (it37 : List (HloOp τ sig (Elt F))).Forall fun op => op.writes ⊆ ((wr_it37).map (Proc.devRef (τ := τ) .tc)).toFinset := by
  simp only [it37, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it37 (W : Valuation τ sig (Elt F)) (r : Ref sig .tc) (hr : r ∉ wr_it37) : after (it37 : List (HloOp τ sig (Elt F))) W (no_index (Proc.devRef .tc r)) = W (Proc.devRef .tc r) :=
  after_of_writes_sub it37 W (it37_writes (F := F)) hr

/-- Item 38 (stage 13). -/
abbrev it38 : List (HloOp τ sig (Elt F)) :=
  [ StableHlo.TRef.nullary main_call10.cst (constant S_ .f32 0x00000000#32),
    StableHlo.TRef.unary main_call10.cst main_call10.v0 (broadcastInDim S500000x50 ![] bcast_S_S500000x50),
    StableHlo.TRef.binary (.of main_v214) main_call10.v0 main_call10.v1 maximumf ]
theorem it38_sub : (it38 : List (HloOp τ sig (Elt F))).Forall fun op => op.bufs ⊆ tcRefs τ sig :=
  ⟨nullary_bufs_sub .., unary_bufs_sub .., binary_bufs_sub ..⟩
theorem it38_fresh : (it38 : List (HloOp τ sig (Elt F))).Forall fun op => op.fresh = ∅ := by
  simp only [List.Forall]; repeat' constructor
/-- The buffers item 38 writes. -/
abbrev wr_it38 : List (Ref sig .tc) := [main_call10.cst.ref, main_call10.v0.ref, main_call10.v1.ref]
theorem it38_writes : (it38 : List (HloOp τ sig (Elt F))).Forall fun op => op.writes ⊆ ((wr_it38).map (Proc.devRef (τ := τ) .tc)).toFinset := by
  simp only [it38, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it38 (W : Valuation τ sig (Elt F)) (r : Ref sig .tc) (hr : r ∉ wr_it38) : after (it38 : List (HloOp τ sig (Elt F))) W (no_index (Proc.devRef .tc r)) = W (Proc.devRef .tc r) :=
  after_of_writes_sub it38 W (it38_writes (F := F)) hr

/-- Item 39 (stage 13). -/
abbrev it39 : List (HloOp τ sig (Elt F)) :=
  [ StableHlo.binary main_v215 main_arg18 main_v216 ((fun l r => Host.dotGeneral dot_S500000x50_S50x25_S500000x25_1_0_0_1_n_n none l r) : (⟨S500000x50, .f32⟩ : BufTy).Contents (Elt F) → (⟨S50x25, .f32⟩ : BufTy).Contents (Elt F) → (⟨S500000x25, .f32⟩ : BufTy).Contents (Elt F)),
    StableHlo.unary main_arg19 main_v217 (broadcastInDim S1x25 ![1] bcast_S25_S1x25_1 : (⟨S25, .f32⟩ : BufTy).Contents (Elt F) → (⟨S1x25, .f32⟩ : BufTy).Contents (Elt F)),
    StableHlo.unary main_v217 main_v218 (broadcastInDim S500000x25 ![0, 1] bcast_S1x25_S500000x25_0_1 : (⟨S1x25, .f32⟩ : BufTy).Contents (Elt F) → (⟨S500000x25, .f32⟩ : BufTy).Contents (Elt F)),
    StableHlo.binary main_v216 main_v218 main_v219 (addf : (⟨S500000x25, .f32⟩ : BufTy).Contents (Elt F) → (⟨S500000x25, .f32⟩ : BufTy).Contents (Elt F) → (⟨S500000x25, .f32⟩ : BufTy).Contents (Elt F)) ]
theorem it39_sub : (it39 : List (HloOp τ sig (Elt F))).Forall fun op => op.bufs ⊆ tcRefs τ sig :=
  ⟨binary_bufs_sub .., unary_bufs_sub .., unary_bufs_sub .., binary_bufs_sub ..⟩
theorem it39_fresh : (it39 : List (HloOp τ sig (Elt F))).Forall fun op => op.fresh = ∅ := by
  simp only [List.Forall]; repeat' constructor
/-- The buffers item 39 writes. -/
abbrev wr_it39 : List (Ref sig .tc) := [main_v216, main_v217, main_v218, main_v219]
theorem it39_writes : (it39 : List (HloOp τ sig (Elt F))).Forall fun op => op.writes ⊆ ((wr_it39).map (Proc.devRef (τ := τ) .tc)).toFinset := by
  simp only [it39, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it39 (W : Valuation τ sig (Elt F)) (r : Ref sig .tc) (hr : r ∉ wr_it39) : after (it39 : List (HloOp τ sig (Elt F))) W (no_index (Proc.devRef .tc r)) = W (Proc.devRef .tc r) :=
  after_of_writes_sub it39 W (it39_writes (F := F)) hr

/-- Item 40 (stage 13). -/
abbrev it40 : List (HloOp τ sig (Elt F)) :=
  [ StableHlo.TRef.nullary main_call11.cst (constant S_ .f32 0x00000000#32),
    StableHlo.TRef.unary main_call11.cst main_call11.v0 (broadcastInDim S500000x25 ![] bcast_S_S500000x25),
    StableHlo.TRef.binary (.of main_v219) main_call11.v0 main_call11.v1 maximumf ]
theorem it40_sub : (it40 : List (HloOp τ sig (Elt F))).Forall fun op => op.bufs ⊆ tcRefs τ sig :=
  ⟨nullary_bufs_sub .., unary_bufs_sub .., binary_bufs_sub ..⟩
theorem it40_fresh : (it40 : List (HloOp τ sig (Elt F))).Forall fun op => op.fresh = ∅ := by
  simp only [List.Forall]; repeat' constructor
/-- The buffers item 40 writes. -/
abbrev wr_it40 : List (Ref sig .tc) := [main_call11.cst.ref, main_call11.v0.ref, main_call11.v1.ref]
theorem it40_writes : (it40 : List (HloOp τ sig (Elt F))).Forall fun op => op.writes ⊆ ((wr_it40).map (Proc.devRef (τ := τ) .tc)).toFinset := by
  simp only [it40, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it40 (W : Valuation τ sig (Elt F)) (r : Ref sig .tc) (hr : r ∉ wr_it40) : after (it40 : List (HloOp τ sig (Elt F))) W (no_index (Proc.devRef .tc r)) = W (Proc.devRef .tc r) :=
  after_of_writes_sub it40 W (it40_writes (F := F)) hr

/-- Item 41 (stage 13). -/
abbrev it41 : List (HloOp τ sig (Elt F)) :=
  [ StableHlo.binary main_v220 main_arg20 main_v221 ((fun l r => Host.dotGeneral dot_S500000x25_S25x2_S500000x2_1_0_0_1_n_n none l r) : (⟨S500000x25, .f32⟩ : BufTy).Contents (Elt F) → (⟨S25x2, .f32⟩ : BufTy).Contents (Elt F) → (⟨S500000x2, .f32⟩ : BufTy).Contents (Elt F)),
    StableHlo.unary main_arg21 main_v222 (broadcastInDim S1x2 ![1] bcast_S2_S1x2_1 : (⟨S2, .f32⟩ : BufTy).Contents (Elt F) → (⟨S1x2, .f32⟩ : BufTy).Contents (Elt F)),
    StableHlo.unary main_v222 main_v223 (broadcastInDim S500000x2 ![0, 1] bcast_S1x2_S500000x2_0_1 : (⟨S1x2, .f32⟩ : BufTy).Contents (Elt F) → (⟨S500000x2, .f32⟩ : BufTy).Contents (Elt F)),
    StableHlo.binary main_v221 main_v223 main_v224 (addf : (⟨S500000x2, .f32⟩ : BufTy).Contents (Elt F) → (⟨S500000x2, .f32⟩ : BufTy).Contents (Elt F) → (⟨S500000x2, .f32⟩ : BufTy).Contents (Elt F)) ]
theorem it41_sub : (it41 : List (HloOp τ sig (Elt F))).Forall fun op => op.bufs ⊆ tcRefs τ sig :=
  ⟨binary_bufs_sub .., unary_bufs_sub .., unary_bufs_sub .., binary_bufs_sub ..⟩
theorem it41_fresh : (it41 : List (HloOp τ sig (Elt F))).Forall fun op => op.fresh = ∅ := by
  simp only [List.Forall]; repeat' constructor
/-- The buffers item 41 writes. -/
abbrev wr_it41 : List (Ref sig .tc) := [main_v221, main_v222, main_v223, main_v224]
theorem it41_writes : (it41 : List (HloOp τ sig (Elt F))).Forall fun op => op.writes ⊆ ((wr_it41).map (Proc.devRef (τ := τ) .tc)).toFinset := by
  simp only [it41, List.Forall, nullary_writes, unary_writes, binary_writes, ternary_writes, quaternary_writes, reshape_writes, nary_writes, Finset.singleton_subset_iff, List.mem_toFinset, List.mem_map]
  repeat' apply And.intro
  all_goals exact ⟨_, by decide, rfl⟩
theorem keep_it41 (W : Valuation τ sig (Elt F)) (r : Ref sig .tc) (hr : r ∉ wr_it41) : after (it41 : List (HloOp τ sig (Elt F))) W (no_index (Proc.devRef .tc r)) = W (Proc.devRef .tc r) :=
  after_of_writes_sub it41 W (it41_writes (F := F)) hr

/-- Stage 0's operations. -/
abbrev chunk0 : List (HloOp τ sig (Elt F)) := it0
theorem chunk0_sub : (chunk0 : List (HloOp τ sig (Elt F))).Forall fun op => op.bufs ⊆ tcRefs τ sig := it0_sub
theorem chunk0_fresh : (chunk0 : List (HloOp τ sig (Elt F))).Forall fun op => op.fresh = ∅ := it0_fresh
/-- The buffers stage 0 writes. -/
abbrev wr_chunk0 : List (Ref sig .tc) := wr_it0
theorem keep_chunk0 (W : Valuation τ sig (Elt F)) (r : Ref sig .tc) (hr : r ∉ wr_chunk0) : after (chunk0 : List (HloOp τ sig (Elt F))) W (no_index (Proc.devRef .tc r)) = W (Proc.devRef .tc r) := by
  exact keep_it0 W r hr

/-- Stage 1's operations. -/
abbrev chunk1 : List (HloOp τ sig (Elt F)) := it1
theorem chunk1_sub : (chunk1 : List (HloOp τ sig (Elt F))).Forall fun op => op.bufs ⊆ tcRefs τ sig := it1_sub
theorem chunk1_fresh : (chunk1 : List (HloOp τ sig (Elt F))).Forall fun op => op.fresh = ∅ := it1_fresh
/-- The buffers stage 1 writes. -/
abbrev wr_chunk1 : List (Ref sig .tc) := wr_it1
theorem keep_chunk1 (W : Valuation τ sig (Elt F)) (r : Ref sig .tc) (hr : r ∉ wr_chunk1) : after (chunk1 : List (HloOp τ sig (Elt F))) W (no_index (Proc.devRef .tc r)) = W (Proc.devRef .tc r) := by
  exact keep_it1 W r hr

/-- Stage 2's operations. -/
abbrev chunk2 : List (HloOp τ sig (Elt F)) := it2
theorem chunk2_sub : (chunk2 : List (HloOp τ sig (Elt F))).Forall fun op => op.bufs ⊆ tcRefs τ sig := it2_sub
theorem chunk2_fresh : (chunk2 : List (HloOp τ sig (Elt F))).Forall fun op => op.fresh = ∅ := it2_fresh
/-- The buffers stage 2 writes. -/
abbrev wr_chunk2 : List (Ref sig .tc) := wr_it2
theorem keep_chunk2 (W : Valuation τ sig (Elt F)) (r : Ref sig .tc) (hr : r ∉ wr_chunk2) : after (chunk2 : List (HloOp τ sig (Elt F))) W (no_index (Proc.devRef .tc r)) = W (Proc.devRef .tc r) := by
  exact keep_it2 W r hr

/-- Stage 3's operations. -/
abbrev chunk3 : List (HloOp τ sig (Elt F)) := it3 ++ (it4 ++ (it5))
theorem chunk3_sub : (chunk3 : List (HloOp τ sig (Elt F))).Forall fun op => op.bufs ⊆ tcRefs τ sig := forall_append it3_sub (forall_append it4_sub (it5_sub))
theorem chunk3_fresh : (chunk3 : List (HloOp τ sig (Elt F))).Forall fun op => op.fresh = ∅ := forall_append it3_fresh (forall_append it4_fresh (it5_fresh))
/-- The buffers stage 3 writes. -/
abbrev wr_chunk3 : List (Ref sig .tc) := wr_it3 ++ (wr_it4 ++ (wr_it5))
theorem keep_chunk3 (W : Valuation τ sig (Elt F)) (r : Ref sig .tc) (hr : r ∉ wr_chunk3) : after (chunk3 : List (HloOp τ sig (Elt F))) W (no_index (Proc.devRef .tc r)) = W (Proc.devRef .tc r) := by
  simp only [List.mem_append, not_or] at hr
  rw [StableHlo.after_append, StableHlo.after_append, keep_it5 _ r hr.2.2, keep_it4 _ r hr.2.1, keep_it3 _ r hr.1]

/-- Stage 4's operations. -/
abbrev chunk4 : List (HloOp τ sig (Elt F)) := it6 ++ (it7 ++ (it8))
theorem chunk4_sub : (chunk4 : List (HloOp τ sig (Elt F))).Forall fun op => op.bufs ⊆ tcRefs τ sig := forall_append it6_sub (forall_append it7_sub (it8_sub))
theorem chunk4_fresh : (chunk4 : List (HloOp τ sig (Elt F))).Forall fun op => op.fresh = ∅ := forall_append it6_fresh (forall_append it7_fresh (it8_fresh))
/-- The buffers stage 4 writes. -/
abbrev wr_chunk4 : List (Ref sig .tc) := wr_it6 ++ (wr_it7 ++ (wr_it8))
theorem keep_chunk4 (W : Valuation τ sig (Elt F)) (r : Ref sig .tc) (hr : r ∉ wr_chunk4) : after (chunk4 : List (HloOp τ sig (Elt F))) W (no_index (Proc.devRef .tc r)) = W (Proc.devRef .tc r) := by
  simp only [List.mem_append, not_or] at hr
  rw [StableHlo.after_append, StableHlo.after_append, keep_it8 _ r hr.2.2, keep_it7 _ r hr.2.1, keep_it6 _ r hr.1]

/-- Stage 5's operations. -/
abbrev chunk5 : List (HloOp τ sig (Elt F)) := it9 ++ (it10 ++ (it11))
theorem chunk5_sub : (chunk5 : List (HloOp τ sig (Elt F))).Forall fun op => op.bufs ⊆ tcRefs τ sig := forall_append it9_sub (forall_append it10_sub (it11_sub))
theorem chunk5_fresh : (chunk5 : List (HloOp τ sig (Elt F))).Forall fun op => op.fresh = ∅ := forall_append it9_fresh (forall_append it10_fresh (it11_fresh))
/-- The buffers stage 5 writes. -/
abbrev wr_chunk5 : List (Ref sig .tc) := wr_it9 ++ (wr_it10 ++ (wr_it11))
theorem keep_chunk5 (W : Valuation τ sig (Elt F)) (r : Ref sig .tc) (hr : r ∉ wr_chunk5) : after (chunk5 : List (HloOp τ sig (Elt F))) W (no_index (Proc.devRef .tc r)) = W (Proc.devRef .tc r) := by
  simp only [List.mem_append, not_or] at hr
  rw [StableHlo.after_append, StableHlo.after_append, keep_it11 _ r hr.2.2, keep_it10 _ r hr.2.1, keep_it9 _ r hr.1]

/-- Stage 6's operations. -/
abbrev chunk6 : List (HloOp τ sig (Elt F)) := it12 ++ (it13 ++ (it14 ++ (it15)))
theorem chunk6_sub : (chunk6 : List (HloOp τ sig (Elt F))).Forall fun op => op.bufs ⊆ tcRefs τ sig := forall_append it12_sub (forall_append it13_sub (forall_append it14_sub (it15_sub)))
theorem chunk6_fresh : (chunk6 : List (HloOp τ sig (Elt F))).Forall fun op => op.fresh = ∅ := forall_append it12_fresh (forall_append it13_fresh (forall_append it14_fresh (it15_fresh)))
/-- The buffers stage 6 writes. -/
abbrev wr_chunk6 : List (Ref sig .tc) := wr_it12 ++ (wr_it13 ++ (wr_it14 ++ (wr_it15)))
theorem keep_chunk6 (W : Valuation τ sig (Elt F)) (r : Ref sig .tc) (hr : r ∉ wr_chunk6) : after (chunk6 : List (HloOp τ sig (Elt F))) W (no_index (Proc.devRef .tc r)) = W (Proc.devRef .tc r) := by
  simp only [List.mem_append, not_or] at hr
  rw [StableHlo.after_append, StableHlo.after_append, StableHlo.after_append, keep_it15 _ r hr.2.2.2, keep_it14 _ r hr.2.2.1, keep_it13 _ r hr.2.1, keep_it12 _ r hr.1]

/-- Stage 7's operations. -/
abbrev chunk7 : List (HloOp τ sig (Elt F)) := it16 ++ (it17 ++ (it18))
theorem chunk7_sub : (chunk7 : List (HloOp τ sig (Elt F))).Forall fun op => op.bufs ⊆ tcRefs τ sig := forall_append it16_sub (forall_append it17_sub (it18_sub))
theorem chunk7_fresh : (chunk7 : List (HloOp τ sig (Elt F))).Forall fun op => op.fresh = ∅ := forall_append it16_fresh (forall_append it17_fresh (it18_fresh))
/-- The buffers stage 7 writes. -/
abbrev wr_chunk7 : List (Ref sig .tc) := wr_it16 ++ (wr_it17 ++ (wr_it18))
theorem keep_chunk7 (W : Valuation τ sig (Elt F)) (r : Ref sig .tc) (hr : r ∉ wr_chunk7) : after (chunk7 : List (HloOp τ sig (Elt F))) W (no_index (Proc.devRef .tc r)) = W (Proc.devRef .tc r) := by
  simp only [List.mem_append, not_or] at hr
  rw [StableHlo.after_append, StableHlo.after_append, keep_it18 _ r hr.2.2, keep_it17 _ r hr.2.1, keep_it16 _ r hr.1]

/-- Stage 8's operations. -/
abbrev chunk8 : List (HloOp τ sig (Elt F)) := it19 ++ (it20 ++ (it21 ++ (it22)))
theorem chunk8_sub : (chunk8 : List (HloOp τ sig (Elt F))).Forall fun op => op.bufs ⊆ tcRefs τ sig := forall_append it19_sub (forall_append it20_sub (forall_append it21_sub (it22_sub)))
theorem chunk8_fresh : (chunk8 : List (HloOp τ sig (Elt F))).Forall fun op => op.fresh = ∅ := forall_append it19_fresh (forall_append it20_fresh (forall_append it21_fresh (it22_fresh)))
/-- The buffers stage 8 writes. -/
abbrev wr_chunk8 : List (Ref sig .tc) := wr_it19 ++ (wr_it20 ++ (wr_it21 ++ (wr_it22)))
theorem keep_chunk8 (W : Valuation τ sig (Elt F)) (r : Ref sig .tc) (hr : r ∉ wr_chunk8) : after (chunk8 : List (HloOp τ sig (Elt F))) W (no_index (Proc.devRef .tc r)) = W (Proc.devRef .tc r) := by
  simp only [List.mem_append, not_or] at hr
  rw [StableHlo.after_append, StableHlo.after_append, StableHlo.after_append, keep_it22 _ r hr.2.2.2, keep_it21 _ r hr.2.2.1, keep_it20 _ r hr.2.1, keep_it19 _ r hr.1]

/-- Stage 9's operations. -/
abbrev chunk9 : List (HloOp τ sig (Elt F)) := it23 ++ (it24 ++ (it25))
theorem chunk9_sub : (chunk9 : List (HloOp τ sig (Elt F))).Forall fun op => op.bufs ⊆ tcRefs τ sig := forall_append it23_sub (forall_append it24_sub (it25_sub))
theorem chunk9_fresh : (chunk9 : List (HloOp τ sig (Elt F))).Forall fun op => op.fresh = ∅ := forall_append it23_fresh (forall_append it24_fresh (it25_fresh))
/-- The buffers stage 9 writes. -/
abbrev wr_chunk9 : List (Ref sig .tc) := wr_it23 ++ (wr_it24 ++ (wr_it25))
theorem keep_chunk9 (W : Valuation τ sig (Elt F)) (r : Ref sig .tc) (hr : r ∉ wr_chunk9) : after (chunk9 : List (HloOp τ sig (Elt F))) W (no_index (Proc.devRef .tc r)) = W (Proc.devRef .tc r) := by
  simp only [List.mem_append, not_or] at hr
  rw [StableHlo.after_append, StableHlo.after_append, keep_it25 _ r hr.2.2, keep_it24 _ r hr.2.1, keep_it23 _ r hr.1]

/-- Stage 10's operations. -/
abbrev chunk10 : List (HloOp τ sig (Elt F)) := it26 ++ (it27 ++ (it28))
theorem chunk10_sub : (chunk10 : List (HloOp τ sig (Elt F))).Forall fun op => op.bufs ⊆ tcRefs τ sig := forall_append it26_sub (forall_append it27_sub (it28_sub))
theorem chunk10_fresh : (chunk10 : List (HloOp τ sig (Elt F))).Forall fun op => op.fresh = ∅ := forall_append it26_fresh (forall_append it27_fresh (it28_fresh))
/-- The buffers stage 10 writes. -/
abbrev wr_chunk10 : List (Ref sig .tc) := wr_it26 ++ (wr_it27 ++ (wr_it28))
theorem keep_chunk10 (W : Valuation τ sig (Elt F)) (r : Ref sig .tc) (hr : r ∉ wr_chunk10) : after (chunk10 : List (HloOp τ sig (Elt F))) W (no_index (Proc.devRef .tc r)) = W (Proc.devRef .tc r) := by
  simp only [List.mem_append, not_or] at hr
  rw [StableHlo.after_append, StableHlo.after_append, keep_it28 _ r hr.2.2, keep_it27 _ r hr.2.1, keep_it26 _ r hr.1]

/-- Stage 11's operations. -/
abbrev chunk11 : List (HloOp τ sig (Elt F)) := it29 ++ (it30 ++ (it31 ++ (it32)))
theorem chunk11_sub : (chunk11 : List (HloOp τ sig (Elt F))).Forall fun op => op.bufs ⊆ tcRefs τ sig := forall_append it29_sub (forall_append it30_sub (forall_append it31_sub (it32_sub)))
theorem chunk11_fresh : (chunk11 : List (HloOp τ sig (Elt F))).Forall fun op => op.fresh = ∅ := forall_append it29_fresh (forall_append it30_fresh (forall_append it31_fresh (it32_fresh)))
/-- The buffers stage 11 writes. -/
abbrev wr_chunk11 : List (Ref sig .tc) := wr_it29 ++ (wr_it30 ++ (wr_it31 ++ (wr_it32)))
theorem keep_chunk11 (W : Valuation τ sig (Elt F)) (r : Ref sig .tc) (hr : r ∉ wr_chunk11) : after (chunk11 : List (HloOp τ sig (Elt F))) W (no_index (Proc.devRef .tc r)) = W (Proc.devRef .tc r) := by
  simp only [List.mem_append, not_or] at hr
  rw [StableHlo.after_append, StableHlo.after_append, StableHlo.after_append, keep_it32 _ r hr.2.2.2, keep_it31 _ r hr.2.2.1, keep_it30 _ r hr.2.1, keep_it29 _ r hr.1]

/-- Stage 12's operations. -/
abbrev chunk12 : List (HloOp τ sig (Elt F)) := it33 ++ (it34 ++ (it35))
theorem chunk12_sub : (chunk12 : List (HloOp τ sig (Elt F))).Forall fun op => op.bufs ⊆ tcRefs τ sig := forall_append it33_sub (forall_append it34_sub (it35_sub))
theorem chunk12_fresh : (chunk12 : List (HloOp τ sig (Elt F))).Forall fun op => op.fresh = ∅ := forall_append it33_fresh (forall_append it34_fresh (it35_fresh))
/-- The buffers stage 12 writes. -/
abbrev wr_chunk12 : List (Ref sig .tc) := wr_it33 ++ (wr_it34 ++ (wr_it35))
theorem keep_chunk12 (W : Valuation τ sig (Elt F)) (r : Ref sig .tc) (hr : r ∉ wr_chunk12) : after (chunk12 : List (HloOp τ sig (Elt F))) W (no_index (Proc.devRef .tc r)) = W (Proc.devRef .tc r) := by
  simp only [List.mem_append, not_or] at hr
  rw [StableHlo.after_append, StableHlo.after_append, keep_it35 _ r hr.2.2, keep_it34 _ r hr.2.1, keep_it33 _ r hr.1]

/-- Stage 13's operations. -/
abbrev chunk13 : List (HloOp τ sig (Elt F)) := it36 ++ (it37 ++ (it38 ++ (it39 ++ (it40 ++ (it41)))))
theorem chunk13_sub : (chunk13 : List (HloOp τ sig (Elt F))).Forall fun op => op.bufs ⊆ tcRefs τ sig := forall_append it36_sub (forall_append it37_sub (forall_append it38_sub (forall_append it39_sub (forall_append it40_sub (it41_sub)))))
theorem chunk13_fresh : (chunk13 : List (HloOp τ sig (Elt F))).Forall fun op => op.fresh = ∅ := forall_append it36_fresh (forall_append it37_fresh (forall_append it38_fresh (forall_append it39_fresh (forall_append it40_fresh (it41_fresh)))))
/-- The buffers stage 13 writes. -/
abbrev wr_chunk13 : List (Ref sig .tc) := wr_it36 ++ (wr_it37 ++ (wr_it38 ++ (wr_it39 ++ (wr_it40 ++ (wr_it41)))))
theorem keep_chunk13 (W : Valuation τ sig (Elt F)) (r : Ref sig .tc) (hr : r ∉ wr_chunk13) : after (chunk13 : List (HloOp τ sig (Elt F))) W (no_index (Proc.devRef .tc r)) = W (Proc.devRef .tc r) := by
  simp only [List.mem_append, not_or] at hr
  rw [StableHlo.after_append, StableHlo.after_append, StableHlo.after_append, StableHlo.after_append, StableHlo.after_append, keep_it41 _ r hr.2.2.2.2.2, keep_it40 _ r hr.2.2.2.2.1, keep_it39 _ r hr.2.2.2.1, keep_it38 _ r hr.2.2.1, keep_it37 _ r hr.2.1, keep_it36 _ r hr.1]

/-- @main's operations, in order. -/
abbrev ops : List (HloOp τ sig (Elt F)) := chunk0 ++ (chunk1 ++ (chunk2 ++ (chunk3 ++ (chunk4 ++ (chunk5 ++ (chunk6 ++ (chunk7 ++ (chunk8 ++ (chunk9 ++ (chunk10 ++ (chunk11 ++ (chunk12 ++ (chunk13)))))))))))))
theorem ops_sub : (ops : List (HloOp τ sig (Elt F))).Forall fun op => op.bufs ⊆ tcRefs τ sig := forall_append chunk0_sub (forall_append chunk1_sub (forall_append chunk2_sub (forall_append chunk3_sub (forall_append chunk4_sub (forall_append chunk5_sub (forall_append chunk6_sub (forall_append chunk7_sub (forall_append chunk8_sub (forall_append chunk9_sub (forall_append chunk10_sub (forall_append chunk11_sub (forall_append chunk12_sub (chunk13_sub)))))))))))))
theorem ops_fresh : (ops : List (HloOp τ sig (Elt F))).Forall fun op => op.fresh = ∅ := forall_append chunk0_fresh (forall_append chunk1_fresh (forall_append chunk2_fresh (forall_append chunk3_fresh (forall_append chunk4_fresh (forall_append chunk5_fresh (forall_append chunk6_fresh (forall_append chunk7_fresh (forall_append chunk8_fresh (forall_append chunk9_fresh (forall_append chunk10_fresh (forall_append chunk11_fresh (forall_append chunk12_fresh (chunk13_fresh)))))))))))))

/-- Window 0 of @main is the chain of its items. -/
theorem part0_chain (c : Dev nD) : main_part0 (F := F) c = (Pipeline.chainK
  [ seq it0,
    seq it1,
    seq it2,
    seq it3,
    seq it4,
    seq it5,
    seq it6,
    seq it7,
    seq it8,
    seq it9,
    seq it10,
    seq it11 ]
  (seq it12) : Prog (TpuEff nD τ sig (Elt F) (Pipeline.Sig Λ₀ (Fin 0) fun p => (pcfgs (F := F) p).Adm) .tc) PUnit) := by
  chain_rfl

/-- Window 1 of @main is the chain of its items. -/
theorem part1_chain (c : Dev nD) : main_part1 (F := F) c = (Pipeline.chainK
  [ seq it13,
    seq it14,
    seq it15,
    seq it16,
    seq it17,
    seq it18 ]
  (seq it19) : Prog (TpuEff nD τ sig (Elt F) (Pipeline.Sig Λ₀ (Fin 0) fun p => (pcfgs (F := F) p).Adm) .tc) PUnit) := by
  chain_rfl

/-- Window 2 of @main is the chain of its items. -/
theorem part2_chain (c : Dev nD) : main_part2 (F := F) c = (Pipeline.chainK
  [ seq it20,
    seq it21,
    seq it22,
    seq it23,
    seq it24,
    seq it25,
    seq it26,
    seq it27,
    seq it28,
    seq it29,
    seq it30 ]
  (seq it31) : Prog (TpuEff nD τ sig (Elt F) (Pipeline.Sig Λ₀ (Fin 0) fun p => (pcfgs (F := F) p).Adm) .tc) PUnit) := by
  chain_rfl

/-- Window 3 of @main is the chain of its items. -/
theorem part3_chain (c : Dev nD) : main_part3 (F := F) c = (Pipeline.chainK
  [ seq it32,
    seq it33,
    seq it34,
    seq it35 ]
  (seq it36) : Prog (TpuEff nD τ sig (Elt F) (Pipeline.Sig Λ₀ (Fin 0) fun p => (pcfgs (F := F) p).Adm) .tc) PUnit) := by
  chain_rfl

/-- Window 4 of @main is the chain of its items. -/
theorem part4_chain (c : Dev nD) : main_part4 (F := F) c = (Pipeline.chain
  [ seq it37,
    seq it38,
    seq it39,
    seq it40,
    seq it41 ] : Prog (TpuEff nD τ sig (Elt F) (Pipeline.Sig Λ₀ (Fin 0) fun p => (pcfgs (F := F) p).Adm) .tc) PUnit) := by
  chain_rfl

/-- @main is the chain of all its items. -/
theorem main_chain (c : Dev nD) : main (F := F) c = (Pipeline.chain
  [ seq it0,
    seq it1,
    seq it2,
    seq it3,
    seq it4,
    seq it5,
    seq it6,
    seq it7,
    seq it8,
    seq it9,
    seq it10,
    seq it11,
    seq it12,
    seq it13,
    seq it14,
    seq it15,
    seq it16,
    seq it17,
    seq it18,
    seq it19,
    seq it20,
    seq it21,
    seq it22,
    seq it23,
    seq it24,
    seq it25,
    seq it26,
    seq it27,
    seq it28,
    seq it29,
    seq it30,
    seq it31,
    seq it32,
    seq it33,
    seq it34,
    seq it35,
    seq it36,
    seq it37,
    seq it38,
    seq it39,
    seq it40,
    seq it41 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c) = _
  rewrite [part4_chain, part3_chain, Pipeline.chainK_bind_chain, part2_chain, Pipeline.chainK_bind_chain, part1_chain, Pipeline.chainK_bind_chain, part0_chain, Pipeline.chainK_bind_chain]
  chain_rfl

/-- A chain of straight lines is the straight line of them all. -/
theorem chain_seq : ∀ ls : List (List (HloOp τ sig (Elt F))), (Pipeline.chain (ls.map fun l => (seq l : Prog (TpuEff nD τ sig (Elt F) (Pipeline.Sig Λ₀ (Fin 0) fun p => (pcfgs (F := F) p).Adm) .tc) PUnit)) : Prog (TpuEff nD τ sig (Elt F) (Pipeline.Sig Λ₀ (Fin 0) fun p => (pcfgs (F := F) p).Adm) .tc) PUnit) = seq ls.flatten
  | [] => rfl
  | l :: ls => by rw [List.map_cons, Pipeline.chain_cons, List.flatten_cons, seq_append, chain_seq ls]

theorem main_eq (c : Dev nD) : main (F := F) c = seq ops := by
  rw [main_chain c]
  refine (chain_seq [it0, it1, it2, it3, it4, it5, it6, it7, it8, it9, it10, it11, it12, it13, it14, it15, it16, it17, it18, it19, it20, it21, it22, it23, it24, it25, it26, it27, it28, it29, it30, it31, it32, it33, it34, it35, it36, it37, it38, it39, it40, it41]).trans (congrArg seq ?_)
  simp only [ops, chunk0, chunk1, chunk2, chunk3, chunk4, chunk5, chunk6, chunk7, chunk8, chunk9, chunk10, chunk11, chunk12, chunk13, List.flatten_cons, List.flatten_nil, List.append_nil, List.append_assoc]

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.Run

end
-- ==== Proof.RStageA.lean ====
/-
  What the reference program's dense stages leave in their result buffers, as the network's functions of the buffers
  they read: the two input affine maps, the node update's two-layer perceptron of each layer, and the batch-normalised
  residual of each layer.

  Each stage is first read as mathematics over variables: an affine map is the host's plain product plus the bias
  broadcast to one row and then to all rows; the positive part is the maximum against a broadcast zero; a layer's
  weight is the slice of one layer of the stack reshaped to a matrix, its bias the slice of one row reshaped to a
  vector. The stage's fold of operations is then that spelling at the buffers' contents.
-/
import proofs.«410123_j23235773072029_1_alg».proof.Proof.ROps
import proofs.«410123_j23235773072029_1_alg».proof.Proof.RHost
import proofs.«410123_j23235773072029_1_alg».proof.Proof.Spec
import proofs.«410123_j23235773072029_1_alg».proof.Proof.LibMeanAggregate
import Idealize.ShloMosaic.Lib.ValueIdx
import Idealize.ShloMosaic.Lib.Pipeline.Value
import Idealize.ShloMosaic.PureOps.Ideal.Laws
import Idealize.ShloMosaic.Lib.StableHlo.Run

noncomputable section

open scoped BigOperators

namespace Cert.ReferenceIdeal.RVal

open Cert.ReferenceIdeal Cert.ReferenceIdeal.Gen Cert.ReferenceIdeal.Run Idealize.ShloMosaic Idealize.ShloMosaic.TcCoe
  Idealize.ShloMosaic.ValueIdx Idealize.ShloMosaic.StableHlo Idealize.SL.Sem

/-! ## The readings at an index -/

/-- The node-side product's dimension record is the plain [50000 × 128] by [128 × 128] one. -/
theorem dotN_eq_plain [Facts₀] : dot_S50000x128_S128x128_S50000x128_1_0_0_1_n_n = DotDims.plain 50000 128 128 := rfl

/-- The edge-side input product's dimension record is the plain [500000 × 16] by [16 × 128] one. -/
theorem dotE_eq_plain [Facts₀] : dot_S500000x16_S16x128_S500000x128_1_0_0_1_n_n = DotDims.plain 500000 16 128 := rfl

/-- A vector broadcast to one row and then to M rows, read at (r, c). -/
theorem bias2_apply {α : Type} (M N : Nat) (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (c : Fin N) :
    broadcastInDim ⟨2, ![M, N]⟩ ![0, 1] h2 (broadcastInDim ⟨2, ![1, N]⟩ ![1] h1 b) (ix2 r c) = b (ix1 c) := by
  have hc := c.isLt
  refine (broadcastInDim_apply ![0, 1] h2 _ (ix2 r c) (ix2 (0 : Fin 1) c) fun a => ?_).trans
    (broadcastInDim_apply ![1] h1 b (ix2 (0 : Fin 1) c) (ix1 c) fun a => ?_)
  · match a with
    | ⟨0, _⟩ => rfl
    | ⟨1, _⟩ =>
      show c.val = if N = 1 then 0 else c.val
      split <;> omega
  · match a with
    | ⟨0, _⟩ =>
      show c.val = if N = 1 then 0 else c.val
      split <;> omega

/-- A scalar broadcast to any shape, read anywhere. -/
theorem bias0_apply {α : Type} (s : Shape) (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply ![] h x i ix0 fun a => a.elim0

/-- Layer `o` of a stack of matrices, as the slice of one layer reshaped to a matrix, read at (k, c). -/
theorem slab_apply {α : Type} (L K N o : Nat) (l : Fin L) (hl : l.val = o) (w : (⟨3, ![L, K, N]⟩ : Shape).Idx → α)
    (hs : (⟨3, ![L, K, N]⟩ : Shape).Slices ![o, 0, 0] ⟨3, ![1, K, N]⟩)
    (hc : (⟨3, ![1, K, N]⟩ : Shape).ShapeCasts ⟨2, ![K, N]⟩) (k : Fin K) (c : Fin N) :
    shapeCast ⟨2, ![K, N]⟩ (extractStridedSlice ⟨3, ![1, K, N]⟩ ![o, 0, 0] w hs) hc (ix2 k c) = w (ix3 l k c) := by
  refine (shapeCast_apply _ hc (ix2 k c) (ix3 (0 : Fin 1) k c) ?_).trans
    (extractStridedSlice_apply ![o, 0, 0] w hs (ix3 (0 : Fin 1) k c) (ix3 l k c) fun a => ?_)
  · rw [Shape.rowMajor_val_three, Shape.rowMajor_val_two]
    show (0 * K + k.val) * N + c.val = k.val * N + c.val
    rw [Nat.zero_mul, Nat.zero_add]
  · match a with
    | ⟨0, _⟩ => show l.val = o + 0; omega
    | ⟨1, _⟩ => show k.val = 0 + k.val; omega
    | ⟨2, _⟩ => show c.val = 0 + c.val; omega

/-- Row `o` of a matrix, as the slice of one row reshaped to a vector, read at c. -/
theorem row_apply {α : Type} (L N o : Nat) (l : Fin L) (hl : l.val = o) (b : (⟨2, ![L, N]⟩ : Shape).Idx → α)
    (hs : (⟨2, ![L, N]⟩ : Shape).Slices ![o, 0] ⟨2, ![1, N]⟩)
    (hc : (⟨2, ![1, N]⟩ : Shape).ShapeCasts ⟨1, ![N]⟩) (c : Fin N) :
    shapeCast ⟨1, ![N]⟩ (extractStridedSlice ⟨2, ![1, N]⟩ ![o, 0] b hs) hc (ix1 c) = b (ix2 l c) := by
  refine (shapeCast_apply _ hc (ix1 c) (ix2 (0 : Fin 1) c) ?_).trans
    (extractStridedSlice_apply ![o, 0] b hs (ix2 (0 : Fin 1) c) (ix2 l c) fun a => ?_)
  · rw [Shape.rowMajor_val_two, Shape.rowMajor_val_one]
    show 0 * N + c.val = c.val
    omega
  · match a with
    | ⟨0, _⟩ => show l.val = o + 0; omega
    | ⟨1, _⟩ => show c.val = 0 + c.val; omega

/-! ## The stages as the host spells them, over variables -/

/-- The host's reciprocal square root, entry by entry. -/
theorem hostRsqrt_apply {s : Shape} (x : FVec Ideal s .f32) (i : s.Idx) : Host.rsqrt x i = Ideal.rsqrt (x i) := rfl

/-- The slice of one layer, reshaped, is that layer of the stack. -/
theorem slab_eq (L K N o : Nat) (l : Fin L) (hl : l.val = o) (w : FVec Ideal ⟨3, ![L, K, N]⟩ .f32)
    (hs : (⟨3, ![L, K, N]⟩ : Shape).Slices ![o, 0, 0] ⟨3, ![1, K, N]⟩)
    (hc : (⟨3, ![1, K, N]⟩ : Shape).ShapeCasts ⟨2, ![K, N]⟩) :
    shapeCast ⟨2, ![K, N]⟩ (extractStridedSlice ⟨3, ![1, K, N]⟩ ![o, 0, 0] w hs) hc = Cert.Spec.slab l w := by
  funext i
  obtain ⟨k, c, rfl⟩ : ∃ (k : Fin K) (c : Fin N), i = ix2 k c := ⟨i 0, i 1, eq_ix2 i⟩
  exact slab_apply L K N o l hl w hs hc k c

/-- The slice of one row, reshaped, is that row as a vector. -/
theorem vecOf_row (L N o : Nat) (l : Fin L) (hl : l.val = o) (b : FVec Ideal ⟨2, ![L, N]⟩ .f32)
    (hs : (⟨2, ![L, N]⟩ : Shape).Slices ![o, 0] ⟨2, ![1, N]⟩)
    (hc : (⟨2, ![1, N]⟩ : Shape).ShapeCasts ⟨1, ![N]⟩) :
    Cert.Spec.vecOf (shapeCast ⟨1, ![N]⟩ (extractStridedSlice ⟨2, ![1, N]⟩ ![o, 0] b hs) hc) = Cert.Spec.rowOf l b := by
  funext c
  exact row_apply L N o l hl b hs hc c

/-- The affine stage as the host spells it: the product plus the bias broadcast to one row and then to all rows. -/
theorem lin_eq (M K N : Nat) (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (Host.dotGeneral (DotDims.plain M K N) none x w)
        (broadcastInDim ⟨2, ![M, N]⟩ ![0, 1] h2 (broadcastInDim ⟨2, ![1, N]⟩ ![1] h1 b))
      = Cert.Spec.lin x w (Cert.Spec.vecOf b) := by
  funext i
  obtain ⟨r, c, rfl⟩ : ∃ (r : Fin M) (c : Fin N), i = ix2 r c := ⟨i 0, i 1, eq_ix2 i⟩
  rw [addf_apply, MeanAggregate.plain_dotGeneral_apply, bias2_apply, Cert.Spec.lin_apply]
  rfl

/-- The positive part as the host spells it: the maximum against the zero scalar broadcast to the matrix. -/
theorem relu_eq (M N : Nat) (x : FVec Ideal ⟨2, ![M, N]⟩ .f32)
    (h : (⟨0, ![]⟩ : Shape).BroadcastsInDim ⟨2, ![M, N]⟩ (![] : Fin 0 → Fin 2)) :
    maximumf x (broadcastInDim ⟨2, ![M, N]⟩ ![] h (constant (F := Ideal) ⟨0, ![]⟩ .f32 0x00000000#32)) = Cert.Spec.relu x := by
  funext i
  rw [maximumf_apply, bias0_apply, constant_apply, Ideal.ofBits_zero_f32, Cert.Spec.relu_apply]

/-- The node update's perceptron as the host spells it. -/
theorem conv_eq (M : Nat) (h agg : FVec Ideal ⟨2, ![M, 128]⟩ .f32) (w1 w2 : FVec Ideal ⟨2, ![128, 128]⟩ .f32)
    (b1 b2 : FVec Ideal ⟨1, ![128]⟩ .f32)
    (h1 : (⟨1, ![128]⟩ : Shape).BroadcastsInDim ⟨2, ![1, 128]⟩ (![1] : Fin 1 → Fin 2))
    (h2 : (⟨2, ![1, 128]⟩ : Shape).BroadcastsInDim ⟨2, ![M, 128]⟩ (![0, 1] : Fin 2 → Fin 2))
    (h0 : (⟨0, ![]⟩ : Shape).BroadcastsInDim ⟨2, ![M, 128]⟩ (![] : Fin 0 → Fin 2)) :
    addf (Host.dotGeneral (DotDims.plain M 128 128) none
          (maximumf (addf (Host.dotGeneral (DotDims.plain M 128 128) none (addf h agg) w1)
              (broadcastInDim ⟨2, ![M, 128]⟩ ![0, 1] h2 (broadcastInDim ⟨2, ![1, 128]⟩ ![1] h1 b1)))
            (broadcastInDim ⟨2, ![M, 128]⟩ ![] h0 (constant (F := Ideal) ⟨0, ![]⟩ .f32 0x00000000#32))) w2)
        (broadcastInDim ⟨2, ![M, 128]⟩ ![0, 1] h2 (broadcastInDim ⟨2, ![1, 128]⟩ ![1] h1 b2))
      = Cert.Spec.conv h agg w1 (Cert.Spec.vecOf b1) w2 (Cert.Spec.vecOf b2) := by
  rw [lin_eq, relu_eq, lin_eq]
  rfl

/-- The batch-normalised residual as the host spells it. -/
theorem bn_eq (M : Nat) (h z : FVec Ideal ⟨2, ![M, 128]⟩ .f32) (mu var gamma beta : FVec Ideal ⟨1, ![128]⟩ .f32)
    (h1 : (⟨1, ![128]⟩ : Shape).BroadcastsInDim ⟨2, ![1, 128]⟩ (![1] : Fin 1 → Fin 2))
    (h2 : (⟨2, ![1, 128]⟩ : Shape).BroadcastsInDim ⟨2, ![M, 128]⟩ (![0, 1] : Fin 2 → Fin 2))
    (h0 : (⟨0, ![]⟩ : Shape).BroadcastsInDim ⟨2, ![M, 128]⟩ (![] : Fin 0 → Fin 2))
    (hv : (⟨0, ![]⟩ : Shape).BroadcastsInDim ⟨1, ![128]⟩ (![] : Fin 0 → Fin 1)) :
    mulf (addf h (maximumf
          (addf (mulf (mulf (broadcastInDim ⟨2, ![M, 128]⟩ ![0, 1] h2 (broadcastInDim ⟨2, ![1, 128]⟩ ![1] h1 gamma))
                  (subf z (broadcastInDim ⟨2, ![M, 128]⟩ ![0, 1] h2 (broadcastInDim ⟨2, ![1, 128]⟩ ![1] h1 mu))))
                (broadcastInDim ⟨2, ![M, 128]⟩ ![0, 1] h2 (broadcastInDim ⟨2, ![1, 128]⟩ ![1] h1
                  (Host.rsqrt (addf var (broadcastInDim ⟨1, ![128]⟩ ![] hv (constant (F := Ideal) ⟨0, ![]⟩ .f32 0x3727C5AC#32)))))))
            (broadcastInDim ⟨2, ![M, 128]⟩ ![0, 1] h2 (broadcastInDim ⟨2, ![1, 128]⟩ ![1] h1 beta)))
          (broadcastInDim ⟨2, ![M, 128]⟩ ![] h0 (constant (F := Ideal) ⟨0, ![]⟩ .f32 0x00000000#32))))
        (broadcastInDim ⟨2, ![M, 128]⟩ ![] h0 (constant (F := Ideal) ⟨0, ![]⟩ .f32 0x3F000000#32))
      = Cert.Spec.bn h z (Cert.Spec.vecOf mu) (Cert.Spec.vecOf var) (Cert.Spec.vecOf gamma) (Cert.Spec.vecOf beta) := by
  funext i
  obtain ⟨r, c, rfl⟩ : ∃ (r : Fin M) (c : Fin 128), i = ix2 r c := ⟨i 0, i 1, eq_ix2 i⟩
  rw [Cert.Spec.bn_apply, mulf_apply, addf_apply, maximumf_apply, addf_apply, mulf_apply, mulf_apply, subf_apply,
    bias2_apply, bias2_apply, bias2_apply, bias2_apply, bias0_apply, bias0_apply, constant_apply, constant_apply,
    Ideal.ofBits_zero_f32, hostRsqrt_apply, addf_apply, bias0_apply, constant_apply]
  rfl

/-! ## Congruences of the network's functions in their weights -/

theorem conv_congr {M : Nat} (h agg : Cert.Spec.Mat M 128) {w1 w1' w2 w2' : Cert.Spec.Mat 128 128}
    {b1 b1' b2 b2' : Fin 128 → EReal} (e1 : w1 = w1') (e2 : b1 = b1') (e3 : w2 = w2') (e4 : b2 = b2') :
    Cert.Spec.conv h agg w1 b1 w2 b2 = Cert.Spec.conv h agg w1' b1' w2' b2' := by
  subst e1 e2 e3 e4; rfl

theorem bn_congr {M N : Nat} (h z : Cert.Spec.Mat M N) (mu var : Fin N → EReal) {g g' b b' : Fin N → EReal}
    (e1 : g = g') (e2 : b = b') : Cert.Spec.bn h z mu var g b = Cert.Spec.bn h z mu var g' b' := by
  subst e1 e2; rfl

/-! ## The stages -/

attribute [local irreducible] Host.rsqrt

/-- The node input map: x · node_w + node_b. -/
theorem val1 (W : Valuation τ sig (Elt Ideal)) :
    after (Run.chunk1 (F := Ideal)) W (Proc.devRef .tc main_v7)
      = Cert.Spec.lin (W (Proc.devRef .tc main_arg0)) (W (Proc.devRef .tc main_arg2))
          (Cert.Spec.vecOf (W (Proc.devRef .tc main_arg3))) := by
  simp only [Run.chunk1, Run.it1]
  after_results
  rw [dotN_eq_plain]
  exact lin_eq 50000 128 128 _ _ _ _ _

/-- The edge input map: edge_attr · edge_w + edge_b. -/
theorem val2 (W : Valuation τ sig (Elt Ideal)) :
    after (Run.chunk2 (F := Ideal)) W (Proc.devRef .tc main_v11)
      = Cert.Spec.lin (W (Proc.devRef .tc main_arg1)) (W (Proc.devRef .tc main_arg4))
          (Cert.Spec.vecOf (W (Proc.devRef .tc main_arg5))) := by
  simp only [Run.chunk2, Run.it2]
  after_results
  rw [dotE_eq_plain]
  exact lin_eq 500000 16 128 _ _ _ _ _

/-- Layer 0's node update: the perceptron of h + agg with layer 0 of the convolution weights. -/
theorem val4 (W : Valuation τ sig (Elt Ideal)) :
    after (Run.chunk4 (F := Ideal)) W (Proc.devRef .tc main_v41)
      = Cert.Spec.conv (W (Proc.devRef .tc main_v7)) (W (Proc.devRef .tc main_v23))
          (Cert.Spec.slab (0 : Fin 2) (W (Proc.devRef .tc main_arg6))) (Cert.Spec.rowOf (0 : Fin 2) (W (Proc.devRef .tc main_arg7)))
          (Cert.Spec.slab (0 : Fin 2) (W (Proc.devRef .tc main_arg8))) (Cert.Spec.rowOf (0 : Fin 2) (W (Proc.devRef .tc main_arg9))) := by
  simp only [Run.chunk4, Run.it6, Run.it7, Run.it8, List.cons_append, List.nil_append]
  after_results_simp
  rw [dotN_eq_plain]
  exact (conv_eq 50000 _ _ _ _ _ _ bcast_S128_S1x128_1 bcast_S1x128_S50000x128_0_1 bcast_S_S50000x128).trans
    (conv_congr _ _ (slab_eq 2 128 128 0 0 rfl _ _ _) (vecOf_row 2 128 0 0 rfl _ _ _)
      (slab_eq 2 128 128 0 0 rfl _ _ _) (vecOf_row 2 128 0 0 rfl _ _ _))

/-- Layer 1's node update: the perceptron of h + agg with layer 1 of the convolution weights. -/
theorem val9 (W : Valuation τ sig (Elt Ideal)) :
    after (Run.chunk9 (F := Ideal)) W (Proc.devRef .tc main_v133)
      = Cert.Spec.conv (W (Proc.devRef .tc main_v68)) (W (Proc.devRef .tc main_v115))
          (Cert.Spec.slab (1 : Fin 2) (W (Proc.devRef .tc main_arg6))) (Cert.Spec.rowOf (1 : Fin 2) (W (Proc.devRef .tc main_arg7)))
          (Cert.Spec.slab (1 : Fin 2) (W (Proc.devRef .tc main_arg8))) (Cert.Spec.rowOf (1 : Fin 2) (W (Proc.devRef .tc main_arg9))) := by
  simp only [Run.chunk9, Run.it23, Run.it24, Run.it25, List.cons_append, List.nil_append]
  after_results_simp
  rw [dotN_eq_plain]
  exact (conv_eq 50000 _ _ _ _ _ _ bcast_S128_S1x128_1 bcast_S1x128_S50000x128_0_1 bcast_S_S50000x128).trans
    (conv_congr _ _ (slab_eq 2 128 128 1 1 rfl _ _ _) (vecOf_row 2 128 1 1 rfl _ _ _)
      (slab_eq 2 128 128 1 1 rfl _ _ _) (vecOf_row 2 128 1 1 rfl _ _ _))

/-- Layer 0's batch-normalised residual, from the column mean and variance held in their buffers. -/
theorem val6 (W : Valuation τ sig (Elt Ideal)) :
    after (Run.chunk6 (F := Ideal)) W (Proc.devRef .tc main_v68)
      = Cert.Spec.bn (W (Proc.devRef .tc main_v7)) (W (Proc.devRef .tc main_v41))
          (Cert.Spec.vecOf (W (Proc.devRef .tc main_v44))) (Cert.Spec.vecOf (W (Proc.devRef .tc main_v45)))
          (Cert.Spec.rowOf (0 : Fin 2) (W (Proc.devRef .tc main_arg10))) (Cert.Spec.rowOf (0 : Fin 2) (W (Proc.devRef .tc main_arg11))) := by
  simp only [Run.chunk6, Run.it12, Run.it13, Run.it14, Run.it15, List.cons_append, List.nil_append]
  after_results_simp
  exact (bn_eq 50000 _ _ _ _ _ _ bcast_S128_S1x128_1 bcast_S1x128_S50000x128_0_1 bcast_S_S50000x128 bcast_S_S128).trans
    (bn_congr _ _ _ _ (vecOf_row 2 128 0 0 rfl _ _ _) (vecOf_row 2 128 0 0 rfl _ _ _))

/-- Layer 1's batch-normalised residual, from the column mean and variance held in their buffers. -/
theorem val11 (W : Valuation τ sig (Elt Ideal)) :
    after (Run.chunk11 (F := Ideal)) W (Proc.devRef .tc main_v160)
      = Cert.Spec.bn (W (Proc.devRef .tc main_v68)) (W (Proc.devRef .tc main_v133))
          (Cert.Spec.vecOf (W (Proc.devRef .tc main_v136))) (Cert.Spec.vecOf (W (Proc.devRef .tc main_v137)))
          (Cert.Spec.rowOf (1 : Fin 2) (W (Proc.devRef .tc main_arg10))) (Cert.Spec.rowOf (1 : Fin 2) (W (Proc.devRef .tc main_arg11))) := by
  simp only [Run.chunk11, Run.it29, Run.it30, Run.it31, Run.it32, List.cons_append, List.nil_append]
  after_results_simp
  exact (bn_eq 50000 _ _ _ _ _ _ bcast_S128_S1x128_1 bcast_S1x128_S50000x128_0_1 bcast_S_S50000x128 bcast_S_S128).trans
    (bn_congr _ _ _ _ (vecOf_row 2 128 1 1 rfl _ _ _) (vecOf_row 2 128 1 1 rfl _ _ _))

end Cert.ReferenceIdeal.RVal

end
-- ==== Proof.LibConcat3.lean ====
/-
  Three blocks of columns joined into one matrix, and the product of the join with a stacked weight.

  For x [M × A], y [M × B], z [M × C], the join [x | y | z] is the matrix [M × (A + B + C)] whose entry (r, j) is
  x (r, j) for j < A, y (r, j − A) for A ≤ j < A + B, and z (r, j − A − B) beyond. When the three blocks have the same
  width K, its product with a weight w of K + K + K rows is the sum of the three block products,

      ∑ j < 3K, [x | y | z] (r, j) · w (j, c)
        = ((∑ k < K, x (r, k) · w (k, c)) + (∑ k < K, y (r, k) · w (K + k, c))) + (∑ k < K, z (r, k) · w (K + K + k, c)),

  in any commutative additive monoid with a product (no finiteness is asked: the sum over 3K indices is only regrouped).
-/
import Idealize.ShloMosaic.Lib.ValueIdx
import Idealize.ShloMosaic.Lib.Pipeline.Value
import Mathlib.Algebra.BigOperators.Fin

noncomputable section

open scoped BigOperators

namespace Idealize.ShloMosaic.Concat3

open Idealize.ShloMosaic Idealize.ShloMosaic.ValueIdx

/-- Three pieces [M × A], [M × B], [M × C] joined along the columns into [M × D], D = A + B + C, read at (r, j). -/
theorem concat3_cols_apply {α : Type} (M A B C D : Nat) (hD : D = A + B + C) (x : (⟨2, ![M, A]⟩ : Shape).Idx → α)
    (y : (⟨2, ![M, B]⟩ : Shape).Idx → α) (z : (⟨2, ![M, C]⟩ : Shape).Idx → α)
    (h : Shape.Concatenates (([⟨⟨2, ![M, A]⟩, x⟩, ⟨⟨2, ![M, B]⟩, y⟩, ⟨⟨2, ![M, C]⟩, z⟩] : List ((s : Shape) × (s.Idx → α))).map (·.1))
      ⟨2, ![M, D]⟩ 1)
    (r : Fin M) (j : Fin D) :
    concatenate ⟨2, ![M, D]⟩ 1 [⟨⟨2, ![M, A]⟩, x⟩, ⟨⟨2, ![M, B]⟩, y⟩, ⟨⟨2, ![M, C]⟩, z⟩] h (ix2 r j)
      = if hj : j.val < A then x (ix2 r ⟨j.val, hj⟩)
        else if hj2 : j.val < A + B then y (ix2 r ⟨j.val - A, by omega⟩)
        else z (ix2 r ⟨j.val - (A + B), by omega⟩) := by
  by_cases hj : j.val < A
  · rw [dif_pos hj]
    exact concatenate_apply_piece (t := ⟨2, ![M, D]⟩) 1 _ h (ix2 r j) 0 (by simp) ⟨2, ![M, A]⟩ x rfl rfl 0 rfl
      (ix2 r ⟨j.val, hj⟩)
      (fun b hb => by
        match b with
        | ⟨0, _⟩ => rfl
        | ⟨1, _⟩ => exact absurd rfl hb)
      (by show 0 + j.val = j.val; omega)
  · rw [dif_neg hj]
    by_cases hj2 : j.val < A + B
    · rw [dif_pos hj2]
      exact concatenate_apply_piece (t := ⟨2, ![M, D]⟩) 1 _ h (ix2 r j) 1 (by simp) ⟨2, ![M, B]⟩ y rfl rfl A rfl
        (ix2 r ⟨j.val - A, by omega⟩)
        (fun b hb => by
          match b with
          | ⟨0, _⟩ => rfl
          | ⟨1, _⟩ => exact absurd rfl hb)
        (by show A + (j.val - A) = j.val; omega)
    · rw [dif_neg hj2]
      exact concatenate_apply_piece (t := ⟨2, ![M, D]⟩) 1 _ h (ix2 r j) 2 (by simp) ⟨2, ![M, C]⟩ z rfl rfl (A + B) rfl
        (ix2 r ⟨j.val - (A + B), by omega⟩)
        (fun b hb => by
          match b with
          | ⟨0, _⟩ => rfl
          | ⟨1, _⟩ => exact absurd rfl hb)
        (by show A + B + (j.val - (A + B)) = j.val; omega)

/-- A sum over 3K indices, block by block. -/
theorem sum_three_blocks {β : Type} [AddCommMonoid β] (K D : Nat) (hD : D = K + K + K) (f : Fin D → β) :
    ∑ j : Fin D, f j
      = ((∑ k : Fin K, f ⟨k.val, by omega⟩) + (∑ k : Fin K, f ⟨K + k.val, by omega⟩))
        + (∑ k : Fin K, f ⟨K + K + k.val, by omega⟩) := by
  subst hD
  rw [Fin.sum_univ_add, Fin.sum_univ_add]
  rfl

/-- The product of the join [x | y | z] of three blocks of K columns with a weight of 3K rows, at (r, c): the three block
    products, summed. -/
theorem cat3_dot {β : Type} [AddCommMonoid β] [Mul β] (M K N D : Nat) (hD : D = K + K + K)
    (x y z : (⟨2, ![M, K]⟩ : Shape).Idx → β) (w : (⟨2, ![D, N]⟩ : Shape).Idx → β)
    (h : Shape.Concatenates (([⟨⟨2, ![M, K]⟩, x⟩, ⟨⟨2, ![M, K]⟩, y⟩, ⟨⟨2, ![M, K]⟩, z⟩] : List ((s : Shape) × (s.Idx → β))).map (·.1))
      ⟨2, ![M, D]⟩ 1)
    (r : Fin M) (c : Fin N) :
    ∑ j : Fin D, concatenate ⟨2, ![M, D]⟩ 1 [⟨⟨2, ![M, K]⟩, x⟩, ⟨⟨2, ![M, K]⟩, y⟩, ⟨⟨2, ![M, K]⟩, z⟩] h (ix2 r j) * w (ix2 j c)
      = ((∑ k : Fin K, x (ix2 r k) * w (ix2 (⟨k.val, by omega⟩ : Fin D) c))
          + (∑ k : Fin K, y (ix2 r k) * w (ix2 (⟨K + k.val, by omega⟩ : Fin D) c)))
        + (∑ k : Fin K, z (ix2 r k) * w (ix2 (⟨K + K + k.val, by omega⟩ : Fin D) c)) := by
  rw [sum_three_blocks K D hD]
  congr 1
  · congr 1
    · refine Finset.sum_congr rfl fun k _ => ?_
      rw [concat3_cols_apply M K K K D hD, dif_pos (show ((⟨k.val, by omega⟩ : Fin D)).val < K from k.isLt)]
    · refine Finset.sum_congr rfl fun k _ => ?_
      rw [concat3_cols_apply M K K K D hD, dif_neg (show ¬ ((⟨K + k.val, by omega⟩ : Fin D)).val < K from by simp),
        dif_pos (show ((⟨K + k.val, by omega⟩ : Fin D)).val < K + K from by simp)]
      congr 2
      exact congrArg (ix2 r) (Fin.ext (by simp))
  · refine Finset.sum_congr rfl fun k _ => ?_
    rw [concat3_cols_apply M K K K D hD, dif_neg (show ¬ ((⟨K + K + k.val, by omega⟩ : Fin D)).val < K from by simp; omega),
      dif_neg (show ¬ ((⟨K + K + k.val, by omega⟩ : Fin D)).val < K + K from by simp)]
    congr 2
    exact congrArg (ix2 r) (Fin.ext (by simp))

end Idealize.ShloMosaic.Concat3

end
-- ==== Proof.RStageB.lean ====
/-
  The edge update of the two message-passing layers and the readout head, as the reference program spells them, read
  against the specification.

  Each of the three stages gathers the node rows at the edges' sources and destinations, joins them with the edge rows
  along the columns, [h_src | h_dst | e] of width 384, and runs a perceptron on the join. The first affine map of the
  perceptron has a weight of 384 rows, and its product with the join is the sum of the three block products
  (the join's entry (r, j) is h_src (r, j), h_dst (r, j − 128) or e (r, j − 256) by the block j lies in): that is
  `Cert.Spec.lin3` at the three row-blocks `Cert.Spec.third 0 / 1 / 2` of the weight. A bias is a vector broadcast to one
  row and then down the rows; a positive part is the maximum against a broadcast zero; the weight of layer l is slab l of
  the stack (a unit slice, then the cast that drops the unit axis) and its bias row l of the bias matrix.
-/
import proofs.«410123_j23235773072029_1_alg».proof.Proof.ROps
import proofs.«410123_j23235773072029_1_alg».proof.Proof.RHost
import proofs.«410123_j23235773072029_1_alg».proof.Proof.Spec
import proofs.«410123_j23235773072029_1_alg».proof.Proof.LibMeanAggregate
import proofs.«410123_j23235773072029_1_alg».proof.Proof.LibConcat3
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

open scoped BigOperators

namespace Cert.ReferenceIdeal.RVal

open Cert.ReferenceIdeal Cert.ReferenceIdeal.Gen Cert.ReferenceIdeal.Run Idealize.ShloMosaic Idealize.ShloMosaic.TcCoe
  Idealize.ShloMosaic.ValueIdx Idealize.ShloMosaic.StableHlo Idealize.SL.Sem Idealize.ShloMosaic.MeanAggregate
  Idealize.ShloMosaic.Concat3

namespace StageB

/-! ## The pieces of an affine layer, read at an index -/

/-- A bias [N] broadcast to one row [1, N] and then down the rows [M, N], read at (r, c): the bias at c. -/
theorem bias_read {M N : Nat} (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1]) (r : Fin M) (c : Fin N) :
    broadcastInDim ⟨2, ![M, N]⟩ ![0, 1] hb2 (broadcastInDim ⟨2, ![1, N]⟩ ![1] hb1 b) (ix2 r c) = b (ix1 c) := by
  rw [broadcastInDim_apply ![0, 1] hb2 _ (ix2 r c) (ix2 (0 : Fin 1) c) (fun a => by
      match a with
      | ⟨0, _⟩ => rfl
      | ⟨1, _⟩ =>
        show c.val = if N = 1 then 0 else c.val
        have hc := c.isLt
        split_ifs with h1
        · omega
        · rfl),
    broadcastInDim_apply ![1] hb1 _ (ix2 (0 : Fin 1) c) (ix1 c) (fun a => by
      match a with
      | ⟨0, _⟩ =>
        show c.val = if N = 1 then 0 else c.val
        have hc := c.isLt
        split_ifs with h1
        · omega
        · rfl)]

/-- The positive part, as a maximum against the broadcast zero word. -/
theorem relu_host {M N : Nat} (x : FVec Ideal ⟨2, ![M, N]⟩ .f32)
    (hb : (⟨0, ![]⟩ : Shape).BroadcastsInDim ⟨2, ![M, N]⟩ (![] : Fin 0 → Fin 2)) :
    maximumf x (broadcastInDim ⟨2, ![M, N]⟩ ![] hb (constant (F := Ideal) ⟨0, ![]⟩ .f32 0x00000000#32)) = Cert.Spec.relu x := by
  funext i
  rw [maximumf_apply, Cert.Spec.relu_apply, broadcastInDim_apply ![] hb _ i ix0 (fun a => a.elim0), constant_apply,
    Ideal.ofBits_zero_f32]

/-- The product with the broadcast word of one half. -/
theorem half_host {M N : Nat} (x : FVec Ideal ⟨2, ![M, N]⟩ .f32)
    (hb : (⟨0, ![]⟩ : Shape).BroadcastsInDim ⟨2, ![M, N]⟩ (![] : Fin 0 → Fin 2)) :
    mulf x (broadcastInDim ⟨2, ![M, N]⟩ ![] hb (constant (F := Ideal) ⟨0, ![]⟩ .f32 0x3F000000#32))
      = fun i => x i * Cert.Spec.half := by
  funext i
  rw [mulf_apply, broadcastInDim_apply ![] hb _ i ix0 (fun a => a.elim0), constant_apply]
  rfl

theorem vecOf_apply {N : Nat} (b : (⟨1, ![N]⟩ : Shape).Idx → EReal) (c : Fin N) : Cert.Spec.vecOf b c = b (ix1 c) := rfl

/-- An affine layer: a plain product plus the broadcast bias. -/
theorem lin_host {M K N : Nat} (x : FVec Ideal ⟨2, ![M, K]⟩ .f32) (w : FVec Ideal ⟨2, ![K, N]⟩ .f32)
    (b : FVec Ideal ⟨1, ![N]⟩ .f32) (hb1 : (⟨1, ![N]⟩ : Shape).BroadcastsInDim ⟨2, ![1, N]⟩ ![1])
    (hb2 : (⟨2, ![1, N]⟩ : Shape).BroadcastsInDim ⟨2, ![M, N]⟩ ![0, 1]) :
    addf (Host.dotGeneral (DotDims.plain M K N) none x w)
        (broadcastInDim ⟨2, ![M, N]⟩ ![0, 1] hb2 (broadcastInDim ⟨2, ![1, N]⟩ ![1] hb1 b))
      = Cert.Spec.lin x w (Cert.Spec.vecOf b) := by
  funext i
  obtain ⟨r, c, rfl⟩ : ∃ (r : Fin M) (c : Fin N), i = ix2 r c := ⟨i 0, i 1, eq_ix2 i⟩
  rw [addf_apply, plain_dotGeneral_apply, bias_read, Cert.Spec.lin_apply, vecOf_apply]

/-! ## The three row-blocks of a weight of 384 rows -/

theorem third_zero {N : Nat} (w : Cert.Spec.Mat 384 N) (k : Fin 128) (c : Fin N) :
    Cert.Spec.third 0 w (ix2 k c) = w (ix2 (⟨k.val, by omega⟩ : Fin 384) c) :=
  congrArg (fun q : Fin 384 => w (ix2 q c)) (Fin.ext (by show 128 * 0 + k.val = k.val; omega))

theorem third_one {N : Nat} (w : Cert.Spec.Mat 384 N) (k : Fin 128) (c : Fin N) :
    Cert.Spec.third 1 w (ix2 k c) = w (ix2 (⟨128 + k.val, by omega⟩ : Fin 384) c) :=
  congrArg (fun q : Fin 384 => w (ix2 q c)) (Fin.ext (by show 128 * 1 + k.val = 128 + k.val; omega))

theorem third_two {N : Nat} (w : Cert.Spec.Mat 384 N) (k : Fin 128) (c : Fin N) :
    Cert.Spec.third 2 w (ix2 k c) = w (ix2 (⟨128 + 128 + k.val, by omega⟩ : Fin 384) c) :=
  congrArg (fun q : Fin 384 => w (ix2 q c)) (Fin.ext (by show 128 * 2 + k.val = 128 + 128 + k.val; omega))

/-- The first affine layer of the three stages: the product of the join [hs | hd | ea] with a weight of 384 rows, plus the
    broadcast bias, is the three block products summed, plus the bias. -/
theorem lin3_host {M N : Nat} (hs hd ea : FVec Ideal ⟨2, ![M, 128]⟩ .f32) (w : FVec Ideal ⟨2, ![384, N]⟩ .f32)
    (b : FVec Ideal ⟨1, ![N]⟩ .f32)
    (hcat : Shape.Concatenates (([⟨⟨2, ![M, 128]⟩, hs⟩, ⟨⟨2, ![M, 128]⟩, hd⟩, ⟨⟨2, ![M, 128]⟩, ea⟩] :
      List ((s : Shape) × (s.Idx → EReal))).map (·.1)) ⟨2, ![M, 384]⟩ 1)
    (hb1 : (⟨1, ![N]⟩ : Shape).BroadcastsInDim ⟨2, ![1, N]⟩ ![1])
    (hb2 : (⟨2, ![1, N]⟩ : Shape).BroadcastsInDim ⟨2, ![M, N]⟩ ![0, 1]) :
    addf (Host.dotGeneral (DotDims.plain M 384 N) none
          (concatenate ⟨2, ![M, 384]⟩ 1 [⟨⟨2, ![M, 128]⟩, hs⟩, ⟨⟨2, ![M, 128]⟩, hd⟩, ⟨⟨2, ![M, 128]⟩, ea⟩] hcat) w)
        (broadcastInDim ⟨2, ![M, N]⟩ ![0, 1] hb2 (broadcastInDim ⟨2, ![1, N]⟩ ![1] hb1 b))
      = Cert.Spec.lin3 hs hd ea (Cert.Spec.third 0 w) (Cert.Spec.third 1 w) (Cert.Spec.third 2 w) (Cert.Spec.vecOf b) := by
  funext i
  obtain ⟨r, c, rfl⟩ : ∃ (r : Fin M) (c : Fin N), i = ix2 r c := ⟨i 0, i 1, eq_ix2 i⟩
  rw [addf_apply, plain_dotGeneral_apply, bias_read, Cert.Spec.lin3_apply, cat3_dot M 128 N 384 rfl]
  simp only [third_zero, third_one, third_two, vecOf_apply]

/-! ## The stages over variables -/

/-- The edge update: e + (perceptron of [hs | hd | e]) · ½. -/
theorem emlp_host {M : Nat} (hs hd ea : FVec Ideal ⟨2, ![M, 128]⟩ .f32) (w1 : FVec Ideal ⟨2, ![384, 128]⟩ .f32)
    (b1 : FVec Ideal ⟨1, ![128]⟩ .f32) (w2 : FVec Ideal ⟨2, ![128, 128]⟩ .f32) (b2 : FVec Ideal ⟨1, ![128]⟩ .f32)
    (hcat : Shape.Concatenates (([⟨⟨2, ![M, 128]⟩, hs⟩, ⟨⟨2, ![M, 128]⟩, hd⟩, ⟨⟨2, ![M, 128]⟩, ea⟩] :
      List ((s : Shape) × (s.Idx → EReal))).map (·.1)) ⟨2, ![M, 384]⟩ 1)
    (hb1 hb1' : (⟨1, ![128]⟩ : Shape).BroadcastsInDim ⟨2, ![1, 128]⟩ ![1])
    (hb2 hb2' : (⟨2, ![1, 128]⟩ : Shape).BroadcastsInDim ⟨2, ![M, 128]⟩ ![0, 1])
    (hz hh : (⟨0, ![]⟩ : Shape).BroadcastsInDim ⟨2, ![M, 128]⟩ (![] : Fin 0 → Fin 2)) :
    addf ea
        (mulf
          (addf
            (Host.dotGeneral (DotDims.plain M 128 128) none
              (maximumf
                (addf (Host.dotGeneral (DotDims.plain M 384 128) none
                    (concatenate ⟨2, ![M, 384]⟩ 1 [⟨⟨2, ![M, 128]⟩, hs⟩, ⟨⟨2, ![M, 128]⟩, hd⟩, ⟨⟨2, ![M, 128]⟩, ea⟩] hcat) w1)
                  (broadcastInDim ⟨2, ![M, 128]⟩ ![0, 1] hb2 (broadcastInDim ⟨2, ![1, 128]⟩ ![1] hb1 b1)))
                (broadcastInDim ⟨2, ![M, 128]⟩ ![] hz (constant (F := Ideal) ⟨0, ![]⟩ .f32 0x00000000#32)))
              w2)
            (broadcastInDim ⟨2, ![M, 128]⟩ ![0, 1] hb2' (broadcastInDim ⟨2, ![1, 128]⟩ ![1] hb1' b2)))
          (broadcastInDim ⟨2, ![M, 128]⟩ ![] hh (constant (F := Ideal) ⟨0, ![]⟩ .f32 0x3F000000#32)))
      = Cert.Spec.emlp hs hd ea (Cert.Spec.third 0 w1) (Cert.Spec.third 1 w1) (Cert.Spec.third 2 w1) (Cert.Spec.vecOf b1) w2
          (Cert.Spec.vecOf b2) := by
  rw [lin3_host, relu_host, lin_host, half_host]
  rfl

/-- The readout head: three affine layers with positive parts between, the first on the join [hs | hd | e]. -/
theorem readout_host {M : Nat} (hs hd ea : FVec Ideal ⟨2, ![M, 128]⟩ .f32) (w1 : FVec Ideal ⟨2, ![384, 50]⟩ .f32)
    (b1 : FVec Ideal ⟨1, ![50]⟩ .f32) (w2 : FVec Ideal ⟨2, ![50, 25]⟩ .f32) (b2 : FVec Ideal ⟨1, ![25]⟩ .f32)
    (w3 : FVec Ideal ⟨2, ![25, 2]⟩ .f32) (b3 : FVec Ideal ⟨1, ![2]⟩ .f32)
    (hcat : Shape.Concatenates (([⟨⟨2, ![M, 128]⟩, hs⟩, ⟨⟨2, ![M, 128]⟩, hd⟩, ⟨⟨2, ![M, 128]⟩, ea⟩] :
      List ((s : Shape) × (s.Idx → EReal))).map (·.1)) ⟨2, ![M, 384]⟩ 1)
    (hb1 : (⟨1, ![50]⟩ : Shape).BroadcastsInDim ⟨2, ![1, 50]⟩ ![1])
    (hb2 : (⟨2, ![1, 50]⟩ : Shape).BroadcastsInDim ⟨2, ![M, 50]⟩ ![0, 1])
    (hz1 : (⟨0, ![]⟩ : Shape).BroadcastsInDim ⟨2, ![M, 50]⟩ (![] : Fin 0 → Fin 2))
    (hc1 : (⟨1, ![25]⟩ : Shape).BroadcastsInDim ⟨2, ![1, 25]⟩ ![1])
    (hc2 : (⟨2, ![1, 25]⟩ : Shape).BroadcastsInDim ⟨2, ![M, 25]⟩ ![0, 1])
    (hz2 : (⟨0, ![]⟩ : Shape).BroadcastsInDim ⟨2, ![M, 25]⟩ (![] : Fin 0 → Fin 2))
    (hd1 : (⟨1, ![2]⟩ : Shape).BroadcastsInDim ⟨2, ![1, 2]⟩ ![1])
    (hd2 : (⟨2, ![1, 2]⟩ : Shape).BroadcastsInDim ⟨2, ![M, 2]⟩ ![0, 1]) :
    addf
        (Host.dotGeneral (DotDims.plain M 25 2) none
          (maximumf
            (addf
              (Host.dotGeneral (DotDims.plain M 50 25) none
                (maximumf
                  (addf (Host.dotGeneral (DotDims.plain M 384 50) none
                      (concatenate ⟨2, ![M, 384]⟩ 1 [⟨⟨2, ![M, 128]⟩, hs⟩, ⟨⟨2, ![M, 128]⟩, hd⟩, ⟨⟨2, ![M, 128]⟩, ea⟩] hcat) w1)
                    (broadcastInDim ⟨2, ![M, 50]⟩ ![0, 1] hb2 (broadcastInDim ⟨2, ![1, 50]⟩ ![1] hb1 b1)))
                  (broadcastInDim ⟨2, ![M, 50]⟩ ![] hz1 (constant (F := Ideal) ⟨0, ![]⟩ .f32 0x00000000#32)))
                w2)
              (broadcastInDim ⟨2, ![M, 25]⟩ ![0, 1] hc2 (broadcastInDim ⟨2, ![1, 25]⟩ ![1] hc1 b2)))
            (broadcastInDim ⟨2, ![M, 25]⟩ ![] hz2 (constant (F := Ideal) ⟨0, ![]⟩ .f32 0x00000000#32)))
          w3)
        (broadcastInDim ⟨2, ![M, 2]⟩ ![0, 1] hd2 (broadcastInDim ⟨2, ![1, 2]⟩ ![1] hd1 b3))
      = Cert.Spec.readout hs hd ea (Cert.Spec.third 0 w1) (Cert.Spec.third 1 w1) (Cert.Spec.third 2 w1) (Cert.Spec.vecOf b1) w2
          (Cert.Spec.vecOf b2) w3 (Cert.Spec.vecOf b3) := by
  rw [lin3_host, relu_host, lin_host, relu_host, lin_host]
  rfl

/-! ## A layer's weight and bias out of the stack -/

/-- Slab `l` of a stack of matrices: the unit slice at offset `l`, the unit axis dropped. -/
theorem slab_host {L K N : Nat} (l : Fin L) (o : Nat) (ho : o = l.val) (w : FVec Ideal ⟨3, ![L, K, N]⟩ .f32)
    (hs : (⟨3, ![L, K, N]⟩ : Shape).Slices ![o, 0, 0] ⟨3, ![1, K, N]⟩)
    (hc : (⟨3, ![1, K, N]⟩ : Shape).ShapeCasts ⟨2, ![K, N]⟩) :
    shapeCast ⟨2, ![K, N]⟩ (extractStridedSlice ⟨3, ![1, K, N]⟩ ![o, 0, 0] w hs) hc = Cert.Spec.slab l w := by
  funext i
  obtain ⟨k, c, rfl⟩ : ∃ (k : Fin K) (c : Fin N), i = ix2 k c := ⟨i 0, i 1, eq_ix2 i⟩
  rw [shapeCast_1ab_ab_apply, extractStridedSlice_apply ![o, 0, 0] w hs (ix3 (0 : Fin 1) k c) (ix3 l k c) (fun a => by
    match a with
    | ⟨0, _⟩ => show l.val = o + 0; omega
    | ⟨1, _⟩ => show k.val = 0 + k.val; omega
    | ⟨2, _⟩ => show c.val = 0 + c.val; omega)]
  rfl

/-- Row `l` of a bias matrix: the unit slice at offset `l`, the unit axis dropped. -/
theorem row_host {L N : Nat} (l : Fin L) (o : Nat) (ho : o = l.val) (b : FVec Ideal ⟨2, ![L, N]⟩ .f32)
    (hs : (⟨2, ![L, N]⟩ : Shape).Slices ![o, 0] ⟨2, ![1, N]⟩) (hc : (⟨2, ![1, N]⟩ : Shape).ShapeCasts ⟨1, ![N]⟩) :
    Cert.Spec.vecOf (shapeCast ⟨1, ![N]⟩ (extractStridedSlice ⟨2, ![1, N]⟩ ![o, 0] b hs) hc) = Cert.Spec.rowOf l b := by
  funext c
  show shapeCast ⟨1, ![N]⟩ (extractStridedSlice ⟨2, ![1, N]⟩ ![o, 0] b hs) hc (ix1 c) = b (ix2 l c)
  rw [shapeCast_1a_a_apply, extractStridedSlice_apply ![o, 0] b hs (ix2 (0 : Fin 1) c) (ix2 l c) (fun a => by
    match a with
    | ⟨0, _⟩ => show l.val = o + 0; omega
    | ⟨1, _⟩ => show c.val = 0 + c.val; omega)]

/-! ## The printed product records are the plain ones -/

theorem dot_384_128_eq : dot_S500000x384_S384x128_S500000x128_1_0_0_1_n_n = DotDims.plain 500000 384 128 := rfl
theorem dot_128_128_eq : dot_S500000x128_S128x128_S500000x128_1_0_0_1_n_n = DotDims.plain 500000 128 128 := rfl
theorem dot_384_50_eq : dot_S500000x384_S384x50_S500000x50_1_0_0_1_n_n = DotDims.plain 500000 384 50 := rfl
theorem dot_50_25_eq : dot_S500000x50_S50x25_S500000x25_1_0_0_1_n_n = DotDims.plain 500000 50 25 := rfl
theorem dot_25_2_eq : dot_S500000x25_S25x2_S500000x2_1_0_0_1_n_n = DotDims.plain 500000 25 2 := rfl

/-! ## The stages as the reference composes them -/

/-- The edge update as the reference composes it, for the layer whose weights sit at offset `o` of the stacks. -/
def hostEdge (o : Nat) (hs12 : S2x384x128.Slices ![o, 0, 0] S1x384x128) (hs13 : S2x128.Slices ![o, 0] S1x128)
    (hs14 : S2x128x128.Slices ![o, 0, 0] S1x128x128)
    (hs hd ea : FVec Ideal S500000x128 .f32) (c12 : FVec Ideal S2x384x128 .f32) (c13 : FVec Ideal S2x128 .f32)
    (c14 : FVec Ideal S2x128x128 .f32) (c15 : FVec Ideal S2x128 .f32) : FVec Ideal S500000x128 .f32 :=
  addf ea
    (mulf
      (addf
        (Host.dotGeneral dot_S500000x128_S128x128_S500000x128_1_0_0_1_n_n none
          (maximumf
            (addf
              (Host.dotGeneral dot_S500000x384_S384x128_S500000x128_1_0_0_1_n_n none
                (concatenate S500000x384 1 [⟨S500000x128, hs⟩, ⟨S500000x128, hd⟩, ⟨S500000x128, ea⟩]
                  concatenates_S500000x128_S500000x128_S500000x128_S500000x384_d1)
                (shapeCast S384x128 (extractStridedSlice S1x384x128 ![o, 0, 0] c12 hs12) shapeCasts_S1x384x128_S384x128))
              (broadcastInDim S500000x128 ![0, 1] bcast_S1x128_S500000x128_0_1
                (broadcastInDim S1x128 ![1] bcast_S128_S1x128_1
                  (shapeCast S128 (extractStridedSlice S1x128 ![o, 0] c13 hs13) shapeCasts_S1x128_S128))))
            (broadcastInDim S500000x128 ![] bcast_S_S500000x128 (constant S_ .f32 0x00000000#32)))
          (shapeCast S128x128 (extractStridedSlice S1x128x128 ![o, 0, 0] c14 hs14) shapeCasts_S1x128x128_S128x128))
        (broadcastInDim S500000x128 ![0, 1] bcast_S1x128_S500000x128_0_1
          (broadcastInDim S1x128 ![1] bcast_S128_S1x128_1
            (shapeCast S128 (extractStridedSlice S1x128 ![o, 0] c15 hs13) shapeCasts_S1x128_S128))))
      (broadcastInDim S500000x128 ![] bcast_S_S500000x128 (constant S_ .f32 0x3F000000#32)))

/-- The composed edge update is the specification's, at slab and row `l` of the stacks. -/
theorem hostEdge_eq (o : Nat) (l : Fin 2) (ho : o = l.val) (hs12 : S2x384x128.Slices ![o, 0, 0] S1x384x128)
    (hs13 : S2x128.Slices ![o, 0] S1x128) (hs14 : S2x128x128.Slices ![o, 0, 0] S1x128x128)
    (hs hd ea : FVec Ideal S500000x128 .f32) (c12 : FVec Ideal S2x384x128 .f32) (c13 : FVec Ideal S2x128 .f32)
    (c14 : FVec Ideal S2x128x128 .f32) (c15 : FVec Ideal S2x128 .f32) :
    hostEdge o hs12 hs13 hs14 hs hd ea c12 c13 c14 c15
      = Cert.Spec.emlp hs hd ea (Cert.Spec.third 0 (Cert.Spec.slab l c12)) (Cert.Spec.third 1 (Cert.Spec.slab l c12))
          (Cert.Spec.third 2 (Cert.Spec.slab l c12)) (Cert.Spec.rowOf l c13) (Cert.Spec.slab l c14) (Cert.Spec.rowOf l c15) := by
  unfold hostEdge
  rw [dot_384_128_eq, dot_128_128_eq, emlp_host, slab_host l o ho, slab_host l o ho, row_host l o ho, row_host l o ho]

/-- The readout head as the reference composes it. -/
def hostReadout (hs hd ea : FVec Ideal S500000x128 .f32) (c16 : FVec Ideal S384x50 .f32) (c17 : FVec Ideal S50 .f32)
    (c18 : FVec Ideal S50x25 .f32) (c19 : FVec Ideal S25 .f32) (c20 : FVec Ideal S25x2 .f32) (c21 : FVec Ideal S2 .f32) :
    FVec Ideal S500000x2 .f32 :=
  addf
    (Host.dotGeneral dot_S500000x25_S25x2_S500000x2_1_0_0_1_n_n none
      (maximumf
        (addf
          (Host.dotGeneral dot_S500000x50_S50x25_S500000x25_1_0_0_1_n_n none
            (maximumf
              (addf
                (Host.dotGeneral dot_S500000x384_S384x50_S500000x50_1_0_0_1_n_n none
                  (concatenate S500000x384 1 [⟨S500000x128, hs⟩, ⟨S500000x128, hd⟩, ⟨S500000x128, ea⟩]
                    concatenates_S500000x128_S500000x128_S500000x128_S500000x384_d1)
                  c16)
                (broadcastInDim S500000x50 ![0, 1] bcast_S1x50_S500000x50_0_1 (broadcastInDim S1x50 ![1] bcast_S50_S1x50_1 c17)))
              (broadcastInDim S500000x50 ![] bcast_S_S500000x50 (constant S_ .f32 0x00000000#32)))
            c18)
          (broadcastInDim S500000x25 ![0, 1] bcast_S1x25_S500000x25_0_1 (broadcastInDim S1x25 ![1] bcast_S25_S1x25_1 c19)))
        (broadcastInDim S500000x25 ![] bcast_S_S500000x25 (constant S_ .f32 0x00000000#32)))
      c20)
    (broadcastInDim S500000x2 ![0, 1] bcast_S1x2_S500000x2_0_1 (broadcastInDim S1x2 ![1] bcast_S2_S1x2_1 c21))

/-- The composed readout head is the specification's. -/
theorem hostReadout_eq (hs hd ea : FVec Ideal S500000x128 .f32) (c16 : FVec Ideal S384x50 .f32) (c17 : FVec Ideal S50 .f32)
    (c18 : FVec Ideal S50x25 .f32) (c19 : FVec Ideal S25 .f32) (c20 : FVec Ideal S25x2 .f32) (c21 : FVec Ideal S2 .f32) :
    hostReadout hs hd ea c16 c17 c18 c19 c20 c21
      = Cert.Spec.readout hs hd ea (Cert.Spec.third 0 c16) (Cert.Spec.third 1 c16) (Cert.Spec.third 2 c16) (Cert.Spec.vecOf c17) c18
          (Cert.Spec.vecOf c19) c20 (Cert.Spec.vecOf c21) := by
  unfold hostReadout
  rw [dot_384_50_eq, dot_50_25_eq, dot_25_2_eq, readout_host]

/-! ## The fold's results, stretch by stretch -/

theorem vec3_0 {α : Type} (a b c : α) : (![a, b, c] : Fin 3 → α) 0 = a := rfl
theorem vec3_1 {α : Type} (a b c : α) : (![a, b, c] : Fin 3 → α) 1 = b := rfl
theorem vec3_2 {α : Type} (a b c : α) : (![a, b, c] : Fin 3 → α) 2 = c := rfl

/-- Each operation's result at its own buffer is its function's value; at any other buffer, what was there. -/
macro "stageB_results" : tactic =>
  `(tactic| repeat (first
      | rw [nullary_result] | rw [unary_result] | rw [binary_result] | rw [ternary_result] | rw [quaternary_result]
      | rw [reshape_result] | rw [nary_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [nary_result_ne]; rotate_left; decide)))

/-- The results of a short stretch of operations: each operation's result rewritten, a join's three operands read off their
    literal family, and the typed references' transports (the identity at literal references) removed. -/
macro "stageB_stretch" : tactic =>
  `(tactic| (stageB_results
             try dsimp only [vec3_0, vec3_1, vec3_2]
             stageB_results
             try simp only [TRef.ofBuf, TRef.toBuf, cast_eq]))

/-- The first affine layer of an edge update as the reference composes it. -/
def hostHead (o : Nat) (hs12 : S2x384x128.Slices ![o, 0, 0] S1x384x128) (hs13 : S2x128.Slices ![o, 0] S1x128)
    (hs hd ea : FVec Ideal S500000x128 .f32) (c12 : FVec Ideal S2x384x128 .f32) (c13 : FVec Ideal S2x128 .f32) :
    FVec Ideal S500000x128 .f32 :=
  addf
    (Host.dotGeneral dot_S500000x384_S384x128_S500000x128_1_0_0_1_n_n none
      (concatenate S500000x384 1 [⟨S500000x128, hs⟩, ⟨S500000x128, hd⟩, ⟨S500000x128, ea⟩] concatenates_S500000x128_S500000x128_S500000x128_S500000x384_d1)
      (shapeCast S384x128 (extractStridedSlice S1x384x128 ![o, 0, 0] c12 hs12) shapeCasts_S1x384x128_S384x128))
    (broadcastInDim S500000x128 ![0, 1] bcast_S1x128_S500000x128_0_1
      (broadcastInDim S1x128 ![1] bcast_S128_S1x128_1
        (shapeCast S128 (extractStridedSlice S1x128 ![o, 0] c13 hs13) shapeCasts_S1x128_S128)))

/-- The second affine layer of an edge update, the halving and the residual, from the hidden activations `x`. -/
def hostTail (o : Nat) (hs14 : S2x128x128.Slices ![o, 0, 0] S1x128x128) (hs13 : S2x128.Slices ![o, 0] S1x128)
    (ea x : FVec Ideal S500000x128 .f32) (c14 : FVec Ideal S2x128x128 .f32) (c15 : FVec Ideal S2x128 .f32) :
    FVec Ideal S500000x128 .f32 :=
  addf ea
    (mulf
      (addf
        (Host.dotGeneral dot_S500000x128_S128x128_S500000x128_1_0_0_1_n_n none x
          (shapeCast S128x128 (extractStridedSlice S1x128x128 ![o, 0, 0] c14 hs14) shapeCasts_S1x128x128_S128x128))
        (broadcastInDim S500000x128 ![0, 1] bcast_S1x128_S500000x128_0_1
          (broadcastInDim S1x128 ![1] bcast_S128_S1x128_1
            (shapeCast S128 (extractStridedSlice S1x128 ![o, 0] c15 hs13) shapeCasts_S1x128_S128))))
      (broadcastInDim S500000x128 ![] bcast_S_S500000x128 (constant S_ .f32 0x3F000000#32)))

/-- The readout head's first affine layer as the reference composes it. -/
def hostHeadR (hs hd ea : FVec Ideal S500000x128 .f32) (c16 : FVec Ideal S384x50 .f32) (c17 : FVec Ideal S50 .f32) :
    FVec Ideal S500000x50 .f32 :=
  addf
    (Host.dotGeneral dot_S500000x384_S384x50_S500000x50_1_0_0_1_n_n none
      (concatenate S500000x384 1 [⟨S500000x128, hs⟩, ⟨S500000x128, hd⟩, ⟨S500000x128, ea⟩] concatenates_S500000x128_S500000x128_S500000x128_S500000x384_d1)
      c16)
    (broadcastInDim S500000x50 ![0, 1] bcast_S1x50_S500000x50_0_1 (broadcastInDim S1x50 ![1] bcast_S50_S1x50_1 c17))

/-- The positive part as the reference composes it, at the three widths of the stages. -/
def hostRelu128 (x : FVec Ideal S500000x128 .f32) : FVec Ideal S500000x128 .f32 := maximumf x (broadcastInDim S500000x128 ![] bcast_S_S500000x128 (constant S_ .f32 0x00000000#32))
def hostRelu50 (x : FVec Ideal S500000x50 .f32) : FVec Ideal S500000x50 .f32 := maximumf x (broadcastInDim S500000x50 ![] bcast_S_S500000x50 (constant S_ .f32 0x00000000#32))
def hostRelu25 (x : FVec Ideal S500000x25 .f32) : FVec Ideal S500000x25 .f32 := maximumf x (broadcastInDim S500000x25 ![] bcast_S_S500000x25 (constant S_ .f32 0x00000000#32))

/-- The readout head's second and third affine layers as the reference composes them. -/
def hostMidR (x : FVec Ideal S500000x50 .f32) (c18 : FVec Ideal S50x25 .f32) (c19 : FVec Ideal S25 .f32) :
    FVec Ideal S500000x25 .f32 :=
  addf (Host.dotGeneral dot_S500000x50_S50x25_S500000x25_1_0_0_1_n_n none x c18) (broadcastInDim S500000x25 ![0, 1] bcast_S1x25_S500000x25_0_1 (broadcastInDim S1x25 ![1] bcast_S25_S1x25_1 c19))
def hostOutR (x : FVec Ideal S500000x25 .f32) (c20 : FVec Ideal S25x2 .f32) (c21 : FVec Ideal S2 .f32) :
    FVec Ideal S500000x2 .f32 :=
  addf (Host.dotGeneral dot_S500000x25_S25x2_S500000x2_1_0_0_1_n_n none x c20) (broadcastInDim S500000x2 ![0, 1] bcast_S1x2_S500000x2_0_1 (broadcastInDim S1x2 ![1] bcast_S2_S1x2_1 c21))

section Runs

attribute [local irreducible] Host.gather concatenate

theorem forall_take {α : Type} {p : α → Prop} {l : List α} (n : Nat) (h : l.Forall p) : (l.take n).Forall p :=
  List.forall_iff_forall_mem.mpr fun x hx => List.forall_iff_forall_mem.mp h x (List.mem_of_mem_take hx)

/-- A line run in two stretches. -/
theorem after_split (n : Nat) (l : List (HloOp τ sig (Elt Ideal))) (V : Valuation τ sig (Elt Ideal)) :
    after l V = after (l.drop n) (after (l.take n) V) := by
  rw [← after_append, List.take_append_drop]

/-- A buffer a line does not write keeps its contents through the line's first `n` operations. -/
theorem keep_take (n : Nat) (l : List (HloOp τ sig (Elt Ideal))) (wr : List (Ref sig .tc))
    (hw : l.Forall fun op => op.writes ⊆ (wr.map (Proc.devRef (τ := τ) .tc)).toFinset)
    (V : Valuation τ sig (Elt Ideal)) (r : Ref sig .tc) (hr : r ∉ wr) :
    after (l.take n) V (Proc.devRef .tc r) = V (Proc.devRef .tc r) :=
  after_of_writes_sub (l.take n) V (forall_take n hw) hr

/-! ### Layer 0's edge update (it16, it17, it18) -/

theorem src7 (V : Valuation τ sig (Elt Ideal)) :
    after (List.take 18 (Run.it16 (F := Ideal))) V (Proc.devRef .tc main_v75)
      = take (V (Proc.devRef .tc main_v1)) (V (Proc.devRef .tc main_v68)) := by
  simp only [Run.it16, List.take_succ_cons, List.take_zero, after_cons, after_nil]
  stageB_stretch
  rfl

theorem dst7 (V : Valuation τ sig (Elt Ideal)) :
    after (List.take 18 (Run.it16 (F := Ideal))) V (Proc.devRef .tc main_v82)
      = take (V (Proc.devRef .tc main_v3)) (V (Proc.devRef .tc main_v68)) := by
  simp only [Run.it16, List.take_succ_cons, List.take_zero, after_cons, after_nil]
  stageB_stretch
  rfl

theorem head7 (V : Valuation τ sig (Elt Ideal)) :
    after (List.drop 18 (Run.it16 (F := Ideal))) V (Proc.devRef .tc main_v91)
      = hostHead 0 slices_S2x384x128_S1x384x128_0_0_0 slices_S2x128_S1x128_0_0 (V (Proc.devRef .tc main_v75)) (V (Proc.devRef .tc main_v82)) (V (Proc.devRef .tc main_v11)) (V (Proc.devRef .tc main_arg12)) (V (Proc.devRef .tc main_arg13)) := by
  simp only [Run.it16, List.drop_succ_cons, List.drop_zero, after_cons, after_nil]
  stageB_stretch
  rfl

theorem relu7 (V : Valuation τ sig (Elt Ideal)) :
    after (Run.it17 (F := Ideal)) V (Proc.devRef .tc main_v92)
      = hostRelu128 (V (Proc.devRef .tc main_v91)) := by
  simp only [Run.it17, after_cons, after_nil]
  stageB_stretch
  rfl

theorem tail7 (V : Valuation τ sig (Elt Ideal)) :
    after (Run.it18 (F := Ideal)) V (Proc.devRef .tc main_v103)
      = hostTail 0 slices_S2x128x128_S1x128x128_0_0_0 slices_S2x128_S1x128_0_0 (V (Proc.devRef .tc main_v11)) (V (Proc.devRef .tc main_v92)) (V (Proc.devRef .tc main_arg14)) (V (Proc.devRef .tc main_arg15)) := by
  simp only [Run.it18, after_cons, after_nil]
  stageB_stretch
  rfl

theorem run7 (W : Valuation τ sig (Elt Ideal)) :
    after (Run.chunk7 (F := Ideal)) W (Proc.devRef .tc main_v103)
      = hostEdge 0 slices_S2x384x128_S1x384x128_0_0_0 slices_S2x128_S1x128_0_0 slices_S2x128x128_S1x128x128_0_0_0
          (take (W (Proc.devRef .tc main_v1)) (W (Proc.devRef .tc main_v68))) (take (W (Proc.devRef .tc main_v3)) (W (Proc.devRef .tc main_v68))) (W (Proc.devRef .tc main_v11))
          (W (Proc.devRef .tc main_arg12)) (W (Proc.devRef .tc main_arg13)) (W (Proc.devRef .tc main_arg14)) (W (Proc.devRef .tc main_arg15)) := by
  rw [show Run.chunk7 (F := Ideal) = Run.it16 ++ (Run.it17 ++ Run.it18) from rfl, after_append, after_append,
    tail7, relu7,
    Run.keep_it17 _ main_v11 (by decide), Run.keep_it17 _ main_arg14 (by decide), Run.keep_it17 _ main_arg15 (by decide),
    Run.keep_it16 _ main_v11 (by decide), Run.keep_it16 _ main_arg14 (by decide), Run.keep_it16 _ main_arg15 (by decide),
    after_split 18 (Run.it16 (F := Ideal)), head7, src7, dst7,
    keep_take 18 _ _ Run.it16_writes _ main_v11 (by decide), keep_take 18 _ _ Run.it16_writes _ main_arg12 (by decide),
    keep_take 18 _ _ Run.it16_writes _ main_arg13 (by decide)]
  rfl
/-! ### Layer 1's edge update (it33, it34, it35) -/

theorem src12 (V : Valuation τ sig (Elt Ideal)) :
    after (List.take 18 (Run.it33 (F := Ideal))) V (Proc.devRef .tc main_v167)
      = take (V (Proc.devRef .tc main_v1)) (V (Proc.devRef .tc main_v160)) := by
  simp only [Run.it33, List.take_succ_cons, List.take_zero, after_cons, after_nil]
  stageB_stretch
  rfl

theorem dst12 (V : Valuation τ sig (Elt Ideal)) :
    after (List.take 18 (Run.it33 (F := Ideal))) V (Proc.devRef .tc main_v174)
      = take (V (Proc.devRef .tc main_v3)) (V (Proc.devRef .tc main_v160)) := by
  simp only [Run.it33, List.take_succ_cons, List.take_zero, after_cons, after_nil]
  stageB_stretch
  rfl

theorem head12 (V : Valuation τ sig (Elt Ideal)) :
    after (List.drop 18 (Run.it33 (F := Ideal))) V (Proc.devRef .tc main_v183)
      = hostHead 1 slices_S2x384x128_S1x384x128_1_0_0 slices_S2x128_S1x128_1_0 (V (Proc.devRef .tc main_v167)) (V (Proc.devRef .tc main_v174)) (V (Proc.devRef .tc main_v103)) (V (Proc.devRef .tc main_arg12)) (V (Proc.devRef .tc main_arg13)) := by
  simp only [Run.it33, List.drop_succ_cons, List.drop_zero, after_cons, after_nil]
  stageB_stretch
  rfl

theorem relu12 (V : Valuation τ sig (Elt Ideal)) :
    after (Run.it34 (F := Ideal)) V (Proc.devRef .tc main_v184)
      = hostRelu128 (V (Proc.devRef .tc main_v183)) := by
  simp only [Run.it34, after_cons, after_nil]
  stageB_stretch
  rfl

theorem tail12 (V : Valuation τ sig (Elt Ideal)) :
    after (Run.it35 (F := Ideal)) V (Proc.devRef .tc main_v195)
      = hostTail 1 slices_S2x128x128_S1x128x128_1_0_0 slices_S2x128_S1x128_1_0 (V (Proc.devRef .tc main_v103)) (V (Proc.devRef .tc main_v184)) (V (Proc.devRef .tc main_arg14)) (V (Proc.devRef .tc main_arg15)) := by
  simp only [Run.it35, after_cons, after_nil]
  stageB_stretch
  rfl

theorem run12 (W : Valuation τ sig (Elt Ideal)) :
    after (Run.chunk12 (F := Ideal)) W (Proc.devRef .tc main_v195)
      = hostEdge 1 slices_S2x384x128_S1x384x128_1_0_0 slices_S2x128_S1x128_1_0 slices_S2x128x128_S1x128x128_1_0_0
          (take (W (Proc.devRef .tc main_v1)) (W (Proc.devRef .tc main_v160))) (take (W (Proc.devRef .tc main_v3)) (W (Proc.devRef .tc main_v160))) (W (Proc.devRef .tc main_v103))
          (W (Proc.devRef .tc main_arg12)) (W (Proc.devRef .tc main_arg13)) (W (Proc.devRef .tc main_arg14)) (W (Proc.devRef .tc main_arg15)) := by
  rw [show Run.chunk12 (F := Ideal) = Run.it33 ++ (Run.it34 ++ Run.it35) from rfl, after_append, after_append,
    tail12, relu12,
    Run.keep_it34 _ main_v103 (by decide), Run.keep_it34 _ main_arg14 (by decide), Run.keep_it34 _ main_arg15 (by decide),
    Run.keep_it33 _ main_v103 (by decide), Run.keep_it33 _ main_arg14 (by decide), Run.keep_it33 _ main_arg15 (by decide),
    after_split 18 (Run.it33 (F := Ideal)), head12, src12, dst12,
    keep_take 18 _ _ Run.it33_writes _ main_v103 (by decide), keep_take 18 _ _ Run.it33_writes _ main_arg12 (by decide),
    keep_take 18 _ _ Run.it33_writes _ main_arg13 (by decide)]
  rfl

/-! ### The readout head (it36 … it41) -/

theorem src13 (V : Valuation τ sig (Elt Ideal)) :
    after (Run.it36 (F := Ideal)) V (Proc.devRef .tc main_v202) = take (V (Proc.devRef .tc main_v1)) (V (Proc.devRef .tc main_v160)) := by
  simp only [Run.it36, after_cons, after_nil]
  stageB_stretch
  rfl

theorem dst13 (V : Valuation τ sig (Elt Ideal)) :
    after (Run.it36 (F := Ideal)) V (Proc.devRef .tc main_v209) = take (V (Proc.devRef .tc main_v3)) (V (Proc.devRef .tc main_v160)) := by
  simp only [Run.it36, after_cons, after_nil]
  stageB_stretch
  rfl

theorem head13 (V : Valuation τ sig (Elt Ideal)) :
    after (Run.it37 (F := Ideal)) V (Proc.devRef .tc main_v214)
      = hostHeadR (V (Proc.devRef .tc main_v202)) (V (Proc.devRef .tc main_v209)) (V (Proc.devRef .tc main_v195)) (V (Proc.devRef .tc main_arg16)) (V (Proc.devRef .tc main_arg17)) := by
  simp only [Run.it37, after_cons, after_nil]
  stageB_stretch
  rfl

theorem relu13a (V : Valuation τ sig (Elt Ideal)) :
    after (Run.it38 (F := Ideal)) V (Proc.devRef .tc main_v215) = hostRelu50 (V (Proc.devRef .tc main_v214)) := by
  simp only [Run.it38, after_cons, after_nil]
  stageB_stretch
  rfl

theorem mid13 (V : Valuation τ sig (Elt Ideal)) :
    after (Run.it39 (F := Ideal)) V (Proc.devRef .tc main_v219)
      = hostMidR (V (Proc.devRef .tc main_v215)) (V (Proc.devRef .tc main_arg18)) (V (Proc.devRef .tc main_arg19)) := by
  simp only [Run.it39, after_cons, after_nil]
  stageB_stretch
  rfl

theorem relu13b (V : Valuation τ sig (Elt Ideal)) :
    after (Run.it40 (F := Ideal)) V (Proc.devRef .tc main_v220) = hostRelu25 (V (Proc.devRef .tc main_v219)) := by
  simp only [Run.it40, after_cons, after_nil]
  stageB_stretch
  rfl

theorem out13 (V : Valuation τ sig (Elt Ideal)) :
    after (Run.it41 (F := Ideal)) V (Proc.devRef .tc main_v224)
      = hostOutR (V (Proc.devRef .tc main_v220)) (V (Proc.devRef .tc main_arg20)) (V (Proc.devRef .tc main_arg21)) := by
  simp only [Run.it41, after_cons, after_nil]
  stageB_stretch
  rfl

theorem run13 (W : Valuation τ sig (Elt Ideal)) :
    after (Run.chunk13 (F := Ideal)) W (Proc.devRef .tc main_v224)
      = hostReadout (take (W (Proc.devRef .tc main_v1)) (W (Proc.devRef .tc main_v160))) (take (W (Proc.devRef .tc main_v3)) (W (Proc.devRef .tc main_v160))) (W (Proc.devRef .tc main_v195))
          (W (Proc.devRef .tc main_arg16)) (W (Proc.devRef .tc main_arg17)) (W (Proc.devRef .tc main_arg18)) (W (Proc.devRef .tc main_arg19)) (W (Proc.devRef .tc main_arg20)) (W (Proc.devRef .tc main_arg21)) := by
  rw [show Run.chunk13 (F := Ideal) = Run.it36 ++ (Run.it37 ++ (Run.it38 ++ (Run.it39 ++ (Run.it40 ++ Run.it41)))) from rfl,
    after_append, after_append, after_append, after_append, after_append,
    out13, relu13b, Run.keep_it40 _ main_arg20 (by decide), Run.keep_it40 _ main_arg21 (by decide),
    mid13, Run.keep_it39 _ main_arg20 (by decide), Run.keep_it39 _ main_arg21 (by decide),
    relu13a, Run.keep_it38 _ main_arg18 (by decide), Run.keep_it38 _ main_arg19 (by decide), Run.keep_it38 _ main_arg20 (by decide), Run.keep_it38 _ main_arg21 (by decide),
    head13, Run.keep_it37 _ main_arg18 (by decide), Run.keep_it37 _ main_arg19 (by decide), Run.keep_it37 _ main_arg20 (by decide), Run.keep_it37 _ main_arg21 (by decide),
    src13, dst13, Run.keep_it36 _ main_v195 (by decide), Run.keep_it36 _ main_arg16 (by decide), Run.keep_it36 _ main_arg17 (by decide), Run.keep_it36 _ main_arg18 (by decide), Run.keep_it36 _ main_arg19 (by decide), Run.keep_it36 _ main_arg20 (by decide), Run.keep_it36 _ main_arg21 (by decide)]
  rfl

end Runs

end StageB

open StageB

/-! ## The three stages -/

/-- The edge update of layer 0. -/
theorem val7 (W : Valuation τ sig (Elt Ideal)) :
    after (Run.chunk7 (F := Ideal)) W (Proc.devRef .tc main_v103)
      = Cert.Spec.emlp (take (W (Proc.devRef .tc main_v1)) (W (Proc.devRef .tc main_v68)))
          (take (W (Proc.devRef .tc main_v3)) (W (Proc.devRef .tc main_v68))) (W (Proc.devRef .tc main_v11))
          (Cert.Spec.third 0 (Cert.Spec.slab (0 : Fin 2) (W (Proc.devRef .tc main_arg12))))
          (Cert.Spec.third 1 (Cert.Spec.slab (0 : Fin 2) (W (Proc.devRef .tc main_arg12))))
          (Cert.Spec.third 2 (Cert.Spec.slab (0 : Fin 2) (W (Proc.devRef .tc main_arg12))))
          (Cert.Spec.rowOf (0 : Fin 2) (W (Proc.devRef .tc main_arg13)))
          (Cert.Spec.slab (0 : Fin 2) (W (Proc.devRef .tc main_arg14)))
          (Cert.Spec.rowOf (0 : Fin 2) (W (Proc.devRef .tc main_arg15))) := by
  rw [run7, hostEdge_eq 0 (0 : Fin 2) rfl]

/-- The edge update of layer 1. -/
theorem val12 (W : Valuation τ sig (Elt Ideal)) :
    after (Run.chunk12 (F := Ideal)) W (Proc.devRef .tc main_v195)
      = Cert.Spec.emlp (take (W (Proc.devRef .tc main_v1)) (W (Proc.devRef .tc main_v160)))
          (take (W (Proc.devRef .tc main_v3)) (W (Proc.devRef .tc main_v160))) (W (Proc.devRef .tc main_v103))
          (Cert.Spec.third 0 (Cert.Spec.slab (1 : Fin 2) (W (Proc.devRef .tc main_arg12))))
          (Cert.Spec.third 1 (Cert.Spec.slab (1 : Fin 2) (W (Proc.devRef .tc main_arg12))))
          (Cert.Spec.third 2 (Cert.Spec.slab (1 : Fin 2) (W (Proc.devRef .tc main_arg12))))
          (Cert.Spec.rowOf (1 : Fin 2) (W (Proc.devRef .tc main_arg13)))
          (Cert.Spec.slab (1 : Fin 2) (W (Proc.devRef .tc main_arg14)))
          (Cert.Spec.rowOf (1 : Fin 2) (W (Proc.devRef .tc main_arg15))) := by
  rw [run12, hostEdge_eq 1 (1 : Fin 2) rfl]

/-- The readout head. -/
theorem val13 (W : Valuation τ sig (Elt Ideal)) :
    after (Run.chunk13 (F := Ideal)) W (Proc.devRef .tc main_v224)
      = Cert.Spec.readout (take (W (Proc.devRef .tc main_v1)) (W (Proc.devRef .tc main_v160)))
          (take (W (Proc.devRef .tc main_v3)) (W (Proc.devRef .tc main_v160))) (W (Proc.devRef .tc main_v195))
          (Cert.Spec.third 0 (W (Proc.devRef .tc main_arg16))) (Cert.Spec.third 1 (W (Proc.devRef .tc main_arg16)))
          (Cert.Spec.third 2 (W (Proc.devRef .tc main_arg16))) (Cert.Spec.vecOf (W (Proc.devRef .tc main_arg17)))
          (W (Proc.devRef .tc main_arg18)) (Cert.Spec.vecOf (W (Proc.devRef .tc main_arg19))) (W (Proc.devRef .tc main_arg20))
          (Cert.Spec.vecOf (W (Proc.devRef .tc main_arg21))) := by
  rw [run13, hostReadout_eq]

end Cert.ReferenceIdeal.RVal

end
-- ==== Proof.RValue.lean ====
/-
  The reference program's result as the network of the specification. Stage by stage, what a stage's operations
  leave in its result buffer is the stage's function of the buffers it reads (the index vectors, the messages summed
  over destinations, the column statistics: here; the affine, perceptron and normalisation stages: the two stage
  modules); a stage leaves every buffer it does not write as it was; so the fold of all stages at the result buffer is
  the composition of the stage functions, which is `Cert.Spec.net` at the reference's own host operations.
-/
import proofs.«410123_j23235773072029_1_alg».proof.Proof.ROps
import proofs.«410123_j23235773072029_1_alg».proof.Proof.RHost
import proofs.«410123_j23235773072029_1_alg».proof.Proof.RStageA
import proofs.«410123_j23235773072029_1_alg».proof.Proof.RStageB
import Idealize.ShloMosaic.Lib.ValueIdx
import Idealize.ShloMosaic.Lib.IdealHost
import Idealize.ShloMosaic.Lib.Pipeline.Value

set_option maxRecDepth 16384

noncomputable section

namespace Cert.ReferenceIdeal.RVal

open Cert.ReferenceIdeal Cert.ReferenceIdeal.Gen Cert.ReferenceIdeal.Run Idealize.ShloMosaic Idealize.ShloMosaic.TcCoe
open Idealize.ShloMosaic.ValueIdx Idealize.ShloMosaic.StableHlo Idealize.SL.Sem

/-- The host's positive part of a sum is the message. -/
theorem host_msg (a b : FVec Ideal S500000x128 .f32) :
    maximumf (addf a b) (broadcastInDim S500000x128 ![] bcast_S_S500000x128 (constant S_ .f32 0x00000000#32)) = Cert.Spec.msg a b := by
  funext i
  rw [maximumf_apply, addf_apply, broadcastInDim_apply ![] bcast_S_S500000x128 _ i ix0 (fun a => a.elim0), constant_apply,
    Ideal.ofBits_zero_f32]
  rfl

attribute [local irreducible] Host.gather Host.scatterAdd Host.reduceAdd

/-- Stage 0: the two index vectors. -/
theorem val0_src (W : Valuation τ sig (Elt Ideal)) : after (chunk0 (F := Ideal)) W (Proc.devRef .tc main_v1) = srcOf (W (Proc.devRef .tc main_arg22)) := by
  simp only [chunk0, it0]
  after_results
  rfl
theorem val0_dst (W : Valuation τ sig (Elt Ideal)) : after (chunk0 (F := Ideal)) W (Proc.devRef .tc main_v3) = dstOf (W (Proc.devRef .tc main_arg22)) := by
  simp only [chunk0, it0]
  after_results
  rfl

/-- Stage 3: layer 0's messages summed over destinations. -/
theorem val3 (W : Valuation τ sig (Elt Ideal)) : after (chunk3 (F := Ideal)) W (Proc.devRef .tc main_v23)
    = segsum (W (Proc.devRef .tc main_v3)) (Cert.Spec.msg (take (W (Proc.devRef .tc main_v1)) (W (Proc.devRef .tc main_v7))) (W (Proc.devRef .tc main_v11))) := by
  simp only [chunk3, it3, it4, it5, List.cons_append, List.nil_append]
  after_results_simp
  exact congrArg (segsum (W (Proc.devRef .tc main_v3))) (host_msg (take (W (Proc.devRef .tc main_v1)) (W (Proc.devRef .tc main_v7))) (W (Proc.devRef .tc main_v11)))

/-- Stage 5: layer 0's column statistics. -/
theorem val5_mean (W : Valuation τ sig (Elt Ideal)) : after (chunk5 (F := Ideal)) W (Proc.devRef .tc main_v44) = mean (W (Proc.devRef .tc main_v41)) := by
  simp only [chunk5, it9, it10, it11, List.cons_append, List.nil_append]
  after_results_simp
  rfl
theorem val5_var (W : Valuation τ sig (Elt Ideal)) : after (chunk5 (F := Ideal)) W (Proc.devRef .tc main_v45) = var (W (Proc.devRef .tc main_v41)) := by
  simp only [chunk5, it9, it10, it11, List.cons_append, List.nil_append]
  after_results_simp
  rfl

/-- Stage 8: layer 1's messages summed over destinations. -/
theorem val8 (W : Valuation τ sig (Elt Ideal)) : after (chunk8 (F := Ideal)) W (Proc.devRef .tc main_v115)
    = segsum (W (Proc.devRef .tc main_v3)) (Cert.Spec.msg (take (W (Proc.devRef .tc main_v1)) (W (Proc.devRef .tc main_v68))) (W (Proc.devRef .tc main_v103))) := by
  simp only [chunk8, it19, it20, it21, it22, List.cons_append, List.nil_append]
  after_results_simp
  exact congrArg (segsum (W (Proc.devRef .tc main_v3))) (host_msg (take (W (Proc.devRef .tc main_v1)) (W (Proc.devRef .tc main_v68))) (W (Proc.devRef .tc main_v103)))

/-- Stage 10: layer 1's column statistics. -/
theorem val10_mean (W : Valuation τ sig (Elt Ideal)) : after (chunk10 (F := Ideal)) W (Proc.devRef .tc main_v136) = mean (W (Proc.devRef .tc main_v133)) := by
  simp only [chunk10, it26, it27, it28, List.cons_append, List.nil_append]
  after_results_simp
  rfl
theorem val10_var (W : Valuation τ sig (Elt Ideal)) : after (chunk10 (F := Ideal)) W (Proc.devRef .tc main_v137) = var (W (Proc.devRef .tc main_v133)) := by
  simp only [chunk10, it26, it27, it28, List.cons_append, List.nil_append]
  after_results_simp
  rfl

/-! The stage lemmas once more, for rewriting at any buffer expression. -/
theorem S_val13 (W : Valuation τ sig (Elt Ideal)) : after (chunk13 (F := Ideal)) W (no_index (Proc.devRef .tc main_v224))
    = Cert.Spec.readout (take (W (Proc.devRef .tc main_v1)) (W (Proc.devRef .tc main_v160))) (take (W (Proc.devRef .tc main_v3)) (W (Proc.devRef .tc main_v160))) (W (Proc.devRef .tc main_v195)) (Cert.Spec.third 0 (W (Proc.devRef .tc main_arg16))) (Cert.Spec.third 1 (W (Proc.devRef .tc main_arg16))) (Cert.Spec.third 2 (W (Proc.devRef .tc main_arg16))) (Cert.Spec.vecOf (W (Proc.devRef .tc main_arg17))) (W (Proc.devRef .tc main_arg18)) (Cert.Spec.vecOf (W (Proc.devRef .tc main_arg19))) (W (Proc.devRef .tc main_arg20)) (Cert.Spec.vecOf (W (Proc.devRef .tc main_arg21))) := val13 W
theorem S_val12 (W : Valuation τ sig (Elt Ideal)) : after (chunk12 (F := Ideal)) W (no_index (Proc.devRef .tc main_v195))
    = Cert.Spec.emlp (take (W (Proc.devRef .tc main_v1)) (W (Proc.devRef .tc main_v160))) (take (W (Proc.devRef .tc main_v3)) (W (Proc.devRef .tc main_v160))) (W (Proc.devRef .tc main_v103)) (Cert.Spec.third 0 (Cert.Spec.slab (1 : Fin 2) (W (Proc.devRef .tc main_arg12)))) (Cert.Spec.third 1 (Cert.Spec.slab (1 : Fin 2) (W (Proc.devRef .tc main_arg12)))) (Cert.Spec.third 2 (Cert.Spec.slab (1 : Fin 2) (W (Proc.devRef .tc main_arg12)))) (Cert.Spec.rowOf (1 : Fin 2) (W (Proc.devRef .tc main_arg13))) (Cert.Spec.slab (1 : Fin 2) (W (Proc.devRef .tc main_arg14))) (Cert.Spec.rowOf (1 : Fin 2) (W (Proc.devRef .tc main_arg15))) := val12 W
theorem S_val11 (W : Valuation τ sig (Elt Ideal)) : after (chunk11 (F := Ideal)) W (no_index (Proc.devRef .tc main_v160))
    = Cert.Spec.bn (W (Proc.devRef .tc main_v68)) (W (Proc.devRef .tc main_v133)) (Cert.Spec.vecOf (W (Proc.devRef .tc main_v136))) (Cert.Spec.vecOf (W (Proc.devRef .tc main_v137))) (Cert.Spec.rowOf (1 : Fin 2) (W (Proc.devRef .tc main_arg10))) (Cert.Spec.rowOf (1 : Fin 2) (W (Proc.devRef .tc main_arg11))) := val11 W
theorem S_val10_mean (W : Valuation τ sig (Elt Ideal)) : after (chunk10 (F := Ideal)) W (no_index (Proc.devRef .tc main_v136))
    = mean (W (Proc.devRef .tc main_v133)) := val10_mean W
theorem S_val10_var (W : Valuation τ sig (Elt Ideal)) : after (chunk10 (F := Ideal)) W (no_index (Proc.devRef .tc main_v137))
    = var (W (Proc.devRef .tc main_v133)) := val10_var W
theorem S_val9 (W : Valuation τ sig (Elt Ideal)) : after (chunk9 (F := Ideal)) W (no_index (Proc.devRef .tc main_v133))
    = Cert.Spec.conv (W (Proc.devRef .tc main_v68)) (W (Proc.devRef .tc main_v115)) (Cert.Spec.slab (1 : Fin 2) (W (Proc.devRef .tc main_arg6))) (Cert.Spec.rowOf (1 : Fin 2) (W (Proc.devRef .tc main_arg7))) (Cert.Spec.slab (1 : Fin 2) (W (Proc.devRef .tc main_arg8))) (Cert.Spec.rowOf (1 : Fin 2) (W (Proc.devRef .tc main_arg9))) := val9 W
theorem S_val8 (W : Valuation τ sig (Elt Ideal)) : after (chunk8 (F := Ideal)) W (no_index (Proc.devRef .tc main_v115))
    = segsum (W (Proc.devRef .tc main_v3)) (Cert.Spec.msg (take (W (Proc.devRef .tc main_v1)) (W (Proc.devRef .tc main_v68))) (W (Proc.devRef .tc main_v103))) := val8 W
theorem S_val7 (W : Valuation τ sig (Elt Ideal)) : after (chunk7 (F := Ideal)) W (no_index (Proc.devRef .tc main_v103))
    = Cert.Spec.emlp (take (W (Proc.devRef .tc main_v1)) (W (Proc.devRef .tc main_v68))) (take (W (Proc.devRef .tc main_v3)) (W (Proc.devRef .tc main_v68))) (W (Proc.devRef .tc main_v11)) (Cert.Spec.third 0 (Cert.Spec.slab (0 : Fin 2) (W (Proc.devRef .tc main_arg12)))) (Cert.Spec.third 1 (Cert.Spec.slab (0 : Fin 2) (W (Proc.devRef .tc main_arg12)))) (Cert.Spec.third 2 (Cert.Spec.slab (0 : Fin 2) (W (Proc.devRef .tc main_arg12)))) (Cert.Spec.rowOf (0 : Fin 2) (W (Proc.devRef .tc main_arg13))) (Cert.Spec.slab (0 : Fin 2) (W (Proc.devRef .tc main_arg14))) (Cert.Spec.rowOf (0 : Fin 2) (W (Proc.devRef .tc main_arg15))) := val7 W
theorem S_val6 (W : Valuation τ sig (Elt Ideal)) : after (chunk6 (F := Ideal)) W (no_index (Proc.devRef .tc main_v68))
    = Cert.Spec.bn (W (Proc.devRef .tc main_v7)) (W (Proc.devRef .tc main_v41)) (Cert.Spec.vecOf (W (Proc.devRef .tc main_v44))) (Cert.Spec.vecOf (W (Proc.devRef .tc main_v45))) (Cert.Spec.rowOf (0 : Fin 2) (W (Proc.devRef .tc main_arg10))) (Cert.Spec.rowOf (0 : Fin 2) (W (Proc.devRef .tc main_arg11))) := val6 W
theorem S_val5_mean (W : Valuation τ sig (Elt Ideal)) : after (chunk5 (F := Ideal)) W (no_index (Proc.devRef .tc main_v44))
    = mean (W (Proc.devRef .tc main_v41)) := val5_mean W
theorem S_val5_var (W : Valuation τ sig (Elt Ideal)) : after (chunk5 (F := Ideal)) W (no_index (Proc.devRef .tc main_v45))
    = var (W (Proc.devRef .tc main_v41)) := val5_var W
theorem S_val4 (W : Valuation τ sig (Elt Ideal)) : after (chunk4 (F := Ideal)) W (no_index (Proc.devRef .tc main_v41))
    = Cert.Spec.conv (W (Proc.devRef .tc main_v7)) (W (Proc.devRef .tc main_v23)) (Cert.Spec.slab (0 : Fin 2) (W (Proc.devRef .tc main_arg6))) (Cert.Spec.rowOf (0 : Fin 2) (W (Proc.devRef .tc main_arg7))) (Cert.Spec.slab (0 : Fin 2) (W (Proc.devRef .tc main_arg8))) (Cert.Spec.rowOf (0 : Fin 2) (W (Proc.devRef .tc main_arg9))) := val4 W
theorem S_val3 (W : Valuation τ sig (Elt Ideal)) : after (chunk3 (F := Ideal)) W (no_index (Proc.devRef .tc main_v23))
    = segsum (W (Proc.devRef .tc main_v3)) (Cert.Spec.msg (take (W (Proc.devRef .tc main_v1)) (W (Proc.devRef .tc main_v7))) (W (Proc.devRef .tc main_v11))) := val3 W
theorem S_val2 (W : Valuation τ sig (Elt Ideal)) : after (chunk2 (F := Ideal)) W (no_index (Proc.devRef .tc main_v11))
    = Cert.Spec.lin (W (Proc.devRef .tc main_arg1)) (W (Proc.devRef .tc main_arg4)) (Cert.Spec.vecOf (W (Proc.devRef .tc main_arg5))) := val2 W
theorem S_val1 (W : Valuation τ sig (Elt Ideal)) : after (chunk1 (F := Ideal)) W (no_index (Proc.devRef .tc main_v7))
    = Cert.Spec.lin (W (Proc.devRef .tc main_arg0)) (W (Proc.devRef .tc main_arg2)) (Cert.Spec.vecOf (W (Proc.devRef .tc main_arg3))) := val1 W
theorem S_val0_src (W : Valuation τ sig (Elt Ideal)) : after (chunk0 (F := Ideal)) W (no_index (Proc.devRef .tc main_v1))
    = srcOf (W (Proc.devRef .tc main_arg22)) := val0_src W
theorem S_val0_dst (W : Valuation τ sig (Elt Ideal)) : after (chunk0 (F := Ideal)) W (no_index (Proc.devRef .tc main_v3))
    = dstOf (W (Proc.devRef .tc main_arg22)) := val0_dst W

/-- The fold of all operations is the stages' folds, one inside the other. -/
theorem after_ops (V : Valuation τ sig (Elt Ideal)) : after (ops (F := Ideal)) V = after (chunk13 (F := Ideal)) (after (chunk12 (F := Ideal)) (after (chunk11 (F := Ideal)) (after (chunk10 (F := Ideal)) (after (chunk9 (F := Ideal)) (after (chunk8 (F := Ideal)) (after (chunk7 (F := Ideal)) (after (chunk6 (F := Ideal)) (after (chunk5 (F := Ideal)) (after (chunk4 (F := Ideal)) (after (chunk3 (F := Ideal)) (after (chunk2 (F := Ideal)) (after (chunk1 (F := Ideal)) (after (chunk0 (F := Ideal)) (V)))))))))))))) := by
  simp only [ops, chunk0, chunk1, chunk2, chunk3, chunk4, chunk5, chunk6, chunk7, chunk8, chunk9, chunk10, chunk11, chunk12, chunk13, StableHlo.after_append]

set_option maxHeartbeats 16000000 in
/-- The fold of all stages at the result buffer is the network. -/
theorem out_eq (V : Valuation τ sig (Elt Ideal)) :
    after (ops (F := Ideal)) V (Proc.devRef .tc main_v224)
      = Cert.Spec.net (HR (V (Proc.devRef .tc main_arg22))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  rw [after_ops]
  simp (disch := decide) only [S_val13, S_val12, S_val11, S_val10_mean, S_val10_var, S_val9, S_val8, S_val7, S_val6, S_val5_mean, S_val5_var, S_val4, S_val3, S_val2, S_val1, S_val0_src, S_val0_dst, keep_chunk0, keep_chunk1, keep_chunk2, keep_chunk3, keep_chunk4, keep_chunk5, keep_chunk6, keep_chunk7, keep_chunk8, keep_chunk9, keep_chunk10, keep_chunk11, keep_chunk12, keep_chunk13]
  rfl

set_option maxHeartbeats 4000000 in
/-- An argument buffer is written by no operation. -/
theorem arg_kept (V : Valuation τ sig (Elt Ideal)) (r : Ref sig .tc)
    (hr : r ∉ wr_it0 ++ (wr_it1 ++ (wr_it2 ++ (wr_it3 ++ (wr_it4 ++ (wr_it5 ++ (wr_it6 ++ (wr_it7 ++ (wr_it8 ++ (wr_it9 ++ (wr_it10 ++ (wr_it11 ++ (wr_it12 ++ (wr_it13 ++ (wr_it14 ++ (wr_it15 ++ (wr_it16 ++ (wr_it17 ++ (wr_it18 ++ (wr_it19 ++ (wr_it20 ++ (wr_it21 ++ (wr_it22 ++ (wr_it23 ++ (wr_it24 ++ (wr_it25 ++ (wr_it26 ++ (wr_it27 ++ (wr_it28 ++ (wr_it29 ++ (wr_it30 ++ (wr_it31 ++ (wr_it32 ++ (wr_it33 ++ (wr_it34 ++ (wr_it35 ++ (wr_it36 ++ (wr_it37 ++ (wr_it38 ++ (wr_it39 ++ (wr_it40 ++ (wr_it41)))))))))))))))))))))))))))))))))))))))))) :
    after (ops (F := Ideal)) V (Proc.devRef .tc r) = V (Proc.devRef .tc r) := by
  simp only [List.mem_append, not_or] at hr
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41⟩ := hr
  simp only [ops, chunk0, chunk1, chunk2, chunk3, chunk4, chunk5, chunk6, chunk7, chunk8, chunk9, chunk10, chunk11, chunk12, chunk13, StableHlo.after_append]
  rw [keep_it41 _ r h41, keep_it40 _ r h40, keep_it39 _ r h39, keep_it38 _ r h38, keep_it37 _ r h37, keep_it36 _ r h36, keep_it35 _ r h35, keep_it34 _ r h34, keep_it33 _ r h33, keep_it32 _ r h32, keep_it31 _ r h31, keep_it30 _ r h30, keep_it29 _ r h29, keep_it28 _ r h28, keep_it27 _ r h27, keep_it26 _ r h26, keep_it25 _ r h25, keep_it24 _ r h24, keep_it23 _ r h23, keep_it22 _ r h22, keep_it21 _ r h21, keep_it20 _ r h20, keep_it19 _ r h19, keep_it18 _ r h18, keep_it17 _ r h17, keep_it16 _ r h16, keep_it15 _ r h15, keep_it14 _ r h14, keep_it13 _ r h13, keep_it12 _ r h12, keep_it11 _ r h11, keep_it10 _ r h10, keep_it9 _ r h9, keep_it8 _ r h8, keep_it7 _ r h7, keep_it6 _ r h6, keep_it5 _ r h5, keep_it4 _ r h4, keep_it3 _ r h3, keep_it2 _ r h2, keep_it1 _ r h1, keep_it0 _ r h0]

end Cert.ReferenceIdeal.RVal

end
-- ==== Proof.PreIdx.lean ====
/-
  The added precondition read back: where the printed predicate is all ones, every word of the edge-index array lies in
  [-50000, 50000), the range in which array indexing on an axis of 50000 nodes is defined. The predicate is a chain of
  `and`s whose last two links are the two range tests, each an `and`-reduction of a signed comparison against a
  broadcast constant; an `and` that is one has both operands one, and a reduction by `and` that is one had a one at
  every index.
-/
import proofs.«410123_j23235773072029_1_alg».proof.Proof.Gen.Pre_finite_inputs
import Idealize.ShloMosaic.Lib.ReduceAll
import Idealize.ShloMosaic.Lib.Affine
import Idealize.ShloMosaic.Lib.ValueIdx

noncomputable section

namespace Cert.Pre_finite_inputs.Decode

open Cert.Pre_finite_inputs Cert.Pre_finite_inputs.Gen Idealize.ShloMosaic

instance : Subsingleton S_.Idx := ⟨fun a b => funext fun d => d.elim0⟩

/-- The lower bound's word is −50000 as a signed integer. -/
theorem lo_toInt : (4294917296#32 : BitVec 32).toInt = -50000 := by decide

/-- The upper bound's word is 50000 as a signed integer. -/
theorem hi_toInt : (50000#32 : BitVec 32).toInt = 50000 := by decide

/-- Where the precondition holds, every edge-index word is in [-50000, 50000). -/
theorem idx_range {F : FTy → Type} [FloatOps F] (main_arg0 : FVec F S50000x128 .f32) (main_arg1 : FVec F S500000x16 .f32) (main_arg2 : FVec F S128x128 .f32) (main_arg3 : FVec F S128 .f32) (main_arg4 : FVec F S16x128 .f32) (main_arg5 : FVec F S128 .f32) (main_arg6 : FVec F S2x128x128 .f32) (main_arg7 : FVec F S2x128 .f32) (main_arg8 : FVec F S2x128x128 .f32) (main_arg9 : FVec F S2x128 .f32) (main_arg10 : FVec F S2x128 .f32) (main_arg11 : FVec F S2x128 .f32) (main_arg12 : FVec F S2x384x128 .f32) (main_arg13 : FVec F S2x128 .f32) (main_arg14 : FVec F S2x128x128 .f32) (main_arg15 : FVec F S2x128 .f32) (main_arg16 : FVec F S384x50 .f32) (main_arg17 : FVec F S50 .f32) (main_arg18 : FVec F S50x25 .f32) (main_arg19 : FVec F S25 .f32) (main_arg20 : FVec F S25x2 .f32) (main_arg21 : FVec F S2 .f32) (main_arg22 : IVec S2x500000 32)
    (h : fn (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 = fun _ => 1#1) (k : S2x500000.Idx) :
    -(50000 : Int) ≤ (main_arg22 k).toInt ∧ (main_arg22 k).toInt < 50000 := by
  have h0 : fn (F := F) main_arg0 main_arg1 main_arg2 main_arg3 main_arg4 main_arg5 main_arg6 main_arg7 main_arg8 main_arg9 main_arg10 main_arg11 main_arg12 main_arg13 main_arg14 main_arg15 main_arg16 main_arg17 main_arg18 main_arg19 main_arg20 main_arg21 main_arg22 ValueIdx.ix0 = 1#1 := congrFun h ValueIdx.ix0
  have h1 : IntOp.andi (IntOp.andi _
        (Host.reduce IntOp.andi (cmpi .sge main_arg22 (broadcastInDim S2x500000 ![] bcast_S_S2x500000 (constantI S_ 32 4294917296#32)))
          (constantI S_ 1 1#1) reducesTo_S2x500000_S_d0_1 h_S_ ValueIdx.ix0))
      (Host.reduce IntOp.andi (cmpi .slt main_arg22 (broadcastInDim S2x500000 ![] bcast_S_S2x500000 (constantI S_ 32 50000#32)))
          (constantI S_ 1 1#1) reducesTo_S2x500000_S_d0_1 h_S_ ValueIdx.ix0) = 1#1 := h0
  obtain ⟨h2, hB⟩ := IntOp.andi_eq_one.mp h1
  obtain ⟨-, hA⟩ := IntOp.andi_eq_one.mp h2
  have a := Host.reduce_andi_all _ _ _ _ _ hA k
  have b := Host.reduce_andi_all _ _ _ _ _ hB k
  have a' : (4294917296#32 : BitVec 32).toInt ≤ (main_arg22 k).toInt := IntOp.cmpi_sge.mp a
  have b' : (main_arg22 k).toInt < (50000#32 : BitVec 32).toInt := IntOp.cmpi_slt.mp b
  rw [lo_toInt] at a'
  rw [hi_toInt] at b'
  exact ⟨a', b'⟩

end Cert.Pre_finite_inputs.Decode

end
-- ==== Proof.lean ====
/-
  The certificate: the quantized GINE message-passing network (two layers of gather – message – segment sum – node
  perceptron – batch-norm residual – edge perceptron, then a three-layer readout over the edges) computed by eleven
  tiled TensorCore kernels among host gathers and scatters, against its plain array-language reference, over the
  extended reals, for finite float inputs and edge indices in [-50000, 50000).

  The two kernel programs' frames are the generated ones. The reference is a straight line of host operations: its
  run leaves every buffer at the operations' fold over the launch memory, no operation writes an argument, and the
  fold at the result buffer is the network of the specification (`Cert.Spec.net`) at the reference's own gathers,
  segment sums and column statistics. The idealized kernel's run leaves its result buffer at the fold of @main's
  segments, and walking that fold back composes the regions' stage functions and the stretches' host operations into
  the same network: a region's bf16 casts are the identity on the extended reals, a matmul into a zero accumulator is
  the plain sum of products, the edge perceptrons' three block products sum to the product with the concatenated
  features (addition of extended reals is associative and commutative, so no finiteness is used), and a gather in
  "fill" mode is the plain gather when every index is in range, which the precondition grants. The ideal pass rewrote
  nothing, so `preserves` is trivial.
-/
import proofs.«410123_j23235773072029_1_alg».proof.Defs
import proofs.«410123_j23235773072029_1_alg».proof.Proof.Gen.Kernel
import proofs.«410123_j23235773072029_1_alg».proof.Proof.Gen.Kernel.Skeleton
import proofs.«410123_j23235773072029_1_alg».proof.Proof.Gen.Kernel.Launch
import proofs.«410123_j23235773072029_1_alg».proof.Proof.Gen.Kernel.Points
import proofs.«410123_j23235773072029_1_alg».proof.Proof.Gen.Kernel.Frame
import proofs.«410123_j23235773072029_1_alg».proof.Proof.Gen.KernelIdeal
import proofs.«410123_j23235773072029_1_alg».proof.Proof.Gen.KernelIdeal.Skeleton
import proofs.«410123_j23235773072029_1_alg».proof.Proof.Gen.KernelIdeal.Launch
import proofs.«410123_j23235773072029_1_alg».proof.Proof.Gen.KernelIdeal.Points
import proofs.«410123_j23235773072029_1_alg».proof.Proof.Gen.KernelIdeal.Frame
import proofs.«410123_j23235773072029_1_alg».proof.Proof.Gen.ReferenceIdeal
import proofs.«410123_j23235773072029_1_alg».proof.Proof.Gen.Pre_finite_inputs
import proofs.«410123_j23235773072029_1_alg».proof.Proof.KRun
import proofs.«410123_j23235773072029_1_alg».proof.Proof.KChain
import proofs.«410123_j23235773072029_1_alg».proof.Proof.ROps
import proofs.«410123_j23235773072029_1_alg».proof.Proof.RValue
import proofs.«410123_j23235773072029_1_alg».proof.Proof.PreIdx
import Idealize.ShloMosaic.Adequacy
import Idealize.ShloMosaic.Init

set_option maxRecDepth 16384

noncomputable section

namespace Cert.Proof

open Idealize.ShloMosaic Idealize.SL.Sem

/-- The reference's frame: its run, with every argument buffer kept by every stage. -/
theorem frame_ri : Cert.frame_ReferenceIdeal := fun m ρ _ =>
  (θ_run Cert.ReferenceIdeal.defs _ _).mono (fun r h c =>
    ⟨(h c Cert.ReferenceIdeal.main_arg0).trans (Cert.ReferenceIdeal.RVal.arg_kept _ Cert.ReferenceIdeal.main_arg0 (by decide)),
     (h c Cert.ReferenceIdeal.main_arg1).trans (Cert.ReferenceIdeal.RVal.arg_kept _ Cert.ReferenceIdeal.main_arg1 (by decide)),
     (h c Cert.ReferenceIdeal.main_arg2).trans (Cert.ReferenceIdeal.RVal.arg_kept _ Cert.ReferenceIdeal.main_arg2 (by decide)),
     (h c Cert.ReferenceIdeal.main_arg3).trans (Cert.ReferenceIdeal.RVal.arg_kept _ Cert.ReferenceIdeal.main_arg3 (by decide)),
     (h c Cert.ReferenceIdeal.main_arg4).trans (Cert.ReferenceIdeal.RVal.arg_kept _ Cert.ReferenceIdeal.main_arg4 (by decide)),
     (h c Cert.ReferenceIdeal.main_arg5).trans (Cert.ReferenceIdeal.RVal.arg_kept _ Cert.ReferenceIdeal.main_arg5 (by decide)),
     (h c Cert.ReferenceIdeal.main_arg6).trans (Cert.ReferenceIdeal.RVal.arg_kept _ Cert.ReferenceIdeal.main_arg6 (by decide)),
     (h c Cert.ReferenceIdeal.main_arg7).trans (Cert.ReferenceIdeal.RVal.arg_kept _ Cert.ReferenceIdeal.main_arg7 (by decide)),
     (h c Cert.ReferenceIdeal.main_arg8).trans (Cert.ReferenceIdeal.RVal.arg_kept _ Cert.ReferenceIdeal.main_arg8 (by decide)),
     (h c Cert.ReferenceIdeal.main_arg9).trans (Cert.ReferenceIdeal.RVal.arg_kept _ Cert.ReferenceIdeal.main_arg9 (by decide)),
     (h c Cert.ReferenceIdeal.main_arg10).trans (Cert.ReferenceIdeal.RVal.arg_kept _ Cert.ReferenceIdeal.main_arg10 (by decide)),
     (h c Cert.ReferenceIdeal.main_arg11).trans (Cert.ReferenceIdeal.RVal.arg_kept _ Cert.ReferenceIdeal.main_arg11 (by decide)),
     (h c Cert.ReferenceIdeal.main_arg12).trans (Cert.ReferenceIdeal.RVal.arg_kept _ Cert.ReferenceIdeal.main_arg12 (by decide)),
     (h c Cert.ReferenceIdeal.main_arg13).trans (Cert.ReferenceIdeal.RVal.arg_kept _ Cert.ReferenceIdeal.main_arg13 (by decide)),
     (h c Cert.ReferenceIdeal.main_arg14).trans (Cert.ReferenceIdeal.RVal.arg_kept _ Cert.ReferenceIdeal.main_arg14 (by decide)),
     (h c Cert.ReferenceIdeal.main_arg15).trans (Cert.ReferenceIdeal.RVal.arg_kept _ Cert.ReferenceIdeal.main_arg15 (by decide)),
     (h c Cert.ReferenceIdeal.main_arg16).trans (Cert.ReferenceIdeal.RVal.arg_kept _ Cert.ReferenceIdeal.main_arg16 (by decide)),
     (h c Cert.ReferenceIdeal.main_arg17).trans (Cert.ReferenceIdeal.RVal.arg_kept _ Cert.ReferenceIdeal.main_arg17 (by decide)),
     (h c Cert.ReferenceIdeal.main_arg18).trans (Cert.ReferenceIdeal.RVal.arg_kept _ Cert.ReferenceIdeal.main_arg18 (by decide)),
     (h c Cert.ReferenceIdeal.main_arg19).trans (Cert.ReferenceIdeal.RVal.arg_kept _ Cert.ReferenceIdeal.main_arg19 (by decide)),
     (h c Cert.ReferenceIdeal.main_arg20).trans (Cert.ReferenceIdeal.RVal.arg_kept _ Cert.ReferenceIdeal.main_arg20 (by decide)),
     (h c Cert.ReferenceIdeal.main_arg21).trans (Cert.ReferenceIdeal.RVal.arg_kept _ Cert.ReferenceIdeal.main_arg21 (by decide)),
     (h c Cert.ReferenceIdeal.main_arg22).trans (Cert.ReferenceIdeal.RVal.arg_kept _ Cert.ReferenceIdeal.main_arg22 (by decide))⟩)
    (Cert.ReferenceIdeal.Run.run_all (F := Ideal) m ρ)

/-- Where the precondition holds the edge indices are in range. -/
theorem idx_of_pre (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) (k) :
    -(50000 : Int) ≤ ((Cert.KernelIdeal.Val.ei m ρ c) k).toInt ∧ ((Cert.KernelIdeal.Val.ei m ρ c) k).toInt < 50000 :=
  Cert.Pre_finite_inputs.Decode.idx_range _ _ _ _ _ _ _ _ _ _ _ _ _ _ _ _ _ _ _ _ _ _ _ (hpre c) k

set_option maxHeartbeats 8000000 in
/-- Both idealized programs end with the network of the specification in their result buffers. -/
theorem algebraic : Cert.algebraic_KernelIdeal_ReferenceIdeal := by
  intro m ρ m' ρ' hpre hagree
  refine ⟨fun c => Cert.KernelIdeal.Val.out m ρ c, ?_, ?_⟩
  · exact (θ_run Cert.KernelIdeal.defs _ _).mono
      (fun r h c => ⟨(h c).1.trans (Cert.KernelIdeal.Val.at32 m ρ (idx_of_pre m ρ hpre) c), (h c).2⟩)
      (Cert.KernelIdeal.Val.run_out (F := Ideal) m ρ)
  · refine (θ_run Cert.ReferenceIdeal.defs _ _).mono (fun r h c => ⟨(h c Cert.ReferenceIdeal.main_v224).trans ?_,
      (h c Cert.ReferenceIdeal.main_arg0).trans (Cert.ReferenceIdeal.RVal.arg_kept _ Cert.ReferenceIdeal.main_arg0 (by decide)),
      (h c Cert.ReferenceIdeal.main_arg1).trans (Cert.ReferenceIdeal.RVal.arg_kept _ Cert.ReferenceIdeal.main_arg1 (by decide)),
      (h c Cert.ReferenceIdeal.main_arg2).trans (Cert.ReferenceIdeal.RVal.arg_kept _ Cert.ReferenceIdeal.main_arg2 (by decide)),
      (h c Cert.ReferenceIdeal.main_arg3).trans (Cert.ReferenceIdeal.RVal.arg_kept _ Cert.ReferenceIdeal.main_arg3 (by decide)),
      (h c Cert.ReferenceIdeal.main_arg4).trans (Cert.ReferenceIdeal.RVal.arg_kept _ Cert.ReferenceIdeal.main_arg4 (by decide)),
      (h c Cert.ReferenceIdeal.main_arg5).trans (Cert.ReferenceIdeal.RVal.arg_kept _ Cert.ReferenceIdeal.main_arg5 (by decide)),
      (h c Cert.ReferenceIdeal.main_arg6).trans (Cert.ReferenceIdeal.RVal.arg_kept _ Cert.ReferenceIdeal.main_arg6 (by decide)),
      (h c Cert.ReferenceIdeal.main_arg7).trans (Cert.ReferenceIdeal.RVal.arg_kept _ Cert.ReferenceIdeal.main_arg7 (by decide)),
      (h c Cert.ReferenceIdeal.main_arg8).trans (Cert.ReferenceIdeal.RVal.arg_kept _ Cert.ReferenceIdeal.main_arg8 (by decide)),
      (h c Cert.ReferenceIdeal.main_arg9).trans (Cert.ReferenceIdeal.RVal.arg_kept _ Cert.ReferenceIdeal.main_arg9 (by decide)),
      (h c Cert.ReferenceIdeal.main_arg10).trans (Cert.ReferenceIdeal.RVal.arg_kept _ Cert.ReferenceIdeal.main_arg10 (by decide)),
      (h c Cert.ReferenceIdeal.main_arg11).trans (Cert.ReferenceIdeal.RVal.arg_kept _ Cert.ReferenceIdeal.main_arg11 (by decide)),
      (h c Cert.ReferenceIdeal.main_arg12).trans (Cert.ReferenceIdeal.RVal.arg_kept _ Cert.ReferenceIdeal.main_arg12 (by decide)),
      (h c Cert.ReferenceIdeal.main_arg13).trans (Cert.ReferenceIdeal.RVal.arg_kept _ Cert.ReferenceIdeal.main_arg13 (by decide)),
      (h c Cert.ReferenceIdeal.main_arg14).trans (Cert.ReferenceIdeal.RVal.arg_kept _ Cert.ReferenceIdeal.main_arg14 (by decide)),
      (h c Cert.ReferenceIdeal.main_arg15).trans (Cert.ReferenceIdeal.RVal.arg_kept _ Cert.ReferenceIdeal.main_arg15 (by decide)),
      (h c Cert.ReferenceIdeal.main_arg16).trans (Cert.ReferenceIdeal.RVal.arg_kept _ Cert.ReferenceIdeal.main_arg16 (by decide)),
      (h c Cert.ReferenceIdeal.main_arg17).trans (Cert.ReferenceIdeal.RVal.arg_kept _ Cert.ReferenceIdeal.main_arg17 (by decide)),
      (h c Cert.ReferenceIdeal.main_arg18).trans (Cert.ReferenceIdeal.RVal.arg_kept _ Cert.ReferenceIdeal.main_arg18 (by decide)),
      (h c Cert.ReferenceIdeal.main_arg19).trans (Cert.ReferenceIdeal.RVal.arg_kept _ Cert.ReferenceIdeal.main_arg19 (by decide)),
      (h c Cert.ReferenceIdeal.main_arg20).trans (Cert.ReferenceIdeal.RVal.arg_kept _ Cert.ReferenceIdeal.main_arg20 (by decide)),
      (h c Cert.ReferenceIdeal.main_arg21).trans (Cert.ReferenceIdeal.RVal.arg_kept _ Cert.ReferenceIdeal.main_arg21 (by decide)),
      (h c Cert.ReferenceIdeal.main_arg22).trans (Cert.ReferenceIdeal.RVal.arg_kept _ Cert.ReferenceIdeal.main_arg22 (by decide))⟩)
      (Cert.ReferenceIdeal.Run.run_all (F := Ideal) m' ρ')
    rw [Cert.ReferenceIdeal.RVal.out_eq]
    show Cert.Spec.net (Cert.ReferenceIdeal.RVal.HR (m' ((c.tc : Thread Cert.ReferenceIdeal.nD Cert.ReferenceIdeal.τ).loc Cert.ReferenceIdeal.main_arg22))) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) = Cert.KernelIdeal.Val.out m ρ c
    rw [Cert.KernelIdeal.Val.out_eq_net]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ri,
    trivial,
    algebraic⟩

end Cert.Proof

end
